-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x63 : Shape := ⟨3, ![64, 2048, 63]⟩
abbrev S64x2048x10 : Shape := ⟨3, ![64, 2048, 10]⟩
abbrev S64x2048x3 : Shape := ⟨3, ![64, 2048, 3]⟩
abbrev S22x3 : Shape := ⟨2, ![22, 3]⟩
abbrev S22x3x10 : Shape := ⟨3, ![22, 3, 10]⟩
abbrev S_ : Shape := ⟨0, ![]⟩

class Facts : Prop where
  bcast_S_S64x2048x63 : S_.BroadcastsInDim S64x2048x63 (![] : Fin 0 → Fin S64x2048x63.rank)
  reducesTo_S64x2048x63_S_d0_1_2 : S64x2048x63.ReducesTo [0, 1, 2] S_
  h_S_ : 0 < S_.numel
  bcast_S_S64x2048x10 : S_.BroadcastsInDim S64x2048x10 (![] : Fin 0 → Fin S64x2048x10.rank)
  reducesTo_S64x2048x10_S_d0_1_2 : S64x2048x10.ReducesTo [0, 1, 2] S_
  bcast_S_S64x2048x3 : S_.BroadcastsInDim S64x2048x3 (![] : Fin 0 → Fin S64x2048x3.rank)
  reducesTo_S64x2048x3_S_d0_1_2 : S64x2048x3.ReducesTo [0, 1, 2] S_
  bcast_S_S22x3 : S_.BroadcastsInDim S22x3 (![] : Fin 0 → Fin S22x3.rank)
  reducesTo_S22x3_S_d0_1 : S22x3.ReducesTo [0, 1] S_
  bcast_S_S22x3x10 : S_.BroadcastsInDim S22x3x10 (![] : Fin 0 → Fin S22x3x10.rank)
  reducesTo_S22x3x10_S_d0_1_2 : S22x3x10.ReducesTo [0, 1, 2] S_

variable [Facts]

def fn_part1 {F : FTy → Type} [FloatOps F] (main_arg4 : FVec F S22x3 .f32) (main_arg5 : FVec F S22x3x10 .f32) (main_v13 : IVec S_ 1) (main_v16 : IVec S64x2048x3 1) : IVec S_ 1 :=
  let main_c_5 : IVec S_ 1 := constantI S_ 1 1#1
  let main_v17 : IVec S_ 1 := (fun x v => Host.reduce IntOp.andi x v reducesTo_S64x2048x3_S_d0_1_2 h_S_) main_v16 main_c_5
  let main_v18 : IVec S_ 1 := andi main_v13 main_v17
  let main_v19 : FVec F S22x3 .f32 := Host.absf main_arg4
  let main_cst_6 : FVec F S_ .f32 := constant S_ .f32 0x7F800000#32
  let main_v20 : FVec F S22x3 .f32 := broadcastInDim S22x3 ![] bcast_S_S22x3 main_cst_6
  let main_v21 : IVec S22x3 1 := cmpf .olt main_v19 main_v20
  let main_c_7 : IVec S_ 1 := constantI S_ 1 1#1
  let main_v22 : IVec S_ 1 := (fun x v => Host.reduce IntOp.andi x v reducesTo_S22x3_S_d0_1 h_S_) main_v21 main_c_7
  let main_v23 : IVec S_ 1 := andi main_v18 main_v22
  let main_v24 : FVec F S22x3x10 .f32 := Host.absf main_arg5
  let main_cst_8 : FVec F S_ .f32 := constant S_ .f32 0x7F800000#32
  let main_v25 : FVec F S22x3x10 .f32 := broadcastInDim S22x3x10 ![] bcast_S_S22x3x10 main_cst_8
  let main_v26 : IVec S22x3x10 1 := cmpf .olt main_v24 main_v25
  let main_c_9 : IVec S_ 1 := constantI S_ 1 1#1
  let main_v27 : IVec S_ 1 := (fun x v => Host.reduce IntOp.andi x v reducesTo_S22x3x10_S_d0_1_2 h_S_) main_v26 main_c_9
  let main_v28 : IVec S_ 1 := andi main_v23 main_v27
  main_v28

def fn {F : FTy → Type} [FloatOps F] (main_arg0 : FVec F S64x2048x63 .f32) (main_arg1 : FVec F S64x2048x10 .f32) (main_arg2 : FVec F S64x2048x3 .f32) (main_arg3 : FVec F S64x2048x3 .f32) (main_arg4 : FVec F S22x3 .f32) (main_arg5 : FVec F S22x3x10 .f32) : IVec S_ 1 :=
  let main_v0 : FVec F S64x2048x63 .f32 := Host.absf main_arg0
  let main_cst : FVec F S_ .f32 := constant S_ .f32 0x7F800000#32
  let main_v1 : FVec F S64x2048x63 .f32 := broadcastInDim S64x2048x63 ![] bcast_S_S64x2048x63 main_cst
  let main_v2 : IVec S64x2048x63 1 := cmpf .olt main_v0 main_v1
  let main_c : IVec S_ 1 := constantI S_ 1 1#1
  let main_v3 : IVec S_ 1 := (fun x v => Host.reduce IntOp.andi x v reducesTo_S64x2048x63_S_d0_1_2 h_S_) main_v2 main_c
  let main_v4 : FVec F S64x2048x10 .f32 := Host.absf main_arg1
  let main_cst_0 : FVec F S_ .f32 := constant S_ .f32 0x7F800000#32
  let main_v5 : FVec F S64x2048x10 .f32 := broadcastInDim S64x2048x10 ![] bcast_S_S64x2048x10 main_cst_0
  let main_v6 : IVec S64x2048x10 1 := cmpf .olt main_v4 main_v5
  let main_c_1 : IVec S_ 1 := constantI S_ 1 1#1
  let main_v7 : IVec S_ 1 := (fun x v => Host.reduce IntOp.andi x v reducesTo_S64x2048x10_S_d0_1_2 h_S_) main_v6 main_c_1
  let main_v8 : IVec S_ 1 := andi main_v3 main_v7
  let main_v9 : FVec F S64x2048x3 .f32 := Host.absf main_arg2
  let main_cst_2 : FVec F S_ .f32 := constant S_ .f32 0x7F800000#32
  let main_v10 : FVec F S64x2048x3 .f32 := broadcastInDim S64x2048x3 ![] bcast_S_S64x2048x3 main_cst_2
  let main_v11 : IVec S64x2048x3 1 := cmpf .olt main_v9 main_v10
  let main_c_3 : IVec S_ 1 := constantI S_ 1 1#1
  let main_v12 : IVec S_ 1 := (fun x v => Host.reduce IntOp.andi x v reducesTo_S64x2048x3_S_d0_1_2 h_S_) main_v11 main_c_3
  let main_v13 : IVec S_ 1 := andi main_v8 main_v12
  let main_v14 : FVec F S64x2048x3 .f32 := Host.absf main_arg3
  let main_cst_4 : FVec F S_ .f32 := constant S_ .f32 0x7F800000#32
  let main_v15 : FVec F S64x2048x3 .f32 := broadcastInDim S64x2048x3 ![] bcast_S_S64x2048x3 main_cst_4
  let main_v16 : IVec S64x2048x3 1 := cmpf .olt main_v14 main_v15
  fn_part1 (F := F) main_arg4 main_arg5 main_v13 main_v16
-- ==== Kernel.lean ====
abbrev S64x2048x63 : Shape := ⟨3, ![64, 2048, 63]⟩
abbrev S64x2048x10 : Shape := ⟨3, ![64, 2048, 10]⟩
abbrev S64x2048x3 : Shape := ⟨3, ![64, 2048, 3]⟩
abbrev S22x3 : Shape := ⟨2, ![22, 3]⟩
abbrev S22x3x10 : Shape := ⟨3, ![22, 3, 10]⟩
abbrev S131072x63 : Shape := ⟨2, ![131072, 63]⟩
abbrev S131072x10 : Shape := ⟨2, ![131072, 10]⟩
abbrev S131072x3 : Shape := ⟨2, ![131072, 3]⟩
abbrev S1x66 : Shape := ⟨2, ![1, 66]⟩
abbrev S10x22x3 : Shape := ⟨3, ![10, 22, 3]⟩
abbrev S10x66 : Shape := ⟨2, ![10, 66]⟩
abbrev S131072x22x3 : Shape := ⟨3, ![131072, 22, 3]⟩
abbrev S2048x63 : Shape := ⟨2, ![2048, 63]⟩
abbrev S2048x10 : Shape := ⟨2, ![2048, 10]⟩
abbrev S2048x3 : Shape := ⟨2, ![2048, 3]⟩
abbrev S2048x22x3 : Shape := ⟨3, ![2048, 22, 3]⟩
abbrev S2048x66 : Shape := ⟨2, ![2048, 66]⟩
abbrev S2048x1 : Shape := ⟨2, ![2048, 1]⟩
abbrev S2048 : Shape := ⟨1, ![2048]⟩
abbrev S2048x1x3 : Shape := ⟨3, ![2048, 1, 3]⟩
abbrev S64x2048x22x3 : Shape := ⟨4, ![64, 2048, 22, 3]⟩

abbrev nBuf : Space → Nat
  | .hbm => 15
  | .vmem => 12
  | .smem => 0
  | _ => 0

abbrev bufTy : (tb : Table) → Fin (tcTables nBuf tb) → BufTy
  | .hbm, ⟨0, _⟩ => ⟨S64x2048x63, .f32⟩
  | .hbm, ⟨1, _⟩ => ⟨S64x2048x10, .f32⟩
  | .hbm, ⟨2, _⟩ => ⟨S64x2048x3, .f32⟩
  | .hbm, ⟨3, _⟩ => ⟨S64x2048x3, .f32⟩
  | .hbm, ⟨4, _⟩ => ⟨S22x3, .f32⟩
  | .hbm, ⟨5, _⟩ => ⟨S22x3x10, .f32⟩
  | .hbm, ⟨6, _⟩ => ⟨S131072x63, .f32⟩
  | .hbm, ⟨7, _⟩ => ⟨S131072x10, .f32⟩
  | .hbm, ⟨8, _⟩ => ⟨S131072x3, .f32⟩
  | .hbm, ⟨9, _⟩ => ⟨S131072x3, .f32⟩
  | .hbm, ⟨10, _⟩ => ⟨S1x66, .f32⟩
  | .hbm, ⟨11, _⟩ => ⟨S10x22x3, .f32⟩
  | .hbm, ⟨12, _⟩ => ⟨S10x66, .f32⟩
  | .hbm, ⟨13, _⟩ => ⟨S131072x22x3, .f32⟩
  | .hbm, ⟨14, _⟩ => ⟨S64x2048x22x3, .f32⟩
  | .local _ .vmem, ⟨0, _⟩ => ⟨S2048x63, .f32⟩
  | .local _ .vmem, ⟨1, _⟩ => ⟨S2048x63, .f32⟩
  | .local _ .vmem, ⟨2, _⟩ => ⟨S2048x10, .f32⟩
  | .local _ .vmem, ⟨3, _⟩ => ⟨S2048x10, .f32⟩
  | .local _ .vmem, ⟨4, _⟩ => ⟨S2048x3, .f32⟩
  | .local _ .vmem, ⟨5, _⟩ => ⟨S2048x3, .f32⟩
  | .local _ .vmem, ⟨6, _⟩ => ⟨S2048x3, .f32⟩
  | .local _ .vmem, ⟨7, _⟩ => ⟨S2048x3, .f32⟩
  | .local _ .vmem, ⟨8, _⟩ => ⟨S1x66, .f32⟩
  | .local _ .vmem, ⟨9, _⟩ => ⟨S10x66, .f32⟩
  | .local _ .vmem, ⟨10, _⟩ => ⟨S2048x22x3, .f32⟩
  | .local _ .vmem, ⟨11, _⟩ => ⟨S2048x22x3, .f32⟩
  | _, _ => ⟨S64x2048x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x66 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x66 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x22x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x2048x63_S131072x63 : S64x2048x63.ShapeCasts S131072x63
  shapeCasts_S64x2048x10_S131072x10 : S64x2048x10.ShapeCasts S131072x10
  shapeCasts_S64x2048x3_S131072x3 : S64x2048x3.ShapeCasts S131072x3
  shapeCasts_S22x3_S1x66 : S22x3.ShapeCasts S1x66
  transposes_S22x3x10_S10x22x3_2_0_1 : S22x3x10.Transposes [2, 0, 1] S10x22x3
  shapeCasts_S10x22x3_S10x66 : S10x22x3.ShapeCasts S10x66
  inb_S2048x63_S2048x63_0_0 : ∀ a, (![0, 0] : Fin 2 → Nat) a + S2048x63.size a ≤ S2048x63.size a
  h_S2048x63 : 0 < S2048x63.numel
  shapeCasts_S2048x63_S2048x63 : S2048x63.ShapeCasts S2048x63
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S1x66_S1x66_0_0 : ∀ a, (![0, 0] : Fin 2 → Nat) a + S1x66.size a ≤ S1x66.size a
  h_S1x66 : 0 < S1x66.numel
  shapeCasts_S1x66_S1x66 : S1x66.ShapeCasts S1x66
  inb_S10x66_S10x66_0_0 : ∀ a, (![0, 0] : Fin 2 → Nat) a + S10x66.size a ≤ S10x66.size a
  h_S10x66 : 0 < S10x66.numel
  shapeCasts_S10x66_S10x66 : S10x66.ShapeCasts S10x66
  broadcasts_S1x66_S2048x66 : S1x66.Broadcasts S2048x66
  slices_S2048x10_o0_0_S2048x1 : S2048x10.Slices ![0, 0] S2048x1
  slices_S10x66_o0_0_S1x66 : S10x66.Slices ![0, 0] S1x66
  broadcasts_S2048x1_S2048x66 : S2048x1.Broadcasts S2048x66
  slices_S2048x10_o0_1_S2048x1 : S2048x10.Slices ![0, 1] S2048x1
  slices_S10x66_o1_0_S1x66 : S10x66.Slices ![1, 0] S1x66
  slices_S2048x10_o0_2_S2048x1 : S2048x10.Slices ![0, 2] S2048x1
  slices_S10x66_o2_0_S1x66 : S10x66.Slices ![2, 0] S1x66
  slices_S2048x10_o0_3_S2048x1 : S2048x10.Slices ![0, 3] S2048x1
  slices_S10x66_o3_0_S1x66 : S10x66.Slices ![3, 0] S1x66
  slices_S2048x10_o0_4_S2048x1 : S2048x10.Slices ![0, 4] S2048x1
  slices_S10x66_o4_0_S1x66 : S10x66.Slices ![4, 0] S1x66
  slices_S2048x10_o0_5_S2048x1 : S2048x10.Slices ![0, 5] S2048x1
  slices_S10x66_o5_0_S1x66 : S10x66.Slices ![5, 0] S1x66
  slices_S2048x10_o0_6_S2048x1 : S2048x10.Slices ![0, 6] S2048x1
  slices_S10x66_o6_0_S1x66 : S10x66.Slices ![6, 0] S1x66
  slices_S2048x10_o0_7_S2048x1 : S2048x10.Slices ![0, 7] S2048x1
  slices_S10x66_o7_0_S1x66 : S10x66.Slices ![7, 0] S1x66
  slices_S2048x10_o0_8_S2048x1 : S2048x10.Slices ![0, 8] S2048x1
  slices_S10x66_o8_0_S1x66 : S10x66.Slices ![8, 0] S1x66
  slices_S2048x10_o0_9_S2048x1 : S2048x10.Slices ![0, 9] S2048x1
  slices_S10x66_o9_0_S1x66 : S10x66.Slices ![9, 0] S1x66
  slices_S2048x66_o0_0_S2048x3 : S2048x66.Slices ![0, 0] S2048x3
  slices_S2048x66_o0_3_S2048x3 : S2048x66.Slices ![0, 3] S2048x3
  slices_S2048x66_o0_6_S2048x3 : S2048x66.Slices ![0, 6] S2048x3
  slices_S2048x66_o0_9_S2048x3 : S2048x66.Slices ![0, 9] S2048x3
  slices_S2048x66_o0_12_S2048x3 : S2048x66.Slices ![0, 12] S2048x3
  slices_S2048x66_o0_15_S2048x3 : S2048x66.Slices ![0, 15] S2048x3
  slices_S2048x66_o0_18_S2048x3 : S2048x66.Slices ![0, 18] S2048x3
  slices_S2048x66_o0_21_S2048x3 : S2048x66.Slices ![0, 21] S2048x3
  slices_S2048x66_o0_24_S2048x3 : S2048x66.Slices ![0, 24] S2048x3
  slices_S2048x66_o0_27_S2048x3 : S2048x66.Slices ![0, 27] S2048x3
  slices_S2048x66_o0_30_S2048x3 : S2048x66.Slices ![0, 30] S2048x3
  slices_S2048x66_o0_33_S2048x3 : S2048x66.Slices ![0, 33] S2048x3
  slices_S2048x66_o0_36_S2048x3 : S2048x66.Slices ![0, 36] S2048x3
  slices_S2048x66_o0_39_S2048x3 : S2048x66.Slices ![0, 39] S2048x3
  slices_S2048x66_o0_42_S2048x3 : S2048x66.Slices ![0, 42] S2048x3
  slices_S2048x66_o0_45_S2048x3 : S2048x66.Slices ![0, 45] S2048x3
  slices_S2048x66_o0_48_S2048x3 : S2048x66.Slices ![0, 48] S2048x3
  slices_S2048x66_o0_51_S2048x3 : S2048x66.Slices ![0, 51] S2048x3
  slices_S2048x66_o0_54_S2048x3 : S2048x66.Slices ![0, 54] S2048x3
  slices_S2048x66_o0_57_S2048x3 : S2048x66.Slices ![0, 57] S2048x3
  slices_S2048x66_o0_60_S2048x3 : S2048x66.Slices ![0, 60] S2048x3
  slices_S2048x66_o0_63_S2048x3 : S2048x66.Slices ![0, 63] S2048x3
  slices_S2048x63_o0_0_S2048x3 : S2048x63.Slices ![0, 0] S2048x3
  slices_S2048x63_o0_3_S2048x3 : S2048x63.Slices ![0, 3] S2048x3
  slices_S2048x63_o0_6_S2048x3 : S2048x63.Slices ![0, 6] S2048x3
  slices_S2048x63_o0_9_S2048x3 : S2048x63.Slices ![0, 9] S2048x3
  slices_S2048x63_o0_12_S2048x3 : S2048x63.Slices ![0, 12] S2048x3
  slices_S2048x63_o0_15_S2048x3 : S2048x63.Slices ![0, 15] S2048x3
  slices_S2048x63_o0_18_S2048x3 : S2048x63.Slices ![0, 18] S2048x3
  slices_S2048x63_o0_21_S2048x3 : S2048x63.Slices ![0, 21] S2048x3
  slices_S2048x63_o0_24_S2048x3 : S2048x63.Slices ![0, 24] S2048x3
  slices_S2048x63_o0_33_S2048x3 : S2048x63.Slices ![0, 33] S2048x3
  slices_S2048x63_o0_36_S2048x3 : S2048x63.Slices ![0, 36] S2048x3
  slices_S2048x63_o0_39_S2048x3 : S2048x63.Slices ![0, 39] S2048x3
  slices_S2048x63_o0_45_S2048x3 : S2048x63.Slices ![0, 45] S2048x3
  slices_S2048x63_o0_48_S2048x3 : S2048x63.Slices ![0, 48] S2048x3
  slices_S2048x63_o0_51_S2048x3 : S2048x63.Slices ![0, 51] S2048x3
  slices_S2048x63_o0_54_S2048x3 : S2048x63.Slices ![0, 54] S2048x3
  reduces_S2048x3_S2048 : S2048x3.Reduces [1] S2048
  shapeCasts_S2048_S2048x1 : S2048.ShapeCasts S2048x1
  broadcasts_S2048x1_S2048x3 : S2048x1.Broadcasts S2048x3
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  concatenates_S2048x1_S2048x1_S2048x1_S2048x3_d1 : Shape.Concatenates [S2048x1, S2048x1, S2048x1] S2048x3 1
  shapeCasts_S2048x3_S2048x1x3 : S2048x3.ShapeCasts S2048x1x3
  concatenates_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x22x3_d1 : Shape.Concatenates [S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3] S2048x22x3 1
  inb_S2048x22x3_S2048x22x3_0_0_0 : ∀ a, (![0, 0, 0] : Fin 3 → Nat) a + S2048x22x3.size a ≤ S2048x22x3.size a
  h_S2048x22x3 : 0 < S2048x22x3.numel
  shapeCasts_S131072x22x3_S64x2048x22x3 : S131072x22x3.ShapeCasts S64x2048x22x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x63.size a ≤ S131072x63.size a
  hwx0_0 : ∀ i : grid0.Coords, EltTy.bits .f32 = 32 ∨ (Rect.block (s := S131072x63) S2048x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x10.size a ≤ S131072x10.size a
  hwx0_1 : ∀ i : grid0.Coords, EltTy.bits .f32 = 32 ∨ (Rect.block (s := S131072x10) S2048x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S131072x3.size a
  hwx0_2 : ∀ i : grid0.Coords, EltTy.bits .f32 = 32 ∨ (Rect.block (s := S131072x3) S2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S131072x3.size a
  hwx0_3 : ∀ i : grid0.Coords, EltTy.bits .f32 = 32 ∨ (Rect.block (s := S131072x3) S2048x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x66.size a ≤ S1x66.size a
  hwx0_4 : ∀ i : grid0.Coords, EltTy.bits .f32 = 32 ∨ (Rect.block (s := S1x66) S1x66.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x66.size a ≤ S10x66.size a
  hwx0_5 : ∀ i : grid0.Coords, EltTy.bits .f32 = 32 ∨ (Rect.block (s := S10x66) S10x66.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x22x3.size a ≤ S131072x22x3.size a
  hwx0_6 : ∀ i : grid0.Coords, EltTy.bits .f32 = 32 ∨ (Rect.block (s := S131072x22x3) S2048x22x3.size (cc0_transform_6 i) (hinb0_6 i)).WholeWords (EltTy.packing .f32)

variable [Facts₀]

abbrev win0_0 : Pipeline.Window sig grid0 :=
  Pipeline.Window.ofSpec (Memref.whole main_v0) S2048x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x66.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10x66.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x22x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x2048x63 : Shape := ⟨3, ![64, 2048, 63]⟩
abbrev S64x2048x10 : Shape := ⟨3, ![64, 2048, 10]⟩
abbrev S64x2048x3 : Shape := ⟨3, ![64, 2048, 3]⟩
abbrev S22x3 : Shape := ⟨2, ![22, 3]⟩
abbrev S22x3x10 : Shape := ⟨3, ![22, 3, 10]⟩
abbrev S22 : Shape := ⟨1, ![22]⟩
abbrev S4 : Shape := ⟨1, ![4]⟩
abbrev S64x2048x66 : Shape := ⟨3, ![64, 2048, 66]⟩
abbrev S64x2048x22x3 : Shape := ⟨4, ![64, 2048, 22, 3]⟩
abbrev S_ : Shape := ⟨0, ![]⟩
abbrev S64x2048x22 : Shape := ⟨3, ![64, 2048, 22]⟩
abbrev S64x2048x22x1 : Shape := ⟨4, ![64, 2048, 22, 1]⟩
abbrev S64x2048x22x9 : Shape := ⟨4, ![64, 2048, 22, 9]⟩
abbrev S64x2048x22x3x3 : Shape := ⟨5, ![64, 2048, 22, 3, 3]⟩
abbrev S1x1x22x3 : Shape := ⟨4, ![1, 1, 22, 3]⟩
abbrev S22x1 : Shape := ⟨2, ![22, 1]⟩
abbrev S64x2048x1x3 : Shape := ⟨4, ![64, 2048, 1, 3]⟩
abbrev S1 : Shape := ⟨1, ![1]⟩
abbrev S64x2048x22x3x1 : Shape := ⟨5, ![64, 2048, 22, 3, 1]⟩
abbrev S64x2048x22x3x4 : Shape := ⟨5, ![64, 2048, 22, 3, 4]⟩
abbrev S64x2048x22x1x4 : Shape := ⟨5, ![64, 2048, 22, 1, 4]⟩
abbrev S64x2048x22x4x4 : Shape := ⟨5, ![64, 2048, 22, 4, 4]⟩
abbrev S64x2048x1x4x4 : Shape := ⟨5, ![64, 2048, 1, 4, 4]⟩
abbrev S64x2048x4x4 : Shape := ⟨4, ![64, 2048, 4, 4]⟩
abbrev S64x2048x16x4x4 : Shape := ⟨5, ![64, 2048, 16, 4, 4]⟩
abbrev S64x2048x6x4x4 : Shape := ⟨5, ![64, 2048, 6, 4, 4]⟩

abbrev nBuf : Space → Nat
  | .hbm => 192
  | .vmem => 0
  | .smem => 0
  | _ => 0

abbrev hbmTy0_0 (i : Nat) : BufTy := match i % 128 with
  | 0 => ⟨S64x2048x63, .f32⟩
  | 1 => ⟨S64x2048x10, .f32⟩
  | 2 => ⟨S64x2048x3, .f32⟩
  | 3 => ⟨S64x2048x3, .f32⟩
  | 4 => ⟨S22x3, .f32⟩
  | 5 => ⟨S22x3x10, .f32⟩
  | 6 => ⟨S22, .i32⟩
  | 7 => ⟨S4, .f32⟩
  | 8 => ⟨S64x2048x66, .f32⟩
  | 9 => ⟨S64x2048x22x3, .f32⟩
  | 10 => ⟨S64x2048x22x3, .f32⟩
  | 11 => ⟨S_, .f32⟩
  | 12 => ⟨S64x2048x22, .f32⟩
  | 13 => ⟨S64x2048x22x1, .f32⟩
  | 14 => ⟨S_, .f32⟩
  | 15 => ⟨S64x2048x22x1, .f32⟩
  | 16 => ⟨S64x2048x22x1, .f32⟩
  | 17 => ⟨S64x2048x22x1, .f32⟩
  | 18 => ⟨S64x2048x22x3, .f32⟩
  | 19 => ⟨S64x2048x22x3, .f32⟩
  | 20 => ⟨S64x2048x22x1, .f32⟩
  | 21 => ⟨S64x2048x22, .f32⟩
  | 22 => ⟨S64x2048x22x1, .f32⟩
  | 23 => ⟨S64x2048x22, .f32⟩
  | 24 => ⟨S64x2048x22x1, .f32⟩
  | 25 => ⟨S64x2048x22, .f32⟩
  | 26 => ⟨S64x2048x22, .f32⟩
  | 27 => ⟨S64x2048x22, .f32⟩
  | 28 => ⟨S64x2048x22, .f32⟩
  | 29 => ⟨S_, .f32⟩
  | 30 => ⟨S64x2048x22, .f32⟩
  | 31 => ⟨S64x2048x22, .f32⟩
  | 32 => ⟨S64x2048x22, .f32⟩
  | 33 => ⟨S64x2048x22, .f32⟩
  | 34 => ⟨S64x2048x22, .f32⟩
  | 35 => ⟨S64x2048x22, .f32⟩
  | 36 => ⟨S64x2048x22, .f32⟩
  | 37 => ⟨S64x2048x22, .f32⟩
  | 38 => ⟨S64x2048x22, .f32⟩
  | 39 => ⟨S64x2048x22, .f32⟩
  | 40 => ⟨S64x2048x22, .f32⟩
  | 41 => ⟨S64x2048x22, .f32⟩
  | 42 => ⟨S64x2048x22, .f32⟩
  | 43 => ⟨S64x2048x22, .f32⟩
  | 44 => ⟨S64x2048x22, .f32⟩
  | 45 => ⟨S64x2048x22, .f32⟩
  | 46 => ⟨S64x2048x22, .f32⟩
  | 47 => ⟨S64x2048x22, .f32⟩
  | 48 => ⟨S64x2048x22, .f32⟩
  | 49 => ⟨S64x2048x22, .f32⟩
  | 50 => ⟨S64x2048x22, .f32⟩
  | 51 => ⟨S64x2048x22, .f32⟩
  | 52 => ⟨S64x2048x22, .f32⟩
  | 53 => ⟨S64x2048x22, .f32⟩
  | 54 => ⟨S64x2048x22, .f32⟩
  | 55 => ⟨S64x2048x22, .f32⟩
  | 56 => ⟨S64x2048x22, .f32⟩
  | 57 => ⟨S64x2048x22, .f32⟩
  | 58 => ⟨S64x2048x22, .f32⟩
  | 59 => ⟨S64x2048x22, .f32⟩
  | 60 => ⟨S64x2048x22, .f32⟩
  | 61 => ⟨S64x2048x22, .f32⟩
  | 62 => ⟨S64x2048x22, .f32⟩
  | 63 => ⟨S64x2048x22, .f32⟩
  | 64 => ⟨S64x2048x22, .f32⟩
  | 65 => ⟨S64x2048x22x1, .f32⟩
  | 66 => ⟨S64x2048x22x1, .f32⟩
  | 67 => ⟨S64x2048x22x1, .f32⟩
  | 68 => ⟨S64x2048x22x1, .f32⟩
  | 69 => ⟨S64x2048x22x1, .f32⟩
  | 70 => ⟨S64x2048x22x1, .f32⟩
  | 71 => ⟨S64x2048x22x1, .f32⟩
  | 72 => ⟨S64x2048x22x1, .f32⟩
  | 73 => ⟨S64x2048x22x1, .f32⟩
  | 74 => ⟨S64x2048x22x9, .f32⟩
  | 75 => ⟨S64x2048x22x3x3, .f32⟩
  | 76 => ⟨S1x1x22x3, .f32⟩
  | 77 => ⟨S64x2048x22x3, .f32⟩
  | 78 => ⟨S64x2048x22x3, .f32⟩
  | 79 => ⟨S64x2048x22x3, .f32⟩
  | 80 => ⟨S_, .i32⟩
  | 81 => ⟨S22, .i32⟩
  | 82 => ⟨S22, .i1⟩
  | 83 => ⟨S_, .i32⟩
  | 84 => ⟨S22, .i32⟩
  | 85 => ⟨S22, .i32⟩
  | 86 => ⟨S22, .i32⟩
  | 87 => ⟨S22x1, .i32⟩
  | 88 => ⟨S64x2048x22x3, .f32⟩
  | 89 => ⟨S64x2048x22x3, .f32⟩
  | 90 => ⟨S64x2048x1x3, .f32⟩
  | 91 => ⟨S64x2048x3, .f32⟩
  | 92 => ⟨S64x2048x3, .f32⟩
  | 93 => ⟨S_, .i32⟩
  | 94 => ⟨S1, .i32⟩
  | 95 => ⟨S64x2048x22x3, .f32⟩
  | 96 => ⟨S64x2048x22x3x1, .f32⟩
  | 97 => ⟨S64x2048x22x3x4, .f32⟩
  | 98 => ⟨S64x2048x22x1x4, .f32⟩
  | 99 => ⟨S64x2048x22x4x4, .f32⟩
  | 100 => ⟨S64x2048x1x4x4, .f32⟩
  | 101 => ⟨S64x2048x4x4, .f32⟩
  | 102 => ⟨S64x2048x1x4x4, .f32⟩
  | 103 => ⟨S64x2048x4x4, .f32⟩
  | 104 => ⟨S64x2048x4x4, .f32⟩
  | 105 => ⟨S64x2048x1x4x4, .f32⟩
  | 106 => ⟨S64x2048x4x4, .f32⟩
  | 107 => ⟨S64x2048x4x4, .f32⟩
  | 108 => ⟨S64x2048x1x4x4, .f32⟩
  | 109 => ⟨S64x2048x4x4, .f32⟩
  | 110 => ⟨S64x2048x4x4, .f32⟩
  | 111 => ⟨S64x2048x1x4x4, .f32⟩
  | 112 => ⟨S64x2048x4x4, .f32⟩
  | 113 => ⟨S64x2048x4x4, .f32⟩
  | 114 => ⟨S64x2048x1x4x4, .f32⟩
  | 115 => ⟨S64x2048x4x4, .f32⟩
  | 116 => ⟨S64x2048x4x4, .f32⟩
  | 117 => ⟨S64x2048x1x4x4, .f32⟩
  | 118 => ⟨S64x2048x4x4, .f32⟩
  | 119 => ⟨S64x2048x4x4, .f32⟩
  | 120 => ⟨S64x2048x1x4x4, .f32⟩
  | 121 => ⟨S64x2048x4x4, .f32⟩
  | 122 => ⟨S64x2048x4x4, .f32⟩
  | 123 => ⟨S64x2048x1x4x4, .f32⟩
  | 124 => ⟨S64x2048x4x4, .f32⟩
  | 125 => ⟨S64x2048x4x4, .f32⟩
  | 126 => ⟨S64x2048x1x4x4, .f32⟩
  | 127 => ⟨S64x2048x4x4, .f32⟩
  | _ => ⟨S64x2048x63, .f32⟩

abbrev hbmTy0_1 (i : Nat) : BufTy := match i % 128 with
  | 0 => ⟨S64x2048x4x4, .f32⟩
  | 1 => ⟨S64x2048x1x4x4, .f32⟩
  | 2 => ⟨S64x2048x4x4, .f32⟩
  | 3 => ⟨S64x2048x4x4, .f32⟩
  | 4 => ⟨S64x2048x1x4x4, .f32⟩
  | 5 => ⟨S64x2048x4x4, .f32⟩
  | 6 => ⟨S64x2048x4x4, .f32⟩
  | 7 => ⟨S64x2048x1x4x4, .f32⟩
  | 8 => ⟨S64x2048x4x4, .f32⟩
  | 9 => ⟨S64x2048x4x4, .f32⟩
  | 10 => ⟨S64x2048x1x4x4, .f32⟩
  | 11 => ⟨S64x2048x4x4, .f32⟩
  | 12 => ⟨S64x2048x4x4, .f32⟩
  | 13 => ⟨S64x2048x1x4x4, .f32⟩
  | 14 => ⟨S64x2048x4x4, .f32⟩
  | 15 => ⟨S64x2048x4x4, .f32⟩
  | 16 => ⟨S64x2048x1x4x4, .f32⟩
  | 17 => ⟨S64x2048x4x4, .f32⟩
  | 18 => ⟨S64x2048x4x4, .f32⟩
  | 19 => ⟨S64x2048x1x4x4, .f32⟩
  | 20 => ⟨S64x2048x4x4, .f32⟩
  | 21 => ⟨S64x2048x4x4, .f32⟩
  | 22 => ⟨S64x2048x1x4x4, .f32⟩
  | 23 => ⟨S64x2048x4x4, .f32⟩
  | 24 => ⟨S64x2048x4x4, .f32⟩
  | 25 => ⟨S64x2048x1x4x4, .f32⟩
  | 26 => ⟨S64x2048x4x4, .f32⟩
  | 27 => ⟨S64x2048x4x4, .f32⟩
  | 28 => ⟨S64x2048x1x4x4, .f32⟩
  | 29 => ⟨S64x2048x4x4, .f32⟩
  | 30 => ⟨S64x2048x4x4, .f32⟩
  | 31 => ⟨S64x2048x1x4x4, .f32⟩
  | 32 => ⟨S64x2048x4x4, .f32⟩
  | 33 => ⟨S64x2048x4x4, .f32⟩
  | 34 => ⟨S64x2048x1x4x4, .f32⟩
  | 35 => ⟨S64x2048x4x4, .f32⟩
  | 36 => ⟨S64x2048x4x4, .f32⟩
  | 37 => ⟨S64x2048x1x4x4, .f32⟩
  | 38 => ⟨S64x2048x1x4x4, .f32⟩
  | 39 => ⟨S64x2048x1x4x4, .f32⟩
  | 40 => ⟨S64x2048x1x4x4, .f32⟩
  | 41 => ⟨S64x2048x1x4x4, .f32⟩
  | 42 => ⟨S64x2048x1x4x4, .f32⟩
  | 43 => ⟨S64x2048x1x4x4, .f32⟩
  | 44 => ⟨S64x2048x1x4x4, .f32⟩
  | 45 => ⟨S64x2048x1x4x4, .f32⟩
  | 46 => ⟨S64x2048x1x4x4, .f32⟩
  | 47 => ⟨S64x2048x1x4x4, .f32⟩
  | 48 => ⟨S64x2048x1x4x4, .f32⟩
  | 49 => ⟨S64x2048x1x4x4, .f32⟩
  | 50 => ⟨S64x2048x1x4x4, .f32⟩
  | 51 => ⟨S64x2048x1x4x4, .f32⟩
  | 52 => ⟨S64x2048x1x4x4, .f32⟩
  | 53 => ⟨S64x2048x1x4x4, .f32⟩
  | 54 => ⟨S64x2048x1x4x4, .f32⟩
  | 55 => ⟨S64x2048x1x4x4, .f32⟩
  | 56 => ⟨S64x2048x1x4x4, .f32⟩
  | 57 => ⟨S64x2048x1x4x4, .f32⟩
  | 58 => ⟨S64x2048x1x4x4, .f32⟩
  | 59 => ⟨S64x2048x16x4x4, .f32⟩
  | 60 => ⟨S64x2048x6x4x4, .f32⟩
  | 61 => ⟨S64x2048x22x4x4, .f32⟩
  | 62 => ⟨S64x2048x22x3x1, .f32⟩
  | 63 => ⟨S64x2048x22x3, .f32⟩
  | _ => ⟨S64x2048x63, .f32⟩

abbrev hbmTy (i : Nat) : BufTy := match i / 128 with
  | 0 => hbmTy0_0 i
  | 1 => hbmTy0_1 i
  | _ => ⟨S64x2048x63, .f32⟩

abbrev bufTy : (tb : Table) → Fin (tcTables nBuf tb) → BufTy
  | .hbm, ⟨i, _⟩ => hbmTy i
  | _, _ => ⟨S64x2048x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_3 : Ref sig .tc := ⟨.hbm, 80, rfl⟩
abbrev main_v69 : Ref sig .tc := ⟨.hbm, 81, rfl⟩
abbrev main_v70 : Ref sig .tc := ⟨.hbm, 82, rfl⟩
abbrev main_c_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_c_5 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩

abbrev nD : Nat := 1
abbrev τ : Topo := Topo.v7x

variable {F : FTy → Type} [FloatOps F]

class Facts₀ : Prop where
  concatenates_S64x2048x3_S64x2048x63_S64x2048x66_d2 : Shape.Concatenates [S64x2048x3, S64x2048x63] S64x2048x66 2
  shapeCasts_S64x2048x66_S64x2048x22x3 : S64x2048x66.ShapeCasts S64x2048x22x3
  reducesTo_S64x2048x22x3_S64x2048x22_d3 : S64x2048x22x3.ReducesTo [3] S64x2048x22
  h_S_ : 0 < S_.numel
  bcast_S64x2048x22_S64x2048x22x1_0_1_2 : S64x2048x22.BroadcastsInDim S64x2048x22x1 (![0, 1, 2] : Fin 3 → Fin S64x2048x22x1.rank)
  bcast_S_S64x2048x22x1 : S_.BroadcastsInDim S64x2048x22x1 (![] : Fin 0 → Fin S64x2048x22x1.rank)
  bcast_S64x2048x22x1_S64x2048x22x3_0_1_2_3 : S64x2048x22x1.BroadcastsInDim S64x2048x22x3 (![0, 1, 2, 3] : Fin 4 → Fin S64x2048x22x3.rank)
  slices_S64x2048x22x3_S64x2048x22x1_0_0_0_0 : S64x2048x22x3.Slices ![0, 0, 0, 0] S64x2048x22x1
  shapeCasts_S64x2048x22x1_S64x2048x22 : S64x2048x22x1.ShapeCasts S64x2048x22
  slices_S64x2048x22x3_S64x2048x22x1_0_0_0_1 : S64x2048x22x3.Slices ![0, 0, 0, 1] S64x2048x22x1
  slices_S64x2048x22x3_S64x2048x22x1_0_0_0_2 : S64x2048x22x3.Slices ![0, 0, 0, 2] S64x2048x22x1
  bcast_S_S64x2048x22 : S_.BroadcastsInDim S64x2048x22 (![] : Fin 0 → Fin S64x2048x22.rank)
  concatenates_S64x2048x22x1_S64x2048x22x1_S64x2048x22x1_S64x2048x22x1_S64x2048x22x1_S64x2048x22x1_S64x2048x22x1_S64x2048x22x1_S64x2048x22x1_S64x2048x22x9_d3 : Shape.Concatenates [S64x2048x22x1, S64x2048x22x1, S64x2048x22x1, S64x2048x22x1, S64x2048x22x1, S64x2048x22x1, S64x2048x22x1, S64x2048x22x1, S64x2048x22x1] S64x2048x22x9 3
  shapeCasts_S64x2048x22x9_S64x2048x22x3x3 : S64x2048x22x9.ShapeCasts S64x2048x22x3x3
  bcast_S22x3_S1x1x22x3_2_3 : S22x3.BroadcastsInDim S1x1x22x3 (![2, 3] : Fin 2 → Fin S1x1x22x3.rank)
  bcast_S1x1x22x3_S64x2048x22x3_0_1_2_3 : S1x1x22x3.BroadcastsInDim S64x2048x22x3 (![0, 1, 2, 3] : Fin 4 → Fin S64x2048x22x3.rank)
  bcast_S_S22 : S_.BroadcastsInDim S22 (![] : Fin 0 → Fin S22.rank)
  bcast_S22_S22x1_0 : S22.BroadcastsInDim S22x1 (![0] : Fin 1 → Fin S22x1.rank)
  slices_S64x2048x22x3_S64x2048x1x3_0_0_0_0 : S64x2048x22x3.Slices ![0, 0, 0, 0] S64x2048x1x3
  shapeCasts_S64x2048x1x3_S64x2048x3 : S64x2048x1x3.ShapeCasts S64x2048x3
  bcast_S_S1 : S_.BroadcastsInDim S1 (![] : Fin 0 → Fin S1.rank)
  bcast_S64x2048x22x3_S64x2048x22x3x1_0_1_2_3 : S64x2048x22x3.BroadcastsInDim S64x2048x22x3x1 (![0, 1, 2, 3] : Fin 4 → Fin S64x2048x22x3x1.rank)
  concatenates_S64x2048x22x3x3_S64x2048x22x3x1_S64x2048x22x3x4_d4 : Shape.Concatenates [S64x2048x22x3x3, S64x2048x22x3x1] S64x2048x22x3x4 4
  bcast_S4_S64x2048x22x1x4_4 : S4.BroadcastsInDim S64x2048x22x1x4 (![4] : Fin 1 → Fin S64x2048x22x1x4.rank)
  concatenates_S64x2048x22x3x4_S64x2048x22x1x4_S64x2048x22x4x4_d3 : Shape.Concatenates [S64x2048x22x3x4, S64x2048x22x1x4] S64x2048x22x4x4 3
  slices_S64x2048x22x4x4_S64x2048x1x4x4_0_0_0_0_0 : S64x2048x22x4x4.Slices ![0, 0, 0, 0, 0] S64x2048x1x4x4
  shapeCasts_S64x2048x1x4x4_S64x2048x4x4 : S64x2048x1x4x4.ShapeCasts S64x2048x4x4
  slices_S64x2048x22x4x4_S64x2048x1x4x4_0_0_1_0_0 : S64x2048x22x4x4.Slices ![0, 0, 1, 0, 0] S64x2048x1x4x4
  slices_S64x2048x22x4x4_S64x2048x1x4x4_0_0_2_0_0 : S64x2048x22x4x4.Slices ![0, 0, 2, 0, 0] S64x2048x1x4x4
  slices_S64x2048x22x4x4_S64x2048x1x4x4_0_0_3_0_0 : S64x2048x22x4x4.Slices ![0, 0, 3, 0, 0] S64x2048x1x4x4
  slices_S64x2048x22x4x4_S64x2048x1x4x4_0_0_4_0_0 : S64x2048x22x4x4.Slices ![0, 0, 4, 0, 0] S64x2048x1x4x4
  slices_S64x2048x22x4x4_S64x2048x1x4x4_0_0_5_0_0 : S64x2048x22x4x4.Slices ![0, 0, 5, 0, 0] S64x2048x1x4x4
  slices_S64x2048x22x4x4_S64x2048x1x4x4_0_0_6_0_0 : S64x2048x22x4x4.Slices ![0, 0, 6, 0, 0] S64x2048x1x4x4
  slices_S64x2048x22x4x4_S64x2048x1x4x4_0_0_7_0_0 : S64x2048x22x4x4.Slices ![0, 0, 7, 0, 0] S64x2048x1x4x4
  slices_S64x2048x22x4x4_S64x2048x1x4x4_0_0_8_0_0 : S64x2048x22x4x4.Slices ![0, 0, 8, 0, 0] S64x2048x1x4x4
  slices_S64x2048x22x4x4_S64x2048x1x4x4_0_0_9_0_0 : S64x2048x22x4x4.Slices ![0, 0, 9, 0, 0] S64x2048x1x4x4
  slices_S64x2048x22x4x4_S64x2048x1x4x4_0_0_10_0_0 : S64x2048x22x4x4.Slices ![0, 0, 10, 0, 0] S64x2048x1x4x4
  slices_S64x2048x22x4x4_S64x2048x1x4x4_0_0_11_0_0 : S64x2048x22x4x4.Slices ![0, 0, 11, 0, 0] S64x2048x1x4x4
  slices_S64x2048x22x4x4_S64x2048x1x4x4_0_0_12_0_0 : S64x2048x22x4x4.Slices ![0, 0, 12, 0, 0] S64x2048x1x4x4
  slices_S64x2048x22x4x4_S64x2048x1x4x4_0_0_13_0_0 : S64x2048x22x4x4.Slices ![0, 0, 13, 0, 0] S64x2048x1x4x4
  slices_S64x2048x22x4x4_S64x2048x1x4x4_0_0_14_0_0 : S64x2048x22x4x4.Slices ![0, 0, 14, 0, 0] S64x2048x1x4x4
  slices_S64x2048x22x4x4_S64x2048x1x4x4_0_0_15_0_0 : S64x2048x22x4x4.Slices ![0, 0, 15, 0, 0] S64x2048x1x4x4
  slices_S64x2048x22x4x4_S64x2048x1x4x4_0_0_16_0_0 : S64x2048x22x4x4.Slices ![0, 0, 16, 0, 0] S64x2048x1x4x4
  slices_S64x2048x22x4x4_S64x2048x1x4x4_0_0_17_0_0 : S64x2048x22x4x4.Slices ![0, 0, 17, 0, 0] S64x2048x1x4x4
  slices_S64x2048x22x4x4_S64x2048x1x4x4_0_0_18_0_0 : S64x2048x22x4x4.Slices ![0, 0, 18, 0, 0] S64x2048x1x4x4
  slices_S64x2048x22x4x4_S64x2048x1x4x4_0_0_19_0_0 : S64x2048x22x4x4.Slices ![0, 0, 19, 0, 0] S64x2048x1x4x4
  slices_S64x2048x22x4x4_S64x2048x1x4x4_0_0_20_0_0 : S64x2048x22x4x4.Slices ![0, 0, 20, 0, 0] S64x2048x1x4x4
  slices_S64x2048x22x4x4_S64x2048x1x4x4_0_0_21_0_0 : S64x2048x22x4x4.Slices ![0, 0, 21, 0, 0] S64x2048x1x4x4
  bcast_S64x2048x4x4_S64x2048x1x4x4_0_1_3_4 : S64x2048x4x4.BroadcastsInDim S64x2048x1x4x4 (![0, 1, 3, 4] : Fin 4 → Fin S64x2048x1x4x4.rank)
  concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2 : Shape.Concatenates [S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4, S64x2048x1x4x4] S64x2048x16x4x4 2
  concatenates_S64x2048x1x4x4_S64x2048x1x4x4_S64x2048x1x4x4_S64x2048x1x4x4_S64x2048x1x4x4_S64x2048x1x4x4_S64x2048x6x4x4_d2 : Shape.Concatenates [S64x2048x1x4x4, S64x2048x1x4x4, S64x2048x1x4x4, S64x2048x1x4x4, S64x2048x1x4x4, S64x2048x1x4x4] S64x2048x6x4x4 2
  concatenates_S64x2048x16x4x4_S64x2048x6x4x4_S64x2048x22x4x4_d2 : Shape.Concatenates [S64x2048x16x4x4, S64x2048x6x4x4] S64x2048x22x4x4 2
  slices_S64x2048x22x4x4_S64x2048x22x3x1_0_0_0_0_3 : S64x2048x22x4x4.Slices ![0, 0, 0, 0, 3] S64x2048x22x3x1
  shapeCasts_S64x2048x22x3x1_S64x2048x22x3 : S64x2048x22x3x1.ShapeCasts S64x2048x22x3
  dot_S64x2048x10_S22x3x10_S64x2048x22x3_2_2_01_01_n_n_wf : DotDims.WF S64x2048x10 S22x3x10 S64x2048x22x3 [2] [2] [0, 1] [0, 1] [] []
  gather_S64x2048x22x3_S22x1_S64x2048x22x3_013_2_n_n_2_1_64204813_wf : GatherDims.WF S64x2048x22x3 S22x1 S64x2048x22x3 [0, 1, 3] [2] [] [2] [] 1 ![64, 2048, 1, 3]
  scatter_S64x2048x22x3_S1_S64x2048x3_012_2_2_0_wf : ScatterDims.WF S64x2048x22x3 S1 S64x2048x3 [0, 1, 2] [2] [2] 0
  dot_S64x2048x4x4_S64x2048x4x4_S64x2048x4x4_3_2_2_3_01_01_wf : DotDims.WF S64x2048x4x4 S64x2048x4x4 S64x2048x4x4 [3] [2] [2] [3] [0, 1] [0, 1]

variable [Facts₀]

def dot_S64x2048x10_S22x3x10_S64x2048x22x3_2_2_01_01_n_n : DotDims S64x2048x10 S22x3x10 S64x2048x22x3 where
  lhsContracting := [2]
  rhsContracting := [2]
  lhsNonContracting := [0, 1]
  rhsNonContracting := [0, 1]
  lhsBatch := []
  rhsBatch := []
  wf := dot_S64x2048x10_S22x3x10_S64x2048x22x3_2_2_01_01_n_n_wf
def gather_S64x2048x22x3_S22x1_S64x2048x22x3_013_2_n_n_2_1_64204813 : GatherDims S64x2048x22x3 S22x1 S64x2048x22x3 where
  offsetDims := [0, 1, 3]
  collapsedSliceDims := [2]
  operandBatchingDims := []
  startIndicesBatchingDims := []
  startIndexMap := [2]
  indexVectorDim := 1
  sliceSizes := ![64, 2048, 1, 3]
  wf := gather_S64x2048x22x3_S22x1_S64x2048x22x3_013_2_n_n_2_1_64204813_wf
def scatter_S64x2048x22x3_S1_S64x2048x3_012_2_2_0 : ScatterDims S64x2048x22x3 S1 S64x2048x3 where
  updateWindowDims := [0, 1, 2]
  insertedWindowDims := [2]
  scatterDimsToOperandDims := [2]
  indexVectorDim := 0
  wf := scatter_S64x2048x22x3_S1_S64x2048x3_012_2_2_0_wf
def dot_S64x2048x4x4_S64x2048x4x4_S64x2048x4x4_3_2_2_3_01_01 : DotDims S64x2048x4x4 S64x2048x4x4 S64x2048x4x4 where
  lhsContracting := [3]
  rhsContracting := [2]
  lhsNonContracting := [2]
  rhsNonContracting := [3]
  lhsBatch := [0, 1]
  rhsBatch := [0, 1]
  wf := dot_S64x2048x4x4_S64x2048x4x4_S64x2048x4x4_3_2_2_3_01_01_wf

class Facts : Prop extends Facts₀ where

variable [Facts]
-- ==== Proof.Spec.lean ====
/-
  Forward kinematics of a 22-joint tree, one token at a time, on the extended reals.

  A token carries 22 axis-angle vectors `aa j`, a skeleton `sk j` (22 points of space) and a translation `tr`.
  Each axis-angle vector gives a rotation by Rodrigues' formula with the angle regularised as
  `sqrt (|a|² + ε)`; joint `j`'s offset from its parent `p` is `sk j - sk p`; and along the tree
      R_j = R_p · rod (aa j)        T_j = R_p · (sk j - sk p) + T_p,
  with the root at `R_0 = rod (aa 0)`, `T_0 = sk 0 + tr`. The result is the 22 positions `T_j`.

  Every expression below is written in the order of operations both programs use (products and sums
  associate to the left), so that each program's value at an index is one of these terms up to the
  commutative-monoid laws of `+`, `x * 0 = 0` and `x * 1 = x`, all of which hold on the extended reals.
-/
import Idealize.ShloMosaic.PureOps.Ideal
import Idealize.ShloMosaic.Lib.ValueIdx

noncomputable section

namespace Cert.FK

open Idealize.ShloMosaic Idealize.ShloMosaic.ValueIdx

/-- The regulariser under the square root, as the word both programs spell. -/
abbrev wEps : EReal := Ideal.ofBits .f32 0x2B8CBCCC#32
/-- The word of `1.0`. -/
abbrev wOne : EReal := Ideal.ofBits .f32 0x3F800000#32
/-- The word of `0.0`. -/
abbrev wZero : EReal := Ideal.ofBits .f32 0x00000000#32

/-- A 3×3 matrix by its nine entries, `eRC` at row `R`, column `C`. -/
structure Rot where
  e00 : EReal
  e01 : EReal
  e02 : EReal
  e10 : EReal
  e11 : EReal
  e12 : EReal
  e20 : EReal
  e21 : EReal
  e22 : EReal

/-- The entry at a row and a column. -/
def Rot.get (M : Rot) (r c : Fin 3) : EReal :=
  ![![M.e00, M.e01, M.e02], ![M.e10, M.e11, M.e12], ![M.e20, M.e21, M.e22]] r c

/-- The squared length of a vector. -/
def sqn (a : Fin 3 → EReal) : EReal := ∑ k : Fin 3, a k * a k
/-- The regularised angle `sqrt (|a|² + ε)`. -/
def ang (a : Fin 3 → EReal) : EReal := Ideal.sqrt (sqn a + wEps)
/-- The axis: the vector over the regularised angle. -/
def ax (a : Fin 3 → EReal) (k : Fin 3) : EReal := Ideal.div (a k) (ang a)

/-- Rodrigues' rotation of an axis-angle vector: with `c, s` the cosine and sine of the angle, `t = 1 - c` and
    `(x, y, z)` the axis, the matrix `t·u uᵀ + c·I + s·[u]ₓ`, entry by entry. -/
def rod (a : Fin 3 → EReal) : Rot :=
  let x := ax a 0
  let y := ax a 1
  let z := ax a 2
  let c := Ideal.cos (ang a)
  let s := Ideal.sin (ang a)
  let t := wOne - c
  { e00 := t * x * x + c, e01 := t * x * y - s * z, e02 := t * x * z + s * y,
    e10 := t * x * y + s * z, e11 := t * y * y + c, e12 := t * y * z - s * x,
    e20 := t * x * z - s * y, e21 := t * y * z + s * x, e22 := t * z * z + c }

/-- The product of two 3×3 matrices, each entry a row of the left against a column of the right. -/
def mm3 (A B : Rot) : Rot :=
  { e00 := A.e00 * B.e00 + A.e01 * B.e10 + A.e02 * B.e20,
    e01 := A.e00 * B.e01 + A.e01 * B.e11 + A.e02 * B.e21,
    e02 := A.e00 * B.e02 + A.e01 * B.e12 + A.e02 * B.e22,
    e10 := A.e10 * B.e00 + A.e11 * B.e10 + A.e12 * B.e20,
    e11 := A.e10 * B.e01 + A.e11 * B.e11 + A.e12 * B.e21,
    e12 := A.e10 * B.e02 + A.e11 * B.e12 + A.e12 * B.e22,
    e20 := A.e20 * B.e00 + A.e21 * B.e10 + A.e22 * B.e20,
    e21 := A.e20 * B.e01 + A.e21 * B.e11 + A.e22 * B.e21,
    e22 := A.e20 * B.e02 + A.e21 * B.e12 + A.e22 * B.e22 }

/-- A 3×3 matrix applied to a vector. -/
def mv3 (A : Rot) (v : Fin 3 → EReal) : Fin 3 → EReal :=
  ![A.e00 * v 0 + A.e01 * v 1 + A.e02 * v 2,
    A.e10 * v 0 + A.e11 * v 1 + A.e12 * v 2,
    A.e20 * v 0 + A.e21 * v 1 + A.e22 * v 2]

/-- What one token carries. -/
structure Tok where
  /-- the 22 axis-angle vectors, the root's first -/
  aa : Fin 22 → Fin 3 → EReal
  /-- the skeleton: 22 points -/
  sk : Fin 22 → Fin 3 → EReal
  /-- the translation of the root -/
  tr : Fin 3 → EReal

/-- Joint `j`'s offset from joint `p`. -/
def off (T : Tok) (j p : Fin 22) : Fin 3 → EReal := fun c => T.sk j c - T.sk p c
/-- A child's rotation from its parent's. -/
def stepR (P : Rot) (T : Tok) (j : Fin 22) : Rot := mm3 P (rod (T.aa j))
/-- A child's position from its parent's rotation and position. -/
def stepT (P : Rot) (pT : Fin 3 → EReal) (T : Tok) (j p : Fin 22) : Fin 3 → EReal :=
  fun c => mv3 P (off T j p) c + pT c

/-! The tree, joint by joint: parents 0 0 0 1 2 3 4 5 6 7 8 9 9 9 12 13 14 16 17 18 19 of joints 1 … 21. -/

def gR0 (T : Tok) : Rot := rod (T.aa 0)
def gT0 (T : Tok) : Fin 3 → EReal := fun c => T.sk 0 c + T.tr c
def gR1 (T : Tok) : Rot := stepR (gR0 T) T 1
def gT1 (T : Tok) : Fin 3 → EReal := stepT (gR0 T) (gT0 T) T 1 0
def gR2 (T : Tok) : Rot := stepR (gR0 T) T 2
def gT2 (T : Tok) : Fin 3 → EReal := stepT (gR0 T) (gT0 T) T 2 0
def gR3 (T : Tok) : Rot := stepR (gR0 T) T 3
def gT3 (T : Tok) : Fin 3 → EReal := stepT (gR0 T) (gT0 T) T 3 0
def gR4 (T : Tok) : Rot := stepR (gR1 T) T 4
def gT4 (T : Tok) : Fin 3 → EReal := stepT (gR1 T) (gT1 T) T 4 1
def gR5 (T : Tok) : Rot := stepR (gR2 T) T 5
def gT5 (T : Tok) : Fin 3 → EReal := stepT (gR2 T) (gT2 T) T 5 2
def gR6 (T : Tok) : Rot := stepR (gR3 T) T 6
def gT6 (T : Tok) : Fin 3 → EReal := stepT (gR3 T) (gT3 T) T 6 3
def gR7 (T : Tok) : Rot := stepR (gR4 T) T 7
def gT7 (T : Tok) : Fin 3 → EReal := stepT (gR4 T) (gT4 T) T 7 4
def gR8 (T : Tok) : Rot := stepR (gR5 T) T 8
def gT8 (T : Tok) : Fin 3 → EReal := stepT (gR5 T) (gT5 T) T 8 5
def gR9 (T : Tok) : Rot := stepR (gR6 T) T 9
def gT9 (T : Tok) : Fin 3 → EReal := stepT (gR6 T) (gT6 T) T 9 6
def gR10 (T : Tok) : Rot := stepR (gR7 T) T 10
def gT10 (T : Tok) : Fin 3 → EReal := stepT (gR7 T) (gT7 T) T 10 7
def gR11 (T : Tok) : Rot := stepR (gR8 T) T 11
def gT11 (T : Tok) : Fin 3 → EReal := stepT (gR8 T) (gT8 T) T 11 8
def gR12 (T : Tok) : Rot := stepR (gR9 T) T 12
def gT12 (T : Tok) : Fin 3 → EReal := stepT (gR9 T) (gT9 T) T 12 9
def gR13 (T : Tok) : Rot := stepR (gR9 T) T 13
def gT13 (T : Tok) : Fin 3 → EReal := stepT (gR9 T) (gT9 T) T 13 9
def gR14 (T : Tok) : Rot := stepR (gR9 T) T 14
def gT14 (T : Tok) : Fin 3 → EReal := stepT (gR9 T) (gT9 T) T 14 9
def gR15 (T : Tok) : Rot := stepR (gR12 T) T 15
def gT15 (T : Tok) : Fin 3 → EReal := stepT (gR12 T) (gT12 T) T 15 12
def gR16 (T : Tok) : Rot := stepR (gR13 T) T 16
def gT16 (T : Tok) : Fin 3 → EReal := stepT (gR13 T) (gT13 T) T 16 13
def gR17 (T : Tok) : Rot := stepR (gR14 T) T 17
def gT17 (T : Tok) : Fin 3 → EReal := stepT (gR14 T) (gT14 T) T 17 14
def gR18 (T : Tok) : Rot := stepR (gR16 T) T 18
def gT18 (T : Tok) : Fin 3 → EReal := stepT (gR16 T) (gT16 T) T 18 16
def gR19 (T : Tok) : Rot := stepR (gR17 T) T 19
def gT19 (T : Tok) : Fin 3 → EReal := stepT (gR17 T) (gT17 T) T 19 17
def gR20 (T : Tok) : Rot := stepR (gR18 T) T 20
def gT20 (T : Tok) : Fin 3 → EReal := stepT (gR18 T) (gT18 T) T 20 18
def gR21 (T : Tok) : Rot := stepR (gR19 T) T 21
def gT21 (T : Tok) : Fin 3 → EReal := stepT (gR19 T) (gT19 T) T 21 19

/-- The 22 positions. -/
def joints (T : Tok) : Fin 22 → Fin 3 → EReal :=
  ![gT0 T, gT1 T, gT2 T, gT3 T, gT4 T, gT5 T, gT6 T, gT7 T, gT8 T, gT9 T, gT10 T, gT11 T, gT12 T, gT13 T,
    gT14 T, gT15 T, gT16 T, gT17 T, gT18 T, gT19 T, gT20 T, gT21 T]

/-! ## A token out of the six argument arrays -/

/-- Entry `k` of the root's orientation followed by the 63 body-pose entries of token `(b, l)`. -/
def cat66 (go : (⟨3, ![64, 2048, 3]⟩ : Shape).Idx → EReal) (bp : (⟨3, ![64, 2048, 63]⟩ : Shape).Idx → EReal)
    (b : Fin 64) (l : Fin 2048) (k : Fin 66) : EReal :=
  if h : k.val < 3 then go (ix3 b l ⟨k.val, h⟩) else bp (ix3 b l ⟨k.val - 3, by omega⟩)

/-- Token `(b, l)`: axis-angle `j` is entries `3j, 3j+1, 3j+2` of the 66; the skeleton is the template plus the
    shape directions weighted by the token's ten coefficients; the translation is the token's. -/
def tokOf (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal)
    (b : Fin 64) (l : Fin 2048) : Tok where
  aa j c := cat66 go bp b l ⟨3 * j.val + c.val, by omega⟩
  sk j c := jt (ix2 j c) + ∑ k : Fin 10, be (ix3 b l k) * jsd (ix3 j c k)
  tr c := tl (ix3 b l c)

/-- The result array: position `j`, coordinate `c` of token `(b, l)`. -/
def G (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal) :
    (⟨4, ![64, 2048, 22, 3]⟩ : Shape).Idx → EReal :=
  fun i => joints (tokOf bp be go tl jt jsd (i 0) (i 1)) (i 2) (i 3)

theorem G_ix4 (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal)
    (b : Fin 64) (l : Fin 2048) (j : Fin 22) (c : Fin 3) :
    G bp be go tl jt jsd (ix4 b l j c) = joints (tokOf bp be go tl jt jsd b l) j c := rfl

end Cert.FK

end
-- ==== Proof.KTok.lean ====
/-
  One row of the kernel's blocks as a token. At a grid point the kernel holds 2048 rows: 63 body-pose
  entries, 10 shape coefficients, the root's 3 orientation entries and 3 translation entries per row, and
  — the same for every row — the skeleton template as one row of 66 and the shape directions as 10 rows
  of 66, column `3j + c` belonging to joint `j`, coordinate `c`.
-/
import proofs.«127648_j26603027432101_1_alg».proof.Proof.Spec

noncomputable section

namespace Cert.FK

open Idealize.ShloMosaic Idealize.ShloMosaic.ValueIdx

/-- Row `r` of the six blocks: joint 0's axis-angle vector is the orientation row, joint `j ≥ 1`'s is entries
    `3(j-1) … 3(j-1)+2` of the body-pose row; the skeleton is the template row plus the ten direction rows
    weighted by the row's coefficients. -/
def tokBlk (x0 : (⟨2, ![2048, 63]⟩ : Shape).Idx → EReal) (x1 : (⟨2, ![2048, 10]⟩ : Shape).Idx → EReal)
    (x2 : (⟨2, ![2048, 3]⟩ : Shape).Idx → EReal) (x3 : (⟨2, ![2048, 3]⟩ : Shape).Idx → EReal)
    (x4 : (⟨2, ![1, 66]⟩ : Shape).Idx → EReal) (x5 : (⟨2, ![10, 66]⟩ : Shape).Idx → EReal) (r : Fin 2048) : Tok where
  aa j c := if h : j.val = 0 then x2 (ix2 r c) else x0 (ix2 r ⟨3 * (j.val - 1) + c.val, by omega⟩)
  sk j c := x4 (ix2 0 ⟨3 * j.val + c.val, by omega⟩)
    + ∑ k : Fin 10, x1 (ix2 r k) * x5 (ix2 k ⟨3 * j.val + c.val, by omega⟩)
  tr c := x3 (ix2 r c)

end Cert.FK

end
-- ==== Proof.KBodyVB.lean ====
/-
  The kernel's body once more, as arrays over the 2048 rows of a block: Rodrigues' rotation of a block of
  axis-angle rows as nine columns, the product of two such matrices and a matrix applied to a block of
  vectors column by column, the skeleton as the template row plus ten (coefficient column) x (direction
  row) terms added left to right, and then the tree joint by joint, each joint's rotation and position
  a definition over its parent's (here the root and joint 1; joints 2 to 21 follow in the next module). Every
  operation is spelt as the kernel spells it, in the same order.
-/
import proofs.«127648_j26603027432101_1_alg».proof.Proof.Gen.Kernel.Skeleton
import proofs.«127648_j26603027432101_1_alg».proof.Proof.KTok
import Idealize.ShloMosaic.Lib.ValueLayout
import Idealize.ShloMosaic.Lib.Pipeline.Value
import Idealize.ShloMosaic.PureOps.Ideal.Laws

noncomputable section

namespace Cert.FK.KB

open Cert.Kernel Cert.Kernel.Gen Idealize.ShloMosaic Idealize.ShloMosaic.TcCoe Idealize.SL.Sem
open Idealize.ShloMosaic.ValueIdx Cert.FK

section Vectors

variable {F : FTy → Type} [FloatOps F]

/-- The six blocks the body loads. -/
structure Ins (F : FTy → Type) [FloatOps F] where
  b0 : Vec F S2048x63 .f32
  b1 : Vec F S2048x10 .f32
  b2 : Vec F S2048x3 .f32
  b3 : Vec F S2048x3 .f32
  b4 : Vec F S1x66 .f32
  b5 : Vec F S10x66 .f32

/-- A 3×3 matrix per row of the block: nine columns. -/
structure RotV (F : FTy → Type) [FloatOps F] where
  e00 : FVec F S2048x1 .f32
  e01 : FVec F S2048x1 .f32
  e02 : FVec F S2048x1 .f32
  e10 : FVec F S2048x1 .f32
  e11 : FVec F S2048x1 .f32
  e12 : FVec F S2048x1 .f32
  e20 : FVec F S2048x1 .f32
  e21 : FVec F S2048x1 .f32
  e22 : FVec F S2048x1 .f32

/-- The three columns of a block of vectors. -/
def col0 (v : FVec F S2048x3 .f32) : FVec F S2048x1 .f32 := extractStridedSlice S2048x1 ![0, 0] v slices_S2048x3_o0_0_S2048x1
def col1 (v : FVec F S2048x3 .f32) : FVec F S2048x1 .f32 := extractStridedSlice S2048x1 ![0, 1] v slices_S2048x3_o0_1_S2048x1
def col2 (v : FVec F S2048x3 .f32) : FVec F S2048x1 .f32 := extractStridedSlice S2048x1 ![0, 2] v slices_S2048x3_o0_2_S2048x1

/-- The regularised angle of each row, as a column. -/
def angV (a : FVec F S2048x3 .f32) : FVec F S2048x1 .f32 :=
  sqrt (addf (shapeCast S2048x1 (multiReduction .add [1] S2048 (mulf a a) 0x00000000#32 reduces_S2048x3_S2048 (.inl rfl) rfl) shapeCasts_S2048_S2048x1)
    (broadcast S2048x1 (Scalar.ofBits .f32 0x2B8CBCCC#32)))
/-- Each row over its angle. -/
def axV (a : FVec F S2048x3 .f32) : FVec F S2048x3 .f32 := divf a (broadcastTo S2048x3 (angV a) broadcasts_S2048x1_S2048x3)
/-- One minus the cosine of the angle. -/
def omcV (a : FVec F S2048x3 .f32) : FVec F S2048x1 .f32 := subf (broadcast S2048x1 (Scalar.ofBits .f32 0x3F800000#32)) (cos (angV a))

/-- Rodrigues' rotation of each row. -/
def rodV (a : FVec F S2048x3 .f32) : RotV F where
  e00 := addf (mulf (mulf (omcV a) (col0 (axV a))) (col0 (axV a))) (cos (angV a))
  e01 := subf (mulf (mulf (omcV a) (col0 (axV a))) (col1 (axV a))) (mulf (sin (angV a)) (col2 (axV a)))
  e02 := addf (mulf (mulf (omcV a) (col0 (axV a))) (col2 (axV a))) (mulf (sin (angV a)) (col1 (axV a)))
  e10 := addf (mulf (mulf (omcV a) (col0 (axV a))) (col1 (axV a))) (mulf (sin (angV a)) (col2 (axV a)))
  e11 := addf (mulf (mulf (omcV a) (col1 (axV a))) (col1 (axV a))) (cos (angV a))
  e12 := subf (mulf (mulf (omcV a) (col1 (axV a))) (col2 (axV a))) (mulf (sin (angV a)) (col0 (axV a)))
  e20 := subf (mulf (mulf (omcV a) (col0 (axV a))) (col2 (axV a))) (mulf (sin (angV a)) (col1 (axV a)))
  e21 := addf (mulf (mulf (omcV a) (col1 (axV a))) (col2 (axV a))) (mulf (sin (angV a)) (col0 (axV a)))
  e22 := addf (mulf (mulf (omcV a) (col2 (axV a))) (col2 (axV a))) (cos (angV a))

/-- The product of two matrices, row of the block by row. -/
def mm3V (A B : RotV F) : RotV F where
  e00 := addf (addf (mulf A.e00 B.e00) (mulf A.e01 B.e10)) (mulf A.e02 B.e20)
  e01 := addf (addf (mulf A.e00 B.e01) (mulf A.e01 B.e11)) (mulf A.e02 B.e21)
  e02 := addf (addf (mulf A.e00 B.e02) (mulf A.e01 B.e12)) (mulf A.e02 B.e22)
  e10 := addf (addf (mulf A.e10 B.e00) (mulf A.e11 B.e10)) (mulf A.e12 B.e20)
  e11 := addf (addf (mulf A.e10 B.e01) (mulf A.e11 B.e11)) (mulf A.e12 B.e21)
  e12 := addf (addf (mulf A.e10 B.e02) (mulf A.e11 B.e12)) (mulf A.e12 B.e22)
  e20 := addf (addf (mulf A.e20 B.e00) (mulf A.e21 B.e10)) (mulf A.e22 B.e20)
  e21 := addf (addf (mulf A.e20 B.e01) (mulf A.e21 B.e11)) (mulf A.e22 B.e21)
  e22 := addf (addf (mulf A.e20 B.e02) (mulf A.e21 B.e12)) (mulf A.e22 B.e22)

/-- A matrix applied to a block of vectors: three columns laid side by side. -/
def mv3V (A : RotV F) (v : FVec F S2048x3 .f32) : FVec F S2048x3 .f32 :=
  concatenate S2048x3 1
    [⟨S2048x1, addf (addf (mulf A.e00 (col0 v)) (mulf A.e01 (col1 v))) (mulf A.e02 (col2 v))⟩,
     ⟨S2048x1, addf (addf (mulf A.e10 (col0 v)) (mulf A.e11 (col1 v))) (mulf A.e12 (col2 v))⟩,
     ⟨S2048x1, addf (addf (mulf A.e20 (col0 v)) (mulf A.e21 (col1 v))) (mulf A.e22 (col2 v))⟩]
    concatenates_S2048x1_S2048x1_S2048x1_S2048x3_d1

/-- A child's position from its parent's rotation and position and its own offset. -/
def stepTV (P : RotV F) (pT o : FVec F S2048x3 .f32) : FVec F S2048x3 .f32 := addf (mv3V P o) pT

/-! ## The loaded blocks, the skeleton and its slices -/

def inb0 (I : Ins F) : FVec F S2048x63 .f32 := shapeCast S2048x63 I.b0 shapeCasts_S2048x63_S2048x63
def inb1 (I : Ins F) : FVec F S2048x10 .f32 := shapeCast S2048x10 I.b1 shapeCasts_S2048x10_S2048x10
def inb2 (I : Ins F) : FVec F S2048x3 .f32 := shapeCast S2048x3 I.b2 shapeCasts_S2048x3_S2048x3
def inb3 (I : Ins F) : FVec F S2048x3 .f32 := shapeCast S2048x3 I.b3 shapeCasts_S2048x3_S2048x3
def inb4 (I : Ins F) : FVec F S1x66 .f32 := shapeCast S1x66 I.b4 shapeCasts_S1x66_S1x66
def inb5 (I : Ins F) : FVec F S10x66 .f32 := shapeCast S10x66 I.b5 shapeCasts_S10x66_S10x66

/-- One term of the skeleton: coefficient column `k` against direction row `k`, each spread over the block. -/
def termV (k : Nat) (b : FVec F S2048x10 .f32) (d : FVec F S10x66 .f32) (hb : S2048x10.Slices ![0, k] S2048x1)
    (hd : S10x66.Slices ![k, 0] S1x66) : FVec F S2048x66 .f32 :=
  mulf (broadcastTo S2048x66 (extractStridedSlice S2048x1 ![0, k] b hb) broadcasts_S2048x1_S2048x66)
    (broadcastTo S2048x66 (extractStridedSlice S1x66 ![k, 0] d hd) broadcasts_S1x66_S2048x66)

/-- The skeleton of every row: the template row spread over the block, then the ten terms added left to right. -/
def skelV (I : Ins F) : FVec F S2048x66 .f32 :=
  addf (addf (addf (addf (addf (addf (addf (addf (addf (addf
    (broadcastTo S2048x66 (shapeCast S1x66 (inb4 I) shapeCasts_S1x66_S1x66) broadcasts_S1x66_S2048x66)
    (termV 0 (inb1 I) (inb5 I) slices_S2048x10_o0_0_S2048x1 slices_S10x66_o0_0_S1x66))
    (termV 1 (inb1 I) (inb5 I) slices_S2048x10_o0_1_S2048x1 slices_S10x66_o1_0_S1x66))
    (termV 2 (inb1 I) (inb5 I) slices_S2048x10_o0_2_S2048x1 slices_S10x66_o2_0_S1x66))
    (termV 3 (inb1 I) (inb5 I) slices_S2048x10_o0_3_S2048x1 slices_S10x66_o3_0_S1x66))
    (termV 4 (inb1 I) (inb5 I) slices_S2048x10_o0_4_S2048x1 slices_S10x66_o4_0_S1x66))
    (termV 5 (inb1 I) (inb5 I) slices_S2048x10_o0_5_S2048x1 slices_S10x66_o5_0_S1x66))
    (termV 6 (inb1 I) (inb5 I) slices_S2048x10_o0_6_S2048x1 slices_S10x66_o6_0_S1x66))
    (termV 7 (inb1 I) (inb5 I) slices_S2048x10_o0_7_S2048x1 slices_S10x66_o7_0_S1x66))
    (termV 8 (inb1 I) (inb5 I) slices_S2048x10_o0_8_S2048x1 slices_S10x66_o8_0_S1x66))
    (termV 9 (inb1 I) (inb5 I) slices_S2048x10_o0_9_S2048x1 slices_S10x66_o9_0_S1x66)

/-- Three consecutive columns of the skeleton from column `o`: one joint's point. -/
def skJ (o : Nat) (h : S2048x66.Slices ![0, o] S2048x3) (I : Ins F) : FVec F S2048x3 .f32 :=
  extractStridedSlice S2048x3 ![0, o] (skelV I) h
/-- Three consecutive columns of the body-pose block from column `o`: one joint's axis-angle vector. -/
def aaJ (o : Nat) (h : S2048x63.Slices ![0, o] S2048x3) (I : Ins F) : FVec F S2048x3 .f32 :=
  extractStridedSlice S2048x3 ![0, o] (inb0 I) h

/-! ## The root, and joint 1 as every other joint is written (its parent is the root) -/

def skV0 (I : Ins F) : FVec F S2048x3 .f32 := skJ 0 slices_S2048x66_o0_0_S2048x3 I
def gRV0 (I : Ins F) : RotV F := rodV (inb2 I)
def gTV0 (I : Ins F) : FVec F S2048x3 .f32 := addf (skV0 I) (inb3 I)

def skV1 (I : Ins F) : FVec F S2048x3 .f32 := skJ 3 slices_S2048x66_o0_3_S2048x3 I
def aaV1 (I : Ins F) : FVec F S2048x3 .f32 := aaJ 0 slices_S2048x63_o0_0_S2048x3 I
def gRV1 (I : Ins F) : RotV F := mm3V (gRV0 I) (rodV (aaV1 I))
def gTV1 (I : Ins F) : FVec F S2048x3 .f32 := stepTV (gRV0 I) (gTV0 I) (subf (skV1 I) (skV0 I))

end Vectors

end Cert.FK.KB

end
-- ==== Proof.KBodyTB.lean ====
import proofs.«127648_j26603027432101_1_alg».proof.Proof.KBodyVB

noncomputable section

namespace Cert.FK.KB

open Cert.Kernel Cert.Kernel.Gen Idealize.ShloMosaic Idealize.ShloMosaic.TcCoe Idealize.SL.Sem
open Idealize.ShloMosaic.ValueIdx Cert.FK

variable {F : FTy → Type} [FloatOps F]

def skV2 (I : Ins F) : FVec F S2048x3 .f32 := skJ 6 slices_S2048x66_o0_6_S2048x3 I
def aaV2 (I : Ins F) : FVec F S2048x3 .f32 := aaJ 3 slices_S2048x63_o0_3_S2048x3 I
def gRV2 (I : Ins F) : RotV F := mm3V (gRV0 I) (rodV (aaV2 I))
def gTV2 (I : Ins F) : FVec F S2048x3 .f32 := stepTV (gRV0 I) (gTV0 I) (subf (skV2 I) (skV0 I))
def skV3 (I : Ins F) : FVec F S2048x3 .f32 := skJ 9 slices_S2048x66_o0_9_S2048x3 I
def aaV3 (I : Ins F) : FVec F S2048x3 .f32 := aaJ 6 slices_S2048x63_o0_6_S2048x3 I
def gRV3 (I : Ins F) : RotV F := mm3V (gRV0 I) (rodV (aaV3 I))
def gTV3 (I : Ins F) : FVec F S2048x3 .f32 := stepTV (gRV0 I) (gTV0 I) (subf (skV3 I) (skV0 I))
def skV4 (I : Ins F) : FVec F S2048x3 .f32 := skJ 12 slices_S2048x66_o0_12_S2048x3 I
def aaV4 (I : Ins F) : FVec F S2048x3 .f32 := aaJ 9 slices_S2048x63_o0_9_S2048x3 I
def gRV4 (I : Ins F) : RotV F := mm3V (gRV1 I) (rodV (aaV4 I))
def gTV4 (I : Ins F) : FVec F S2048x3 .f32 := stepTV (gRV1 I) (gTV1 I) (subf (skV4 I) (skV1 I))
def skV5 (I : Ins F) : FVec F S2048x3 .f32 := skJ 15 slices_S2048x66_o0_15_S2048x3 I
def aaV5 (I : Ins F) : FVec F S2048x3 .f32 := aaJ 12 slices_S2048x63_o0_12_S2048x3 I
def gRV5 (I : Ins F) : RotV F := mm3V (gRV2 I) (rodV (aaV5 I))
def gTV5 (I : Ins F) : FVec F S2048x3 .f32 := stepTV (gRV2 I) (gTV2 I) (subf (skV5 I) (skV2 I))
def skV6 (I : Ins F) : FVec F S2048x3 .f32 := skJ 18 slices_S2048x66_o0_18_S2048x3 I
def aaV6 (I : Ins F) : FVec F S2048x3 .f32 := aaJ 15 slices_S2048x63_o0_15_S2048x3 I
def gRV6 (I : Ins F) : RotV F := mm3V (gRV3 I) (rodV (aaV6 I))
def gTV6 (I : Ins F) : FVec F S2048x3 .f32 := stepTV (gRV3 I) (gTV3 I) (subf (skV6 I) (skV3 I))
def skV7 (I : Ins F) : FVec F S2048x3 .f32 := skJ 21 slices_S2048x66_o0_21_S2048x3 I
def aaV7 (I : Ins F) : FVec F S2048x3 .f32 := aaJ 18 slices_S2048x63_o0_18_S2048x3 I
def gRV7 (I : Ins F) : RotV F := mm3V (gRV4 I) (rodV (aaV7 I))
def gTV7 (I : Ins F) : FVec F S2048x3 .f32 := stepTV (gRV4 I) (gTV4 I) (subf (skV7 I) (skV4 I))
def skV8 (I : Ins F) : FVec F S2048x3 .f32 := skJ 24 slices_S2048x66_o0_24_S2048x3 I
def aaV8 (I : Ins F) : FVec F S2048x3 .f32 := aaJ 21 slices_S2048x63_o0_21_S2048x3 I
def gRV8 (I : Ins F) : RotV F := mm3V (gRV5 I) (rodV (aaV8 I))
def gTV8 (I : Ins F) : FVec F S2048x3 .f32 := stepTV (gRV5 I) (gTV5 I) (subf (skV8 I) (skV5 I))
def skV9 (I : Ins F) : FVec F S2048x3 .f32 := skJ 27 slices_S2048x66_o0_27_S2048x3 I
def aaV9 (I : Ins F) : FVec F S2048x3 .f32 := aaJ 24 slices_S2048x63_o0_24_S2048x3 I
def gRV9 (I : Ins F) : RotV F := mm3V (gRV6 I) (rodV (aaV9 I))
def gTV9 (I : Ins F) : FVec F S2048x3 .f32 := stepTV (gRV6 I) (gTV6 I) (subf (skV9 I) (skV6 I))
def skV10 (I : Ins F) : FVec F S2048x3 .f32 := skJ 30 slices_S2048x66_o0_30_S2048x3 I
def gTV10 (I : Ins F) : FVec F S2048x3 .f32 := stepTV (gRV7 I) (gTV7 I) (subf (skV10 I) (skV7 I))
def skV11 (I : Ins F) : FVec F S2048x3 .f32 := skJ 33 slices_S2048x66_o0_33_S2048x3 I
def gTV11 (I : Ins F) : FVec F S2048x3 .f32 := stepTV (gRV8 I) (gTV8 I) (subf (skV11 I) (skV8 I))
def skV12 (I : Ins F) : FVec F S2048x3 .f32 := skJ 36 slices_S2048x66_o0_36_S2048x3 I
def aaV12 (I : Ins F) : FVec F S2048x3 .f32 := aaJ 33 slices_S2048x63_o0_33_S2048x3 I
def gRV12 (I : Ins F) : RotV F := mm3V (gRV9 I) (rodV (aaV12 I))
def gTV12 (I : Ins F) : FVec F S2048x3 .f32 := stepTV (gRV9 I) (gTV9 I) (subf (skV12 I) (skV9 I))
def skV13 (I : Ins F) : FVec F S2048x3 .f32 := skJ 39 slices_S2048x66_o0_39_S2048x3 I
def aaV13 (I : Ins F) : FVec F S2048x3 .f32 := aaJ 36 slices_S2048x63_o0_36_S2048x3 I
def gRV13 (I : Ins F) : RotV F := mm3V (gRV9 I) (rodV (aaV13 I))
def gTV13 (I : Ins F) : FVec F S2048x3 .f32 := stepTV (gRV9 I) (gTV9 I) (subf (skV13 I) (skV9 I))
def skV14 (I : Ins F) : FVec F S2048x3 .f32 := skJ 42 slices_S2048x66_o0_42_S2048x3 I
def aaV14 (I : Ins F) : FVec F S2048x3 .f32 := aaJ 39 slices_S2048x63_o0_39_S2048x3 I
def gRV14 (I : Ins F) : RotV F := mm3V (gRV9 I) (rodV (aaV14 I))
def gTV14 (I : Ins F) : FVec F S2048x3 .f32 := stepTV (gRV9 I) (gTV9 I) (subf (skV14 I) (skV9 I))
def skV15 (I : Ins F) : FVec F S2048x3 .f32 := skJ 45 slices_S2048x66_o0_45_S2048x3 I
def gTV15 (I : Ins F) : FVec F S2048x3 .f32 := stepTV (gRV12 I) (gTV12 I) (subf (skV15 I) (skV12 I))
def skV16 (I : Ins F) : FVec F S2048x3 .f32 := skJ 48 slices_S2048x66_o0_48_S2048x3 I
def aaV16 (I : Ins F) : FVec F S2048x3 .f32 := aaJ 45 slices_S2048x63_o0_45_S2048x3 I
def gRV16 (I : Ins F) : RotV F := mm3V (gRV13 I) (rodV (aaV16 I))
def gTV16 (I : Ins F) : FVec F S2048x3 .f32 := stepTV (gRV13 I) (gTV13 I) (subf (skV16 I) (skV13 I))
def skV17 (I : Ins F) : FVec F S2048x3 .f32 := skJ 51 slices_S2048x66_o0_51_S2048x3 I
def aaV17 (I : Ins F) : FVec F S2048x3 .f32 := aaJ 48 slices_S2048x63_o0_48_S2048x3 I
def gRV17 (I : Ins F) : RotV F := mm3V (gRV14 I) (rodV (aaV17 I))
def gTV17 (I : Ins F) : FVec F S2048x3 .f32 := stepTV (gRV14 I) (gTV14 I) (subf (skV17 I) (skV14 I))
def skV18 (I : Ins F) : FVec F S2048x3 .f32 := skJ 54 slices_S2048x66_o0_54_S2048x3 I
def aaV18 (I : Ins F) : FVec F S2048x3 .f32 := aaJ 51 slices_S2048x63_o0_51_S2048x3 I
def gRV18 (I : Ins F) : RotV F := mm3V (gRV16 I) (rodV (aaV18 I))
def gTV18 (I : Ins F) : FVec F S2048x3 .f32 := stepTV (gRV16 I) (gTV16 I) (subf (skV18 I) (skV16 I))
def skV19 (I : Ins F) : FVec F S2048x3 .f32 := skJ 57 slices_S2048x66_o0_57_S2048x3 I
def aaV19 (I : Ins F) : FVec F S2048x3 .f32 := aaJ 54 slices_S2048x63_o0_54_S2048x3 I
def gRV19 (I : Ins F) : RotV F := mm3V (gRV17 I) (rodV (aaV19 I))
def gTV19 (I : Ins F) : FVec F S2048x3 .f32 := stepTV (gRV17 I) (gTV17 I) (subf (skV19 I) (skV17 I))
def skV20 (I : Ins F) : FVec F S2048x3 .f32 := skJ 60 slices_S2048x66_o0_60_S2048x3 I
def gTV20 (I : Ins F) : FVec F S2048x3 .f32 := stepTV (gRV18 I) (gTV18 I) (subf (skV20 I) (skV18 I))
def skV21 (I : Ins F) : FVec F S2048x3 .f32 := skJ 63 slices_S2048x66_o0_63_S2048x3 I
def gTV21 (I : Ins F) : FVec F S2048x3 .f32 := stepTV (gRV19 I) (gTV19 I) (subf (skV21 I) (skV19 I))

/-- The block the body stores: the 22 positions, each a [2048, 3] block given a middle axis, laid side by side along it. -/
def fkV (I : Ins F) : FVec F S2048x22x3 .f32 :=
  concatenate S2048x22x3 1
    [⟨S2048x1x3, shapeCast S2048x1x3 (gTV0 I) shapeCasts_S2048x3_S2048x1x3⟩,
     ⟨S2048x1x3, shapeCast S2048x1x3 (gTV1 I) shapeCasts_S2048x3_S2048x1x3⟩,
     ⟨S2048x1x3, shapeCast S2048x1x3 (gTV2 I) shapeCasts_S2048x3_S2048x1x3⟩,
     ⟨S2048x1x3, shapeCast S2048x1x3 (gTV3 I) shapeCasts_S2048x3_S2048x1x3⟩,
     ⟨S2048x1x3, shapeCast S2048x1x3 (gTV4 I) shapeCasts_S2048x3_S2048x1x3⟩,
     ⟨S2048x1x3, shapeCast S2048x1x3 (gTV5 I) shapeCasts_S2048x3_S2048x1x3⟩,
     ⟨S2048x1x3, shapeCast S2048x1x3 (gTV6 I) shapeCasts_S2048x3_S2048x1x3⟩,
     ⟨S2048x1x3, shapeCast S2048x1x3 (gTV7 I) shapeCasts_S2048x3_S2048x1x3⟩,
     ⟨S2048x1x3, shapeCast S2048x1x3 (gTV8 I) shapeCasts_S2048x3_S2048x1x3⟩,
     ⟨S2048x1x3, shapeCast S2048x1x3 (gTV9 I) shapeCasts_S2048x3_S2048x1x3⟩,
     ⟨S2048x1x3, shapeCast S2048x1x3 (gTV10 I) shapeCasts_S2048x3_S2048x1x3⟩,
     ⟨S2048x1x3, shapeCast S2048x1x3 (gTV11 I) shapeCasts_S2048x3_S2048x1x3⟩,
     ⟨S2048x1x3, shapeCast S2048x1x3 (gTV12 I) shapeCasts_S2048x3_S2048x1x3⟩,
     ⟨S2048x1x3, shapeCast S2048x1x3 (gTV13 I) shapeCasts_S2048x3_S2048x1x3⟩,
     ⟨S2048x1x3, shapeCast S2048x1x3 (gTV14 I) shapeCasts_S2048x3_S2048x1x3⟩,
     ⟨S2048x1x3, shapeCast S2048x1x3 (gTV15 I) shapeCasts_S2048x3_S2048x1x3⟩,
     ⟨S2048x1x3, shapeCast S2048x1x3 (gTV16 I) shapeCasts_S2048x3_S2048x1x3⟩,
     ⟨S2048x1x3, shapeCast S2048x1x3 (gTV17 I) shapeCasts_S2048x3_S2048x1x3⟩,
     ⟨S2048x1x3, shapeCast S2048x1x3 (gTV18 I) shapeCasts_S2048x3_S2048x1x3⟩,
     ⟨S2048x1x3, shapeCast S2048x1x3 (gTV19 I) shapeCasts_S2048x3_S2048x1x3⟩,
     ⟨S2048x1x3, shapeCast S2048x1x3 (gTV20 I) shapeCasts_S2048x3_S2048x1x3⟩,
     ⟨S2048x1x3, shapeCast S2048x1x3 (gTV21 I) shapeCasts_S2048x3_S2048x1x3⟩]
    concatenates_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x22x3_d1

end Cert.FK.KB

end
-- ==== Proof.KBodyProgB.lean ====
/-
  The kernel function as seven memory operations: it loads its six input blocks, loads the output block
  once, and stores the 22 positions computed from the six loaded blocks; everything between the loads and
  the store is pure, so the printed function, statement by statement, is this program.
-/
import proofs.«127648_j26603027432101_1_alg».proof.Proof.KBodyTB

noncomputable section

namespace Cert.FK.KB

open Cert.Kernel Cert.Kernel.Gen Idealize.ShloMosaic Idealize.ShloMosaic.TcCoe Idealize.SL.Sem

variable {F : FTy → Type} [FloatOps F]

/-- Load the six blocks and the output block, store the positions of the six. -/
noncomputable def bodyV (i : grid0.Coords) (arg1 : Memref sig .tc .vmem S2048x63 .f32) (harg1 : arg1.IsWhole) (arg2 : Memref sig .tc .vmem S2048x10 .f32) (harg2 : arg2.IsWhole) (arg3 : Memref sig .tc .vmem S2048x3 .f32) (harg3 : arg3.IsWhole) (arg4 : Memref sig .tc .vmem S2048x3 .f32) (harg4 : arg4.IsWhole) (arg5 : Memref sig .tc .vmem S1x66 .f32) (harg5 : arg5.IsWhole) (arg6 : Memref sig .tc .vmem S10x66 .f32) (harg6 : arg6.IsWhole) (arg7 : Memref sig .tc .vmem S2048x22x3 .f32) (harg7 : arg7.IsWhole) :
    Prog (TpuEff nD τ sig (Elt F) Λ₀ .tc) PUnit := do
  let v0 : Vec F S2048x63 .f32 ← Prog.lift (.load arg1 (Rect.unit (s := S2048x63) ![0, 0] S2048x63.size inb_S2048x63_S2048x63_0_0).toLoadRect (View.loadsAt_vmem h_S2048x63))
  let v2 : Vec F S2048x10 .f32 ← Prog.lift (.load arg2 (Rect.unit (s := S2048x10) ![0, 0] S2048x10.size inb_S2048x10_S2048x10_0_0).toLoadRect (View.loadsAt_vmem h_S2048x10))
  let v4 : Vec F S2048x3 .f32 ← Prog.lift (.load arg3 (Rect.unit (s := S2048x3) ![0, 0] S2048x3.size inb_S2048x3_S2048x3_0_0).toLoadRect (View.loadsAt_vmem h_S2048x3))
  let v6 : Vec F S2048x3 .f32 ← Prog.lift (.load arg4 (Rect.unit (s := S2048x3) ![0, 0] S2048x3.size inb_S2048x3_S2048x3_0_0).toLoadRect (View.loadsAt_vmem h_S2048x3))
  let v8 : Vec F S1x66 .f32 ← Prog.lift (.load arg5 (Rect.unit (s := S1x66) ![0, 0] S1x66.size inb_S1x66_S1x66_0_0).toLoadRect (View.loadsAt_vmem h_S1x66))
  let v10 : Vec F S10x66 .f32 ← Prog.lift (.load arg6 (Rect.unit (s := S10x66) ![0, 0] S10x66.size inb_S10x66_S10x66_0_0).toLoadRect (View.loadsAt_vmem h_S10x66))
  let v2113 : Vec F S2048x22x3 .f32 ← Prog.lift (.load arg7 (Rect.unit (s := S2048x22x3) ![0, 0, 0] S2048x22x3.size inb_S2048x22x3_S2048x22x3_0_0_0).toLoadRect (View.loadsAt_vmem h_S2048x22x3))
  Prog.lift (.store arg7 (Rect.unit (s := S2048x22x3) ![0, 0, 0] S2048x22x3.size inb_S2048x22x3_S2048x22x3_0_0_0) (fkV ⟨v0, v2, v4, v6, v8, v10⟩) Finset.univ (View.stores_vmem_bits_univ h_S2048x22x3 rfl) (.inl rfl))
  pure ⟨⟩

set_option maxHeartbeats 40000000 in
/-- The printed kernel function is that program: its 2183 statements between the loads and the store are the
    named definitions of the tree, in the same order. -/
theorem body_eq (i : grid0.Coords) (arg1 : Memref sig .tc .vmem S2048x63 .f32) (harg1 : arg1.IsWhole) (arg2 : Memref sig .tc .vmem S2048x10 .f32) (harg2 : arg2.IsWhole) (arg3 : Memref sig .tc .vmem S2048x3 .f32) (harg3 : arg3.IsWhole) (arg4 : Memref sig .tc .vmem S2048x3 .f32) (harg4 : arg4.IsWhole) (arg5 : Memref sig .tc .vmem S1x66 .f32) (harg5 : arg5.IsWhole) (arg6 : Memref sig .tc .vmem S10x66 .f32) (harg6 : arg6.IsWhole) (arg7 : Memref sig .tc .vmem S2048x22x3 .f32) (harg7 : arg7.IsWhole) :
    cc0_fk_kernel (F := F) i arg1 harg1 arg2 harg2 arg3 harg3 arg4 harg4 arg5 harg5 arg6 harg6 arg7 harg7 = bodyV i arg1 harg1 arg2 harg2 arg3 harg3 arg4 harg4 arg5 harg5 arg6 harg6 arg7 harg7 := rfl

end Cert.FK.KB

end
-- ==== Proof.KBodyV.lean ====
/-
  The kernel's body once more, as arrays over the 2048 rows of a block: Rodrigues' rotation of a block of
  axis-angle rows as nine columns, the product of two such matrices and a matrix applied to a block of
  vectors column by column, the skeleton as the template row plus ten (coefficient column) x (direction
  row) terms added left to right, and then the tree joint by joint, each joint's rotation and position
  a definition over its parent's (here the root and joint 1; joints 2 to 21 follow in the next module). Every
  operation is spelt as the kernel spells it, in the same order.
-/
import proofs.«127648_j26603027432101_1_alg».proof.Proof.Gen.KernelIdeal.Skeleton
import proofs.«127648_j26603027432101_1_alg».proof.Proof.KTok
import Idealize.ShloMosaic.Lib.ValueLayout
import Idealize.ShloMosaic.Lib.Pipeline.Value
import Idealize.ShloMosaic.PureOps.Ideal.Laws

noncomputable section

namespace Cert.FK.K

open Cert.KernelIdeal Cert.KernelIdeal.Gen Idealize.ShloMosaic Idealize.ShloMosaic.TcCoe Idealize.SL.Sem
open Idealize.ShloMosaic.ValueIdx Cert.FK

section Vectors

variable {F : FTy → Type} [FloatOps F]

/-- The six blocks the body loads. -/
structure Ins (F : FTy → Type) [FloatOps F] where
  b0 : Vec F S2048x63 .f32
  b1 : Vec F S2048x10 .f32
  b2 : Vec F S2048x3 .f32
  b3 : Vec F S2048x3 .f32
  b4 : Vec F S1x66 .f32
  b5 : Vec F S10x66 .f32

/-- A 3×3 matrix per row of the block: nine columns. -/
structure RotV (F : FTy → Type) [FloatOps F] where
  e00 : FVec F S2048x1 .f32
  e01 : FVec F S2048x1 .f32
  e02 : FVec F S2048x1 .f32
  e10 : FVec F S2048x1 .f32
  e11 : FVec F S2048x1 .f32
  e12 : FVec F S2048x1 .f32
  e20 : FVec F S2048x1 .f32
  e21 : FVec F S2048x1 .f32
  e22 : FVec F S2048x1 .f32

/-- The three columns of a block of vectors. -/
def col0 (v : FVec F S2048x3 .f32) : FVec F S2048x1 .f32 := extractStridedSlice S2048x1 ![0, 0] v slices_S2048x3_o0_0_S2048x1
def col1 (v : FVec F S2048x3 .f32) : FVec F S2048x1 .f32 := extractStridedSlice S2048x1 ![0, 1] v slices_S2048x3_o0_1_S2048x1
def col2 (v : FVec F S2048x3 .f32) : FVec F S2048x1 .f32 := extractStridedSlice S2048x1 ![0, 2] v slices_S2048x3_o0_2_S2048x1

/-- The regularised angle of each row, as a column. -/
def angV (a : FVec F S2048x3 .f32) : FVec F S2048x1 .f32 :=
  sqrt (addf (shapeCast S2048x1 (multiReduction .add [1] S2048 (mulf a a) 0x00000000#32 reduces_S2048x3_S2048 (.inl rfl) rfl) shapeCasts_S2048_S2048x1)
    (broadcast S2048x1 (Scalar.ofBits .f32 0x2B8CBCCC#32)))
/-- Each row over its angle. -/
def axV (a : FVec F S2048x3 .f32) : FVec F S2048x3 .f32 := divf a (broadcastTo S2048x3 (angV a) broadcasts_S2048x1_S2048x3)
/-- One minus the cosine of the angle. -/
def omcV (a : FVec F S2048x3 .f32) : FVec F S2048x1 .f32 := subf (broadcast S2048x1 (Scalar.ofBits .f32 0x3F800000#32)) (cos (angV a))

/-- Rodrigues' rotation of each row. -/
def rodV (a : FVec F S2048x3 .f32) : RotV F where
  e00 := addf (mulf (mulf (omcV a) (col0 (axV a))) (col0 (axV a))) (cos (angV a))
  e01 := subf (mulf (mulf (omcV a) (col0 (axV a))) (col1 (axV a))) (mulf (sin (angV a)) (col2 (axV a)))
  e02 := addf (mulf (mulf (omcV a) (col0 (axV a))) (col2 (axV a))) (mulf (sin (angV a)) (col1 (axV a)))
  e10 := addf (mulf (mulf (omcV a) (col0 (axV a))) (col1 (axV a))) (mulf (sin (angV a)) (col2 (axV a)))
  e11 := addf (mulf (mulf (omcV a) (col1 (axV a))) (col1 (axV a))) (cos (angV a))
  e12 := subf (mulf (mulf (omcV a) (col1 (axV a))) (col2 (axV a))) (mulf (sin (angV a)) (col0 (axV a)))
  e20 := subf (mulf (mulf (omcV a) (col0 (axV a))) (col2 (axV a))) (mulf (sin (angV a)) (col1 (axV a)))
  e21 := addf (mulf (mulf (omcV a) (col1 (axV a))) (col2 (axV a))) (mulf (sin (angV a)) (col0 (axV a)))
  e22 := addf (mulf (mulf (omcV a) (col2 (axV a))) (col2 (axV a))) (cos (angV a))

/-- The product of two matrices, row of the block by row. -/
def mm3V (A B : RotV F) : RotV F where
  e00 := addf (addf (mulf A.e00 B.e00) (mulf A.e01 B.e10)) (mulf A.e02 B.e20)
  e01 := addf (addf (mulf A.e00 B.e01) (mulf A.e01 B.e11)) (mulf A.e02 B.e21)
  e02 := addf (addf (mulf A.e00 B.e02) (mulf A.e01 B.e12)) (mulf A.e02 B.e22)
  e10 := addf (addf (mulf A.e10 B.e00) (mulf A.e11 B.e10)) (mulf A.e12 B.e20)
  e11 := addf (addf (mulf A.e10 B.e01) (mulf A.e11 B.e11)) (mulf A.e12 B.e21)
  e12 := addf (addf (mulf A.e10 B.e02) (mulf A.e11 B.e12)) (mulf A.e12 B.e22)
  e20 := addf (addf (mulf A.e20 B.e00) (mulf A.e21 B.e10)) (mulf A.e22 B.e20)
  e21 := addf (addf (mulf A.e20 B.e01) (mulf A.e21 B.e11)) (mulf A.e22 B.e21)
  e22 := addf (addf (mulf A.e20 B.e02) (mulf A.e21 B.e12)) (mulf A.e22 B.e22)

/-- A matrix applied to a block of vectors: three columns laid side by side. -/
def mv3V (A : RotV F) (v : FVec F S2048x3 .f32) : FVec F S2048x3 .f32 :=
  concatenate S2048x3 1
    [⟨S2048x1, addf (addf (mulf A.e00 (col0 v)) (mulf A.e01 (col1 v))) (mulf A.e02 (col2 v))⟩,
     ⟨S2048x1, addf (addf (mulf A.e10 (col0 v)) (mulf A.e11 (col1 v))) (mulf A.e12 (col2 v))⟩,
     ⟨S2048x1, addf (addf (mulf A.e20 (col0 v)) (mulf A.e21 (col1 v))) (mulf A.e22 (col2 v))⟩]
    concatenates_S2048x1_S2048x1_S2048x1_S2048x3_d1

/-- A child's position from its parent's rotation and position and its own offset. -/
def stepTV (P : RotV F) (pT o : FVec F S2048x3 .f32) : FVec F S2048x3 .f32 := addf (mv3V P o) pT

/-! ## The loaded blocks, the skeleton and its slices -/

def inb0 (I : Ins F) : FVec F S2048x63 .f32 := shapeCast S2048x63 I.b0 shapeCasts_S2048x63_S2048x63
def inb1 (I : Ins F) : FVec F S2048x10 .f32 := shapeCast S2048x10 I.b1 shapeCasts_S2048x10_S2048x10
def inb2 (I : Ins F) : FVec F S2048x3 .f32 := shapeCast S2048x3 I.b2 shapeCasts_S2048x3_S2048x3
def inb3 (I : Ins F) : FVec F S2048x3 .f32 := shapeCast S2048x3 I.b3 shapeCasts_S2048x3_S2048x3
def inb4 (I : Ins F) : FVec F S1x66 .f32 := shapeCast S1x66 I.b4 shapeCasts_S1x66_S1x66
def inb5 (I : Ins F) : FVec F S10x66 .f32 := shapeCast S10x66 I.b5 shapeCasts_S10x66_S10x66

/-- One term of the skeleton: coefficient column `k` against direction row `k`, each spread over the block. -/
def termV (k : Nat) (b : FVec F S2048x10 .f32) (d : FVec F S10x66 .f32) (hb : S2048x10.Slices ![0, k] S2048x1)
    (hd : S10x66.Slices ![k, 0] S1x66) : FVec F S2048x66 .f32 :=
  mulf (broadcastTo S2048x66 (extractStridedSlice S2048x1 ![0, k] b hb) broadcasts_S2048x1_S2048x66)
    (broadcastTo S2048x66 (extractStridedSlice S1x66 ![k, 0] d hd) broadcasts_S1x66_S2048x66)

/-- The skeleton of every row: the template row spread over the block, then the ten terms added left to right. -/
def skelV (I : Ins F) : FVec F S2048x66 .f32 :=
  addf (addf (addf (addf (addf (addf (addf (addf (addf (addf
    (broadcastTo S2048x66 (shapeCast S1x66 (inb4 I) shapeCasts_S1x66_S1x66) broadcasts_S1x66_S2048x66)
    (termV 0 (inb1 I) (inb5 I) slices_S2048x10_o0_0_S2048x1 slices_S10x66_o0_0_S1x66))
    (termV 1 (inb1 I) (inb5 I) slices_S2048x10_o0_1_S2048x1 slices_S10x66_o1_0_S1x66))
    (termV 2 (inb1 I) (inb5 I) slices_S2048x10_o0_2_S2048x1 slices_S10x66_o2_0_S1x66))
    (termV 3 (inb1 I) (inb5 I) slices_S2048x10_o0_3_S2048x1 slices_S10x66_o3_0_S1x66))
    (termV 4 (inb1 I) (inb5 I) slices_S2048x10_o0_4_S2048x1 slices_S10x66_o4_0_S1x66))
    (termV 5 (inb1 I) (inb5 I) slices_S2048x10_o0_5_S2048x1 slices_S10x66_o5_0_S1x66))
    (termV 6 (inb1 I) (inb5 I) slices_S2048x10_o0_6_S2048x1 slices_S10x66_o6_0_S1x66))
    (termV 7 (inb1 I) (inb5 I) slices_S2048x10_o0_7_S2048x1 slices_S10x66_o7_0_S1x66))
    (termV 8 (inb1 I) (inb5 I) slices_S2048x10_o0_8_S2048x1 slices_S10x66_o8_0_S1x66))
    (termV 9 (inb1 I) (inb5 I) slices_S2048x10_o0_9_S2048x1 slices_S10x66_o9_0_S1x66)

/-- Three consecutive columns of the skeleton from column `o`: one joint's point. -/
def skJ (o : Nat) (h : S2048x66.Slices ![0, o] S2048x3) (I : Ins F) : FVec F S2048x3 .f32 :=
  extractStridedSlice S2048x3 ![0, o] (skelV I) h
/-- Three consecutive columns of the body-pose block from column `o`: one joint's axis-angle vector. -/
def aaJ (o : Nat) (h : S2048x63.Slices ![0, o] S2048x3) (I : Ins F) : FVec F S2048x3 .f32 :=
  extractStridedSlice S2048x3 ![0, o] (inb0 I) h

/-! ## The root, and joint 1 as every other joint is written (its parent is the root) -/

def skV0 (I : Ins F) : FVec F S2048x3 .f32 := skJ 0 slices_S2048x66_o0_0_S2048x3 I
def gRV0 (I : Ins F) : RotV F := rodV (inb2 I)
def gTV0 (I : Ins F) : FVec F S2048x3 .f32 := addf (skV0 I) (inb3 I)

def skV1 (I : Ins F) : FVec F S2048x3 .f32 := skJ 3 slices_S2048x66_o0_3_S2048x3 I
def aaV1 (I : Ins F) : FVec F S2048x3 .f32 := aaJ 0 slices_S2048x63_o0_0_S2048x3 I
def gRV1 (I : Ins F) : RotV F := mm3V (gRV0 I) (rodV (aaV1 I))
def gTV1 (I : Ins F) : FVec F S2048x3 .f32 := stepTV (gRV0 I) (gTV0 I) (subf (skV1 I) (skV0 I))

end Vectors

end Cert.FK.K

end
-- ==== Proof.KBodyT.lean ====
import proofs.«127648_j26603027432101_1_alg».proof.Proof.KBodyV

noncomputable section

namespace Cert.FK.K

open Cert.KernelIdeal Cert.KernelIdeal.Gen Idealize.ShloMosaic Idealize.ShloMosaic.TcCoe Idealize.SL.Sem
open Idealize.ShloMosaic.ValueIdx Cert.FK

variable {F : FTy → Type} [FloatOps F]

def skV2 (I : Ins F) : FVec F S2048x3 .f32 := skJ 6 slices_S2048x66_o0_6_S2048x3 I
def aaV2 (I : Ins F) : FVec F S2048x3 .f32 := aaJ 3 slices_S2048x63_o0_3_S2048x3 I
def gRV2 (I : Ins F) : RotV F := mm3V (gRV0 I) (rodV (aaV2 I))
def gTV2 (I : Ins F) : FVec F S2048x3 .f32 := stepTV (gRV0 I) (gTV0 I) (subf (skV2 I) (skV0 I))
def skV3 (I : Ins F) : FVec F S2048x3 .f32 := skJ 9 slices_S2048x66_o0_9_S2048x3 I
def aaV3 (I : Ins F) : FVec F S2048x3 .f32 := aaJ 6 slices_S2048x63_o0_6_S2048x3 I
def gRV3 (I : Ins F) : RotV F := mm3V (gRV0 I) (rodV (aaV3 I))
def gTV3 (I : Ins F) : FVec F S2048x3 .f32 := stepTV (gRV0 I) (gTV0 I) (subf (skV3 I) (skV0 I))
def skV4 (I : Ins F) : FVec F S2048x3 .f32 := skJ 12 slices_S2048x66_o0_12_S2048x3 I
def aaV4 (I : Ins F) : FVec F S2048x3 .f32 := aaJ 9 slices_S2048x63_o0_9_S2048x3 I
def gRV4 (I : Ins F) : RotV F := mm3V (gRV1 I) (rodV (aaV4 I))
def gTV4 (I : Ins F) : FVec F S2048x3 .f32 := stepTV (gRV1 I) (gTV1 I) (subf (skV4 I) (skV1 I))
def skV5 (I : Ins F) : FVec F S2048x3 .f32 := skJ 15 slices_S2048x66_o0_15_S2048x3 I
def aaV5 (I : Ins F) : FVec F S2048x3 .f32 := aaJ 12 slices_S2048x63_o0_12_S2048x3 I
def gRV5 (I : Ins F) : RotV F := mm3V (gRV2 I) (rodV (aaV5 I))
def gTV5 (I : Ins F) : FVec F S2048x3 .f32 := stepTV (gRV2 I) (gTV2 I) (subf (skV5 I) (skV2 I))
def skV6 (I : Ins F) : FVec F S2048x3 .f32 := skJ 18 slices_S2048x66_o0_18_S2048x3 I
def aaV6 (I : Ins F) : FVec F S2048x3 .f32 := aaJ 15 slices_S2048x63_o0_15_S2048x3 I
def gRV6 (I : Ins F) : RotV F := mm3V (gRV3 I) (rodV (aaV6 I))
def gTV6 (I : Ins F) : FVec F S2048x3 .f32 := stepTV (gRV3 I) (gTV3 I) (subf (skV6 I) (skV3 I))
def skV7 (I : Ins F) : FVec F S2048x3 .f32 := skJ 21 slices_S2048x66_o0_21_S2048x3 I
def aaV7 (I : Ins F) : FVec F S2048x3 .f32 := aaJ 18 slices_S2048x63_o0_18_S2048x3 I
def gRV7 (I : Ins F) : RotV F := mm3V (gRV4 I) (rodV (aaV7 I))
def gTV7 (I : Ins F) : FVec F S2048x3 .f32 := stepTV (gRV4 I) (gTV4 I) (subf (skV7 I) (skV4 I))
def skV8 (I : Ins F) : FVec F S2048x3 .f32 := skJ 24 slices_S2048x66_o0_24_S2048x3 I
def aaV8 (I : Ins F) : FVec F S2048x3 .f32 := aaJ 21 slices_S2048x63_o0_21_S2048x3 I
def gRV8 (I : Ins F) : RotV F := mm3V (gRV5 I) (rodV (aaV8 I))
def gTV8 (I : Ins F) : FVec F S2048x3 .f32 := stepTV (gRV5 I) (gTV5 I) (subf (skV8 I) (skV5 I))
def skV9 (I : Ins F) : FVec F S2048x3 .f32 := skJ 27 slices_S2048x66_o0_27_S2048x3 I
def aaV9 (I : Ins F) : FVec F S2048x3 .f32 := aaJ 24 slices_S2048x63_o0_24_S2048x3 I
def gRV9 (I : Ins F) : RotV F := mm3V (gRV6 I) (rodV (aaV9 I))
def gTV9 (I : Ins F) : FVec F S2048x3 .f32 := stepTV (gRV6 I) (gTV6 I) (subf (skV9 I) (skV6 I))
def skV10 (I : Ins F) : FVec F S2048x3 .f32 := skJ 30 slices_S2048x66_o0_30_S2048x3 I
def gTV10 (I : Ins F) : FVec F S2048x3 .f32 := stepTV (gRV7 I) (gTV7 I) (subf (skV10 I) (skV7 I))
def skV11 (I : Ins F) : FVec F S2048x3 .f32 := skJ 33 slices_S2048x66_o0_33_S2048x3 I
def gTV11 (I : Ins F) : FVec F S2048x3 .f32 := stepTV (gRV8 I) (gTV8 I) (subf (skV11 I) (skV8 I))
def skV12 (I : Ins F) : FVec F S2048x3 .f32 := skJ 36 slices_S2048x66_o0_36_S2048x3 I
def aaV12 (I : Ins F) : FVec F S2048x3 .f32 := aaJ 33 slices_S2048x63_o0_33_S2048x3 I
def gRV12 (I : Ins F) : RotV F := mm3V (gRV9 I) (rodV (aaV12 I))
def gTV12 (I : Ins F) : FVec F S2048x3 .f32 := stepTV (gRV9 I) (gTV9 I) (subf (skV12 I) (skV9 I))
def skV13 (I : Ins F) : FVec F S2048x3 .f32 := skJ 39 slices_S2048x66_o0_39_S2048x3 I
def aaV13 (I : Ins F) : FVec F S2048x3 .f32 := aaJ 36 slices_S2048x63_o0_36_S2048x3 I
def gRV13 (I : Ins F) : RotV F := mm3V (gRV9 I) (rodV (aaV13 I))
def gTV13 (I : Ins F) : FVec F S2048x3 .f32 := stepTV (gRV9 I) (gTV9 I) (subf (skV13 I) (skV9 I))
def skV14 (I : Ins F) : FVec F S2048x3 .f32 := skJ 42 slices_S2048x66_o0_42_S2048x3 I
def aaV14 (I : Ins F) : FVec F S2048x3 .f32 := aaJ 39 slices_S2048x63_o0_39_S2048x3 I
def gRV14 (I : Ins F) : RotV F := mm3V (gRV9 I) (rodV (aaV14 I))
def gTV14 (I : Ins F) : FVec F S2048x3 .f32 := stepTV (gRV9 I) (gTV9 I) (subf (skV14 I) (skV9 I))
def skV15 (I : Ins F) : FVec F S2048x3 .f32 := skJ 45 slices_S2048x66_o0_45_S2048x3 I
def gTV15 (I : Ins F) : FVec F S2048x3 .f32 := stepTV (gRV12 I) (gTV12 I) (subf (skV15 I) (skV12 I))
def skV16 (I : Ins F) : FVec F S2048x3 .f32 := skJ 48 slices_S2048x66_o0_48_S2048x3 I
def aaV16 (I : Ins F) : FVec F S2048x3 .f32 := aaJ 45 slices_S2048x63_o0_45_S2048x3 I
def gRV16 (I : Ins F) : RotV F := mm3V (gRV13 I) (rodV (aaV16 I))
def gTV16 (I : Ins F) : FVec F S2048x3 .f32 := stepTV (gRV13 I) (gTV13 I) (subf (skV16 I) (skV13 I))
def skV17 (I : Ins F) : FVec F S2048x3 .f32 := skJ 51 slices_S2048x66_o0_51_S2048x3 I
def aaV17 (I : Ins F) : FVec F S2048x3 .f32 := aaJ 48 slices_S2048x63_o0_48_S2048x3 I
def gRV17 (I : Ins F) : RotV F := mm3V (gRV14 I) (rodV (aaV17 I))
def gTV17 (I : Ins F) : FVec F S2048x3 .f32 := stepTV (gRV14 I) (gTV14 I) (subf (skV17 I) (skV14 I))
def skV18 (I : Ins F) : FVec F S2048x3 .f32 := skJ 54 slices_S2048x66_o0_54_S2048x3 I
def aaV18 (I : Ins F) : FVec F S2048x3 .f32 := aaJ 51 slices_S2048x63_o0_51_S2048x3 I
def gRV18 (I : Ins F) : RotV F := mm3V (gRV16 I) (rodV (aaV18 I))
def gTV18 (I : Ins F) : FVec F S2048x3 .f32 := stepTV (gRV16 I) (gTV16 I) (subf (skV18 I) (skV16 I))
def skV19 (I : Ins F) : FVec F S2048x3 .f32 := skJ 57 slices_S2048x66_o0_57_S2048x3 I
def aaV19 (I : Ins F) : FVec F S2048x3 .f32 := aaJ 54 slices_S2048x63_o0_54_S2048x3 I
def gRV19 (I : Ins F) : RotV F := mm3V (gRV17 I) (rodV (aaV19 I))
def gTV19 (I : Ins F) : FVec F S2048x3 .f32 := stepTV (gRV17 I) (gTV17 I) (subf (skV19 I) (skV17 I))
def skV20 (I : Ins F) : FVec F S2048x3 .f32 := skJ 60 slices_S2048x66_o0_60_S2048x3 I
def gTV20 (I : Ins F) : FVec F S2048x3 .f32 := stepTV (gRV18 I) (gTV18 I) (subf (skV20 I) (skV18 I))
def skV21 (I : Ins F) : FVec F S2048x3 .f32 := skJ 63 slices_S2048x66_o0_63_S2048x3 I
def gTV21 (I : Ins F) : FVec F S2048x3 .f32 := stepTV (gRV19 I) (gTV19 I) (subf (skV21 I) (skV19 I))

/-- The block the body stores: the 22 positions, each a [2048, 3] block given a middle axis, laid side by side along it. -/
def fkV (I : Ins F) : FVec F S2048x22x3 .f32 :=
  concatenate S2048x22x3 1
    [⟨S2048x1x3, shapeCast S2048x1x3 (gTV0 I) shapeCasts_S2048x3_S2048x1x3⟩,
     ⟨S2048x1x3, shapeCast S2048x1x3 (gTV1 I) shapeCasts_S2048x3_S2048x1x3⟩,
     ⟨S2048x1x3, shapeCast S2048x1x3 (gTV2 I) shapeCasts_S2048x3_S2048x1x3⟩,
     ⟨S2048x1x3, shapeCast S2048x1x3 (gTV3 I) shapeCasts_S2048x3_S2048x1x3⟩,
     ⟨S2048x1x3, shapeCast S2048x1x3 (gTV4 I) shapeCasts_S2048x3_S2048x1x3⟩,
     ⟨S2048x1x3, shapeCast S2048x1x3 (gTV5 I) shapeCasts_S2048x3_S2048x1x3⟩,
     ⟨S2048x1x3, shapeCast S2048x1x3 (gTV6 I) shapeCasts_S2048x3_S2048x1x3⟩,
     ⟨S2048x1x3, shapeCast S2048x1x3 (gTV7 I) shapeCasts_S2048x3_S2048x1x3⟩,
     ⟨S2048x1x3, shapeCast S2048x1x3 (gTV8 I) shapeCasts_S2048x3_S2048x1x3⟩,
     ⟨S2048x1x3, shapeCast S2048x1x3 (gTV9 I) shapeCasts_S2048x3_S2048x1x3⟩,
     ⟨S2048x1x3, shapeCast S2048x1x3 (gTV10 I) shapeCasts_S2048x3_S2048x1x3⟩,
     ⟨S2048x1x3, shapeCast S2048x1x3 (gTV11 I) shapeCasts_S2048x3_S2048x1x3⟩,
     ⟨S2048x1x3, shapeCast S2048x1x3 (gTV12 I) shapeCasts_S2048x3_S2048x1x3⟩,
     ⟨S2048x1x3, shapeCast S2048x1x3 (gTV13 I) shapeCasts_S2048x3_S2048x1x3⟩,
     ⟨S2048x1x3, shapeCast S2048x1x3 (gTV14 I) shapeCasts_S2048x3_S2048x1x3⟩,
     ⟨S2048x1x3, shapeCast S2048x1x3 (gTV15 I) shapeCasts_S2048x3_S2048x1x3⟩,
     ⟨S2048x1x3, shapeCast S2048x1x3 (gTV16 I) shapeCasts_S2048x3_S2048x1x3⟩,
     ⟨S2048x1x3, shapeCast S2048x1x3 (gTV17 I) shapeCasts_S2048x3_S2048x1x3⟩,
     ⟨S2048x1x3, shapeCast S2048x1x3 (gTV18 I) shapeCasts_S2048x3_S2048x1x3⟩,
     ⟨S2048x1x3, shapeCast S2048x1x3 (gTV19 I) shapeCasts_S2048x3_S2048x1x3⟩,
     ⟨S2048x1x3, shapeCast S2048x1x3 (gTV20 I) shapeCasts_S2048x3_S2048x1x3⟩,
     ⟨S2048x1x3, shapeCast S2048x1x3 (gTV21 I) shapeCasts_S2048x3_S2048x1x3⟩]
    concatenates_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x22x3_d1

end Cert.FK.K

end
-- ==== Proof.KBodyProg.lean ====
/-
  The kernel function as seven memory operations: it loads its six input blocks, loads the output block
  once, and stores the 22 positions computed from the six loaded blocks; everything between the loads and
  the store is pure, so the printed function, statement by statement, is this program.
-/
import proofs.«127648_j26603027432101_1_alg».proof.Proof.KBodyT

noncomputable section

namespace Cert.FK.K

open Cert.KernelIdeal Cert.KernelIdeal.Gen Idealize.ShloMosaic Idealize.ShloMosaic.TcCoe Idealize.SL.Sem

variable {F : FTy → Type} [FloatOps F]

/-- Load the six blocks and the output block, store the positions of the six. -/
noncomputable def bodyV (i : grid0.Coords) (arg1 : Memref sig .tc .vmem S2048x63 .f32) (harg1 : arg1.IsWhole) (arg2 : Memref sig .tc .vmem S2048x10 .f32) (harg2 : arg2.IsWhole) (arg3 : Memref sig .tc .vmem S2048x3 .f32) (harg3 : arg3.IsWhole) (arg4 : Memref sig .tc .vmem S2048x3 .f32) (harg4 : arg4.IsWhole) (arg5 : Memref sig .tc .vmem S1x66 .f32) (harg5 : arg5.IsWhole) (arg6 : Memref sig .tc .vmem S10x66 .f32) (harg6 : arg6.IsWhole) (arg7 : Memref sig .tc .vmem S2048x22x3 .f32) (harg7 : arg7.IsWhole) :
    Prog (TpuEff nD τ sig (Elt F) Λ₀ .tc) PUnit := do
  let v0 : Vec F S2048x63 .f32 ← Prog.lift (.load arg1 (Rect.unit (s := S2048x63) ![0, 0] S2048x63.size inb_S2048x63_S2048x63_0_0).toLoadRect (View.loadsAt_vmem h_S2048x63))
  let v2 : Vec F S2048x10 .f32 ← Prog.lift (.load arg2 (Rect.unit (s := S2048x10) ![0, 0] S2048x10.size inb_S2048x10_S2048x10_0_0).toLoadRect (View.loadsAt_vmem h_S2048x10))
  let v4 : Vec F S2048x3 .f32 ← Prog.lift (.load arg3 (Rect.unit (s := S2048x3) ![0, 0] S2048x3.size inb_S2048x3_S2048x3_0_0).toLoadRect (View.loadsAt_vmem h_S2048x3))
  let v6 : Vec F S2048x3 .f32 ← Prog.lift (.load arg4 (Rect.unit (s := S2048x3) ![0, 0] S2048x3.size inb_S2048x3_S2048x3_0_0).toLoadRect (View.loadsAt_vmem h_S2048x3))
  let v8 : Vec F S1x66 .f32 ← Prog.lift (.load arg5 (Rect.unit (s := S1x66) ![0, 0] S1x66.size inb_S1x66_S1x66_0_0).toLoadRect (View.loadsAt_vmem h_S1x66))
  let v10 : Vec F S10x66 .f32 ← Prog.lift (.load arg6 (Rect.unit (s := S10x66) ![0, 0] S10x66.size inb_S10x66_S10x66_0_0).toLoadRect (View.loadsAt_vmem h_S10x66))
  let v2113 : Vec F S2048x22x3 .f32 ← Prog.lift (.load arg7 (Rect.unit (s := S2048x22x3) ![0, 0, 0] S2048x22x3.size inb_S2048x22x3_S2048x22x3_0_0_0).toLoadRect (View.loadsAt_vmem h_S2048x22x3))
  Prog.lift (.store arg7 (Rect.unit (s := S2048x22x3) ![0, 0, 0] S2048x22x3.size inb_S2048x22x3_S2048x22x3_0_0_0) (fkV ⟨v0, v2, v4, v6, v8, v10⟩) Finset.univ (View.stores_vmem_bits_univ h_S2048x22x3 rfl) (.inl rfl))
  pure ⟨⟩

set_option maxHeartbeats 40000000 in
/-- The printed kernel function is that program: its 2183 statements between the loads and the store are the
    named definitions of the tree, in the same order. -/
theorem body_eq (i : grid0.Coords) (arg1 : Memref sig .tc .vmem S2048x63 .f32) (harg1 : arg1.IsWhole) (arg2 : Memref sig .tc .vmem S2048x10 .f32) (harg2 : arg2.IsWhole) (arg3 : Memref sig .tc .vmem S2048x3 .f32) (harg3 : arg3.IsWhole) (arg4 : Memref sig .tc .vmem S2048x3 .f32) (harg4 : arg4.IsWhole) (arg5 : Memref sig .tc .vmem S1x66 .f32) (harg5 : arg5.IsWhole) (arg6 : Memref sig .tc .vmem S10x66 .f32) (harg6 : arg6.IsWhole) (arg7 : Memref sig .tc .vmem S2048x22x3 .f32) (harg7 : arg7.IsWhole) :
    cc0_fk_kernel (F := F) i arg1 harg1 arg2 harg2 arg3 harg3 arg4 harg4 arg5 harg5 arg6 harg6 arg7 harg7 = bodyV i arg1 harg1 arg2 harg2 arg3 harg3 arg4 harg4 arg5 harg5 arg6 harg6 arg7 harg7 := rfl

end Cert.FK.K

end
-- ==== Proof.KHost.lean ====
/-
  What the region finds and leaves, before any run is cited.

  The host lines ahead of the region flatten the four token arrays to [131072, k], row 2048·b + l carrying
  token (b, l); lay the [22, 3] template out as one row of 66; and move the coefficient axis of the
  [22, 3, 10] shape directions to the front and flatten the rest, giving ten rows of 66. In both, column
  3j + c belongs to joint j, coordinate c. Each is read here at explicit coordinates.

  Grid point t takes block t of each token array (rows 2048·t … 2048·t + 2047) and the one block of the two
  shared arrays. If the six blocks' entries are the arrays' at token (b, l), row l of the blocks is that token.
  The result rows, [131072, 22, 3], are covered by the 64 points' blocks, and reshaped to [64, 2048, 22, 3]
  they are the result array.
-/
import proofs.«127648_j26603027432101_1_alg».proof.Proof.Gen.KernelIdeal.Launch
import proofs.«127648_j26603027432101_1_alg».proof.Proof.Gen.KernelIdeal.Points
import proofs.«127648_j26603027432101_1_alg».proof.Proof.KTok
import Idealize.ShloMosaic.Lib.Pipeline.FrameSuffix
import Idealize.ShloMosaic.Lib.Pipeline.Value
import Idealize.ShloMosaic.Lib.Tactic

noncomputable section

namespace Cert.FK.K

open Cert.KernelIdeal Cert.KernelIdeal.Gen Idealize.ShloMosaic Idealize.ShloMosaic.TcCoe Idealize.SL.Sem
open Idealize.ShloMosaic.ValueIdx Cert.FK

variable (m : (ℓ : Loc nD τ sig) → Buf (Elt Ideal) ℓ)

/-! ## The arrays after the host lines ahead of the region -/

/-- Core c's buffers after the host lines ahead of the region. -/
abbrev hostV (c : Dev nD) : Valuation τ sig (Elt Ideal) := StableHlo.after (List.flatten [hostOps0]) (fun b => m (c, b))

theorem host_v0 (c : Dev nD) : (hostV m c (Proc.devRef .tc main_v0) : S131072x63.Idx → EReal)
    = shapeCast S131072x63 (m ((c : Thread nD τ).loc main_arg0) : S64x2048x63.Idx → EReal) shapeCasts_S64x2048x63_S131072x63 := by
  dsimp only [hostV]
  simp only [hostOps0, List.flatten_cons, List.flatten_nil, List.append_nil, List.cons_append, List.nil_append]
  after_results
  rfl

theorem host_v1 (c : Dev nD) : (hostV m c (Proc.devRef .tc main_v1) : S131072x10.Idx → EReal)
    = shapeCast S131072x10 (m ((c : Thread nD τ).loc main_arg1) : S64x2048x10.Idx → EReal) shapeCasts_S64x2048x10_S131072x10 := by
  dsimp only [hostV]
  simp only [hostOps0, List.flatten_cons, List.flatten_nil, List.append_nil, List.cons_append, List.nil_append]
  after_results
  rfl

theorem host_v2 (c : Dev nD) : (hostV m c (Proc.devRef .tc main_v2) : S131072x3.Idx → EReal)
    = shapeCast S131072x3 (m ((c : Thread nD τ).loc main_arg2) : S64x2048x3.Idx → EReal) shapeCasts_S64x2048x3_S131072x3 := by
  dsimp only [hostV]
  simp only [hostOps0, List.flatten_cons, List.flatten_nil, List.append_nil, List.cons_append, List.nil_append]
  after_results
  rfl

theorem host_v3 (c : Dev nD) : (hostV m c (Proc.devRef .tc main_v3) : S131072x3.Idx → EReal)
    = shapeCast S131072x3 (m ((c : Thread nD τ).loc main_arg3) : S64x2048x3.Idx → EReal) shapeCasts_S64x2048x3_S131072x3 := by
  dsimp only [hostV]
  simp only [hostOps0, List.flatten_cons, List.flatten_nil, List.append_nil, List.cons_append, List.nil_append]
  after_results
  rfl

theorem host_v4 (c : Dev nD) : (hostV m c (Proc.devRef .tc main_v4) : S1x66.Idx → EReal)
    = shapeCast S1x66 (m ((c : Thread nD τ).loc main_arg4) : S22x3.Idx → EReal) shapeCasts_S22x3_S1x66 := by
  dsimp only [hostV]
  simp only [hostOps0, List.flatten_cons, List.flatten_nil, List.append_nil, List.cons_append, List.nil_append]
  after_results
  rfl

theorem host_v6 (c : Dev nD) : (hostV m c (Proc.devRef .tc main_v6) : S10x66.Idx → EReal)
    = shapeCast S10x66 (transpose S10x22x3 [2, 0, 1] (m ((c : Thread nD τ).loc main_arg5) : S22x3x10.Idx → EReal) transposes_S22x3x10_S10x22x3_2_0_1) shapeCasts_S10x22x3_S10x66 := by
  dsimp only [hostV]
  simp only [hostOps0, List.flatten_cons, List.flatten_nil, List.append_nil, List.cons_append, List.nil_append]
  after_results
  rfl

/-! ## The flattened arrays at explicit coordinates -/

/-- A [64, 2048, n] array flattened to [131072, n]: row 2048·b + l is token (b, l). -/
theorem rows_apply {n : Nat} (x : (⟨3, ![64, 2048, n]⟩ : Shape).Idx → EReal)
    (h : (⟨3, ![64, 2048, n]⟩ : Shape).ShapeCasts ⟨2, ![131072, n]⟩)
    (b : Fin 64) (l : Fin 2048) (k : Fin n) (q : Fin 131072) (hq : q.val = 2048 * b.val + l.val) :
    shapeCast (⟨2, ![131072, n]⟩ : Shape) x h (ix2 q k) = x (ix3 b l k) := by
  refine shapeCast_apply x h (ix2 q k) (ix3 b l k) ?_
  rw [Shape.rowMajor_val_three, Shape.rowMajor_val_two]
  show (b.val * 2048 + l.val) * n + k.val = q.val * n + k.val
  rw [hq, Nat.mul_comm 2048 b.val]

/-- The [22, 3] template as one row of 66: column 3j + c is entry (j, c). -/
theorem tmpl_apply (x : S22x3.Idx → EReal) (j : Fin 22) (c : Fin 3) (k : Fin 66) (hk : k.val = 3 * j.val + c.val) :
    shapeCast S1x66 x shapeCasts_S22x3_S1x66 (ix2 (0 : Fin 1) k) = x (ix2 j c) := by
  refine shapeCast_apply x _ (ix2 (0 : Fin 1) k) (ix2 j c) ?_
  rw [Shape.rowMajor_val_two, Shape.rowMajor_val_two]
  show j.val * 3 + c.val = 0 * 66 + k.val
  omega

/-- The [22, 3, 10] directions with the coefficient axis moved to the front and the rest flattened:
    row k, column 3j + c is entry (j, c, k). -/
theorem dirs_apply (x : S22x3x10.Idx → EReal) (j : Fin 22) (c : Fin 3) (k : Fin 10) (q : Fin 66)
    (hq : q.val = 3 * j.val + c.val) :
    shapeCast S10x66 (transpose S10x22x3 [2, 0, 1] x transposes_S22x3x10_S10x22x3_2_0_1) shapeCasts_S10x22x3_S10x66 (ix2 k q)
      = x (ix3 j c k) := by
  refine (shapeCast_apply _ _ (ix2 k q) (ix3 k j c) ?_).trans ?_
  · rw [Shape.rowMajor_val_three, Shape.rowMajor_val_two]
    show (k.val * 22 + j.val) * 3 + c.val = k.val * 66 + q.val
    omega
  · refine transpose_apply [2, 0, 1] x _ (ix3 k j c) (ix3 j c k) fun a => ?_
    match a with
    | ⟨0, _⟩ => rfl
    | ⟨1, _⟩ => rfl
    | ⟨2, _⟩ => rfl

/-! ## A row of the blocks as a token of the arrays -/

/-- A row of the six blocks, each block's entries being the arrays' at token (b, l), is that token. -/
theorem tokBlk_eq_tokOf
    (x0 : (⟨2, ![2048, 63]⟩ : Shape).Idx → EReal) (x1 : (⟨2, ![2048, 10]⟩ : Shape).Idx → EReal)
    (x2 : (⟨2, ![2048, 3]⟩ : Shape).Idx → EReal) (x3 : (⟨2, ![2048, 3]⟩ : Shape).Idx → EReal)
    (x4 : (⟨2, ![1, 66]⟩ : Shape).Idx → EReal) (x5 : (⟨2, ![10, 66]⟩ : Shape).Idx → EReal)
    (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal)
    (b : Fin 64) (l : Fin 2048)
    (h0 : ∀ k : Fin 63, x0 (ix2 l k) = bp (ix3 b l k))
    (h1 : ∀ k : Fin 10, x1 (ix2 l k) = be (ix3 b l k))
    (h2 : ∀ k : Fin 3, x2 (ix2 l k) = go (ix3 b l k))
    (h3 : ∀ k : Fin 3, x3 (ix2 l k) = tl (ix3 b l k))
    (h4 : ∀ (j : Fin 22) (c : Fin 3) (q : Fin 66), q.val = 3 * j.val + c.val → x4 (ix2 0 q) = jt (ix2 j c))
    (h5 : ∀ (j : Fin 22) (c : Fin 3) (k : Fin 10) (q : Fin 66), q.val = 3 * j.val + c.val → x5 (ix2 k q) = jsd (ix3 j c k)) :
    tokBlk x0 x1 x2 x3 x4 x5 l = tokOf bp be go tl jt jsd b l := by
  unfold tokBlk tokOf
  congr 1
  · funext j c
    unfold cat66
    by_cases hj : j.val = 0
    · rw [dif_pos hj, dif_pos (show (3 * j.val + c.val) < 3 by have := c.isLt; omega), h2]
      exact congrArg go (congrArg (ix3 b l) (Fin.ext (by show c.val = 3 * j.val + c.val; omega)))
    · rw [dif_neg hj, dif_neg (show ¬ (3 * j.val + c.val) < 3 by omega), h0]
      exact congrArg bp (congrArg (ix3 b l) (Fin.ext (by show 3 * (j.val - 1) + c.val = 3 * j.val + c.val - 3; omega)))
  · funext j c
    rw [h4 j c _ rfl]
    refine congrArg _ (Finset.sum_congr rfl fun k _ => ?_)
    rw [h1, h5 j c k _ rfl]
  · funext c
    exact h3 c

/-! ## The grid -/

/-- The printed index maps over the grid: a token window's block index is the point's number on the row
    axis and 0 on the others; the two shared windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The grid has 64 points. -/
theorem N64 : cfg0.N = 64 := N_0

theorem hz2 : (![0, 0] : Fin 2 → Nat) = fun _ => 0 := funext fun a => by fin_cases a <;> rfl
theorem hz3 : (![0, 0, 0] : Fin 3 → Nat) = fun _ => 0 := funext fun a => by fin_cases a <;> rfl

/-! ## The result rows and the result array -/

/-- The token of row q of the flattened arrays: batch q / 2048, position q % 2048. -/
def rowTok (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal)
    (q : Fin 131072) : Tok :=
  tokOf bp be go tl jt jsd ⟨q.val / 2048, by have := q.isLt; omega⟩ ⟨q.val % 2048, Nat.mod_lt _ (by decide)⟩

/-- The flattened result: row q, joint j, coordinate c. -/
def flatG (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal) :
    (⟨3, ![131072, 22, 3]⟩ : Shape).Idx → EReal :=
  fun i => joints (rowTok bp be go tl jt jsd (i 0)) (i 1) (i 2)

theorem rowTok_eq (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal)
    (b : Fin 64) (l : Fin 2048) (q : Fin 131072) (hq : q.val = 2048 * b.val + l.val) :
    rowTok bp be go tl jt jsd q = tokOf bp be go tl jt jsd b l := by
  unfold rowTok
  have hb : (⟨q.val / 2048, by have := q.isLt; omega⟩ : Fin 64) = b := Fin.ext (by show q.val / 2048 = b.val; have := l.isLt; omega)
  have hl : (⟨q.val % 2048, Nat.mod_lt _ (by decide)⟩ : Fin 2048) = l := Fin.ext (by show q.val % 2048 = l.val; have := l.isLt; omega)
  rw [hb, hl]

/-- The flattened result at an index whose row is 2048·b + r: position j, coordinate cc of token (b, r). -/
theorem flatG_at (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal)
    (b : Fin 64) (r : Fin 2048) (j : Fin 22) (cc : Fin 3) (i : (⟨3, ![131072, 22, 3]⟩ : Shape).Idx)
    (h0 : (i 0).val = 2048 * b.val + r.val) (h1 : (i 1).val = j.val) (h2 : (i 2).val = cc.val) :
    flatG bp be go tl jt jsd i = joints (tokOf bp be go tl jt jsd b r) j cc := by
  show joints (rowTok bp be go tl jt jsd (i 0)) (i 1) (i 2) = _
  rw [rowTok_eq bp be go tl jt jsd b r (i 0) h0]
  have e1 : (i 1 : Fin 22) = j := Fin.ext h1
  have e2 : (i 2 : Fin 3) = cc := Fin.ext h2
  rw [e1, e2]

/-- The flattened result reshaped to [64, 2048, 22, 3] is the result array. -/
theorem reshape_flatG (bp : (⟨3, ![64, 2048, 63]⟩ : Shape).Idx → EReal) (be : (⟨3, ![64, 2048, 10]⟩ : Shape).Idx → EReal)
    (go : (⟨3, ![64, 2048, 3]⟩ : Shape).Idx → EReal) (tl : (⟨3, ![64, 2048, 3]⟩ : Shape).Idx → EReal)
    (jt : (⟨2, ![22, 3]⟩ : Shape).Idx → EReal) (jsd : (⟨3, ![22, 3, 10]⟩ : Shape).Idx → EReal) :
    shapeCast S64x2048x22x3 (flatG bp be go tl jt jsd) shapeCasts_S131072x22x3_S64x2048x22x3 = G bp be go tl jt jsd := by
  funext i
  obtain ⟨b, l, j, c, rfl⟩ : ∃ (b : Fin 64) (l : Fin 2048) (j : Fin 22) (c : Fin 3), i = ix4 b l j c := ⟨i 0, i 1, i 2, i 3, eq_ix4 i⟩
  have hq : 2048 * b.val + l.val < 131072 := by have := b.isLt; have := l.isLt; omega
  refine (shapeCast_apply _ _ (ix4 b l j c) (ix3 (⟨2048 * b.val + l.val, hq⟩ : Fin 131072) j c) ?_).trans ?_
  · rw [Shape.rowMajor_val_three, Shape.rowMajor_val_four]
    show ((2048 * b.val + l.val) * 22 + j.val) * 3 + c.val = ((b.val * 2048 + l.val) * 22 + j.val) * 3 + c.val
    rw [Nat.mul_comm 2048 b.val]
  · rw [G_ix4]
    exact flatG_at bp be go tl jt jsd b l j c _ rfl rfl rfl

/-- An index of the result rows lies in point t's block iff each coordinate is in the block's range on its axis. -/
theorem mem_blk6 (t : Fin cfg0.N) (i : S131072x22x3.Idx) :
    i ∈ ((cfg0.win 6).blk t).view.set ↔ ∀ a : Fin 3, win0_6.index t a * S2048x22x3.size a ≤ (i a).val ∧ (i a).val < win0_6.index t a * S2048x22x3.size a + S2048x22x3.size a := by
  show i ∈ ((View.whole main_v7).slice (win0_6.rect t)).set ↔ _
  rw [View.set_slice_whole, Rect.mem_set_unit]
  exact Iff.rfl

/-- Every index of the result rows is in the block of the point numbered by its row's batch. -/
theorem cover6 (i : S131072x22x3.Idx) : ∃ t : Fin cfg0.N, (cfg0.win 6).flush t = true ∧ i ∈ ((cfg0.win 6).blk t).view.set := by
  have hi0 : (i 0).val < 131072 := (i 0).isLt
  have hi1 : (i 1).val < 22 := (i 1).isLt
  have hi2 : (i 2).val < 3 := (i 2).isLt
  have hN : cfg0.N = 64 := N64
  refine ⟨⟨(i 0).val / 2048, by rw [hN]; omega⟩, flush0_6 _, ?_⟩
  rw [mem_blk6]
  obtain ⟨-, -, -, -, -, -, -, -, -, -, -, -, e0, e1, e2⟩ := idx_facts ⟨(i 0).val / 2048, by rw [hN]; omega⟩
  intro a
  match a with
  | ⟨0, _⟩ => show win0_6.index _ (0 : Fin 3) * 2048 ≤ (i 0).val ∧ (i 0).val < win0_6.index _ (0 : Fin 3) * 2048 + 2048; rw [e0]; show (i 0).val / 2048 * 2048 ≤ (i 0).val ∧ (i 0).val < (i 0).val / 2048 * 2048 + 2048; omega
  | ⟨1, _⟩ => show win0_6.index _ (1 : Fin 3) * 22 ≤ (i 1).val ∧ (i 1).val < win0_6.index _ (1 : Fin 3) * 22 + 22; rw [e1]; omega
  | ⟨2, _⟩ => show win0_6.index _ (2 : Fin 3) * 3 ≤ (i 2).val ∧ (i 2).val < win0_6.index _ (2 : Fin 3) * 3 + 3; rw [e2]; omega

end Cert.FK.K

end
-- ==== Proof.KBodyIdx.lean ====
/-
  The kernel's body read row by row on the extended reals: row r of every block the body computes is the
  per-token mathematics of the token that row r of the six loaded blocks carries. The building blocks first
  (Rodrigues' rotation, the two products, the skeleton and its slices), then the tree's root and joint 1;
  joints 2 to 21 repeat joint 1's lemmas in the next module.
-/
import proofs.«127648_j26603027432101_1_alg».proof.Proof.KBodyT

noncomputable section

namespace Cert.FK.K

open Cert.KernelIdeal Cert.KernelIdeal.Gen Idealize.ShloMosaic Idealize.ShloMosaic.TcCoe Idealize.SL.Sem
open Idealize.ShloMosaic.ValueIdx Cert.FK

/-! ## Reading the blocks row by row, on the extended reals -/

section Rows

/-- Row `r` of a block of vectors. -/
def rowOf (v : FVec Ideal S2048x3 .f32) (r : Fin 2048) : Fin 3 → EReal := fun c => v (ix2 r c)

/-- Row `r` of a block of matrices. -/
def RotV.row (M : RotV Ideal) (r : Fin 2048) : Rot :=
  { e00 := M.e00 (ix2 r 0), e01 := M.e01 (ix2 r 0), e02 := M.e02 (ix2 r 0),
    e10 := M.e10 (ix2 r 0), e11 := M.e11 (ix2 r 0), e12 := M.e12 (ix2 r 0),
    e20 := M.e20 (ix2 r 0), e21 := M.e21 (ix2 r 0), e22 := M.e22 (ix2 r 0) }

theorem col0_apply (v : FVec Ideal S2048x3 .f32) (r : Fin 2048) : col0 v (ix2 r 0) = v (ix2 r 0) :=
  slice2_axis1_apply 0 v _ r 0 0 rfl
theorem col1_apply (v : FVec Ideal S2048x3 .f32) (r : Fin 2048) : col1 v (ix2 r 0) = v (ix2 r 1) :=
  slice2_axis1_apply 1 v _ r 0 1 rfl
theorem col2_apply (v : FVec Ideal S2048x3 .f32) (r : Fin 2048) : col2 v (ix2 r 0) = v (ix2 r 2) :=
  slice2_axis1_apply 2 v _ r 0 2 rfl

/-- The sum of squares along a row. -/
theorem sqV_apply (a : FVec Ideal S2048x3 .f32) (r : Fin 2048) :
    multiReduction .add [1] S2048 (mulf a a) 0x00000000#32 reduces_S2048x3_S2048 (.inl rfl) rfl (ix1 r) = sqn (rowOf a r) := by
  refine (Ideal.multiReduction_add_single (mulf a a) 0x00000000#32 reduces_S2048x3_S2048 (.inl rfl) rfl (ix1 r)).trans ?_
  show ∑ k : Fin 3, (mulf a a) (reduces_S2048x3_S2048.lift (ix1 r) k) = ∑ k : Fin 3, a (ix2 r k) * a (ix2 r k)
  refine Finset.sum_congr rfl fun k _ => ?_
  have hk : reduces_S2048x3_S2048.lift (ix1 r) k = ix2 r k := by
    funext c
    match c with
    | ⟨0, _⟩ => exact Fin.ext rfl
    | ⟨1, _⟩ => exact Fin.ext rfl
  rw [hk]
  rfl

/-- The angle column at row `r` is the regularised angle of row `r`. -/
theorem angV_apply (a : FVec Ideal S2048x3 .f32) (r : Fin 2048) : angV a (ix2 r 0) = ang (rowOf a r) := by
  unfold angV ang
  show Ideal.sqrt (shapeCast S2048x1 _ shapeCasts_S2048_S2048x1 (ix2 r 0) + wEps) = _
  rw [shapeCast_apply _ shapeCasts_S2048_S2048x1 (ix2 r 0) (ix1 r)
    (by rw [Shape.rowMajor_val_one, Shape.rowMajor_val_two]; show r.val = r.val * 1 + 0; omega)]
  exact congrArg (fun t => Ideal.sqrt (t + wEps)) (sqV_apply a r)

/-- The axis block at `(r, c)` is coordinate `c` of row `r` over its angle. -/
theorem axV_apply (a : FVec Ideal S2048x3 .f32) (r : Fin 2048) (c : Fin 3) : axV a (ix2 r c) = ax (rowOf a r) c := by
  unfold axV ax
  rw [divf_apply, broadcastTo_apply (angV a) broadcasts_S2048x1_S2048x3 (ix2 r c) (ix2 r 0)
    (fun b => by match b with | ⟨0, _⟩ => rfl | ⟨1, _⟩ => rfl), angV_apply]
  rfl

theorem omcV_apply (a : FVec Ideal S2048x3 .f32) (r : Fin 2048) : omcV a (ix2 r 0) = wOne - Ideal.cos (ang (rowOf a r)) := by
  unfold omcV
  show wOne - Ideal.cos (angV a (ix2 r 0)) = _
  rw [angV_apply]

theorem cosV_apply (a : FVec Ideal S2048x3 .f32) (r : Fin 2048) :
    (cos (angV a) : FVec Ideal S2048x1 .f32) (ix2 r 0) = Ideal.cos (ang (rowOf a r)) := by
  show Ideal.cos (angV a (ix2 r 0)) = _
  rw [angV_apply]

theorem sinV_apply (a : FVec Ideal S2048x3 .f32) (r : Fin 2048) :
    (sin (angV a) : FVec Ideal S2048x1 .f32) (ix2 r 0) = Ideal.sin (ang (rowOf a r)) := by
  show Ideal.sin (angV a (ix2 r 0)) = _
  rw [angV_apply]

/-- Row `r` of the block's rotations is Rodrigues' rotation of row `r`. -/
theorem rodV_row (a : FVec Ideal S2048x3 .f32) (r : Fin 2048) : (rodV a).row r = rod (rowOf a r) := by
  unfold RotV.row rodV rod
  simp only [addf_apply, subf_apply, mulf_apply, col0_apply, col1_apply, col2_apply, axV_apply, omcV_apply, cosV_apply,
    sinV_apply]

/-- Row `r` of a product of blocks of matrices is the product of the rows. -/
theorem mm3V_row (A B : RotV Ideal) (r : Fin 2048) : (mm3V A B).row r = mm3 (A.row r) (B.row r) := rfl

end Rows

section Rows2

/-- A matrix block applied to a vector block, at `(r, c)`: coordinate `c` of row `r`'s matrix applied to row `r`. -/
theorem mv3V_apply (A : RotV Ideal) (v : FVec Ideal S2048x3 .f32) (r : Fin 2048) (c : Fin 3) :
    mv3V A v (ix2 r c) = mv3 (A.row r) (rowOf v r) c := by
  unfold mv3V
  match c with
  | ⟨0, _⟩ =>
    refine (concatenate_apply_piece (t := S2048x3) 1 _ _ _ 0 (by simp) S2048x1 _ rfl rfl 0 rfl
      (ix2 r 0) (fun b hb => by match b with | ⟨0, _⟩ => rfl | ⟨1, _⟩ => exact absurd rfl hb) rfl).trans ?_
    simp only [addf_apply, mulf_apply, col0_apply, col1_apply, col2_apply]
    rfl
  | ⟨1, _⟩ =>
    refine (concatenate_apply_piece (t := S2048x3) 1 _ _ _ 1 (by simp) S2048x1 _ rfl rfl 1 rfl
      (ix2 r 0) (fun b hb => by match b with | ⟨0, _⟩ => rfl | ⟨1, _⟩ => exact absurd rfl hb) rfl).trans ?_
    simp only [addf_apply, mulf_apply, col0_apply, col1_apply, col2_apply]
    rfl
  | ⟨2, _⟩ =>
    refine (concatenate_apply_piece (t := S2048x3) 1 _ _ _ 2 (by simp) S2048x1 _ rfl rfl 2 rfl
      (ix2 r 0) (fun b hb => by match b with | ⟨0, _⟩ => rfl | ⟨1, _⟩ => exact absurd rfl hb) rfl).trans ?_
    simp only [addf_apply, mulf_apply, col0_apply, col1_apply, col2_apply]
    rfl

/-- Row `r` of a child's position block. -/
theorem stepTV_row (P : RotV Ideal) (pT o : FVec Ideal S2048x3 .f32) (r : Fin 2048) :
    rowOf (stepTV P pT o) r = fun c => mv3 (P.row r) (rowOf o r) c + rowOf pT r c := by
  funext c
  unfold stepTV rowOf
  rw [addf_apply, mv3V_apply]
  rfl

end Rows2

section Skel

/-- The token that row `r` of the six blocks carries. -/
def tokI (I : Ins Ideal) (r : Fin 2048) : Tok := tokBlk I.b0 I.b1 I.b2 I.b3 I.b4 I.b5 r

theorem inb0_eq (I : Ins Ideal) : inb0 I = I.b0 := shapeCast_self _ _
theorem inb1_eq (I : Ins Ideal) : inb1 I = I.b1 := shapeCast_self _ _
theorem inb2_eq (I : Ins Ideal) : inb2 I = I.b2 := shapeCast_self _ _
theorem inb3_eq (I : Ins Ideal) : inb3 I = I.b3 := shapeCast_self _ _
theorem inb4_eq (I : Ins Ideal) : inb4 I = I.b4 := shapeCast_self _ _
theorem inb5_eq (I : Ins Ideal) : inb5 I = I.b5 := shapeCast_self _ _

/-- One term of the skeleton at `(r, m)`: row `r`'s coefficient `k` times direction `k`'s entry `m`. -/
theorem termV_apply (k : Nat) (hk : k < 10) (b : FVec Ideal S2048x10 .f32) (d : FVec Ideal S10x66 .f32)
    (hb : S2048x10.Slices ![0, k] S2048x1) (hd : S10x66.Slices ![k, 0] S1x66) (r : Fin 2048) (m : Fin 66) :
    termV k b d hb hd (ix2 r m) = b (ix2 r ⟨k, hk⟩) * d (ix2 ⟨k, hk⟩ m) := by
  unfold termV
  rw [mulf_apply,
    broadcastTo_apply _ broadcasts_S2048x1_S2048x66 (ix2 r m) (ix2 r 0)
      (fun a => by match a with | ⟨0, _⟩ => rfl | ⟨1, _⟩ => rfl),
    broadcastTo_1b_ab_apply,
    slice2_axis1_apply k b hb r 0 ⟨k, hk⟩ rfl,
    slice2_axis0_apply k d hd 0 m ⟨k, hk⟩ rfl]

/-- A sum over ten indices, written out left to right. -/
theorem sum10 (g : Fin 10 → EReal) : ∑ k, g k = g 0 + g 1 + g 2 + g 3 + g 4 + g 5 + g 6 + g 7 + g 8 + g 9 := by
  simp only [Fin.sum_univ_castSucc, Fin.sum_univ_zero, zero_add]
  rfl

/-- The skeleton block at `(r, m)`: the template's entry `m` plus the ten weighted directions' entries. -/
theorem skelV_apply (I : Ins Ideal) (r : Fin 2048) (m : Fin 66) :
    skelV I (ix2 r m) = I.b4 (ix2 0 m) + ∑ k : Fin 10, I.b1 (ix2 r k) * I.b5 (ix2 k m) := by
  unfold skelV
  simp only [addf_apply]
  rw [termV_apply 0 (by decide), termV_apply 1 (by decide), termV_apply 2 (by decide), termV_apply 3 (by decide),
    termV_apply 4 (by decide), termV_apply 5 (by decide), termV_apply 6 (by decide), termV_apply 7 (by decide),
    termV_apply 8 (by decide), termV_apply 9 (by decide), broadcastTo_1b_ab_apply, inb4_eq, inb1_eq, inb5_eq,
    shapeCast_self, sum10]
  simp only [add_assoc]
  rfl

/-- Three columns of the skeleton from column `3 j` are joint `j`'s point. -/
theorem skJ_apply (j : Fin 22) (o : Nat) (ho : o = 3 * j.val) (h : S2048x66.Slices ![0, o] S2048x3) (I : Ins Ideal)
    (r : Fin 2048) (c : Fin 3) : skJ o h I (ix2 r c) = (tokI I r).sk j c := by
  subst ho
  unfold skJ
  rw [slice2_axis1_eq, skelV_apply]
  rfl

/-- Three columns of the body pose from column `3 (j - 1)` are joint `j`'s axis-angle vector, `j` not the root. -/
theorem aaJ_apply (j : Fin 22) (hj : j.val ≠ 0) (o : Nat) (ho : o = 3 * (j.val - 1)) (h : S2048x63.Slices ![0, o] S2048x3)
    (I : Ins Ideal) (r : Fin 2048) (c : Fin 3) : aaJ o h I (ix2 r c) = (tokI I r).aa j c := by
  subst ho
  unfold aaJ
  rw [slice2_axis1_eq, inb0_eq]
  show _ = if h : j.val = 0 then _ else _
  rw [dif_neg hj]

end Skel

section Tree

/-- The difference of two blocks whose rows are two joints' points is the one's offset from the other. -/
theorem off_row (a b : FVec Ideal S2048x3 .f32) (T : Tok) (j p : Fin 22) (r : Fin 2048) (ha : rowOf a r = T.sk j)
    (hb : rowOf b r = T.sk p) : rowOf (subf a b) r = off T j p := by
  funext c
  unfold off
  rw [← ha, ← hb]
  rfl

/-- A child's rotation block, row by row: its parent's row times Rodrigues' rotation of its own axis-angle row. -/
theorem childR_row (P : RotV Ideal) (a : FVec Ideal S2048x3 .f32) (T : Tok) (j : Fin 22) (r : Fin 2048) (pR : Rot)
    (hP : P.row r = pR) (ha : rowOf a r = T.aa j) : (mm3V P (rodV a)).row r = stepR pR T j := by
  unfold stepR
  rw [mm3V_row, hP, rodV_row, ha]

/-- A child's position block, row by row: its parent's rotation applied to its offset, plus its parent's position. -/
theorem childT_row (P : RotV Ideal) (pT sj sp : FVec Ideal S2048x3 .f32) (T : Tok) (j p : Fin 22) (r : Fin 2048) (pR : Rot)
    (pt : Fin 3 → EReal) (hP : P.row r = pR) (hT : rowOf pT r = pt) (hj : rowOf sj r = T.sk j) (hp : rowOf sp r = T.sk p) :
    rowOf (stepTV P pT (subf sj sp)) r = stepT pR pt T j p := by
  unfold stepT
  rw [stepTV_row, hP, hT, off_row sj sp T j p r hj hp]

/-! The root. -/

theorem skV0_row (I : Ins Ideal) (r : Fin 2048) : rowOf (skV0 I) r = (tokI I r).sk 0 :=
  funext fun c => skJ_apply 0 0 rfl slices_S2048x66_o0_0_S2048x3 I r c
theorem aaV0_row (I : Ins Ideal) (r : Fin 2048) : rowOf (inb2 I) r = (tokI I r).aa 0 := by
  rw [inb2_eq]
  rfl
theorem gRV0_row (I : Ins Ideal) (r : Fin 2048) : (gRV0 I).row r = gR0 (tokI I r) := by
  unfold gRV0 gR0
  rw [rodV_row, aaV0_row]
theorem gTV0_row (I : Ins Ideal) (r : Fin 2048) : rowOf (gTV0 I) r = gT0 (tokI I r) := by
  funext c
  unfold gTV0 gT0
  show skV0 I (ix2 r c) + inb3 I (ix2 r c) = _
  rw [inb3_eq, ← skV0_row]
  rfl

/-! Joint 1, whose parent is the root: the four lemmas every later joint repeats. -/

theorem skV1_row (I : Ins Ideal) (r : Fin 2048) : rowOf (skV1 I) r = (tokI I r).sk 1 :=
  funext fun c => skJ_apply 1 3 rfl slices_S2048x66_o0_3_S2048x3 I r c
theorem aaV1_row (I : Ins Ideal) (r : Fin 2048) : rowOf (aaV1 I) r = (tokI I r).aa 1 :=
  funext fun c => aaJ_apply 1 (by decide) 0 rfl slices_S2048x63_o0_0_S2048x3 I r c
theorem gRV1_row (I : Ins Ideal) (r : Fin 2048) : (gRV1 I).row r = gR1 (tokI I r) :=
  childR_row (gRV0 I) (aaV1 I) (tokI I r) 1 r (gR0 (tokI I r)) (gRV0_row I r) (aaV1_row I r)
theorem gTV1_row (I : Ins Ideal) (r : Fin 2048) : rowOf (gTV1 I) r = gT1 (tokI I r) :=
  childT_row (gRV0 I) (gTV0 I) (skV1 I) (skV0 I) (tokI I r) 1 0 r (gR0 (tokI I r)) (gT0 (tokI I r))
    (gRV0_row I r) (gTV0_row I r) (skV1_row I r) (skV0_row I r)

/-! ## The stored block -/

/-- A [2048, 3] block given a middle unit axis reads, at `(r, 0, c)`, the block at `(r, c)`. -/
theorem cast3_apply (v : FVec Ideal S2048x3 .f32) (r : Fin 2048) (c : Fin 3) :
    shapeCast S2048x1x3 v shapeCasts_S2048x3_S2048x1x3 (ix3 r 0 c) = v (ix2 r c) :=
  shapeCast_apply v _ (ix3 r 0 c) (ix2 r c) (by
    rw [Shape.rowMajor_val_two, Shape.rowMajor_val_three]
    show r.val * 3 + c.val = (r.val * 1 + 0) * 3 + c.val
    omega)

/-- The 22 positions, each with its middle unit axis, as a family over the joints. -/
def posV (I : Ins Ideal) (j : Fin 22) : FVec Ideal S2048x1x3 .f32 :=
  shapeCast S2048x1x3
    (![gTV0 I, gTV1 I, gTV2 I, gTV3 I, gTV4 I, gTV5 I, gTV6 I, gTV7 I, gTV8 I, gTV9 I, gTV10 I, gTV11 I, gTV12 I, gTV13 I,
      gTV14 I, gTV15 I, gTV16 I, gTV17 I, gTV18 I, gTV19 I, gTV20 I, gTV21 I] j)
    shapeCasts_S2048x3_S2048x1x3

/-- The stored block is the family laid side by side along the middle axis. -/
theorem fkV_eq (I : Ins Ideal) :
    fkV I = concatenate S2048x22x3 1 (List.ofFn fun n : Fin 22 => ⟨S2048x1x3, posV I n⟩) concatenates_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x22x3_d1 := rfl

/-- The stored block at `(r, j, c)` is member `j` of the family at `(r, 0, c)`. -/
theorem fkV_apply_pos (I : Ins Ideal) (r : Fin 2048) (j : Fin 22) (c : Fin 3) : fkV I (ix3 r j c) = posV I j (ix3 r 0 c) := by
  rw [fkV_eq]
  exact concatenate_ofFn_unit_apply (t := S2048x22x3) 1 (posV I) _ rfl rfl (ix3 r j c) j rfl (ix3 r 0 c)
    (fun b hb => by
      match b with
      | ⟨0, _⟩ => rfl
      | ⟨1, _⟩ => exact absurd rfl hb
      | ⟨2, _⟩ => rfl)

end Tree

end Cert.FK.K

end
-- ==== Proof.KBodyTIdx.lean ====
import proofs.«127648_j26603027432101_1_alg».proof.Proof.KBodyIdx

noncomputable section

namespace Cert.FK.K

open Cert.KernelIdeal Cert.KernelIdeal.Gen Idealize.ShloMosaic Idealize.ShloMosaic.TcCoe Idealize.SL.Sem
open Idealize.ShloMosaic.ValueIdx Cert.FK

theorem skV2_row (I : Ins Ideal) (r : Fin 2048) : rowOf (skV2 I) r = (tokI I r).sk 2 :=
  funext fun c => skJ_apply 2 6 rfl slices_S2048x66_o0_6_S2048x3 I r c
theorem aaV2_row (I : Ins Ideal) (r : Fin 2048) : rowOf (aaV2 I) r = (tokI I r).aa 2 :=
  funext fun c => aaJ_apply 2 (by decide) 3 rfl slices_S2048x63_o0_3_S2048x3 I r c
theorem gRV2_row (I : Ins Ideal) (r : Fin 2048) : (gRV2 I).row r = gR2 (tokI I r) :=
  childR_row (gRV0 I) (aaV2 I) (tokI I r) 2 r (gR0 (tokI I r)) (gRV0_row I r) (aaV2_row I r)
theorem gTV2_row (I : Ins Ideal) (r : Fin 2048) : rowOf (gTV2 I) r = gT2 (tokI I r) :=
  childT_row (gRV0 I) (gTV0 I) (skV2 I) (skV0 I) (tokI I r) 2 0 r (gR0 (tokI I r)) (gT0 (tokI I r))
    (gRV0_row I r) (gTV0_row I r) (skV2_row I r) (skV0_row I r)
theorem skV3_row (I : Ins Ideal) (r : Fin 2048) : rowOf (skV3 I) r = (tokI I r).sk 3 :=
  funext fun c => skJ_apply 3 9 rfl slices_S2048x66_o0_9_S2048x3 I r c
theorem aaV3_row (I : Ins Ideal) (r : Fin 2048) : rowOf (aaV3 I) r = (tokI I r).aa 3 :=
  funext fun c => aaJ_apply 3 (by decide) 6 rfl slices_S2048x63_o0_6_S2048x3 I r c
theorem gRV3_row (I : Ins Ideal) (r : Fin 2048) : (gRV3 I).row r = gR3 (tokI I r) :=
  childR_row (gRV0 I) (aaV3 I) (tokI I r) 3 r (gR0 (tokI I r)) (gRV0_row I r) (aaV3_row I r)
theorem gTV3_row (I : Ins Ideal) (r : Fin 2048) : rowOf (gTV3 I) r = gT3 (tokI I r) :=
  childT_row (gRV0 I) (gTV0 I) (skV3 I) (skV0 I) (tokI I r) 3 0 r (gR0 (tokI I r)) (gT0 (tokI I r))
    (gRV0_row I r) (gTV0_row I r) (skV3_row I r) (skV0_row I r)
theorem skV4_row (I : Ins Ideal) (r : Fin 2048) : rowOf (skV4 I) r = (tokI I r).sk 4 :=
  funext fun c => skJ_apply 4 12 rfl slices_S2048x66_o0_12_S2048x3 I r c
theorem aaV4_row (I : Ins Ideal) (r : Fin 2048) : rowOf (aaV4 I) r = (tokI I r).aa 4 :=
  funext fun c => aaJ_apply 4 (by decide) 9 rfl slices_S2048x63_o0_9_S2048x3 I r c
theorem gRV4_row (I : Ins Ideal) (r : Fin 2048) : (gRV4 I).row r = gR4 (tokI I r) :=
  childR_row (gRV1 I) (aaV4 I) (tokI I r) 4 r (gR1 (tokI I r)) (gRV1_row I r) (aaV4_row I r)
theorem gTV4_row (I : Ins Ideal) (r : Fin 2048) : rowOf (gTV4 I) r = gT4 (tokI I r) :=
  childT_row (gRV1 I) (gTV1 I) (skV4 I) (skV1 I) (tokI I r) 4 1 r (gR1 (tokI I r)) (gT1 (tokI I r))
    (gRV1_row I r) (gTV1_row I r) (skV4_row I r) (skV1_row I r)
theorem skV5_row (I : Ins Ideal) (r : Fin 2048) : rowOf (skV5 I) r = (tokI I r).sk 5 :=
  funext fun c => skJ_apply 5 15 rfl slices_S2048x66_o0_15_S2048x3 I r c
theorem aaV5_row (I : Ins Ideal) (r : Fin 2048) : rowOf (aaV5 I) r = (tokI I r).aa 5 :=
  funext fun c => aaJ_apply 5 (by decide) 12 rfl slices_S2048x63_o0_12_S2048x3 I r c
theorem gRV5_row (I : Ins Ideal) (r : Fin 2048) : (gRV5 I).row r = gR5 (tokI I r) :=
  childR_row (gRV2 I) (aaV5 I) (tokI I r) 5 r (gR2 (tokI I r)) (gRV2_row I r) (aaV5_row I r)
theorem gTV5_row (I : Ins Ideal) (r : Fin 2048) : rowOf (gTV5 I) r = gT5 (tokI I r) :=
  childT_row (gRV2 I) (gTV2 I) (skV5 I) (skV2 I) (tokI I r) 5 2 r (gR2 (tokI I r)) (gT2 (tokI I r))
    (gRV2_row I r) (gTV2_row I r) (skV5_row I r) (skV2_row I r)
theorem skV6_row (I : Ins Ideal) (r : Fin 2048) : rowOf (skV6 I) r = (tokI I r).sk 6 :=
  funext fun c => skJ_apply 6 18 rfl slices_S2048x66_o0_18_S2048x3 I r c
theorem aaV6_row (I : Ins Ideal) (r : Fin 2048) : rowOf (aaV6 I) r = (tokI I r).aa 6 :=
  funext fun c => aaJ_apply 6 (by decide) 15 rfl slices_S2048x63_o0_15_S2048x3 I r c
theorem gRV6_row (I : Ins Ideal) (r : Fin 2048) : (gRV6 I).row r = gR6 (tokI I r) :=
  childR_row (gRV3 I) (aaV6 I) (tokI I r) 6 r (gR3 (tokI I r)) (gRV3_row I r) (aaV6_row I r)
theorem gTV6_row (I : Ins Ideal) (r : Fin 2048) : rowOf (gTV6 I) r = gT6 (tokI I r) :=
  childT_row (gRV3 I) (gTV3 I) (skV6 I) (skV3 I) (tokI I r) 6 3 r (gR3 (tokI I r)) (gT3 (tokI I r))
    (gRV3_row I r) (gTV3_row I r) (skV6_row I r) (skV3_row I r)
theorem skV7_row (I : Ins Ideal) (r : Fin 2048) : rowOf (skV7 I) r = (tokI I r).sk 7 :=
  funext fun c => skJ_apply 7 21 rfl slices_S2048x66_o0_21_S2048x3 I r c
theorem aaV7_row (I : Ins Ideal) (r : Fin 2048) : rowOf (aaV7 I) r = (tokI I r).aa 7 :=
  funext fun c => aaJ_apply 7 (by decide) 18 rfl slices_S2048x63_o0_18_S2048x3 I r c
theorem gRV7_row (I : Ins Ideal) (r : Fin 2048) : (gRV7 I).row r = gR7 (tokI I r) :=
  childR_row (gRV4 I) (aaV7 I) (tokI I r) 7 r (gR4 (tokI I r)) (gRV4_row I r) (aaV7_row I r)
theorem gTV7_row (I : Ins Ideal) (r : Fin 2048) : rowOf (gTV7 I) r = gT7 (tokI I r) :=
  childT_row (gRV4 I) (gTV4 I) (skV7 I) (skV4 I) (tokI I r) 7 4 r (gR4 (tokI I r)) (gT4 (tokI I r))
    (gRV4_row I r) (gTV4_row I r) (skV7_row I r) (skV4_row I r)
theorem skV8_row (I : Ins Ideal) (r : Fin 2048) : rowOf (skV8 I) r = (tokI I r).sk 8 :=
  funext fun c => skJ_apply 8 24 rfl slices_S2048x66_o0_24_S2048x3 I r c
theorem aaV8_row (I : Ins Ideal) (r : Fin 2048) : rowOf (aaV8 I) r = (tokI I r).aa 8 :=
  funext fun c => aaJ_apply 8 (by decide) 21 rfl slices_S2048x63_o0_21_S2048x3 I r c
theorem gRV8_row (I : Ins Ideal) (r : Fin 2048) : (gRV8 I).row r = gR8 (tokI I r) :=
  childR_row (gRV5 I) (aaV8 I) (tokI I r) 8 r (gR5 (tokI I r)) (gRV5_row I r) (aaV8_row I r)
theorem gTV8_row (I : Ins Ideal) (r : Fin 2048) : rowOf (gTV8 I) r = gT8 (tokI I r) :=
  childT_row (gRV5 I) (gTV5 I) (skV8 I) (skV5 I) (tokI I r) 8 5 r (gR5 (tokI I r)) (gT5 (tokI I r))
    (gRV5_row I r) (gTV5_row I r) (skV8_row I r) (skV5_row I r)
theorem skV9_row (I : Ins Ideal) (r : Fin 2048) : rowOf (skV9 I) r = (tokI I r).sk 9 :=
  funext fun c => skJ_apply 9 27 rfl slices_S2048x66_o0_27_S2048x3 I r c
theorem aaV9_row (I : Ins Ideal) (r : Fin 2048) : rowOf (aaV9 I) r = (tokI I r).aa 9 :=
  funext fun c => aaJ_apply 9 (by decide) 24 rfl slices_S2048x63_o0_24_S2048x3 I r c
theorem gRV9_row (I : Ins Ideal) (r : Fin 2048) : (gRV9 I).row r = gR9 (tokI I r) :=
  childR_row (gRV6 I) (aaV9 I) (tokI I r) 9 r (gR6 (tokI I r)) (gRV6_row I r) (aaV9_row I r)
theorem gTV9_row (I : Ins Ideal) (r : Fin 2048) : rowOf (gTV9 I) r = gT9 (tokI I r) :=
  childT_row (gRV6 I) (gTV6 I) (skV9 I) (skV6 I) (tokI I r) 9 6 r (gR6 (tokI I r)) (gT6 (tokI I r))
    (gRV6_row I r) (gTV6_row I r) (skV9_row I r) (skV6_row I r)
theorem skV10_row (I : Ins Ideal) (r : Fin 2048) : rowOf (skV10 I) r = (tokI I r).sk 10 :=
  funext fun c => skJ_apply 10 30 rfl slices_S2048x66_o0_30_S2048x3 I r c
theorem gTV10_row (I : Ins Ideal) (r : Fin 2048) : rowOf (gTV10 I) r = gT10 (tokI I r) :=
  childT_row (gRV7 I) (gTV7 I) (skV10 I) (skV7 I) (tokI I r) 10 7 r (gR7 (tokI I r)) (gT7 (tokI I r))
    (gRV7_row I r) (gTV7_row I r) (skV10_row I r) (skV7_row I r)
theorem skV11_row (I : Ins Ideal) (r : Fin 2048) : rowOf (skV11 I) r = (tokI I r).sk 11 :=
  funext fun c => skJ_apply 11 33 rfl slices_S2048x66_o0_33_S2048x3 I r c
theorem gTV11_row (I : Ins Ideal) (r : Fin 2048) : rowOf (gTV11 I) r = gT11 (tokI I r) :=
  childT_row (gRV8 I) (gTV8 I) (skV11 I) (skV8 I) (tokI I r) 11 8 r (gR8 (tokI I r)) (gT8 (tokI I r))
    (gRV8_row I r) (gTV8_row I r) (skV11_row I r) (skV8_row I r)
theorem skV12_row (I : Ins Ideal) (r : Fin 2048) : rowOf (skV12 I) r = (tokI I r).sk 12 :=
  funext fun c => skJ_apply 12 36 rfl slices_S2048x66_o0_36_S2048x3 I r c
theorem aaV12_row (I : Ins Ideal) (r : Fin 2048) : rowOf (aaV12 I) r = (tokI I r).aa 12 :=
  funext fun c => aaJ_apply 12 (by decide) 33 rfl slices_S2048x63_o0_33_S2048x3 I r c
theorem gRV12_row (I : Ins Ideal) (r : Fin 2048) : (gRV12 I).row r = gR12 (tokI I r) :=
  childR_row (gRV9 I) (aaV12 I) (tokI I r) 12 r (gR9 (tokI I r)) (gRV9_row I r) (aaV12_row I r)
theorem gTV12_row (I : Ins Ideal) (r : Fin 2048) : rowOf (gTV12 I) r = gT12 (tokI I r) :=
  childT_row (gRV9 I) (gTV9 I) (skV12 I) (skV9 I) (tokI I r) 12 9 r (gR9 (tokI I r)) (gT9 (tokI I r))
    (gRV9_row I r) (gTV9_row I r) (skV12_row I r) (skV9_row I r)
theorem skV13_row (I : Ins Ideal) (r : Fin 2048) : rowOf (skV13 I) r = (tokI I r).sk 13 :=
  funext fun c => skJ_apply 13 39 rfl slices_S2048x66_o0_39_S2048x3 I r c
theorem aaV13_row (I : Ins Ideal) (r : Fin 2048) : rowOf (aaV13 I) r = (tokI I r).aa 13 :=
  funext fun c => aaJ_apply 13 (by decide) 36 rfl slices_S2048x63_o0_36_S2048x3 I r c
theorem gRV13_row (I : Ins Ideal) (r : Fin 2048) : (gRV13 I).row r = gR13 (tokI I r) :=
  childR_row (gRV9 I) (aaV13 I) (tokI I r) 13 r (gR9 (tokI I r)) (gRV9_row I r) (aaV13_row I r)
theorem gTV13_row (I : Ins Ideal) (r : Fin 2048) : rowOf (gTV13 I) r = gT13 (tokI I r) :=
  childT_row (gRV9 I) (gTV9 I) (skV13 I) (skV9 I) (tokI I r) 13 9 r (gR9 (tokI I r)) (gT9 (tokI I r))
    (gRV9_row I r) (gTV9_row I r) (skV13_row I r) (skV9_row I r)
theorem skV14_row (I : Ins Ideal) (r : Fin 2048) : rowOf (skV14 I) r = (tokI I r).sk 14 :=
  funext fun c => skJ_apply 14 42 rfl slices_S2048x66_o0_42_S2048x3 I r c
theorem aaV14_row (I : Ins Ideal) (r : Fin 2048) : rowOf (aaV14 I) r = (tokI I r).aa 14 :=
  funext fun c => aaJ_apply 14 (by decide) 39 rfl slices_S2048x63_o0_39_S2048x3 I r c
theorem gRV14_row (I : Ins Ideal) (r : Fin 2048) : (gRV14 I).row r = gR14 (tokI I r) :=
  childR_row (gRV9 I) (aaV14 I) (tokI I r) 14 r (gR9 (tokI I r)) (gRV9_row I r) (aaV14_row I r)
theorem gTV14_row (I : Ins Ideal) (r : Fin 2048) : rowOf (gTV14 I) r = gT14 (tokI I r) :=
  childT_row (gRV9 I) (gTV9 I) (skV14 I) (skV9 I) (tokI I r) 14 9 r (gR9 (tokI I r)) (gT9 (tokI I r))
    (gRV9_row I r) (gTV9_row I r) (skV14_row I r) (skV9_row I r)
theorem skV15_row (I : Ins Ideal) (r : Fin 2048) : rowOf (skV15 I) r = (tokI I r).sk 15 :=
  funext fun c => skJ_apply 15 45 rfl slices_S2048x66_o0_45_S2048x3 I r c
theorem gTV15_row (I : Ins Ideal) (r : Fin 2048) : rowOf (gTV15 I) r = gT15 (tokI I r) :=
  childT_row (gRV12 I) (gTV12 I) (skV15 I) (skV12 I) (tokI I r) 15 12 r (gR12 (tokI I r)) (gT12 (tokI I r))
    (gRV12_row I r) (gTV12_row I r) (skV15_row I r) (skV12_row I r)
theorem skV16_row (I : Ins Ideal) (r : Fin 2048) : rowOf (skV16 I) r = (tokI I r).sk 16 :=
  funext fun c => skJ_apply 16 48 rfl slices_S2048x66_o0_48_S2048x3 I r c
theorem aaV16_row (I : Ins Ideal) (r : Fin 2048) : rowOf (aaV16 I) r = (tokI I r).aa 16 :=
  funext fun c => aaJ_apply 16 (by decide) 45 rfl slices_S2048x63_o0_45_S2048x3 I r c
theorem gRV16_row (I : Ins Ideal) (r : Fin 2048) : (gRV16 I).row r = gR16 (tokI I r) :=
  childR_row (gRV13 I) (aaV16 I) (tokI I r) 16 r (gR13 (tokI I r)) (gRV13_row I r) (aaV16_row I r)
theorem gTV16_row (I : Ins Ideal) (r : Fin 2048) : rowOf (gTV16 I) r = gT16 (tokI I r) :=
  childT_row (gRV13 I) (gTV13 I) (skV16 I) (skV13 I) (tokI I r) 16 13 r (gR13 (tokI I r)) (gT13 (tokI I r))
    (gRV13_row I r) (gTV13_row I r) (skV16_row I r) (skV13_row I r)
theorem skV17_row (I : Ins Ideal) (r : Fin 2048) : rowOf (skV17 I) r = (tokI I r).sk 17 :=
  funext fun c => skJ_apply 17 51 rfl slices_S2048x66_o0_51_S2048x3 I r c
theorem aaV17_row (I : Ins Ideal) (r : Fin 2048) : rowOf (aaV17 I) r = (tokI I r).aa 17 :=
  funext fun c => aaJ_apply 17 (by decide) 48 rfl slices_S2048x63_o0_48_S2048x3 I r c
theorem gRV17_row (I : Ins Ideal) (r : Fin 2048) : (gRV17 I).row r = gR17 (tokI I r) :=
  childR_row (gRV14 I) (aaV17 I) (tokI I r) 17 r (gR14 (tokI I r)) (gRV14_row I r) (aaV17_row I r)
theorem gTV17_row (I : Ins Ideal) (r : Fin 2048) : rowOf (gTV17 I) r = gT17 (tokI I r) :=
  childT_row (gRV14 I) (gTV14 I) (skV17 I) (skV14 I) (tokI I r) 17 14 r (gR14 (tokI I r)) (gT14 (tokI I r))
    (gRV14_row I r) (gTV14_row I r) (skV17_row I r) (skV14_row I r)
theorem skV18_row (I : Ins Ideal) (r : Fin 2048) : rowOf (skV18 I) r = (tokI I r).sk 18 :=
  funext fun c => skJ_apply 18 54 rfl slices_S2048x66_o0_54_S2048x3 I r c
theorem aaV18_row (I : Ins Ideal) (r : Fin 2048) : rowOf (aaV18 I) r = (tokI I r).aa 18 :=
  funext fun c => aaJ_apply 18 (by decide) 51 rfl slices_S2048x63_o0_51_S2048x3 I r c
theorem gRV18_row (I : Ins Ideal) (r : Fin 2048) : (gRV18 I).row r = gR18 (tokI I r) :=
  childR_row (gRV16 I) (aaV18 I) (tokI I r) 18 r (gR16 (tokI I r)) (gRV16_row I r) (aaV18_row I r)
theorem gTV18_row (I : Ins Ideal) (r : Fin 2048) : rowOf (gTV18 I) r = gT18 (tokI I r) :=
  childT_row (gRV16 I) (gTV16 I) (skV18 I) (skV16 I) (tokI I r) 18 16 r (gR16 (tokI I r)) (gT16 (tokI I r))
    (gRV16_row I r) (gTV16_row I r) (skV18_row I r) (skV16_row I r)
theorem skV19_row (I : Ins Ideal) (r : Fin 2048) : rowOf (skV19 I) r = (tokI I r).sk 19 :=
  funext fun c => skJ_apply 19 57 rfl slices_S2048x66_o0_57_S2048x3 I r c
theorem aaV19_row (I : Ins Ideal) (r : Fin 2048) : rowOf (aaV19 I) r = (tokI I r).aa 19 :=
  funext fun c => aaJ_apply 19 (by decide) 54 rfl slices_S2048x63_o0_54_S2048x3 I r c
theorem gRV19_row (I : Ins Ideal) (r : Fin 2048) : (gRV19 I).row r = gR19 (tokI I r) :=
  childR_row (gRV17 I) (aaV19 I) (tokI I r) 19 r (gR17 (tokI I r)) (gRV17_row I r) (aaV19_row I r)
theorem gTV19_row (I : Ins Ideal) (r : Fin 2048) : rowOf (gTV19 I) r = gT19 (tokI I r) :=
  childT_row (gRV17 I) (gTV17 I) (skV19 I) (skV17 I) (tokI I r) 19 17 r (gR17 (tokI I r)) (gT17 (tokI I r))
    (gRV17_row I r) (gTV17_row I r) (skV19_row I r) (skV17_row I r)
theorem skV20_row (I : Ins Ideal) (r : Fin 2048) : rowOf (skV20 I) r = (tokI I r).sk 20 :=
  funext fun c => skJ_apply 20 60 rfl slices_S2048x66_o0_60_S2048x3 I r c
theorem gTV20_row (I : Ins Ideal) (r : Fin 2048) : rowOf (gTV20 I) r = gT20 (tokI I r) :=
  childT_row (gRV18 I) (gTV18 I) (skV20 I) (skV18 I) (tokI I r) 20 18 r (gR18 (tokI I r)) (gT18 (tokI I r))
    (gRV18_row I r) (gTV18_row I r) (skV20_row I r) (skV18_row I r)
theorem skV21_row (I : Ins Ideal) (r : Fin 2048) : rowOf (skV21 I) r = (tokI I r).sk 21 :=
  funext fun c => skJ_apply 21 63 rfl slices_S2048x66_o0_63_S2048x3 I r c
theorem gTV21_row (I : Ins Ideal) (r : Fin 2048) : rowOf (gTV21 I) r = gT21 (tokI I r) :=
  childT_row (gRV19 I) (gTV19 I) (skV21 I) (skV19 I) (tokI I r) 21 19 r (gR19 (tokI I r)) (gT19 (tokI I r))
    (gRV19_row I r) (gTV19_row I r) (skV21_row I r) (skV19_row I r)

/-- Position `j` with its middle axis, read at `(r, 0, c)`, is coordinate `c` of the token's position `j`. -/
theorem posV_row (I : Ins Ideal) (r : Fin 2048) (c : Fin 3) (j : Fin 22) : posV I j (ix3 r 0 c) = joints (tokI I r) j c :=
  match j with
  | ⟨0, _⟩ => (cast3_apply (gTV0 I) r c).trans (congrFun (gTV0_row I r) c)
  | ⟨1, _⟩ => (cast3_apply (gTV1 I) r c).trans (congrFun (gTV1_row I r) c)
  | ⟨2, _⟩ => (cast3_apply (gTV2 I) r c).trans (congrFun (gTV2_row I r) c)
  | ⟨3, _⟩ => (cast3_apply (gTV3 I) r c).trans (congrFun (gTV3_row I r) c)
  | ⟨4, _⟩ => (cast3_apply (gTV4 I) r c).trans (congrFun (gTV4_row I r) c)
  | ⟨5, _⟩ => (cast3_apply (gTV5 I) r c).trans (congrFun (gTV5_row I r) c)
  | ⟨6, _⟩ => (cast3_apply (gTV6 I) r c).trans (congrFun (gTV6_row I r) c)
  | ⟨7, _⟩ => (cast3_apply (gTV7 I) r c).trans (congrFun (gTV7_row I r) c)
  | ⟨8, _⟩ => (cast3_apply (gTV8 I) r c).trans (congrFun (gTV8_row I r) c)
  | ⟨9, _⟩ => (cast3_apply (gTV9 I) r c).trans (congrFun (gTV9_row I r) c)
  | ⟨10, _⟩ => (cast3_apply (gTV10 I) r c).trans (congrFun (gTV10_row I r) c)
  | ⟨11, _⟩ => (cast3_apply (gTV11 I) r c).trans (congrFun (gTV11_row I r) c)
  | ⟨12, _⟩ => (cast3_apply (gTV12 I) r c).trans (congrFun (gTV12_row I r) c)
  | ⟨13, _⟩ => (cast3_apply (gTV13 I) r c).trans (congrFun (gTV13_row I r) c)
  | ⟨14, _⟩ => (cast3_apply (gTV14 I) r c).trans (congrFun (gTV14_row I r) c)
  | ⟨15, _⟩ => (cast3_apply (gTV15 I) r c).trans (congrFun (gTV15_row I r) c)
  | ⟨16, _⟩ => (cast3_apply (gTV16 I) r c).trans (congrFun (gTV16_row I r) c)
  | ⟨17, _⟩ => (cast3_apply (gTV17 I) r c).trans (congrFun (gTV17_row I r) c)
  | ⟨18, _⟩ => (cast3_apply (gTV18 I) r c).trans (congrFun (gTV18_row I r) c)
  | ⟨19, _⟩ => (cast3_apply (gTV19 I) r c).trans (congrFun (gTV19_row I r) c)
  | ⟨20, _⟩ => (cast3_apply (gTV20 I) r c).trans (congrFun (gTV20_row I r) c)
  | ⟨21, _⟩ => (cast3_apply (gTV21 I) r c).trans (congrFun (gTV21_row I r) c)
  | ⟨n + 22, h⟩ => absurd h (by omega)

end Cert.FK.K

end
-- ==== Proof.KBody.lean ====
/-
  What the kernel's body stores, read at an index: row r, joint j, coordinate c of the stored block is
  position j of the token that row r of the six loaded blocks carries.
-/
import proofs.«127648_j26603027432101_1_alg».proof.Proof.KBodyTIdx

noncomputable section

namespace Cert.FK.K

open Cert.KernelIdeal Cert.KernelIdeal.Gen Idealize.ShloMosaic Idealize.ShloMosaic.TcCoe Idealize.SL.Sem
open Idealize.ShloMosaic.ValueIdx Cert.FK

/-- The stored block at `(r, j, c)`: member `j` of the 22 positions laid side by side, read at row `r`, coordinate
    `c`, which is the token's position `j` by the tree's lemmas. -/
theorem fkV_apply (I : Ins Ideal) (r : Fin 2048) (j : Fin 22) (c : Fin 3) :
    fkV I (ix3 r j c) = joints (tokBlk I.b0 I.b1 I.b2 I.b3 I.b4 I.b5 r) j c :=
  (fkV_apply_pos I r j c).trans (posV_row I r c j)

end Cert.FK.K

end
-- ==== Proof.KRun.lean ====
/-
  The kernel's run with its result named: every weakly fair execution ends with the result buffer at the
  22 positions of every token, the arguments unchanged.

  Row r of the six blocks at grid point t is token (t, r) of the six argument arrays: a token block's row r is
  row 2048·t + r of its flattened array, and the two shared blocks are the whole template row and the whole
  ten direction rows. The body stores once, through its whole result block, the 22 positions of each row's
  token; so point t writes back block t of the flattened result, the 64 blocks cover the result rows, and the
  closing reshape to [64, 2048, 22, 3] gives the result array. No host line writes an argument.
-/
import proofs.«127648_j26603027432101_1_alg».proof.Proof.KHost
import proofs.«127648_j26603027432101_1_alg».proof.Proof.KBody
import proofs.«127648_j26603027432101_1_alg».proof.Proof.KFrameI

noncomputable section

namespace Cert.FK.K

open Cert.KernelIdeal Cert.KernelIdeal.Gen Cert.KernelIdeal.GenP Idealize.ShloMosaic Idealize.ShloMosaic.TcCoe Idealize.SL.Sem
open Idealize.ShloMosaic.ValueIdx Cert.FK
open Idealize.ShloMosaic.Pipeline (Dat)

variable (m : (ℓ : Loc nD τ sig) → Buf (Elt Ideal) ℓ) (ρ : Dev nD → PrngReg)

/-! ## The blocks at a point -/

/-- Row r of point t's block of the body-pose rows is row 2048·t + r of the flattened array. -/
theorem blk0_apply (c : Dev nD) (t : Fin cfg0.N) (r : Fin 2048) (k : Fin 63) (q : Fin 131072) (hq : q.val = 2048 * t.val + r.val) :
    (iblk m c 0 t : Vec Ideal S2048x63 .f32) (ix2 r k) = (hostV m c (Proc.devRef .tc main_v0) : S131072x63.Idx → EReal) (ix2 q k) := by
  obtain ⟨e0, e1, -⟩ := idx_facts t
  unfold iblk
  rw [View.read_apply]
  show (hostV m c (Proc.devRef .tc main_v0) : S131072x63.Idx → EReal) _ = (hostV m c (Proc.devRef .tc main_v0) : S131072x63.Idx → EReal) _
  congr 1
  funext a
  apply Fin.ext
  match a with
  | ⟨0, _⟩ => show win0_0.index t (0 : Fin 2) * 2048 + 1 * r.val = q.val; rw [e0, hq]; omega
  | ⟨1, _⟩ => show win0_0.index t (1 : Fin 2) * 63 + 1 * k.val = k.val; rw [e1]; omega

/-- The same for the shape coefficients. -/
theorem blk1_apply (c : Dev nD) (t : Fin cfg0.N) (r : Fin 2048) (k : Fin 10) (q : Fin 131072) (hq : q.val = 2048 * t.val + r.val) :
    (iblk m c 1 t : Vec Ideal S2048x10 .f32) (ix2 r k) = (hostV m c (Proc.devRef .tc main_v1) : S131072x10.Idx → EReal) (ix2 q k) := by
  obtain ⟨-, -, e0, e1, -⟩ := idx_facts t
  unfold iblk
  rw [View.read_apply]
  show (hostV m c (Proc.devRef .tc main_v1) : S131072x10.Idx → EReal) _ = (hostV m c (Proc.devRef .tc main_v1) : S131072x10.Idx → EReal) _
  congr 1
  funext a
  apply Fin.ext
  match a with
  | ⟨0, _⟩ => show win0_1.index t (0 : Fin 2) * 2048 + 1 * r.val = q.val; rw [e0, hq]; omega
  | ⟨1, _⟩ => show win0_1.index t (1 : Fin 2) * 10 + 1 * k.val = k.val; rw [e1]; omega

/-- The same for the root's orientation. -/
theorem blk2_apply (c : Dev nD) (t : Fin cfg0.N) (r : Fin 2048) (k : Fin 3) (q : Fin 131072) (hq : q.val = 2048 * t.val + r.val) :
    (iblk m c 2 t : Vec Ideal S2048x3 .f32) (ix2 r k) = (hostV m c (Proc.devRef .tc main_v2) : S131072x3.Idx → EReal) (ix2 q k) := by
  obtain ⟨-, -, -, -, e0, e1, -⟩ := idx_facts t
  unfold iblk
  rw [View.read_apply]
  show (hostV m c (Proc.devRef .tc main_v2) : S131072x3.Idx → EReal) _ = (hostV m c (Proc.devRef .tc main_v2) : S131072x3.Idx → EReal) _
  congr 1
  funext a
  apply Fin.ext
  match a with
  | ⟨0, _⟩ => show win0_2.index t (0 : Fin 2) * 2048 + 1 * r.val = q.val; rw [e0, hq]; omega
  | ⟨1, _⟩ => show win0_2.index t (1 : Fin 2) * 3 + 1 * k.val = k.val; rw [e1]; omega

/-- The same for the translation. -/
theorem blk3_apply (c : Dev nD) (t : Fin cfg0.N) (r : Fin 2048) (k : Fin 3) (q : Fin 131072) (hq : q.val = 2048 * t.val + r.val) :
    (iblk m c 3 t : Vec Ideal S2048x3 .f32) (ix2 r k) = (hostV m c (Proc.devRef .tc main_v3) : S131072x3.Idx → EReal) (ix2 q k) := by
  obtain ⟨-, -, -, -, -, -, e0, e1, -⟩ := idx_facts t
  unfold iblk
  rw [View.read_apply]
  show (hostV m c (Proc.devRef .tc main_v3) : S131072x3.Idx → EReal) _ = (hostV m c (Proc.devRef .tc main_v3) : S131072x3.Idx → EReal) _
  congr 1
  funext a
  apply Fin.ext
  match a with
  | ⟨0, _⟩ => show win0_3.index t (0 : Fin 2) * 2048 + 1 * r.val = q.val; rw [e0, hq]; omega
  | ⟨1, _⟩ => show win0_3.index t (1 : Fin 2) * 3 + 1 * k.val = k.val; rw [e1]; omega

/-- The template's one block is the whole row, at every point. -/
theorem blk4_apply (c : Dev nD) (t : Fin cfg0.N) (q : Fin 66) :
    (iblk m c 4 t : Vec Ideal S1x66 .f32) (ix2 (0 : Fin 1) q) = (hostV m c (Proc.devRef .tc main_v4) : S1x66.Idx → EReal) (ix2 (0 : Fin 1) q) := by
  obtain ⟨-, -, -, -, -, -, -, -, e0, e1, -⟩ := idx_facts t
  unfold iblk
  rw [View.read_apply]
  show (hostV m c (Proc.devRef .tc main_v4) : S1x66.Idx → EReal) _ = (hostV m c (Proc.devRef .tc main_v4) : S1x66.Idx → EReal) _
  congr 1
  funext a
  apply Fin.ext
  match a with
  | ⟨0, _⟩ => show win0_4.index t (0 : Fin 2) * 1 + 1 * (0 : Fin 1).val = (0 : Fin 1).val; rw [e0]; omega
  | ⟨1, _⟩ => show win0_4.index t (1 : Fin 2) * 66 + 1 * q.val = q.val; rw [e1]; omega

/-- The directions' one block is the whole [10, 66] array, at every point. -/
theorem blk5_apply (c : Dev nD) (t : Fin cfg0.N) (k : Fin 10) (q : Fin 66) :
    (iblk m c 5 t : Vec Ideal S10x66 .f32) (ix2 k q) = (hostV m c (Proc.devRef .tc main_v6) : S10x66.Idx → EReal) (ix2 k q) := by
  obtain ⟨-, -, -, -, -, -, -, -, -, -, e0, e1, -⟩ := idx_facts t
  unfold iblk
  rw [View.read_apply]
  show (hostV m c (Proc.devRef .tc main_v6) : S10x66.Idx → EReal) _ = (hostV m c (Proc.devRef .tc main_v6) : S10x66.Idx → EReal) _
  congr 1
  funext a
  apply Fin.ext
  match a with
  | ⟨0, _⟩ => show win0_5.index t (0 : Fin 2) * 10 + 1 * k.val = k.val; rw [e0]; omega
  | ⟨1, _⟩ => show win0_5.index t (1 : Fin 2) * 66 + 1 * q.val = q.val; rw [e1]; omega

/-- Row r of the six blocks at point t is token (t, r) of the six argument arrays. -/
theorem tok_at (c : Dev nD) (t : Fin cfg0.N) (b : Fin 64) (hb : b.val = t.val) (r : Fin 2048) :
    tokBlk (iblk m c 0 t) (iblk m c 1 t) (iblk m c 2 t) (iblk m c 3 t) (iblk m c 4 t) (iblk m c 5 t) r
      = tokOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b r := by
  have hq : 2048 * t.val + r.val < 131072 := by have := b.isLt; have := r.isLt; omega
  have hqb : (⟨2048 * t.val + r.val, hq⟩ : Fin 131072).val = 2048 * b.val + r.val := by show 2048 * t.val + r.val = _; rw [hb]
  refine tokBlk_eq_tokOf _ _ _ _ _ _ _ _ _ _ _ _ b r ?_ ?_ ?_ ?_ ?_ ?_
  · intro k
    refine (blk0_apply m c t r k ⟨2048 * t.val + r.val, hq⟩ rfl).trans ?_
    rw [host_v0]
    exact rows_apply _ _ b r k _ hqb
  · intro k
    refine (blk1_apply m c t r k ⟨2048 * t.val + r.val, hq⟩ rfl).trans ?_
    rw [host_v1]
    exact rows_apply _ _ b r k _ hqb
  · intro k
    refine (blk2_apply m c t r k ⟨2048 * t.val + r.val, hq⟩ rfl).trans ?_
    rw [host_v2]
    exact rows_apply _ _ b r k _ hqb
  · intro k
    refine (blk3_apply m c t r k ⟨2048 * t.val + r.val, hq⟩ rfl).trans ?_
    rw [host_v3]
    exact rows_apply _ _ b r k _ hqb
  · intro j cc q hqq
    refine (blk4_apply m c t q).trans ?_
    rw [host_v4]
    exact tmpl_apply _ j cc q hqq
  · intro j cc k q hqq
    refine (blk5_apply m c t k q).trans ?_
    rw [host_v6]
    exact dirs_apply _ j cc k q hqq

/-! ## The result rows after the region -/

/-- What point t writes back to the result rows is block t of the flattened result: the one store through the
    whole result block leaves its payload, each load through a whole input block reads the block, and the
    payload at row r is the positions of row r's token. -/
theorem flushed6_eq (c : Dev nD) (t : Fin cfg0.N) :
    (dats m 0 c).flushed 6 t = ((cfg0.win 6).blk t).view.read (Elt Ideal)
      (flatG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  unfold out0_6
  rw [View.canon_unit_zero hz3]
  simp only [View.ld_unit_zero (S := S2048x63) hz2, View.ld_unit_zero (S := S2048x10) hz2, View.ld_unit_zero (S := S2048x3) hz2,
    View.ld_unit_zero (S := S1x66) hz2, View.ld_unit_zero (S := S10x66) hz2]
  have hN : cfg0.N = 64 := N64
  have hb : t.val < 64 := by have := t.isLt; omega
  obtain ⟨-, -, -, -, -, -, -, -, -, -, -, -, e0, e1, e2⟩ := idx_facts t
  funext y
  have hy0 : (y 0).val < 2048 := (y 0).isLt
  have hy1 : (y 1).val < 22 := (y 1).isLt
  have hy2 : (y 2).val < 3 := (y 2).isLt
  have ey : (y : S2048x22x3.Idx) = ix3 (⟨(y 0).val, hy0⟩ : Fin 2048) (⟨(y 1).val, hy1⟩ : Fin 22) (⟨(y 2).val, hy2⟩ : Fin 3) := by
    funext a; match a with | ⟨0, _⟩ => rfl | ⟨1, _⟩ => rfl | ⟨2, _⟩ => rfl
  show fkV (F := Ideal) ⟨iblk m c 0 t, iblk m c 1 t, iblk m c 2 t, iblk m c 3 t, iblk m c 4 t, iblk m c 5 t⟩ (y : S2048x22x3.Idx)
    = flatG _ _ _ _ _ _ (((cfg0.win 6).blk t).view.emb y)
  rw [ey]
  refine (fkV_apply ⟨iblk m c 0 t, iblk m c 1 t, iblk m c 2 t, iblk m c 3 t, iblk m c 4 t, iblk m c 5 t⟩ ⟨(y 0).val, hy0⟩ ⟨(y 1).val, hy1⟩ ⟨(y 2).val, hy2⟩).trans ?_
  show joints (tokBlk (iblk m c 0 t) (iblk m c 1 t) (iblk m c 2 t) (iblk m c 3 t) (iblk m c 4 t) (iblk m c 5 t) ⟨(y 0).val, hy0⟩) _ _ = _
  rw [tok_at m c t ⟨t.val, hb⟩ rfl ⟨(y 0).val, hy0⟩]
  refine (flatG_at _ _ _ _ _ _ ⟨t.val, hb⟩ ⟨(y 0).val, hy0⟩ ⟨(y 1).val, hy1⟩ ⟨(y 2).val, hy2⟩ _ ?_ ?_ ?_).symm
  · show win0_6.index t (0 : Fin 3) * 2048 + 1 * (y 0).val = 2048 * t.val + (y 0).val; rw [e0]; omega
  · show win0_6.index t (1 : Fin 3) * 22 + 1 * (y 1).val = (y 1).val; rw [e1]; omega
  · show win0_6.index t (2 : Fin 3) * 3 + 1 * (y 2).val = (y 2).val; rw [e2]; omega

/-- The result rows after the run: the flattened result. -/
theorem final6 (c : Dev nD) : (dats m 0 c).arrAt 6 cfg0.N
    = flatG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed6_eq m c t) cover6

/-- The closing reshape of the result rows is the result array. -/
theorem tail_v8 (c : Dev nD) :
    Pipeline.afterTail₀ cfgs (dats m) 0 (V0 m) [hostOps1] c main_v8
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v8) = _
  after_results
  rw [(Pipeline.withArrays_arr spec0 launch0.win.arr_inj c _ _ 6).trans (final6 m c)]
  exact reshape_flatG _ _ _ _ _ _

/-! ## The run -/

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_v8 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.FK.K

end
-- ==== Proof.RStages.lean ====
import proofs.«127648_j26603027432101_1_alg».proof.Proof.Gen.ReferenceIdeal

noncomputable section

namespace Cert.FK.R

open Cert.ReferenceIdeal Cert.ReferenceIdeal.Gen Idealize.ShloMosaic Idealize.ShloMosaic.TcCoe Idealize.SL.Sem

variable {F : FTy → Type} [FloatOps F]

/-- The six argument arrays. -/
structure RArgs (F : FTy → Type) where
  a0 : (⟨S64x2048x63, .f32⟩ : BufTy).Contents (Elt F)
  a1 : (⟨S64x2048x10, .f32⟩ : BufTy).Contents (Elt F)
  a2 : (⟨S64x2048x3, .f32⟩ : BufTy).Contents (Elt F)
  a3 : (⟨S64x2048x3, .f32⟩ : BufTy).Contents (Elt F)
  a4 : (⟨S22x3, .f32⟩ : BufTy).Contents (Elt F)
  a5 : (⟨S22x3x10, .f32⟩ : BufTy).Contents (Elt F)

/-- The value of `main_c`. -/
def rs_c (A : RArgs F) : (⟨S22, .i32⟩ : BufTy).Contents (Elt F) :=
  (fun i => lit0 (S22.rowMajor i))
/-- The value of `main_cst`. -/
def rs_cst (A : RArgs F) : (⟨S4, .f32⟩ : BufTy).Contents (Elt F) :=
  (fun i => FloatOps.ofBits .f32 (lit1 (S4.rowMajor i)))
/-- The value of `main_v0`. -/
def rs_v0 (A : RArgs F) : (⟨S64x2048x66, .f32⟩ : BufTy).Contents (Elt F) :=
  ((fun a b => concatenate S64x2048x66 2 [⟨S64x2048x3, a⟩, ⟨S64x2048x63, b⟩] concatenates_S64x2048x3_S64x2048x63_S64x2048x66_d2) : (⟨S64x2048x3, .f32⟩ : BufTy).Contents (Elt F) → (⟨S64x2048x63, .f32⟩ : BufTy).Contents (Elt F) → (⟨S64x2048x66, .f32⟩ : BufTy).Contents (Elt F)) A.a2 A.a0
/-- The value of `main_v1`. -/
def rs_v1 (A : RArgs F) : (⟨S64x2048x22x3, .f32⟩ : BufTy).Contents (Elt F) :=
  shapeCast S64x2048x22x3 (rs_v0 A) shapeCasts_S64x2048x66_S64x2048x22x3
/-- The value of `main_v2`. -/
def rs_v2 (A : RArgs F) : (⟨S64x2048x22x3, .f32⟩ : BufTy).Contents (Elt F) :=
  (mulf : (⟨S64x2048x22x3, .f32⟩ : BufTy).Contents (Elt F) → (⟨S64x2048x22x3, .f32⟩ : BufTy).Contents (Elt F) → (⟨S64x2048x22x3, .f32⟩ : BufTy).Contents (Elt F)) (rs_v1 A) (rs_v1 A)
/-- The value of `main_cst_0`. -/
def rs_cst_0 (A : RArgs F) : (⟨S_, .f32⟩ : BufTy).Contents (Elt F) :=
  (constant S_ .f32 0x00000000#32)
/-- The value of `main_v3`. -/
def rs_v3 (A : RArgs F) : (⟨S64x2048x22, .f32⟩ : BufTy).Contents (Elt F) :=
  ((fun x v => Host.reduceAdd x v reducesTo_S64x2048x22x3_S64x2048x22_d3 h_S_) : (⟨S64x2048x22x3, .f32⟩ : BufTy).Contents (Elt F) → (⟨S_, .f32⟩ : BufTy).Contents (Elt F) → (⟨S64x2048x22, .f32⟩ : BufTy).Contents (Elt F)) (rs_v2 A) (rs_cst_0 A)
/-- The value of `main_v4`. -/
def rs_v4 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v3 A)
/-- The value of `main_cst_1`. -/
def rs_cst_1 (A : RArgs F) : (⟨S_, .f32⟩ : BufTy).Contents (Elt F) :=
  (constant S_ .f32 0x2B8CBCCC#32)
/-- The value of `main_v5`. -/
def rs_v5 (A : RArgs F) : (⟨S64x2048x22x1, .f32⟩ : BufTy).Contents (Elt F) :=
  (broadcastInDim S64x2048x22x1 ![] bcast_S_S64x2048x22x1 : (⟨S_, .f32⟩ : BufTy).Contents (Elt F) → (⟨S64x2048x22x1, .f32⟩ : BufTy).Contents (Elt F)) (rs_cst_1 A)
/-- The value of `main_v6`. -/
def rs_v6 (A : RArgs F) : (⟨S64x2048x22x1, .f32⟩ : BufTy).Contents (Elt F) :=
  (addf : (⟨S64x2048x22x1, .f32⟩ : BufTy).Contents (Elt F) → (⟨S64x2048x22x1, .f32⟩ : BufTy).Contents (Elt F) → (⟨S64x2048x22x1, .f32⟩ : BufTy).Contents (Elt F)) (rs_v4 A) (rs_v5 A)
/-- The value of `main_v7`. -/
def rs_v7 (A : RArgs F) : (⟨S64x2048x22x1, .f32⟩ : BufTy).Contents (Elt F) :=
  (Host.sqrt : (⟨S64x2048x22x1, .f32⟩ : BufTy).Contents (Elt F) → (⟨S64x2048x22x1, .f32⟩ : BufTy).Contents (Elt F)) (rs_v6 A)
/-- The value of `main_v8`. -/
def rs_v8 (A : RArgs F) : (⟨S64x2048x22x3, .f32⟩ : BufTy).Contents (Elt F) :=
  (broadcastInDim S64x2048x22x3 ![0, 1, 2, 3] bcast_S64x2048x22x1_S64x2048x22x3_0_1_2_3 : (⟨S64x2048x22x1, .f32⟩ : BufTy).Contents (Elt F) → (⟨S64x2048x22x3, .f32⟩ : BufTy).Contents (Elt F)) (rs_v7 A)
/-- The value of `main_v9`. -/
def rs_v9 (A : RArgs F) : (⟨S64x2048x22x3, .f32⟩ : BufTy).Contents (Elt F) :=
  (Host.divf : (⟨S64x2048x22x3, .f32⟩ : BufTy).Contents (Elt F) → (⟨S64x2048x22x3, .f32⟩ : BufTy).Contents (Elt F) → (⟨S64x2048x22x3, .f32⟩ : BufTy).Contents (Elt F)) (rs_v1 A) (rs_v8 A)
/-- The value of `main_v10`. -/
def rs_v10 (A : RArgs F) : (⟨S64x2048x22x1, .f32⟩ : BufTy).Contents (Elt F) :=
  ((extractStridedSlice S64x2048x22x1 ![0, 0, 0, 0] · slices_S64x2048x22x3_S64x2048x22x1_0_0_0_0) : (⟨S64x2048x22x3, .f32⟩ : BufTy).Contents (Elt F) → (⟨S64x2048x22x1, .f32⟩ : BufTy).Contents (Elt F)) (rs_v9 A)
/-- The value of `main_v11`. -/
def rs_v11 (A : RArgs F) : (⟨S64x2048x22, .f32⟩ : BufTy).Contents (Elt F) :=
  shapeCast S64x2048x22 (rs_v10 A) shapeCasts_S64x2048x22x1_S64x2048x22
/-- The value of `main_v12`. -/
def rs_v12 (A : RArgs F) : (⟨S64x2048x22x1, .f32⟩ : BufTy).Contents (Elt F) :=
  ((extractStridedSlice S64x2048x22x1 ![0, 0, 0, 1] · slices_S64x2048x22x3_S64x2048x22x1_0_0_0_1) : (⟨S64x2048x22x3, .f32⟩ : BufTy).Contents (Elt F) → (⟨S64x2048x22x1, .f32⟩ : BufTy).Contents (Elt F)) (rs_v9 A)
/-- The value of `main_v13`. -/
def rs_v13 (A : RArgs F) : (⟨S64x2048x22, .f32⟩ : BufTy).Contents (Elt F) :=
  shapeCast S64x2048x22 (rs_v12 A) shapeCasts_S64x2048x22x1_S64x2048x22
/-- The value of `main_v14`. -/
def rs_v14 (A : RArgs F) : (⟨S64x2048x22x1, .f32⟩ : BufTy).Contents (Elt F) :=
  ((extractStridedSlice S64x2048x22x1 ![0, 0, 0, 2] · slices_S64x2048x22x3_S64x2048x22x1_0_0_0_2) : (⟨S64x2048x22x3, .f32⟩ : BufTy).Contents (Elt F) → (⟨S64x2048x22x1, .f32⟩ : BufTy).Contents (Elt F)) (rs_v9 A)
/-- The value of `main_v15`. -/
def rs_v15 (A : RArgs F) : (⟨S64x2048x22, .f32⟩ : BufTy).Contents (Elt F) :=
  shapeCast S64x2048x22 (rs_v14 A) shapeCasts_S64x2048x22x1_S64x2048x22
/-- The value of `main_v16`. -/
def rs_v16 (A : RArgs F) : (⟨S64x2048x22, .f32⟩ : BufTy).Contents (Elt F) :=
  shapeCast S64x2048x22 (rs_v7 A) shapeCasts_S64x2048x22x1_S64x2048x22
/-- The value of `main_v17`. -/
def rs_v17 (A : RArgs F) : (⟨S64x2048x22, .f32⟩ : BufTy).Contents (Elt F) :=
  (Host.cos : (⟨S64x2048x22, .f32⟩ : BufTy).Contents (Elt F) → (⟨S64x2048x22, .f32⟩ : BufTy).Contents (Elt F)) (rs_v16 A)
/-- The value of `main_v18`. -/
def rs_v18 (A : RArgs F) : (⟨S64x2048x22, .f32⟩ : BufTy).Contents (Elt F) :=
  (Host.sin : (⟨S64x2048x22, .f32⟩ : BufTy).Contents (Elt F) → (⟨S64x2048x22, .f32⟩ : BufTy).Contents (Elt F)) (rs_v16 A)
/-- The value of `main_cst_2`. -/
def rs_cst_2 (A : RArgs F) : (⟨S_, .f32⟩ : BufTy).Contents (Elt F) :=
  (constant S_ .f32 0x3F800000#32)
/-- The value of `main_v19`. -/
def rs_v19 (A : RArgs F) : (⟨S64x2048x22, .f32⟩ : BufTy).Contents (Elt F) :=
  (broadcastInDim S64x2048x22 ![] bcast_S_S64x2048x22 : (⟨S_, .f32⟩ : BufTy).Contents (Elt F) → (⟨S64x2048x22, .f32⟩ : BufTy).Contents (Elt F)) (rs_cst_2 A)
/-- The value of `main_v20`. -/
def rs_v20 (A : RArgs F) : (⟨S64x2048x22, .f32⟩ : BufTy).Contents (Elt F) :=
  (subf : (⟨S64x2048x22, .f32⟩ : BufTy).Contents (Elt F) → (⟨S64x2048x22, .f32⟩ : BufTy).Contents (Elt F) → (⟨S64x2048x22, .f32⟩ : BufTy).Contents (Elt F)) (rs_v19 A) (rs_v17 A)
/-- The value of `main_v21`. -/
def rs_v21 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v11 A)
/-- The value of `main_v22`. -/
def rs_v22 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v21 A) (rs_v11 A)
/-- The value of `main_v23`. -/
def rs_v23 (A : RArgs F) : (⟨S64x2048x22, .f32⟩ : BufTy).Contents (Elt F) :=
  (addf : (⟨S64x2048x22, .f32⟩ : BufTy).Contents (Elt F) → (⟨S64x2048x22, .f32⟩ : BufTy).Contents (Elt F) → (⟨S64x2048x22, .f32⟩ : BufTy).Contents (Elt F)) (rs_v22 A) (rs_v17 A)
/-- The value of `main_v24`. -/
def rs_v24 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v11 A)
/-- The value of `main_v25`. -/
def rs_v25 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v24 A) (rs_v13 A)
/-- The value of `main_v26`. -/
def rs_v26 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v18 A) (rs_v15 A)
/-- The value of `main_v27`. -/
def rs_v27 (A : RArgs F) : (⟨S64x2048x22, .f32⟩ : BufTy).Contents (Elt F) :=
  (subf : (⟨S64x2048x22, .f32⟩ : BufTy).Contents (Elt F) → (⟨S64x2048x22, .f32⟩ : BufTy).Contents (Elt F) → (⟨S64x2048x22, .f32⟩ : BufTy).Contents (Elt F)) (rs_v25 A) (rs_v26 A)
/-- The value of `main_v28`. -/
def rs_v28 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v11 A)
/-- The value of `main_v29`. -/
def rs_v29 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v28 A) (rs_v15 A)
/-- The value of `main_v30`. -/
def rs_v30 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v18 A) (rs_v13 A)
/-- The value of `main_v31`. -/
def rs_v31 (A : RArgs F) : (⟨S64x2048x22, .f32⟩ : BufTy).Contents (Elt F) :=
  (addf : (⟨S64x2048x22, .f32⟩ : BufTy).Contents (Elt F) → (⟨S64x2048x22, .f32⟩ : BufTy).Contents (Elt F) → (⟨S64x2048x22, .f32⟩ : BufTy).Contents (Elt F)) (rs_v29 A) (rs_v30 A)
/-- The value of `main_v32`. -/
def rs_v32 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v11 A)
/-- The value of `main_v33`. -/
def rs_v33 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v32 A) (rs_v13 A)
/-- The value of `main_v34`. -/
def rs_v34 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v18 A) (rs_v15 A)
/-- The value of `main_v35`. -/
def rs_v35 (A : RArgs F) : (⟨S64x2048x22, .f32⟩ : BufTy).Contents (Elt F) :=
  (addf : (⟨S64x2048x22, .f32⟩ : BufTy).Contents (Elt F) → (⟨S64x2048x22, .f32⟩ : BufTy).Contents (Elt F) → (⟨S64x2048x22, .f32⟩ : BufTy).Contents (Elt F)) (rs_v33 A) (rs_v34 A)
/-- The value of `main_v36`. -/
def rs_v36 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v13 A)
/-- The value of `main_v37`. -/
def rs_v37 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v36 A) (rs_v13 A)
/-- The value of `main_v38`. -/
def rs_v38 (A : RArgs F) : (⟨S64x2048x22, .f32⟩ : BufTy).Contents (Elt F) :=
  (addf : (⟨S64x2048x22, .f32⟩ : BufTy).Contents (Elt F) → (⟨S64x2048x22, .f32⟩ : BufTy).Contents (Elt F) → (⟨S64x2048x22, .f32⟩ : BufTy).Contents (Elt F)) (rs_v37 A) (rs_v17 A)
/-- The value of `main_v39`. -/
def rs_v39 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v13 A)
/-- The value of `main_v40`. -/
def rs_v40 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v39 A) (rs_v15 A)
/-- The value of `main_v41`. -/
def rs_v41 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v18 A) (rs_v11 A)
/-- The value of `main_v42`. -/
def rs_v42 (A : RArgs F) : (⟨S64x2048x22, .f32⟩ : BufTy).Contents (Elt F) :=
  (subf : (⟨S64x2048x22, .f32⟩ : BufTy).Contents (Elt F) → (⟨S64x2048x22, .f32⟩ : BufTy).Contents (Elt F) → (⟨S64x2048x22, .f32⟩ : BufTy).Contents (Elt F)) (rs_v40 A) (rs_v41 A)
/-- The value of `main_v43`. -/
def rs_v43 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v11 A)
/-- The value of `main_v44`. -/
def rs_v44 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v43 A) (rs_v15 A)
/-- The value of `main_v45`. -/
def rs_v45 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v18 A) (rs_v13 A)
/-- The value of `main_v46`. -/
def rs_v46 (A : RArgs F) : (⟨S64x2048x22, .f32⟩ : BufTy).Contents (Elt F) :=
  (subf : (⟨S64x2048x22, .f32⟩ : BufTy).Contents (Elt F) → (⟨S64x2048x22, .f32⟩ : BufTy).Contents (Elt F) → (⟨S64x2048x22, .f32⟩ : BufTy).Contents (Elt F)) (rs_v44 A) (rs_v45 A)
/-- The value of `main_v47`. -/
def rs_v47 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v13 A)
/-- The value of `main_v48`. -/
def rs_v48 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v47 A) (rs_v15 A)
/-- The value of `main_v49`. -/
def rs_v49 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v18 A) (rs_v11 A)
/-- The value of `main_v50`. -/
def rs_v50 (A : RArgs F) : (⟨S64x2048x22, .f32⟩ : BufTy).Contents (Elt F) :=
  (addf : (⟨S64x2048x22, .f32⟩ : BufTy).Contents (Elt F) → (⟨S64x2048x22, .f32⟩ : BufTy).Contents (Elt F) → (⟨S64x2048x22, .f32⟩ : BufTy).Contents (Elt F)) (rs_v48 A) (rs_v49 A)
/-- The value of `main_v51`. -/
def rs_v51 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v20 A) (rs_v15 A)
/-- The value of `main_v52`. -/
def rs_v52 (A : RArgs F) : (⟨S64x2048x22, .f32⟩ : BufTy).Contents (Elt F) :=
  (mulf : (⟨S64x2048x22, .f32⟩ : BufTy).Contents (Elt F) → (⟨S64x2048x22, .f32⟩ : BufTy).Contents (Elt F) → (⟨S64x2048x22, .f32⟩ : BufTy).Contents (Elt F)) (rs_v51 A) (rs_v15 A)
/-- The value of `main_v53`. -/
def rs_v53 (A : RArgs F) : (⟨S64x2048x22, .f32⟩ : BufTy).Contents (Elt F) :=
  (addf : (⟨S64x2048x22, .f32⟩ : BufTy).Contents (Elt F) → (⟨S64x2048x22, .f32⟩ : BufTy).Contents (Elt F) → (⟨S64x2048x22, .f32⟩ : BufTy).Contents (Elt F)) (rs_v52 A) (rs_v17 A)
/-- The value of `main_v54`. -/
def rs_v54 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v23 A)
/-- The value of `main_v55`. -/
def rs_v55 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v27 A)
/-- The value of `main_v56`. -/
def rs_v56 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v31 A)
/-- The value of `main_v57`. -/
def rs_v57 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v35 A)
/-- The value of `main_v58`. -/
def rs_v58 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v38 A)
/-- The value of `main_v59`. -/
def rs_v59 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v42 A)
/-- The value of `main_v60`. -/
def rs_v60 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v46 A)
/-- The value of `main_v61`. -/
def rs_v61 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v50 A)
/-- The value of `main_v62`. -/
def rs_v62 (A : RArgs F) : (⟨S64x2048x22x1, .f32⟩ : BufTy).Contents (Elt F) :=
  (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) (rs_v53 A)
/-- The value of `main_v63`. -/
def rs_v63 (A : RArgs F) : (⟨S64x2048x22x9, .f32⟩ : BufTy).Contents (Elt F) :=
  concatenate S64x2048x22x9 3 [⟨S64x2048x22x1, (rs_v54 A)⟩, ⟨S64x2048x22x1, (rs_v55 A)⟩, ⟨S64x2048x22x1, (rs_v56 A)⟩, ⟨S64x2048x22x1, (rs_v57 A)⟩, ⟨S64x2048x22x1, (rs_v58 A)⟩, ⟨S64x2048x22x1, (rs_v59 A)⟩, ⟨S64x2048x22x1, (rs_v60 A)⟩, ⟨S64x2048x22x1, (rs_v61 A)⟩, ⟨S64x2048x22x1, (rs_v62 A)⟩] concatenates_S64x2048x22x1_S64x2048x22x1_S64x2048x22x1_S64x2048x22x1_S64x2048x22x1_S64x2048x22x1_S64x2048x22x1_S64x2048x22x1_S64x2048x22x1_S64x2048x22x9_d3
/-- The value of `main_v64`. -/
def rs_v64 (A : RArgs F) : (⟨S64x2048x22x3x3, .f32⟩ : BufTy).Contents (Elt F) :=
  shapeCast S64x2048x22x3x3 (rs_v63 A) shapeCasts_S64x2048x22x9_S64x2048x22x3x3
/-- The value of `main_v65`. -/
def rs_v65 (A : RArgs F) : (⟨S1x1x22x3, .f32⟩ : BufTy).Contents (Elt F) :=
  (broadcastInDim S1x1x22x3 ![2, 3] bcast_S22x3_S1x1x22x3_2_3 : (⟨S22x3, .f32⟩ : BufTy).Contents (Elt F) → (⟨S1x1x22x3, .f32⟩ : BufTy).Contents (Elt F)) A.a4
/-- The value of `main_v66`. -/
def rs_v66 (A : RArgs F) : (⟨S64x2048x22x3, .f32⟩ : BufTy).Contents (Elt F) :=
  ((fun l r => Host.dotGeneral dot_S64x2048x10_S22x3x10_S64x2048x22x3_2_2_01_01_n_n none l r) : (⟨S64x2048x10, .f32⟩ : BufTy).Contents (Elt F) → (⟨S22x3x10, .f32⟩ : BufTy).Contents (Elt F) → (⟨S64x2048x22x3, .f32⟩ : BufTy).Contents (Elt F)) A.a1 A.a5
/-- The value of `main_v67`. -/
def rs_v67 (A : RArgs F) : (⟨S64x2048x22x3, .f32⟩ : BufTy).Contents (Elt F) :=
  (broadcastInDim S64x2048x22x3 ![0, 1, 2, 3] bcast_S1x1x22x3_S64x2048x22x3_0_1_2_3 : (⟨S1x1x22x3, .f32⟩ : BufTy).Contents (Elt F) → (⟨S64x2048x22x3, .f32⟩ : BufTy).Contents (Elt F)) (rs_v65 A)
/-- The value of `main_v68`. -/
def rs_v68 (A : RArgs F) : (⟨S64x2048x22x3, .f32⟩ : BufTy).Contents (Elt F) :=
  (addf : (⟨S64x2048x22x3, .f32⟩ : BufTy).Contents (Elt F) → (⟨S64x2048x22x3, .f32⟩ : BufTy).Contents (Elt F) → (⟨S64x2048x22x3, .f32⟩ : BufTy).Contents (Elt F)) (rs_v67 A) (rs_v66 A)
/-- The value of `main_c_3`. -/
def rs_c_3 (A : RArgs F) : (⟨S_, .i32⟩ : BufTy).Contents (Elt F) :=
  (constantI S_ 32 0#32)
/-- The value of `main_v69`. -/
def rs_v69 (A : RArgs F) : (⟨S22, .i32⟩ : BufTy).Contents (Elt F) :=
  (broadcastInDim S22 ![] bcast_S_S22 : (⟨S_, .i32⟩ : BufTy).Contents (Elt F) → (⟨S22, .i32⟩ : BufTy).Contents (Elt F)) (rs_c_3 A)
/-- The value of `main_v70`. -/
def rs_v70 (A : RArgs F) : (⟨S22, .i1⟩ : BufTy).Contents (Elt F) :=
  (cmpi .slt : (⟨S22, .i32⟩ : BufTy).Contents (Elt F) → (⟨S22, .i32⟩ : BufTy).Contents (Elt F) → (⟨S22, .i1⟩ : BufTy).Contents (Elt F)) (rs_c A) (rs_v69 A)
/-- The value of `main_c_4`. -/
def rs_c_4 (A : RArgs F) : (⟨S_, .i32⟩ : BufTy).Contents (Elt F) :=
  (constantI S_ 32 22#32)
/-- The value of `main_v71`. -/
def rs_v71 (A : RArgs F) : (⟨S22, .i32⟩ : BufTy).Contents (Elt F) :=
  (broadcastInDim S22 ![] bcast_S_S22 : (⟨S_, .i32⟩ : BufTy).Contents (Elt F) → (⟨S22, .i32⟩ : BufTy).Contents (Elt F)) (rs_c_4 A)
/-- The value of `main_v72`. -/
def rs_v72 (A : RArgs F) : (⟨S22, .i32⟩ : BufTy).Contents (Elt F) :=
  (addi : (⟨S22, .i32⟩ : BufTy).Contents (Elt F) → (⟨S22, .i32⟩ : BufTy).Contents (Elt F) → (⟨S22, .i32⟩ : BufTy).Contents (Elt F)) (rs_c A) (rs_v71 A)
/-- The value of `main_v73`. -/
def rs_v73 (A : RArgs F) : (⟨S22, .i32⟩ : BufTy).Contents (Elt F) :=
  (select : (⟨S22, .i1⟩ : BufTy).Contents (Elt F) → (⟨S22, .i32⟩ : BufTy).Contents (Elt F) → (⟨S22, .i32⟩ : BufTy).Contents (Elt F) → (⟨S22, .i32⟩ : BufTy).Contents (Elt F)) (rs_v70 A) (rs_v72 A) (rs_c A)
/-- The value of `main_v74`. -/
def rs_v74 (A : RArgs F) : (⟨S22x1, .i32⟩ : BufTy).Contents (Elt F) :=
  (broadcastInDim S22x1 ![0] bcast_S22_S22x1_0 : (⟨S22, .i32⟩ : BufTy).Contents (Elt F) → (⟨S22x1, .i32⟩ : BufTy).Contents (Elt F)) (rs_v73 A)
/-- The value of `main_v75`. -/
def rs_v75 (A : RArgs F) : (⟨S64x2048x22x3, .f32⟩ : BufTy).Contents (Elt F) :=
  ((fun x i => Host.gather gather_S64x2048x22x3_S22x1_S64x2048x22x3_013_2_n_n_2_1_64204813 x i) : (⟨S64x2048x22x3, .f32⟩ : BufTy).Contents (Elt F) → (⟨S22x1, .i32⟩ : BufTy).Contents (Elt F) → (⟨S64x2048x22x3, .f32⟩ : BufTy).Contents (Elt F)) (rs_v68 A) (rs_v74 A)
/-- The value of `main_v76`. -/
def rs_v76 (A : RArgs F) : (⟨S64x2048x22x3, .f32⟩ : BufTy).Contents (Elt F) :=
  (subf : (⟨S64x2048x22x3, .f32⟩ : BufTy).Contents (Elt F) → (⟨S64x2048x22x3, .f32⟩ : BufTy).Contents (Elt F) → (⟨S64x2048x22x3, .f32⟩ : BufTy).Contents (Elt F)) (rs_v68 A) (rs_v75 A)
/-- The value of `main_v77`. -/
def rs_v77 (A : RArgs F) : (⟨S64x2048x1x3, .f32⟩ : BufTy).Contents (Elt F) :=
  ((extractStridedSlice S64x2048x1x3 ![0, 0, 0, 0] · slices_S64x2048x22x3_S64x2048x1x3_0_0_0_0) : (⟨S64x2048x22x3, .f32⟩ : BufTy).Contents (Elt F) → (⟨S64x2048x1x3, .f32⟩ : BufTy).Contents (Elt F)) (rs_v68 A)
/-- The value of `main_v78`. -/
def rs_v78 (A : RArgs F) : (⟨S64x2048x3, .f32⟩ : BufTy).Contents (Elt F) :=
  shapeCast S64x2048x3 (rs_v77 A) shapeCasts_S64x2048x1x3_S64x2048x3
/-- The value of `main_v79`. -/
def rs_v79 (A : RArgs F) : (⟨S64x2048x3, .f32⟩ : BufTy).Contents (Elt F) :=
  (addf : (⟨S64x2048x3, .f32⟩ : BufTy).Contents (Elt F) → (⟨S64x2048x3, .f32⟩ : BufTy).Contents (Elt F) → (⟨S64x2048x3, .f32⟩ : BufTy).Contents (Elt F)) (rs_v78 A) A.a3
/-- The value of `main_c_5`. -/
def rs_c_5 (A : RArgs F) : (⟨S_, .i32⟩ : BufTy).Contents (Elt F) :=
  (constantI S_ 32 0#32)
/-- The value of `main_v80`. -/
def rs_v80 (A : RArgs F) : (⟨S1, .i32⟩ : BufTy).Contents (Elt F) :=
  (broadcastInDim S1 ![] bcast_S_S1 : (⟨S_, .i32⟩ : BufTy).Contents (Elt F) → (⟨S1, .i32⟩ : BufTy).Contents (Elt F)) (rs_c_5 A)
/-- The value of `main_v81`. -/
def rs_v81 (A : RArgs F) : (⟨S64x2048x22x3, .f32⟩ : BufTy).Contents (Elt F) :=
  ((fun x i u => Host.scatter scatter_S64x2048x22x3_S1_S64x2048x3_012_2_2_0 (fun _ b => b) x i u) : (⟨S64x2048x22x3, .f32⟩ : BufTy).Contents (Elt F) → (⟨S1, .i32⟩ : BufTy).Contents (Elt F) → (⟨S64x2048x3, .f32⟩ : BufTy).Contents (Elt F) → (⟨S64x2048x22x3, .f32⟩ : BufTy).Contents (Elt F)) (rs_v76 A) (rs_v80 A) (rs_v79 A)
/-- The value of `main_v82`. -/
def rs_v82 (A : RArgs F) : (⟨S64x2048x22x3x1, .f32⟩ : BufTy).Contents (Elt F) :=
  (broadcastInDim S64x2048x22x3x1 ![0, 1, 2, 3] bcast_S64x2048x22x3_S64x2048x22x3x1_0_1_2_3 : (⟨S64x2048x22x3, .f32⟩ : BufTy).Contents (Elt F) → (⟨S64x2048x22x3x1, .f32⟩ : BufTy).Contents (Elt F)) (rs_v81 A)
/-- The value of `main_v83`. -/
def rs_v83 (A : RArgs F) : (⟨S64x2048x22x3x4, .f32⟩ : BufTy).Contents (Elt F) :=
  ((fun a b => concatenate S64x2048x22x3x4 4 [⟨S64x2048x22x3x3, a⟩, ⟨S64x2048x22x3x1, b⟩] concatenates_S64x2048x22x3x3_S64x2048x22x3x1_S64x2048x22x3x4_d4) : (⟨S64x2048x22x3x3, .f32⟩ : BufTy).Contents (Elt F) → (⟨S64x2048x22x3x1, .f32⟩ : BufTy).Contents (Elt F) → (⟨S64x2048x22x3x4, .f32⟩ : BufTy).Contents (Elt F)) (rs_v64 A) (rs_v82 A)
/-- The value of `main_v84`. -/
def rs_v84 (A : RArgs F) : (⟨S64x2048x22x1x4, .f32⟩ : BufTy).Contents (Elt F) :=
  (broadcastInDim S64x2048x22x1x4 ![4] bcast_S4_S64x2048x22x1x4_4 : (⟨S4, .f32⟩ : BufTy).Contents (Elt F) → (⟨S64x2048x22x1x4, .f32⟩ : BufTy).Contents (Elt F)) (rs_cst A)
/-- The value of `main_v85`. -/
def rs_v85 (A : RArgs F) : (⟨S64x2048x22x4x4, .f32⟩ : BufTy).Contents (Elt F) :=
  ((fun a b => concatenate S64x2048x22x4x4 3 [⟨S64x2048x22x3x4, a⟩, ⟨S64x2048x22x1x4, b⟩] concatenates_S64x2048x22x3x4_S64x2048x22x1x4_S64x2048x22x4x4_d3) : (⟨S64x2048x22x3x4, .f32⟩ : BufTy).Contents (Elt F) → (⟨S64x2048x22x1x4, .f32⟩ : BufTy).Contents (Elt F) → (⟨S64x2048x22x4x4, .f32⟩ : BufTy).Contents (Elt F)) (rs_v83 A) (rs_v84 A)
/-- The value of `main_v86`. -/
def rs_v86 (A : RArgs F) : (⟨S64x2048x1x4x4, .f32⟩ : BufTy).Contents (Elt F) :=
  ((extractStridedSlice S64x2048x1x4x4 ![0, 0, 0, 0, 0] · slices_S64x2048x22x4x4_S64x2048x1x4x4_0_0_0_0_0) : (⟨S64x2048x22x4x4, .f32⟩ : BufTy).Contents (Elt F) → (⟨S64x2048x1x4x4, .f32⟩ : BufTy).Contents (Elt F)) (rs_v85 A)
/-- The value of `main_v87`. -/
def rs_v87 (A : RArgs F) : (⟨S64x2048x4x4, .f32⟩ : BufTy).Contents (Elt F) :=
  shapeCast S64x2048x4x4 (rs_v86 A) shapeCasts_S64x2048x1x4x4_S64x2048x4x4
/-- The value of `main_v88`. -/
def rs_v88 (A : RArgs F) : (⟨S64x2048x1x4x4, .f32⟩ : BufTy).Contents (Elt F) :=
  ((extractStridedSlice S64x2048x1x4x4 ![0, 0, 1, 0, 0] · slices_S64x2048x22x4x4_S64x2048x1x4x4_0_0_1_0_0) : (⟨S64x2048x22x4x4, .f32⟩ : BufTy).Contents (Elt F) → (⟨S64x2048x1x4x4, .f32⟩ : BufTy).Contents (Elt F)) (rs_v85 A)
/-- The value of `main_v89`. -/
def rs_v89 (A : RArgs F) : (⟨S64x2048x4x4, .f32⟩ : BufTy).Contents (Elt F) :=
  shapeCast S64x2048x4x4 (rs_v88 A) shapeCasts_S64x2048x1x4x4_S64x2048x4x4
/-- The value of `main_v90`. -/
def rs_v90 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v87 A) (rs_v89 A)
/-- The value of `main_v91`. -/
def rs_v91 (A : RArgs F) : (⟨S64x2048x1x4x4, .f32⟩ : BufTy).Contents (Elt F) :=
  ((extractStridedSlice S64x2048x1x4x4 ![0, 0, 2, 0, 0] · slices_S64x2048x22x4x4_S64x2048x1x4x4_0_0_2_0_0) : (⟨S64x2048x22x4x4, .f32⟩ : BufTy).Contents (Elt F) → (⟨S64x2048x1x4x4, .f32⟩ : BufTy).Contents (Elt F)) (rs_v85 A)
/-- The value of `main_v92`. -/
def rs_v92 (A : RArgs F) : (⟨S64x2048x4x4, .f32⟩ : BufTy).Contents (Elt F) :=
  shapeCast S64x2048x4x4 (rs_v91 A) shapeCasts_S64x2048x1x4x4_S64x2048x4x4
/-- The value of `main_v93`. -/
def rs_v93 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v87 A) (rs_v92 A)
/-- The value of `main_v94`. -/
def rs_v94 (A : RArgs F) : (⟨S64x2048x1x4x4, .f32⟩ : BufTy).Contents (Elt F) :=
  ((extractStridedSlice S64x2048x1x4x4 ![0, 0, 3, 0, 0] · slices_S64x2048x22x4x4_S64x2048x1x4x4_0_0_3_0_0) : (⟨S64x2048x22x4x4, .f32⟩ : BufTy).Contents (Elt F) → (⟨S64x2048x1x4x4, .f32⟩ : BufTy).Contents (Elt F)) (rs_v85 A)
/-- The value of `main_v95`. -/
def rs_v95 (A : RArgs F) : (⟨S64x2048x4x4, .f32⟩ : BufTy).Contents (Elt F) :=
  shapeCast S64x2048x4x4 (rs_v94 A) shapeCasts_S64x2048x1x4x4_S64x2048x4x4
/-- The value of `main_v96`. -/
def rs_v96 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v87 A) (rs_v95 A)
/-- The value of `main_v97`. -/
def rs_v97 (A : RArgs F) : (⟨S64x2048x1x4x4, .f32⟩ : BufTy).Contents (Elt F) :=
  ((extractStridedSlice S64x2048x1x4x4 ![0, 0, 4, 0, 0] · slices_S64x2048x22x4x4_S64x2048x1x4x4_0_0_4_0_0) : (⟨S64x2048x22x4x4, .f32⟩ : BufTy).Contents (Elt F) → (⟨S64x2048x1x4x4, .f32⟩ : BufTy).Contents (Elt F)) (rs_v85 A)
/-- The value of `main_v98`. -/
def rs_v98 (A : RArgs F) : (⟨S64x2048x4x4, .f32⟩ : BufTy).Contents (Elt F) :=
  shapeCast S64x2048x4x4 (rs_v97 A) shapeCasts_S64x2048x1x4x4_S64x2048x4x4
/-- The value of `main_v99`. -/
def rs_v99 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v90 A) (rs_v98 A)
/-- The value of `main_v100`. -/
def rs_v100 (A : RArgs F) : (⟨S64x2048x1x4x4, .f32⟩ : BufTy).Contents (Elt F) :=
  ((extractStridedSlice S64x2048x1x4x4 ![0, 0, 5, 0, 0] · slices_S64x2048x22x4x4_S64x2048x1x4x4_0_0_5_0_0) : (⟨S64x2048x22x4x4, .f32⟩ : BufTy).Contents (Elt F) → (⟨S64x2048x1x4x4, .f32⟩ : BufTy).Contents (Elt F)) (rs_v85 A)
/-- The value of `main_v101`. -/
def rs_v101 (A : RArgs F) : (⟨S64x2048x4x4, .f32⟩ : BufTy).Contents (Elt F) :=
  shapeCast S64x2048x4x4 (rs_v100 A) shapeCasts_S64x2048x1x4x4_S64x2048x4x4
/-- The value of `main_v102`. -/
def rs_v102 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v93 A) (rs_v101 A)
/-- The value of `main_v103`. -/
def rs_v103 (A : RArgs F) : (⟨S64x2048x1x4x4, .f32⟩ : BufTy).Contents (Elt F) :=
  ((extractStridedSlice S64x2048x1x4x4 ![0, 0, 6, 0, 0] · slices_S64x2048x22x4x4_S64x2048x1x4x4_0_0_6_0_0) : (⟨S64x2048x22x4x4, .f32⟩ : BufTy).Contents (Elt F) → (⟨S64x2048x1x4x4, .f32⟩ : BufTy).Contents (Elt F)) (rs_v85 A)
/-- The value of `main_v104`. -/
def rs_v104 (A : RArgs F) : (⟨S64x2048x4x4, .f32⟩ : BufTy).Contents (Elt F) :=
  shapeCast S64x2048x4x4 (rs_v103 A) shapeCasts_S64x2048x1x4x4_S64x2048x4x4
/-- The value of `main_v105`. -/
def rs_v105 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v96 A) (rs_v104 A)
/-- The value of `main_v106`. -/
def rs_v106 (A : RArgs F) : (⟨S64x2048x1x4x4, .f32⟩ : BufTy).Contents (Elt F) :=
  ((extractStridedSlice S64x2048x1x4x4 ![0, 0, 7, 0, 0] · slices_S64x2048x22x4x4_S64x2048x1x4x4_0_0_7_0_0) : (⟨S64x2048x22x4x4, .f32⟩ : BufTy).Contents (Elt F) → (⟨S64x2048x1x4x4, .f32⟩ : BufTy).Contents (Elt F)) (rs_v85 A)
/-- The value of `main_v107`. -/
def rs_v107 (A : RArgs F) : (⟨S64x2048x4x4, .f32⟩ : BufTy).Contents (Elt F) :=
  shapeCast S64x2048x4x4 (rs_v106 A) shapeCasts_S64x2048x1x4x4_S64x2048x4x4
/-- The value of `main_v108`. -/
def rs_v108 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v99 A) (rs_v107 A)
/-- The value of `main_v109`. -/
def rs_v109 (A : RArgs F) : (⟨S64x2048x1x4x4, .f32⟩ : BufTy).Contents (Elt F) :=
  ((extractStridedSlice S64x2048x1x4x4 ![0, 0, 8, 0, 0] · slices_S64x2048x22x4x4_S64x2048x1x4x4_0_0_8_0_0) : (⟨S64x2048x22x4x4, .f32⟩ : BufTy).Contents (Elt F) → (⟨S64x2048x1x4x4, .f32⟩ : BufTy).Contents (Elt F)) (rs_v85 A)
/-- The value of `main_v110`. -/
def rs_v110 (A : RArgs F) : (⟨S64x2048x4x4, .f32⟩ : BufTy).Contents (Elt F) :=
  shapeCast S64x2048x4x4 (rs_v109 A) shapeCasts_S64x2048x1x4x4_S64x2048x4x4
/-- The value of `main_v111`. -/
def rs_v111 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v102 A) (rs_v110 A)
/-- The value of `main_v112`. -/
def rs_v112 (A : RArgs F) : (⟨S64x2048x1x4x4, .f32⟩ : BufTy).Contents (Elt F) :=
  ((extractStridedSlice S64x2048x1x4x4 ![0, 0, 9, 0, 0] · slices_S64x2048x22x4x4_S64x2048x1x4x4_0_0_9_0_0) : (⟨S64x2048x22x4x4, .f32⟩ : BufTy).Contents (Elt F) → (⟨S64x2048x1x4x4, .f32⟩ : BufTy).Contents (Elt F)) (rs_v85 A)
/-- The value of `main_v113`. -/
def rs_v113 (A : RArgs F) : (⟨S64x2048x4x4, .f32⟩ : BufTy).Contents (Elt F) :=
  shapeCast S64x2048x4x4 (rs_v112 A) shapeCasts_S64x2048x1x4x4_S64x2048x4x4
/-- The value of `main_v114`. -/
def rs_v114 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v105 A) (rs_v113 A)
/-- The value of `main_v115`. -/
def rs_v115 (A : RArgs F) : (⟨S64x2048x1x4x4, .f32⟩ : BufTy).Contents (Elt F) :=
  ((extractStridedSlice S64x2048x1x4x4 ![0, 0, 10, 0, 0] · slices_S64x2048x22x4x4_S64x2048x1x4x4_0_0_10_0_0) : (⟨S64x2048x22x4x4, .f32⟩ : BufTy).Contents (Elt F) → (⟨S64x2048x1x4x4, .f32⟩ : BufTy).Contents (Elt F)) (rs_v85 A)
/-- The value of `main_v116`. -/
def rs_v116 (A : RArgs F) : (⟨S64x2048x4x4, .f32⟩ : BufTy).Contents (Elt F) :=
  shapeCast S64x2048x4x4 (rs_v115 A) shapeCasts_S64x2048x1x4x4_S64x2048x4x4
/-- The value of `main_v117`. -/
def rs_v117 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v108 A) (rs_v116 A)
/-- The value of `main_v118`. -/
def rs_v118 (A : RArgs F) : (⟨S64x2048x1x4x4, .f32⟩ : BufTy).Contents (Elt F) :=
  ((extractStridedSlice S64x2048x1x4x4 ![0, 0, 11, 0, 0] · slices_S64x2048x22x4x4_S64x2048x1x4x4_0_0_11_0_0) : (⟨S64x2048x22x4x4, .f32⟩ : BufTy).Contents (Elt F) → (⟨S64x2048x1x4x4, .f32⟩ : BufTy).Contents (Elt F)) (rs_v85 A)
/-- The value of `main_v119`. -/
def rs_v119 (A : RArgs F) : (⟨S64x2048x4x4, .f32⟩ : BufTy).Contents (Elt F) :=
  shapeCast S64x2048x4x4 (rs_v118 A) shapeCasts_S64x2048x1x4x4_S64x2048x4x4
/-- The value of `main_v120`. -/
def rs_v120 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v111 A) (rs_v119 A)
/-- The value of `main_v121`. -/
def rs_v121 (A : RArgs F) : (⟨S64x2048x1x4x4, .f32⟩ : BufTy).Contents (Elt F) :=
  ((extractStridedSlice S64x2048x1x4x4 ![0, 0, 12, 0, 0] · slices_S64x2048x22x4x4_S64x2048x1x4x4_0_0_12_0_0) : (⟨S64x2048x22x4x4, .f32⟩ : BufTy).Contents (Elt F) → (⟨S64x2048x1x4x4, .f32⟩ : BufTy).Contents (Elt F)) (rs_v85 A)
/-- The value of `main_v122`. -/
def rs_v122 (A : RArgs F) : (⟨S64x2048x4x4, .f32⟩ : BufTy).Contents (Elt F) :=
  shapeCast S64x2048x4x4 (rs_v121 A) shapeCasts_S64x2048x1x4x4_S64x2048x4x4
/-- The value of `main_v123`. -/
def rs_v123 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v114 A) (rs_v122 A)
/-- The value of `main_v124`. -/
def rs_v124 (A : RArgs F) : (⟨S64x2048x1x4x4, .f32⟩ : BufTy).Contents (Elt F) :=
  ((extractStridedSlice S64x2048x1x4x4 ![0, 0, 13, 0, 0] · slices_S64x2048x22x4x4_S64x2048x1x4x4_0_0_13_0_0) : (⟨S64x2048x22x4x4, .f32⟩ : BufTy).Contents (Elt F) → (⟨S64x2048x1x4x4, .f32⟩ : BufTy).Contents (Elt F)) (rs_v85 A)
/-- The value of `main_v125`. -/
def rs_v125 (A : RArgs F) : (⟨S64x2048x4x4, .f32⟩ : BufTy).Contents (Elt F) :=
  shapeCast S64x2048x4x4 (rs_v124 A) shapeCasts_S64x2048x1x4x4_S64x2048x4x4
/-- The value of `main_v126`. -/
def rs_v126 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v114 A) (rs_v125 A)
/-- The value of `main_v127`. -/
def rs_v127 (A : RArgs F) : (⟨S64x2048x1x4x4, .f32⟩ : BufTy).Contents (Elt F) :=
  ((extractStridedSlice S64x2048x1x4x4 ![0, 0, 14, 0, 0] · slices_S64x2048x22x4x4_S64x2048x1x4x4_0_0_14_0_0) : (⟨S64x2048x22x4x4, .f32⟩ : BufTy).Contents (Elt F) → (⟨S64x2048x1x4x4, .f32⟩ : BufTy).Contents (Elt F)) (rs_v85 A)
/-- The value of `main_v128`. -/
def rs_v128 (A : RArgs F) : (⟨S64x2048x4x4, .f32⟩ : BufTy).Contents (Elt F) :=
  shapeCast S64x2048x4x4 (rs_v127 A) shapeCasts_S64x2048x1x4x4_S64x2048x4x4
/-- The value of `main_v129`. -/
def rs_v129 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v114 A) (rs_v128 A)
/-- The value of `main_v130`. -/
def rs_v130 (A : RArgs F) : (⟨S64x2048x1x4x4, .f32⟩ : BufTy).Contents (Elt F) :=
  ((extractStridedSlice S64x2048x1x4x4 ![0, 0, 15, 0, 0] · slices_S64x2048x22x4x4_S64x2048x1x4x4_0_0_15_0_0) : (⟨S64x2048x22x4x4, .f32⟩ : BufTy).Contents (Elt F) → (⟨S64x2048x1x4x4, .f32⟩ : BufTy).Contents (Elt F)) (rs_v85 A)
/-- The value of `main_v131`. -/
def rs_v131 (A : RArgs F) : (⟨S64x2048x4x4, .f32⟩ : BufTy).Contents (Elt F) :=
  shapeCast S64x2048x4x4 (rs_v130 A) shapeCasts_S64x2048x1x4x4_S64x2048x4x4
/-- The value of `main_v132`. -/
def rs_v132 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v123 A) (rs_v131 A)
/-- The value of `main_v133`. -/
def rs_v133 (A : RArgs F) : (⟨S64x2048x1x4x4, .f32⟩ : BufTy).Contents (Elt F) :=
  ((extractStridedSlice S64x2048x1x4x4 ![0, 0, 16, 0, 0] · slices_S64x2048x22x4x4_S64x2048x1x4x4_0_0_16_0_0) : (⟨S64x2048x22x4x4, .f32⟩ : BufTy).Contents (Elt F) → (⟨S64x2048x1x4x4, .f32⟩ : BufTy).Contents (Elt F)) (rs_v85 A)
/-- The value of `main_v134`. -/
def rs_v134 (A : RArgs F) : (⟨S64x2048x4x4, .f32⟩ : BufTy).Contents (Elt F) :=
  shapeCast S64x2048x4x4 (rs_v133 A) shapeCasts_S64x2048x1x4x4_S64x2048x4x4
/-- The value of `main_v135`. -/
def rs_v135 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v126 A) (rs_v134 A)
/-- The value of `main_v136`. -/
def rs_v136 (A : RArgs F) : (⟨S64x2048x1x4x4, .f32⟩ : BufTy).Contents (Elt F) :=
  ((extractStridedSlice S64x2048x1x4x4 ![0, 0, 17, 0, 0] · slices_S64x2048x22x4x4_S64x2048x1x4x4_0_0_17_0_0) : (⟨S64x2048x22x4x4, .f32⟩ : BufTy).Contents (Elt F) → (⟨S64x2048x1x4x4, .f32⟩ : BufTy).Contents (Elt F)) (rs_v85 A)
/-- The value of `main_v137`. -/
def rs_v137 (A : RArgs F) : (⟨S64x2048x4x4, .f32⟩ : BufTy).Contents (Elt F) :=
  shapeCast S64x2048x4x4 (rs_v136 A) shapeCasts_S64x2048x1x4x4_S64x2048x4x4
/-- The value of `main_v138`. -/
def rs_v138 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v129 A) (rs_v137 A)
/-- The value of `main_v139`. -/
def rs_v139 (A : RArgs F) : (⟨S64x2048x1x4x4, .f32⟩ : BufTy).Contents (Elt F) :=
  ((extractStridedSlice S64x2048x1x4x4 ![0, 0, 18, 0, 0] · slices_S64x2048x22x4x4_S64x2048x1x4x4_0_0_18_0_0) : (⟨S64x2048x22x4x4, .f32⟩ : BufTy).Contents (Elt F) → (⟨S64x2048x1x4x4, .f32⟩ : BufTy).Contents (Elt F)) (rs_v85 A)
/-- The value of `main_v140`. -/
def rs_v140 (A : RArgs F) : (⟨S64x2048x4x4, .f32⟩ : BufTy).Contents (Elt F) :=
  shapeCast S64x2048x4x4 (rs_v139 A) shapeCasts_S64x2048x1x4x4_S64x2048x4x4
/-- The value of `main_v141`. -/
def rs_v141 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v135 A) (rs_v140 A)
/-- The value of `main_v142`. -/
def rs_v142 (A : RArgs F) : (⟨S64x2048x1x4x4, .f32⟩ : BufTy).Contents (Elt F) :=
  ((extractStridedSlice S64x2048x1x4x4 ![0, 0, 19, 0, 0] · slices_S64x2048x22x4x4_S64x2048x1x4x4_0_0_19_0_0) : (⟨S64x2048x22x4x4, .f32⟩ : BufTy).Contents (Elt F) → (⟨S64x2048x1x4x4, .f32⟩ : BufTy).Contents (Elt F)) (rs_v85 A)
/-- The value of `main_v143`. -/
def rs_v143 (A : RArgs F) : (⟨S64x2048x4x4, .f32⟩ : BufTy).Contents (Elt F) :=
  shapeCast S64x2048x4x4 (rs_v142 A) shapeCasts_S64x2048x1x4x4_S64x2048x4x4
/-- The value of `main_v144`. -/
def rs_v144 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v138 A) (rs_v143 A)
/-- The value of `main_v145`. -/
def rs_v145 (A : RArgs F) : (⟨S64x2048x1x4x4, .f32⟩ : BufTy).Contents (Elt F) :=
  ((extractStridedSlice S64x2048x1x4x4 ![0, 0, 20, 0, 0] · slices_S64x2048x22x4x4_S64x2048x1x4x4_0_0_20_0_0) : (⟨S64x2048x22x4x4, .f32⟩ : BufTy).Contents (Elt F) → (⟨S64x2048x1x4x4, .f32⟩ : BufTy).Contents (Elt F)) (rs_v85 A)
/-- The value of `main_v146`. -/
def rs_v146 (A : RArgs F) : (⟨S64x2048x4x4, .f32⟩ : BufTy).Contents (Elt F) :=
  shapeCast S64x2048x4x4 (rs_v145 A) shapeCasts_S64x2048x1x4x4_S64x2048x4x4
/-- The value of `main_v147`. -/
def rs_v147 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v141 A) (rs_v146 A)
/-- The value of `main_v148`. -/
def rs_v148 (A : RArgs F) : (⟨S64x2048x1x4x4, .f32⟩ : BufTy).Contents (Elt F) :=
  ((extractStridedSlice S64x2048x1x4x4 ![0, 0, 21, 0, 0] · slices_S64x2048x22x4x4_S64x2048x1x4x4_0_0_21_0_0) : (⟨S64x2048x22x4x4, .f32⟩ : BufTy).Contents (Elt F) → (⟨S64x2048x1x4x4, .f32⟩ : BufTy).Contents (Elt F)) (rs_v85 A)
/-- The value of `main_v149`. -/
def rs_v149 (A : RArgs F) : (⟨S64x2048x4x4, .f32⟩ : BufTy).Contents (Elt F) :=
  shapeCast S64x2048x4x4 (rs_v148 A) shapeCasts_S64x2048x1x4x4_S64x2048x4x4
/-- The value of `main_v150`. -/
def rs_v150 (A : RArgs F) : (⟨S64x2048x4x4, .f32⟩ : BufTy).Contents (Elt F) :=
  ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) (rs_v144 A) (rs_v149 A)
/-- The value of `main_v151`. -/
def rs_v151 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v87 A)
/-- The value of `main_v152`. -/
def rs_v152 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v90 A)
/-- The value of `main_v153`. -/
def rs_v153 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v93 A)
/-- The value of `main_v154`. -/
def rs_v154 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v96 A)
/-- The value of `main_v155`. -/
def rs_v155 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v99 A)
/-- The value of `main_v156`. -/
def rs_v156 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v102 A)
/-- The value of `main_v157`. -/
def rs_v157 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v105 A)
/-- The value of `main_v158`. -/
def rs_v158 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v108 A)
/-- The value of `main_v159`. -/
def rs_v159 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v111 A)
/-- The value of `main_v160`. -/
def rs_v160 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v114 A)
/-- The value of `main_v161`. -/
def rs_v161 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v117 A)
/-- The value of `main_v162`. -/
def rs_v162 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v120 A)
/-- The value of `main_v163`. -/
def rs_v163 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v123 A)
/-- The value of `main_v164`. -/
def rs_v164 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v126 A)
/-- The value of `main_v165`. -/
def rs_v165 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v129 A)
/-- The value of `main_v166`. -/
def rs_v166 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v132 A)
/-- The value of `main_v167`. -/
def rs_v167 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v135 A)
/-- The value of `main_v168`. -/
def rs_v168 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v138 A)
/-- The value of `main_v169`. -/
def rs_v169 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v141 A)
/-- The value of `main_v170`. -/
def rs_v170 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v144 A)
/-- The value of `main_v171`. -/
def rs_v171 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v147 A)
/-- The value of `main_v172`. -/
def rs_v172 (A : RArgs F) : (⟨S64x2048x1x4x4, .f32⟩ : BufTy).Contents (Elt F) :=
  (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) (rs_v150 A)
/-- The value of `main_v173`. -/
def rs_v173 (A : RArgs F) : (⟨S64x2048x16x4x4, .f32⟩ : BufTy).Contents (Elt F) :=
  concatenate S64x2048x16x4x4 2 [⟨S64x2048x1x4x4, (rs_v151 A)⟩, ⟨S64x2048x1x4x4, (rs_v152 A)⟩, ⟨S64x2048x1x4x4, (rs_v153 A)⟩, ⟨S64x2048x1x4x4, (rs_v154 A)⟩, ⟨S64x2048x1x4x4, (rs_v155 A)⟩, ⟨S64x2048x1x4x4, (rs_v156 A)⟩, ⟨S64x2048x1x4x4, (rs_v157 A)⟩, ⟨S64x2048x1x4x4, (rs_v158 A)⟩, ⟨S64x2048x1x4x4, (rs_v159 A)⟩, ⟨S64x2048x1x4x4, (rs_v160 A)⟩, ⟨S64x2048x1x4x4, (rs_v161 A)⟩, ⟨S64x2048x1x4x4, (rs_v162 A)⟩, ⟨S64x2048x1x4x4, (rs_v163 A)⟩, ⟨S64x2048x1x4x4, (rs_v164 A)⟩, ⟨S64x2048x1x4x4, (rs_v165 A)⟩, ⟨S64x2048x1x4x4, (rs_v166 A)⟩] concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2
/-- The value of `main_v174`. -/
def rs_v174 (A : RArgs F) : (⟨S64x2048x6x4x4, .f32⟩ : BufTy).Contents (Elt F) :=
  concatenate S64x2048x6x4x4 2 [⟨S64x2048x1x4x4, (rs_v167 A)⟩, ⟨S64x2048x1x4x4, (rs_v168 A)⟩, ⟨S64x2048x1x4x4, (rs_v169 A)⟩, ⟨S64x2048x1x4x4, (rs_v170 A)⟩, ⟨S64x2048x1x4x4, (rs_v171 A)⟩, ⟨S64x2048x1x4x4, (rs_v172 A)⟩] concatenates_S64x2048x1x4x4_S64x2048x1x4x4_S64x2048x1x4x4_S64x2048x1x4x4_S64x2048x1x4x4_S64x2048x1x4x4_S64x2048x6x4x4_d2
/-- The value of `main_v175`. -/
def rs_v175 (A : RArgs F) : (⟨S64x2048x22x4x4, .f32⟩ : BufTy).Contents (Elt F) :=
  ((fun a b => concatenate S64x2048x22x4x4 2 [⟨S64x2048x16x4x4, a⟩, ⟨S64x2048x6x4x4, b⟩] concatenates_S64x2048x16x4x4_S64x2048x6x4x4_S64x2048x22x4x4_d2) : (⟨S64x2048x16x4x4, .f32⟩ : BufTy).Contents (Elt F) → (⟨S64x2048x6x4x4, .f32⟩ : BufTy).Contents (Elt F) → (⟨S64x2048x22x4x4, .f32⟩ : BufTy).Contents (Elt F)) (rs_v173 A) (rs_v174 A)
/-- The value of `main_v176`. -/
def rs_v176 (A : RArgs F) : (⟨S64x2048x22x3x1, .f32⟩ : BufTy).Contents (Elt F) :=
  ((extractStridedSlice S64x2048x22x3x1 ![0, 0, 0, 0, 3] · slices_S64x2048x22x4x4_S64x2048x22x3x1_0_0_0_0_3) : (⟨S64x2048x22x4x4, .f32⟩ : BufTy).Contents (Elt F) → (⟨S64x2048x22x3x1, .f32⟩ : BufTy).Contents (Elt F)) (rs_v175 A)
/-- The value of `main_v177`. -/
def rs_v177 (A : RArgs F) : (⟨S64x2048x22x3, .f32⟩ : BufTy).Contents (Elt F) :=
  shapeCast S64x2048x22x3 (rs_v176 A) shapeCasts_S64x2048x22x3x1_S64x2048x22x3

end Cert.FK.R

end
-- ==== Proof.ROps.lean ====
import proofs.«127648_j26603027432101_1_alg».proof.Proof.Gen.ReferenceIdeal
import Idealize.ShloMosaic.Lib.StableHlo.Run

noncomputable section

namespace Cert.FK.R

open Cert.ReferenceIdeal Cert.ReferenceIdeal.Gen Idealize.ShloMosaic Idealize.ShloMosaic.TcCoe Idealize.SL.Sem

variable {F : FTy → Type} [FloatOps F]

/-- The reference's operations 1 … 60, in order. -/
abbrev ops0 : List (HloOp τ sig (Elt F)) :=
  [ StableHlo.nullary main_c (fun i => lit0 (S22.rowMajor i)),
    StableHlo.nullary main_cst (fun i => FloatOps.ofBits .f32 (lit1 (S4.rowMajor i))),
    StableHlo.binary main_arg2 main_arg0 main_v0 ((fun a b => concatenate S64x2048x66 2 [⟨S64x2048x3, a⟩, ⟨S64x2048x63, b⟩] concatenates_S64x2048x3_S64x2048x63_S64x2048x66_d2) : (⟨S64x2048x3, .f32⟩ : BufTy).Contents (Elt F) → (⟨S64x2048x63, .f32⟩ : BufTy).Contents (Elt F) → (⟨S64x2048x66, .f32⟩ : BufTy).Contents (Elt F)),
    StableHlo.reshape main_v0 main_v1 rfl shapeCasts_S64x2048x66_S64x2048x22x3,
    StableHlo.binary main_v1 main_v1 main_v2 (mulf : (⟨S64x2048x22x3, .f32⟩ : BufTy).Contents (Elt F) → (⟨S64x2048x22x3, .f32⟩ : BufTy).Contents (Elt F) → (⟨S64x2048x22x3, .f32⟩ : BufTy).Contents (Elt F)),
    StableHlo.nullary main_cst_0 (constant S_ .f32 0x00000000#32),
    StableHlo.binary main_v2 main_cst_0 main_v3 ((fun x v => Host.reduceAdd x v reducesTo_S64x2048x22x3_S64x2048x22_d3 h_S_) : (⟨S64x2048x22x3, .f32⟩ : BufTy).Contents (Elt F) → (⟨S_, .f32⟩ : BufTy).Contents (Elt F) → (⟨S64x2048x22, .f32⟩ : BufTy).Contents (Elt F)),
    StableHlo.unary main_v3 main_v4 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.nullary main_cst_1 (constant S_ .f32 0x2B8CBCCC#32),
    StableHlo.unary main_cst_1 main_v5 (broadcastInDim S64x2048x22x1 ![] bcast_S_S64x2048x22x1 : (⟨S_, .f32⟩ : BufTy).Contents (Elt F) → (⟨S64x2048x22x1, .f32⟩ : BufTy).Contents (Elt F)),
    StableHlo.binary main_v4 main_v5 main_v6 (addf : (⟨S64x2048x22x1, .f32⟩ : BufTy).Contents (Elt F) → (⟨S64x2048x22x1, .f32⟩ : BufTy).Contents (Elt F) → (⟨S64x2048x22x1, .f32⟩ : BufTy).Contents (Elt F)),
    StableHlo.unary main_v6 main_v7 (Host.sqrt : (⟨S64x2048x22x1, .f32⟩ : BufTy).Contents (Elt F) → (⟨S64x2048x22x1, .f32⟩ : BufTy).Contents (Elt F)),
    StableHlo.unary main_v7 main_v8 (broadcastInDim S64x2048x22x3 ![0, 1, 2, 3] bcast_S64x2048x22x1_S64x2048x22x3_0_1_2_3 : (⟨S64x2048x22x1, .f32⟩ : BufTy).Contents (Elt F) → (⟨S64x2048x22x3, .f32⟩ : BufTy).Contents (Elt F)),
    StableHlo.binary main_v1 main_v8 main_v9 (Host.divf : (⟨S64x2048x22x3, .f32⟩ : BufTy).Contents (Elt F) → (⟨S64x2048x22x3, .f32⟩ : BufTy).Contents (Elt F) → (⟨S64x2048x22x3, .f32⟩ : BufTy).Contents (Elt F)),
    StableHlo.unary main_v9 main_v10 ((extractStridedSlice S64x2048x22x1 ![0, 0, 0, 0] · slices_S64x2048x22x3_S64x2048x22x1_0_0_0_0) : (⟨S64x2048x22x3, .f32⟩ : BufTy).Contents (Elt F) → (⟨S64x2048x22x1, .f32⟩ : BufTy).Contents (Elt F)),
    StableHlo.reshape main_v10 main_v11 rfl shapeCasts_S64x2048x22x1_S64x2048x22,
    StableHlo.unary main_v9 main_v12 ((extractStridedSlice S64x2048x22x1 ![0, 0, 0, 1] · slices_S64x2048x22x3_S64x2048x22x1_0_0_0_1) : (⟨S64x2048x22x3, .f32⟩ : BufTy).Contents (Elt F) → (⟨S64x2048x22x1, .f32⟩ : BufTy).Contents (Elt F)),
    StableHlo.reshape main_v12 main_v13 rfl shapeCasts_S64x2048x22x1_S64x2048x22,
    StableHlo.unary main_v9 main_v14 ((extractStridedSlice S64x2048x22x1 ![0, 0, 0, 2] · slices_S64x2048x22x3_S64x2048x22x1_0_0_0_2) : (⟨S64x2048x22x3, .f32⟩ : BufTy).Contents (Elt F) → (⟨S64x2048x22x1, .f32⟩ : BufTy).Contents (Elt F)),
    StableHlo.reshape main_v14 main_v15 rfl shapeCasts_S64x2048x22x1_S64x2048x22,
    StableHlo.reshape main_v7 main_v16 rfl shapeCasts_S64x2048x22x1_S64x2048x22,
    StableHlo.unary main_v16 main_v17 (Host.cos : (⟨S64x2048x22, .f32⟩ : BufTy).Contents (Elt F) → (⟨S64x2048x22, .f32⟩ : BufTy).Contents (Elt F)),
    StableHlo.unary main_v16 main_v18 (Host.sin : (⟨S64x2048x22, .f32⟩ : BufTy).Contents (Elt F) → (⟨S64x2048x22, .f32⟩ : BufTy).Contents (Elt F)),
    StableHlo.nullary main_cst_2 (constant S_ .f32 0x3F800000#32),
    StableHlo.unary main_cst_2 main_v19 (broadcastInDim S64x2048x22 ![] bcast_S_S64x2048x22 : (⟨S_, .f32⟩ : BufTy).Contents (Elt F) → (⟨S64x2048x22, .f32⟩ : BufTy).Contents (Elt F)),
    StableHlo.binary main_v19 main_v17 main_v20 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v21 (mulf : (⟨S64x2048x22, .f32⟩ : BufTy).Contents (Elt F) → (⟨S64x2048x22, .f32⟩ : BufTy).Contents (Elt F) → (⟨S64x2048x22, .f32⟩ : BufTy).Contents (Elt F)),
    StableHlo.binary main_v21 main_v11 main_v22 (mulf : (⟨S64x2048x22, .f32⟩ : BufTy).Contents (Elt F) → (⟨S64x2048x22, .f32⟩ : BufTy).Contents (Elt F) → (⟨S64x2048x22, .f32⟩ : BufTy).Contents (Elt F)),
    StableHlo.binary main_v22 main_v17 main_v23 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v24 (mulf : (⟨S64x2048x22, .f32⟩ : BufTy).Contents (Elt F) → (⟨S64x2048x22, .f32⟩ : BufTy).Contents (Elt F) → (⟨S64x2048x22, .f32⟩ : BufTy).Contents (Elt F)),
    StableHlo.binary main_v24 main_v13 main_v25 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v15 main_v26 (mulf : (⟨S64x2048x22, .f32⟩ : BufTy).Contents (Elt F) → (⟨S64x2048x22, .f32⟩ : BufTy).Contents (Elt F) → (⟨S64x2048x22, .f32⟩ : BufTy).Contents (Elt F)),
    StableHlo.binary main_v25 main_v26 main_v27 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v28 (mulf : (⟨S64x2048x22, .f32⟩ : BufTy).Contents (Elt F) → (⟨S64x2048x22, .f32⟩ : BufTy).Contents (Elt F) → (⟨S64x2048x22, .f32⟩ : BufTy).Contents (Elt F)),
    StableHlo.binary main_v28 main_v15 main_v29 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v13 main_v30 (mulf : (⟨S64x2048x22, .f32⟩ : BufTy).Contents (Elt F) → (⟨S64x2048x22, .f32⟩ : BufTy).Contents (Elt F) → (⟨S64x2048x22, .f32⟩ : BufTy).Contents (Elt F)),
    StableHlo.binary main_v29 main_v30 main_v31 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v32 (mulf : (⟨S64x2048x22, .f32⟩ : BufTy).Contents (Elt F) → (⟨S64x2048x22, .f32⟩ : BufTy).Contents (Elt F) → (⟨S64x2048x22, .f32⟩ : BufTy).Contents (Elt F)),
    StableHlo.binary main_v32 main_v13 main_v33 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v15 main_v34 (mulf : (⟨S64x2048x22, .f32⟩ : BufTy).Contents (Elt F) → (⟨S64x2048x22, .f32⟩ : BufTy).Contents (Elt F) → (⟨S64x2048x22, .f32⟩ : BufTy).Contents (Elt F)),
    StableHlo.binary main_v33 main_v34 main_v35 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v13 main_v36 (mulf : (⟨S64x2048x22, .f32⟩ : BufTy).Contents (Elt F) → (⟨S64x2048x22, .f32⟩ : BufTy).Contents (Elt F) → (⟨S64x2048x22, .f32⟩ : BufTy).Contents (Elt F)),
    StableHlo.binary main_v36 main_v13 main_v37 (mulf : (⟨S64x2048x22, .f32⟩ : BufTy).Contents (Elt F) → (⟨S64x2048x22, .f32⟩ : BufTy).Contents (Elt F) → (⟨S64x2048x22, .f32⟩ : BufTy).Contents (Elt F)),
    StableHlo.binary main_v37 main_v17 main_v38 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v13 main_v39 (mulf : (⟨S64x2048x22, .f32⟩ : BufTy).Contents (Elt F) → (⟨S64x2048x22, .f32⟩ : BufTy).Contents (Elt F) → (⟨S64x2048x22, .f32⟩ : BufTy).Contents (Elt F)),
    StableHlo.binary main_v39 main_v15 main_v40 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v11 main_v41 (mulf : (⟨S64x2048x22, .f32⟩ : BufTy).Contents (Elt F) → (⟨S64x2048x22, .f32⟩ : BufTy).Contents (Elt F) → (⟨S64x2048x22, .f32⟩ : BufTy).Contents (Elt F)),
    StableHlo.binary main_v40 main_v41 main_v42 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v11 main_v43 (mulf : (⟨S64x2048x22, .f32⟩ : BufTy).Contents (Elt F) → (⟨S64x2048x22, .f32⟩ : BufTy).Contents (Elt F) → (⟨S64x2048x22, .f32⟩ : BufTy).Contents (Elt F)),
    StableHlo.binary main_v43 main_v15 main_v44 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v13 main_v45 (mulf : (⟨S64x2048x22, .f32⟩ : BufTy).Contents (Elt F) → (⟨S64x2048x22, .f32⟩ : BufTy).Contents (Elt F) → (⟨S64x2048x22, .f32⟩ : BufTy).Contents (Elt F)),
    StableHlo.binary main_v44 main_v45 main_v46 (subf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v13 main_v47 (mulf : (⟨S64x2048x22, .f32⟩ : BufTy).Contents (Elt F) → (⟨S64x2048x22, .f32⟩ : BufTy).Contents (Elt F) → (⟨S64x2048x22, .f32⟩ : BufTy).Contents (Elt F)),
    StableHlo.binary main_v47 main_v15 main_v48 (mulf : (⟨S64x2048x22, .f32⟩ : BufTy).Contents (Elt F) → (⟨S64x2048x22, .f32⟩ : BufTy).Contents (Elt F) → (⟨S64x2048x22, .f32⟩ : BufTy).Contents (Elt F)),
    StableHlo.binary main_v18 main_v11 main_v49 (mulf : (⟨S64x2048x22, .f32⟩ : BufTy).Contents (Elt F) → (⟨S64x2048x22, .f32⟩ : BufTy).Contents (Elt F) → (⟨S64x2048x22, .f32⟩ : BufTy).Contents (Elt F)),
    StableHlo.binary main_v48 main_v49 main_v50 (addf : (⟨S64x2048x22, .f32⟩ : BufTy).Contents (Elt F) → (⟨S64x2048x22, .f32⟩ : BufTy).Contents (Elt F) → (⟨S64x2048x22, .f32⟩ : BufTy).Contents (Elt F)),
    StableHlo.binary main_v20 main_v15 main_v51 (mulf : (⟨S64x2048x22, .f32⟩ : BufTy).Contents (Elt F) → (⟨S64x2048x22, .f32⟩ : BufTy).Contents (Elt F) → (⟨S64x2048x22, .f32⟩ : BufTy).Contents (Elt F)),
    StableHlo.binary main_v51 main_v15 main_v52 (mulf : (⟨S64x2048x22, .f32⟩ : BufTy).Contents (Elt F) → (⟨S64x2048x22, .f32⟩ : BufTy).Contents (Elt F) → (⟨S64x2048x22, .f32⟩ : BufTy).Contents (Elt F)),
    StableHlo.binary main_v52 main_v17 main_v53 (addf : (⟨S64x2048x22, .f32⟩ : BufTy).Contents (Elt F) → (⟨S64x2048x22, .f32⟩ : BufTy).Contents (Elt F) → (⟨S64x2048x22, .f32⟩ : BufTy).Contents (Elt F)),
    StableHlo.unary main_v23 main_v54 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)) ]

/-- The reference's operations 61 … 120, in order. -/
abbrev ops1 : List (HloOp τ sig (Elt F)) :=
  [ StableHlo.unary main_v27 main_v55 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v31 main_v56 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v35 main_v57 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v38 main_v58 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v42 main_v59 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v46 main_v60 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v50 main_v61 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.unary main_v53 main_v62 (broadcastInDim S64x2048x22x1 ![0, 1, 2] bcast_S64x2048x22_S64x2048x22x1_0_1_2 : (⟨S64x2048x22, .f32⟩ : BufTy).Contents (Elt F) → (⟨S64x2048x22x1, .f32⟩ : BufTy).Contents (Elt F)),
    StableHlo.nary ![main_v54, main_v55, main_v56, main_v57, main_v58, main_v59, main_v60, main_v61, main_v62] main_v63 (fun u => concatenate S64x2048x22x9 3 [⟨S64x2048x22x1, u 0⟩, ⟨S64x2048x22x1, u 1⟩, ⟨S64x2048x22x1, u 2⟩, ⟨S64x2048x22x1, u 3⟩, ⟨S64x2048x22x1, u 4⟩, ⟨S64x2048x22x1, u 5⟩, ⟨S64x2048x22x1, u 6⟩, ⟨S64x2048x22x1, u 7⟩, ⟨S64x2048x22x1, u 8⟩] concatenates_S64x2048x22x1_S64x2048x22x1_S64x2048x22x1_S64x2048x22x1_S64x2048x22x1_S64x2048x22x1_S64x2048x22x1_S64x2048x22x1_S64x2048x22x1_S64x2048x22x9_d3),
    StableHlo.reshape main_v63 main_v64 rfl shapeCasts_S64x2048x22x9_S64x2048x22x3x3,
    StableHlo.unary main_arg4 main_v65 (broadcastInDim S1x1x22x3 ![2, 3] bcast_S22x3_S1x1x22x3_2_3 : (⟨S22x3, .f32⟩ : BufTy).Contents (Elt F) → (⟨S1x1x22x3, .f32⟩ : BufTy).Contents (Elt F)),
    StableHlo.binary main_arg1 main_arg5 main_v66 ((fun l r => Host.dotGeneral dot_S64x2048x10_S22x3x10_S64x2048x22x3_2_2_01_01_n_n none l r) : (⟨S64x2048x10, .f32⟩ : BufTy).Contents (Elt F) → (⟨S22x3x10, .f32⟩ : BufTy).Contents (Elt F) → (⟨S64x2048x22x3, .f32⟩ : BufTy).Contents (Elt F)),
    StableHlo.unary main_v65 main_v67 (broadcastInDim S64x2048x22x3 ![0, 1, 2, 3] bcast_S1x1x22x3_S64x2048x22x3_0_1_2_3 : (⟨S1x1x22x3, .f32⟩ : BufTy).Contents (Elt F) → (⟨S64x2048x22x3, .f32⟩ : BufTy).Contents (Elt F)),
    StableHlo.binary main_v67 main_v66 main_v68 (addf : (⟨S64x2048x22x3, .f32⟩ : BufTy).Contents (Elt F) → (⟨S64x2048x22x3, .f32⟩ : BufTy).Contents (Elt F) → (⟨S64x2048x22x3, .f32⟩ : BufTy).Contents (Elt F)),
    StableHlo.nullary main_c_3 (constantI S_ 32 0#32),
    StableHlo.unary main_c_3 main_v69 (broadcastInDim S22 ![] bcast_S_S22 : (⟨S_, .i32⟩ : BufTy).Contents (Elt F) → (⟨S22, .i32⟩ : BufTy).Contents (Elt F)),
    StableHlo.binary main_c main_v69 main_v70 (cmpi .slt : (⟨S22, .i32⟩ : BufTy).Contents (Elt F) → (⟨S22, .i32⟩ : BufTy).Contents (Elt F) → (⟨S22, .i1⟩ : BufTy).Contents (Elt F)),
    StableHlo.nullary main_c_4 (constantI S_ 32 22#32),
    StableHlo.unary main_c_4 main_v71 (broadcastInDim S22 ![] bcast_S_S22 : (⟨S_, .i32⟩ : BufTy).Contents (Elt F) → (⟨S22, .i32⟩ : BufTy).Contents (Elt F)),
    StableHlo.binary main_c main_v71 main_v72 (addi : (⟨S22, .i32⟩ : BufTy).Contents (Elt F) → (⟨S22, .i32⟩ : BufTy).Contents (Elt F) → (⟨S22, .i32⟩ : BufTy).Contents (Elt F)),
    StableHlo.ternary main_v70 main_v72 main_c main_v73 (select : (⟨S22, .i1⟩ : BufTy).Contents (Elt F) → (⟨S22, .i32⟩ : BufTy).Contents (Elt F) → (⟨S22, .i32⟩ : BufTy).Contents (Elt F) → (⟨S22, .i32⟩ : BufTy).Contents (Elt F)),
    StableHlo.unary main_v73 main_v74 (broadcastInDim S22x1 ![0] bcast_S22_S22x1_0 : (⟨S22, .i32⟩ : BufTy).Contents (Elt F) → (⟨S22x1, .i32⟩ : BufTy).Contents (Elt F)),
    StableHlo.binary main_v68 main_v74 main_v75 ((fun x i => Host.gather gather_S64x2048x22x3_S22x1_S64x2048x22x3_013_2_n_n_2_1_64204813 x i) : (⟨S64x2048x22x3, .f32⟩ : BufTy).Contents (Elt F) → (⟨S22x1, .i32⟩ : BufTy).Contents (Elt F) → (⟨S64x2048x22x3, .f32⟩ : BufTy).Contents (Elt F)),
    StableHlo.binary main_v68 main_v75 main_v76 (subf : (⟨S64x2048x22x3, .f32⟩ : BufTy).Contents (Elt F) → (⟨S64x2048x22x3, .f32⟩ : BufTy).Contents (Elt F) → (⟨S64x2048x22x3, .f32⟩ : BufTy).Contents (Elt F)),
    StableHlo.unary main_v68 main_v77 ((extractStridedSlice S64x2048x1x3 ![0, 0, 0, 0] · slices_S64x2048x22x3_S64x2048x1x3_0_0_0_0) : (⟨S64x2048x22x3, .f32⟩ : BufTy).Contents (Elt F) → (⟨S64x2048x1x3, .f32⟩ : BufTy).Contents (Elt F)),
    StableHlo.reshape main_v77 main_v78 rfl shapeCasts_S64x2048x1x3_S64x2048x3,
    StableHlo.binary main_v78 main_arg3 main_v79 (addf : (⟨S64x2048x3, .f32⟩ : BufTy).Contents (Elt F) → (⟨S64x2048x3, .f32⟩ : BufTy).Contents (Elt F) → (⟨S64x2048x3, .f32⟩ : BufTy).Contents (Elt F)),
    StableHlo.nullary main_c_5 (constantI S_ 32 0#32),
    StableHlo.unary main_c_5 main_v80 (broadcastInDim S1 ![] bcast_S_S1 : (⟨S_, .i32⟩ : BufTy).Contents (Elt F) → (⟨S1, .i32⟩ : BufTy).Contents (Elt F)),
    StableHlo.ternary main_v76 main_v80 main_v79 main_v81 ((fun x i u => Host.scatter scatter_S64x2048x22x3_S1_S64x2048x3_012_2_2_0 (fun _ b => b) x i u) : (⟨S64x2048x22x3, .f32⟩ : BufTy).Contents (Elt F) → (⟨S1, .i32⟩ : BufTy).Contents (Elt F) → (⟨S64x2048x3, .f32⟩ : BufTy).Contents (Elt F) → (⟨S64x2048x22x3, .f32⟩ : BufTy).Contents (Elt F)),
    StableHlo.unary main_v81 main_v82 (broadcastInDim S64x2048x22x3x1 ![0, 1, 2, 3] bcast_S64x2048x22x3_S64x2048x22x3x1_0_1_2_3 : (⟨S64x2048x22x3, .f32⟩ : BufTy).Contents (Elt F) → (⟨S64x2048x22x3x1, .f32⟩ : BufTy).Contents (Elt F)),
    StableHlo.binary main_v64 main_v82 main_v83 ((fun a b => concatenate S64x2048x22x3x4 4 [⟨S64x2048x22x3x3, a⟩, ⟨S64x2048x22x3x1, b⟩] concatenates_S64x2048x22x3x3_S64x2048x22x3x1_S64x2048x22x3x4_d4) : (⟨S64x2048x22x3x3, .f32⟩ : BufTy).Contents (Elt F) → (⟨S64x2048x22x3x1, .f32⟩ : BufTy).Contents (Elt F) → (⟨S64x2048x22x3x4, .f32⟩ : BufTy).Contents (Elt F)),
    StableHlo.unary main_cst main_v84 (broadcastInDim S64x2048x22x1x4 ![4] bcast_S4_S64x2048x22x1x4_4 : (⟨S4, .f32⟩ : BufTy).Contents (Elt F) → (⟨S64x2048x22x1x4, .f32⟩ : BufTy).Contents (Elt F)),
    StableHlo.binary main_v83 main_v84 main_v85 ((fun a b => concatenate S64x2048x22x4x4 3 [⟨S64x2048x22x3x4, a⟩, ⟨S64x2048x22x1x4, b⟩] concatenates_S64x2048x22x3x4_S64x2048x22x1x4_S64x2048x22x4x4_d3) : (⟨S64x2048x22x3x4, .f32⟩ : BufTy).Contents (Elt F) → (⟨S64x2048x22x1x4, .f32⟩ : BufTy).Contents (Elt F) → (⟨S64x2048x22x4x4, .f32⟩ : BufTy).Contents (Elt F)),
    StableHlo.unary main_v85 main_v86 ((extractStridedSlice S64x2048x1x4x4 ![0, 0, 0, 0, 0] · slices_S64x2048x22x4x4_S64x2048x1x4x4_0_0_0_0_0) : (⟨S64x2048x22x4x4, .f32⟩ : BufTy).Contents (Elt F) → (⟨S64x2048x1x4x4, .f32⟩ : BufTy).Contents (Elt F)),
    StableHlo.reshape main_v86 main_v87 rfl shapeCasts_S64x2048x1x4x4_S64x2048x4x4,
    StableHlo.unary main_v85 main_v88 ((extractStridedSlice S64x2048x1x4x4 ![0, 0, 1, 0, 0] · slices_S64x2048x22x4x4_S64x2048x1x4x4_0_0_1_0_0) : (⟨S64x2048x22x4x4, .f32⟩ : BufTy).Contents (Elt F) → (⟨S64x2048x1x4x4, .f32⟩ : BufTy).Contents (Elt F)),
    StableHlo.reshape main_v88 main_v89 rfl shapeCasts_S64x2048x1x4x4_S64x2048x4x4,
    StableHlo.binary main_v87 main_v89 main_v90 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v91 ((extractStridedSlice S64x2048x1x4x4 ![0, 0, 2, 0, 0] · slices_S64x2048x22x4x4_S64x2048x1x4x4_0_0_2_0_0) : (⟨S64x2048x22x4x4, .f32⟩ : BufTy).Contents (Elt F) → (⟨S64x2048x1x4x4, .f32⟩ : BufTy).Contents (Elt F)),
    StableHlo.reshape main_v91 main_v92 rfl shapeCasts_S64x2048x1x4x4_S64x2048x4x4,
    StableHlo.binary main_v87 main_v92 main_v93 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v94 ((extractStridedSlice S64x2048x1x4x4 ![0, 0, 3, 0, 0] · slices_S64x2048x22x4x4_S64x2048x1x4x4_0_0_3_0_0) : (⟨S64x2048x22x4x4, .f32⟩ : BufTy).Contents (Elt F) → (⟨S64x2048x1x4x4, .f32⟩ : BufTy).Contents (Elt F)),
    StableHlo.reshape main_v94 main_v95 rfl shapeCasts_S64x2048x1x4x4_S64x2048x4x4,
    StableHlo.binary main_v87 main_v95 main_v96 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v97 ((extractStridedSlice S64x2048x1x4x4 ![0, 0, 4, 0, 0] · slices_S64x2048x22x4x4_S64x2048x1x4x4_0_0_4_0_0) : (⟨S64x2048x22x4x4, .f32⟩ : BufTy).Contents (Elt F) → (⟨S64x2048x1x4x4, .f32⟩ : BufTy).Contents (Elt F)),
    StableHlo.reshape main_v97 main_v98 rfl shapeCasts_S64x2048x1x4x4_S64x2048x4x4,
    StableHlo.binary main_v90 main_v98 main_v99 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v100 ((extractStridedSlice S64x2048x1x4x4 ![0, 0, 5, 0, 0] · slices_S64x2048x22x4x4_S64x2048x1x4x4_0_0_5_0_0) : (⟨S64x2048x22x4x4, .f32⟩ : BufTy).Contents (Elt F) → (⟨S64x2048x1x4x4, .f32⟩ : BufTy).Contents (Elt F)),
    StableHlo.reshape main_v100 main_v101 rfl shapeCasts_S64x2048x1x4x4_S64x2048x4x4,
    StableHlo.binary main_v93 main_v101 main_v102 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v103 ((extractStridedSlice S64x2048x1x4x4 ![0, 0, 6, 0, 0] · slices_S64x2048x22x4x4_S64x2048x1x4x4_0_0_6_0_0) : (⟨S64x2048x22x4x4, .f32⟩ : BufTy).Contents (Elt F) → (⟨S64x2048x1x4x4, .f32⟩ : BufTy).Contents (Elt F)),
    StableHlo.reshape main_v103 main_v104 rfl shapeCasts_S64x2048x1x4x4_S64x2048x4x4,
    StableHlo.binary main_v96 main_v104 main_v105 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v106 ((extractStridedSlice S64x2048x1x4x4 ![0, 0, 7, 0, 0] · slices_S64x2048x22x4x4_S64x2048x1x4x4_0_0_7_0_0) : (⟨S64x2048x22x4x4, .f32⟩ : BufTy).Contents (Elt F) → (⟨S64x2048x1x4x4, .f32⟩ : BufTy).Contents (Elt F)),
    StableHlo.reshape main_v106 main_v107 rfl shapeCasts_S64x2048x1x4x4_S64x2048x4x4,
    StableHlo.binary main_v99 main_v107 main_v108 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v109 ((extractStridedSlice S64x2048x1x4x4 ![0, 0, 8, 0, 0] · slices_S64x2048x22x4x4_S64x2048x1x4x4_0_0_8_0_0) : (⟨S64x2048x22x4x4, .f32⟩ : BufTy).Contents (Elt F) → (⟨S64x2048x1x4x4, .f32⟩ : BufTy).Contents (Elt F)),
    StableHlo.reshape main_v109 main_v110 rfl shapeCasts_S64x2048x1x4x4_S64x2048x4x4,
    StableHlo.binary main_v102 main_v110 main_v111 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)) ]

/-- The reference's operations 121 … 180, in order. -/
abbrev ops2 : List (HloOp τ sig (Elt F)) :=
  [ StableHlo.unary main_v85 main_v112 ((extractStridedSlice S64x2048x1x4x4 ![0, 0, 9, 0, 0] · slices_S64x2048x22x4x4_S64x2048x1x4x4_0_0_9_0_0) : (⟨S64x2048x22x4x4, .f32⟩ : BufTy).Contents (Elt F) → (⟨S64x2048x1x4x4, .f32⟩ : BufTy).Contents (Elt F)),
    StableHlo.reshape main_v112 main_v113 rfl shapeCasts_S64x2048x1x4x4_S64x2048x4x4,
    StableHlo.binary main_v105 main_v113 main_v114 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v115 ((extractStridedSlice S64x2048x1x4x4 ![0, 0, 10, 0, 0] · slices_S64x2048x22x4x4_S64x2048x1x4x4_0_0_10_0_0) : (⟨S64x2048x22x4x4, .f32⟩ : BufTy).Contents (Elt F) → (⟨S64x2048x1x4x4, .f32⟩ : BufTy).Contents (Elt F)),
    StableHlo.reshape main_v115 main_v116 rfl shapeCasts_S64x2048x1x4x4_S64x2048x4x4,
    StableHlo.binary main_v108 main_v116 main_v117 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v118 ((extractStridedSlice S64x2048x1x4x4 ![0, 0, 11, 0, 0] · slices_S64x2048x22x4x4_S64x2048x1x4x4_0_0_11_0_0) : (⟨S64x2048x22x4x4, .f32⟩ : BufTy).Contents (Elt F) → (⟨S64x2048x1x4x4, .f32⟩ : BufTy).Contents (Elt F)),
    StableHlo.reshape main_v118 main_v119 rfl shapeCasts_S64x2048x1x4x4_S64x2048x4x4,
    StableHlo.binary main_v111 main_v119 main_v120 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v121 ((extractStridedSlice S64x2048x1x4x4 ![0, 0, 12, 0, 0] · slices_S64x2048x22x4x4_S64x2048x1x4x4_0_0_12_0_0) : (⟨S64x2048x22x4x4, .f32⟩ : BufTy).Contents (Elt F) → (⟨S64x2048x1x4x4, .f32⟩ : BufTy).Contents (Elt F)),
    StableHlo.reshape main_v121 main_v122 rfl shapeCasts_S64x2048x1x4x4_S64x2048x4x4,
    StableHlo.binary main_v114 main_v122 main_v123 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v124 ((extractStridedSlice S64x2048x1x4x4 ![0, 0, 13, 0, 0] · slices_S64x2048x22x4x4_S64x2048x1x4x4_0_0_13_0_0) : (⟨S64x2048x22x4x4, .f32⟩ : BufTy).Contents (Elt F) → (⟨S64x2048x1x4x4, .f32⟩ : BufTy).Contents (Elt F)),
    StableHlo.reshape main_v124 main_v125 rfl shapeCasts_S64x2048x1x4x4_S64x2048x4x4,
    StableHlo.binary main_v114 main_v125 main_v126 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v127 ((extractStridedSlice S64x2048x1x4x4 ![0, 0, 14, 0, 0] · slices_S64x2048x22x4x4_S64x2048x1x4x4_0_0_14_0_0) : (⟨S64x2048x22x4x4, .f32⟩ : BufTy).Contents (Elt F) → (⟨S64x2048x1x4x4, .f32⟩ : BufTy).Contents (Elt F)),
    StableHlo.reshape main_v127 main_v128 rfl shapeCasts_S64x2048x1x4x4_S64x2048x4x4,
    StableHlo.binary main_v114 main_v128 main_v129 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v130 ((extractStridedSlice S64x2048x1x4x4 ![0, 0, 15, 0, 0] · slices_S64x2048x22x4x4_S64x2048x1x4x4_0_0_15_0_0) : (⟨S64x2048x22x4x4, .f32⟩ : BufTy).Contents (Elt F) → (⟨S64x2048x1x4x4, .f32⟩ : BufTy).Contents (Elt F)),
    StableHlo.reshape main_v130 main_v131 rfl shapeCasts_S64x2048x1x4x4_S64x2048x4x4,
    StableHlo.binary main_v123 main_v131 main_v132 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v133 ((extractStridedSlice S64x2048x1x4x4 ![0, 0, 16, 0, 0] · slices_S64x2048x22x4x4_S64x2048x1x4x4_0_0_16_0_0) : (⟨S64x2048x22x4x4, .f32⟩ : BufTy).Contents (Elt F) → (⟨S64x2048x1x4x4, .f32⟩ : BufTy).Contents (Elt F)),
    StableHlo.reshape main_v133 main_v134 rfl shapeCasts_S64x2048x1x4x4_S64x2048x4x4,
    StableHlo.binary main_v126 main_v134 main_v135 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v136 ((extractStridedSlice S64x2048x1x4x4 ![0, 0, 17, 0, 0] · slices_S64x2048x22x4x4_S64x2048x1x4x4_0_0_17_0_0) : (⟨S64x2048x22x4x4, .f32⟩ : BufTy).Contents (Elt F) → (⟨S64x2048x1x4x4, .f32⟩ : BufTy).Contents (Elt F)),
    StableHlo.reshape main_v136 main_v137 rfl shapeCasts_S64x2048x1x4x4_S64x2048x4x4,
    StableHlo.binary main_v129 main_v137 main_v138 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v139 ((extractStridedSlice S64x2048x1x4x4 ![0, 0, 18, 0, 0] · slices_S64x2048x22x4x4_S64x2048x1x4x4_0_0_18_0_0) : (⟨S64x2048x22x4x4, .f32⟩ : BufTy).Contents (Elt F) → (⟨S64x2048x1x4x4, .f32⟩ : BufTy).Contents (Elt F)),
    StableHlo.reshape main_v139 main_v140 rfl shapeCasts_S64x2048x1x4x4_S64x2048x4x4,
    StableHlo.binary main_v135 main_v140 main_v141 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v142 ((extractStridedSlice S64x2048x1x4x4 ![0, 0, 19, 0, 0] · slices_S64x2048x22x4x4_S64x2048x1x4x4_0_0_19_0_0) : (⟨S64x2048x22x4x4, .f32⟩ : BufTy).Contents (Elt F) → (⟨S64x2048x1x4x4, .f32⟩ : BufTy).Contents (Elt F)),
    StableHlo.reshape main_v142 main_v143 rfl shapeCasts_S64x2048x1x4x4_S64x2048x4x4,
    StableHlo.binary main_v138 main_v143 main_v144 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v145 ((extractStridedSlice S64x2048x1x4x4 ![0, 0, 20, 0, 0] · slices_S64x2048x22x4x4_S64x2048x1x4x4_0_0_20_0_0) : (⟨S64x2048x22x4x4, .f32⟩ : BufTy).Contents (Elt F) → (⟨S64x2048x1x4x4, .f32⟩ : BufTy).Contents (Elt F)),
    StableHlo.reshape main_v145 main_v146 rfl shapeCasts_S64x2048x1x4x4_S64x2048x4x4,
    StableHlo.binary main_v141 main_v146 main_v147 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v85 main_v148 ((extractStridedSlice S64x2048x1x4x4 ![0, 0, 21, 0, 0] · slices_S64x2048x22x4x4_S64x2048x1x4x4_0_0_21_0_0) : (⟨S64x2048x22x4x4, .f32⟩ : BufTy).Contents (Elt F) → (⟨S64x2048x1x4x4, .f32⟩ : BufTy).Contents (Elt F)),
    StableHlo.reshape main_v148 main_v149 rfl shapeCasts_S64x2048x1x4x4_S64x2048x4x4,
    StableHlo.binary main_v144 main_v149 main_v150 ((fun l r => Host.dotGeneral dot_S64x2048x4x4_S64x2048x4x4_S64x2048x4x4_3_2_2_3_01_01 none l r) : (⟨S64x2048x4x4, .f32⟩ : BufTy).Contents (Elt F) → (⟨S64x2048x4x4, .f32⟩ : BufTy).Contents (Elt F) → (⟨S64x2048x4x4, .f32⟩ : BufTy).Contents (Elt F)),
    StableHlo.unary main_v87 main_v151 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v90 main_v152 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v93 main_v153 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v96 main_v154 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v99 main_v155 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v102 main_v156 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v105 main_v157 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v108 main_v158 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v111 main_v159 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v114 main_v160 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v117 main_v161 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v120 main_v162 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v123 main_v163 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v126 main_v164 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v129 main_v165 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v132 main_v166 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v135 main_v167 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v138 main_v168 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v141 main_v169 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v144 main_v170 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.unary main_v147 main_v171 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)) ]

/-- The reference's operations 181 … 186, in order. -/
abbrev ops3 : List (HloOp τ sig (Elt F)) :=
  [ StableHlo.unary main_v150 main_v172 (broadcastInDim S64x2048x1x4x4 ![0, 1, 3, 4] bcast_S64x2048x4x4_S64x2048x1x4x4_0_1_3_4 : (⟨S64x2048x4x4, .f32⟩ : BufTy).Contents (Elt F) → (⟨S64x2048x1x4x4, .f32⟩ : BufTy).Contents (Elt F)),
    StableHlo.nary ![main_v151, main_v152, main_v153, main_v154, main_v155, main_v156, main_v157, main_v158, main_v159, main_v160, main_v161, main_v162, main_v163, main_v164, main_v165, main_v166] main_v173 (fun u => concatenate S64x2048x16x4x4 2 [⟨S64x2048x1x4x4, u 0⟩, ⟨S64x2048x1x4x4, u 1⟩, ⟨S64x2048x1x4x4, u 2⟩, ⟨S64x2048x1x4x4, u 3⟩, ⟨S64x2048x1x4x4, u 4⟩, ⟨S64x2048x1x4x4, u 5⟩, ⟨S64x2048x1x4x4, u 6⟩, ⟨S64x2048x1x4x4, u 7⟩, ⟨S64x2048x1x4x4, u 8⟩, ⟨S64x2048x1x4x4, u 9⟩, ⟨S64x2048x1x4x4, u 10⟩, ⟨S64x2048x1x4x4, u 11⟩, ⟨S64x2048x1x4x4, u 12⟩, ⟨S64x2048x1x4x4, u 13⟩, ⟨S64x2048x1x4x4, u 14⟩, ⟨S64x2048x1x4x4, u 15⟩] concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2),
    StableHlo.nary ![main_v167, main_v168, main_v169, main_v170, main_v171, main_v172] main_v174 (fun u => concatenate S64x2048x6x4x4 2 [⟨S64x2048x1x4x4, u 0⟩, ⟨S64x2048x1x4x4, u 1⟩, ⟨S64x2048x1x4x4, u 2⟩, ⟨S64x2048x1x4x4, u 3⟩, ⟨S64x2048x1x4x4, u 4⟩, ⟨S64x2048x1x4x4, u 5⟩] concatenates_S64x2048x1x4x4_S64x2048x1x4x4_S64x2048x1x4x4_S64x2048x1x4x4_S64x2048x1x4x4_S64x2048x1x4x4_S64x2048x6x4x4_d2),
    StableHlo.binary main_v173 main_v174 main_v175 ((fun a b => concatenate S64x2048x22x4x4 2 [⟨S64x2048x16x4x4, a⟩, ⟨S64x2048x6x4x4, b⟩] concatenates_S64x2048x16x4x4_S64x2048x6x4x4_S64x2048x22x4x4_d2) : (⟨S64x2048x16x4x4, .f32⟩ : BufTy).Contents (Elt F) → (⟨S64x2048x6x4x4, .f32⟩ : BufTy).Contents (Elt F) → (⟨S64x2048x22x4x4, .f32⟩ : BufTy).Contents (Elt F)),
    StableHlo.unary main_v175 main_v176 ((extractStridedSlice S64x2048x22x3x1 ![0, 0, 0, 0, 3] · slices_S64x2048x22x4x4_S64x2048x22x3x1_0_0_0_0_3) : (⟨S64x2048x22x4x4, .f32⟩ : BufTy).Contents (Elt F) → (⟨S64x2048x22x3x1, .f32⟩ : BufTy).Contents (Elt F)),
    StableHlo.reshape main_v176 main_v177 rfl shapeCasts_S64x2048x22x3x1_S64x2048x22x3 ]

/-- All of them, in order. -/
abbrev ops : List (HloOp τ sig (Elt F)) := ops0 ++ ops1 ++ ops2 ++ ops3

end Cert.FK.R

end
-- ==== Proof.RBase.lean ====
/-
  The reference's run, first part. Its host program is the straight line of its 186 operations, printed in four
  windows; the line touches TensorCore buffers only. The buffers after the line are read stretch by stretch: after
  each stretch every buffer still read later holds the value the operations name for it (the values of
  Proof/RStages.lean, over the six argument arrays), and the arguments are as they were. Here: the statement of the
  line, the splitting of a line into stretches, and the first two stretches (the two constant tables; then the
  axis-angle vectors, global orientation followed by the body pose, regrouped joint by joint, and their squares).
-/
import proofs.«127648_j26603027432101_1_alg».proof.Proof.RStages
import proofs.«127648_j26603027432101_1_alg».proof.Proof.ROps
import Idealize.ShloMosaic.Lib.StableHlo.Run

noncomputable section

namespace Cert.FK.R

open Cert.ReferenceIdeal Cert.ReferenceIdeal.Gen Idealize.ShloMosaic Idealize.ShloMosaic.TcCoe Idealize.SL.Sem
open Idealize.ShloMosaic.StableHlo

variable {F : FTy → Type} [FloatOps F]

/-- The six argument arrays as a valuation holds them. -/
def argsV (V0 : Valuation τ sig (Elt F)) : RArgs F where
  a0 := V0 (Proc.devRef .tc main_arg0)
  a1 := V0 (Proc.devRef .tc main_arg1)
  a2 := V0 (Proc.devRef .tc main_arg2)
  a3 := V0 (Proc.devRef .tc main_arg3)
  a4 := V0 (Proc.devRef .tc main_arg4)
  a5 := V0 (Proc.devRef .tc main_arg5)

/-! ## The program is the line of its operations -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl

set_option maxRecDepth 8192 in
set_option maxHeartbeats 4000000 in
/-- The four windows run in order are the whole line run as one. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## A line run in two stretches -/

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A line run as its first n operations and then the rest. -/
theorem after_split (n : Nat) (l : List (HloOp τ sig (Elt F))) (V : Valuation τ sig (Elt F)) :
    after l V = after (l.drop n) (after (l.take n) V) := by
  rw [← after_app, List.take_append_drop]

/-! ## Two small tactics -/

/-- One operation's written buffer is in the stretch's list of written buffers. -/
macro "wr_one" : term => `(by simp only [nullary_writes, unary_writes, binary_writes, ternary_writes, reshape_writes, nary_writes, Finset.singleton_subset_iff, List.mem_toFinset]; exact List.mem_map_of_mem (by decide))

/-- Reads a buffer off operations' results already unfolded: one rewrite an operation, its function's value at its own
    result buffer, what was there at any other. -/
macro "results_rw" : tactic =>
  `(tactic| repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-! ## The buffers, stretch by stretch -/

/-- The buffers before the first operation. -/
def val0 (V0 : Valuation τ sig (Elt F)) : Valuation τ sig (Elt F) := V0
theorem val0_main_arg0 (V0 : Valuation τ sig (Elt F)) : val0 V0 (no_index (Proc.devRef .tc main_arg0)) = (argsV V0).a0 := rfl
theorem val0_main_arg1 (V0 : Valuation τ sig (Elt F)) : val0 V0 (no_index (Proc.devRef .tc main_arg1)) = (argsV V0).a1 := rfl
theorem val0_main_arg2 (V0 : Valuation τ sig (Elt F)) : val0 V0 (no_index (Proc.devRef .tc main_arg2)) = (argsV V0).a2 := rfl
theorem val0_main_arg3 (V0 : Valuation τ sig (Elt F)) : val0 V0 (no_index (Proc.devRef .tc main_arg3)) = (argsV V0).a3 := rfl
theorem val0_main_arg4 (V0 : Valuation τ sig (Elt F)) : val0 V0 (no_index (Proc.devRef .tc main_arg4)) = (argsV V0).a4 := rfl
theorem val0_main_arg5 (V0 : Valuation τ sig (Elt F)) : val0 V0 (no_index (Proc.devRef .tc main_arg5)) = (argsV V0).a5 := rfl

/-! ### Operations 1 and 2: the two constant tables

Their values are dense tables; the operations' results are read rewrite by rewrite. -/

/-- The buffers once operations 1 … 2 have run. -/
def valC (V0 : Valuation τ sig (Elt F)) : Valuation τ sig (Elt F) := after (ops0.take 2) (val0 V0)
/-- What operations 1 … 2 write. -/
abbrev wC : List (Ref sig .tc) := [main_c, main_cst]
theorem wC_writes : ((ops0.take 2) : List (HloOp τ sig (Elt F))).Forall fun op => op.writes ⊆ (wC.map (Proc.devRef (τ := τ) .tc)).toFinset := by
  simp only [ops0, List.take_succ_cons, List.take_zero, List.drop_succ_cons, List.drop_zero, List.Forall]; exact ⟨wr_one, wr_one⟩
/-- A buffer the stretch does not write keeps its contents through it. -/
theorem valC_keep (V0 : Valuation τ sig (Elt F)) (r : Ref sig .tc) (h : r ∉ wC) :
    valC V0 (Proc.devRef .tc r) = val0 V0 (Proc.devRef .tc r) :=
  after_of_writes_sub (ops0.take 2) _ wC_writes h
theorem valC_main_arg0 (V0 : Valuation τ sig (Elt F)) : valC V0 (no_index (Proc.devRef .tc main_arg0)) = (argsV V0).a0 :=
  (valC_keep V0 main_arg0 (by decide)).trans (val0_main_arg0 V0)
theorem valC_main_arg1 (V0 : Valuation τ sig (Elt F)) : valC V0 (no_index (Proc.devRef .tc main_arg1)) = (argsV V0).a1 :=
  (valC_keep V0 main_arg1 (by decide)).trans (val0_main_arg1 V0)
theorem valC_main_arg2 (V0 : Valuation τ sig (Elt F)) : valC V0 (no_index (Proc.devRef .tc main_arg2)) = (argsV V0).a2 :=
  (valC_keep V0 main_arg2 (by decide)).trans (val0_main_arg2 V0)
theorem valC_main_arg3 (V0 : Valuation τ sig (Elt F)) : valC V0 (no_index (Proc.devRef .tc main_arg3)) = (argsV V0).a3 :=
  (valC_keep V0 main_arg3 (by decide)).trans (val0_main_arg3 V0)
theorem valC_main_arg4 (V0 : Valuation τ sig (Elt F)) : valC V0 (no_index (Proc.devRef .tc main_arg4)) = (argsV V0).a4 :=
  (valC_keep V0 main_arg4 (by decide)).trans (val0_main_arg4 V0)
theorem valC_main_arg5 (V0 : Valuation τ sig (Elt F)) : valC V0 (no_index (Proc.devRef .tc main_arg5)) = (argsV V0).a5 :=
  (valC_keep V0 main_arg5 (by decide)).trans (val0_main_arg5 V0)
/-- A buffer the stretch writes, read rewrite by rewrite. -/
theorem valC_main_c (V0 : Valuation τ sig (Elt F)) : valC V0 (no_index (Proc.devRef .tc main_c)) = rs_c (argsV V0) := by
  unfold valC
  simp only [ops0, List.take_succ_cons, List.take_zero, List.drop_succ_cons, List.drop_zero]
  after_results
  all_goals rfl
theorem valC_main_cst (V0 : Valuation τ sig (Elt F)) : valC V0 (no_index (Proc.devRef .tc main_cst)) = rs_cst (argsV V0) := by
  unfold valC
  simp only [ops0, List.take_succ_cons, List.take_zero, List.drop_succ_cons, List.drop_zero]
  after_results
  all_goals rfl

/-! ### Operations 3 … 6: the axis-angle vectors joint by joint, and their squares

A longer stretch is read by one simp pass over its operations; what is left reads the earlier stretch's buffers, which
the earlier lemmas name (rewritten, since they stand among a concatenation's operands too), and the two sides then differ
by the unfolding of the named values. The remaining buffers of this stretch, and every later stretch up to operation
180, are laid out in Proof/RWin.lean after the two lemmas here. -/

/-- The buffers once operations 3 … 6 have run as well. -/
def val1a (V0 : Valuation τ sig (Elt F)) : Valuation τ sig (Elt F) := after ((ops0.drop 2).take 4) (valC V0)
/-- What operations 3 … 6 write. -/
abbrev w1a : List (Ref sig .tc) := [main_v0, main_v1, main_v2, main_cst_0]
theorem w1a_writes : (((ops0.drop 2).take 4) : List (HloOp τ sig (Elt F))).Forall fun op => op.writes ⊆ (w1a.map (Proc.devRef (τ := τ) .tc)).toFinset := by
  simp only [ops0, List.take_succ_cons, List.take_zero, List.drop_succ_cons, List.drop_zero, List.Forall]; exact ⟨wr_one, wr_one, wr_one, wr_one⟩
theorem val1a_keep (V0 : Valuation τ sig (Elt F)) (r : Ref sig .tc) (h : r ∉ w1a) :
    val1a V0 (Proc.devRef .tc r) = valC V0 (Proc.devRef .tc r) :=
  after_of_writes_sub ((ops0.drop 2).take 4) _ w1a_writes h
/-- A buffer written before the stretch and not by it. -/
theorem val1a_main_arg0 (V0 : Valuation τ sig (Elt F)) : val1a V0 (no_index (Proc.devRef .tc main_arg0)) = (argsV V0).a0 :=
  (val1a_keep V0 main_arg0 (by decide)).trans (valC_main_arg0 V0)
set_option maxRecDepth 8192 in
set_option maxHeartbeats 2000000 in
/-- A buffer the stretch writes, read by one simp pass. -/
theorem val1a_main_v1 (V0 : Valuation τ sig (Elt F)) : val1a V0 (no_index (Proc.devRef .tc main_v1)) = rs_v1 (argsV V0) := by
  unfold val1a
  simp only [ops0, List.take_succ_cons, List.take_zero, List.drop_succ_cons, List.drop_zero]
  after_results_simp
  rw [valC_main_arg2, valC_main_arg0] <;> rfl

end Cert.FK.R

end
-- ==== Proof.RWin.lean ====
import proofs.«127648_j26603027432101_1_alg».proof.Proof.RBase

noncomputable section

namespace Cert.FK.R

open Cert.ReferenceIdeal Cert.ReferenceIdeal.Gen Idealize.ShloMosaic Idealize.ShloMosaic.TcCoe Idealize.SL.Sem
open Idealize.ShloMosaic.StableHlo

variable {F : FTy → Type} [FloatOps F]

/-! Every operation touches TensorCore buffers only: window by window, each operation's builder. -/
set_option maxRecDepth 8192 in
theorem ops0_sub : (ops0 : List (HloOp τ sig (Elt F))).Forall fun op => op.bufs ⊆ tcRefs τ sig :=
  ⟨nullary_bufs_sub .., nullary_bufs_sub .., binary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., reshape_bufs_sub .., unary_bufs_sub .., unary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub ..⟩
set_option maxRecDepth 8192 in
theorem ops1_sub : (ops1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., nary_bufs_sub .., reshape_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., ternary_bufs_sub .., unary_bufs_sub .., binary_bufs_sub .., unary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub ..⟩
set_option maxRecDepth 8192 in
theorem ops2_sub : (ops2 : List (HloOp τ sig (Elt F))).Forall fun op => op.bufs ⊆ tcRefs τ sig :=
  ⟨unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem ops3_sub : (ops3 : List (HloOp τ sig (Elt F))).Forall fun op => op.bufs ⊆ tcRefs τ sig :=
  ⟨unary_bufs_sub .., nary_bufs_sub .., nary_bufs_sub .., binary_bufs_sub .., unary_bufs_sub .., reshape_bufs_sub ..⟩

/-! Operations 3 … 6: the lemmas after the two written by hand. -/
theorem val1a_main_arg1 (V0 : Valuation τ sig (Elt F)) : val1a V0 (no_index (Proc.devRef .tc main_arg1)) = (argsV V0).a1 :=
  (val1a_keep V0 main_arg1 (by decide)).trans (valC_main_arg1 V0)
theorem val1a_main_arg2 (V0 : Valuation τ sig (Elt F)) : val1a V0 (no_index (Proc.devRef .tc main_arg2)) = (argsV V0).a2 :=
  (val1a_keep V0 main_arg2 (by decide)).trans (valC_main_arg2 V0)
theorem val1a_main_arg3 (V0 : Valuation τ sig (Elt F)) : val1a V0 (no_index (Proc.devRef .tc main_arg3)) = (argsV V0).a3 :=
  (val1a_keep V0 main_arg3 (by decide)).trans (valC_main_arg3 V0)
theorem val1a_main_arg4 (V0 : Valuation τ sig (Elt F)) : val1a V0 (no_index (Proc.devRef .tc main_arg4)) = (argsV V0).a4 :=
  (val1a_keep V0 main_arg4 (by decide)).trans (valC_main_arg4 V0)
theorem val1a_main_arg5 (V0 : Valuation τ sig (Elt F)) : val1a V0 (no_index (Proc.devRef .tc main_arg5)) = (argsV V0).a5 :=
  (val1a_keep V0 main_arg5 (by decide)).trans (valC_main_arg5 V0)
theorem val1a_main_c (V0 : Valuation τ sig (Elt F)) : val1a V0 (no_index (Proc.devRef .tc main_c)) = rs_c (argsV V0) :=
  (val1a_keep V0 main_c (by decide)).trans (valC_main_c V0)
theorem val1a_main_cst (V0 : Valuation τ sig (Elt F)) : val1a V0 (no_index (Proc.devRef .tc main_cst)) = rs_cst (argsV V0) :=
  (val1a_keep V0 main_cst (by decide)).trans (valC_main_cst V0)
set_option maxRecDepth 8192 in
set_option maxHeartbeats 2000000 in
theorem val1a_main_v2 (V0 : Valuation τ sig (Elt F)) : val1a V0 (no_index (Proc.devRef .tc main_v2)) = rs_v2 (argsV V0) := by
  unfold val1a
  simp only [ops0, List.take_succ_cons, List.take_zero, List.drop_succ_cons, List.drop_zero]
  after_results_simp
  rw [valC_main_arg0, valC_main_arg2] <;> rfl
set_option maxRecDepth 8192 in
set_option maxHeartbeats 2000000 in
theorem val1a_main_cst_0 (V0 : Valuation τ sig (Elt F)) : val1a V0 (no_index (Proc.devRef .tc main_cst_0)) = rs_cst_0 (argsV V0) := by
  unfold val1a
  simp only [ops0, List.take_succ_cons, List.take_zero, List.drop_succ_cons, List.drop_zero]
  after_results_simp
  all_goals rfl

/-- The buffers once operations 7 … 60 have run as well. -/
def val1b (V0 : Valuation τ sig (Elt F)) : Valuation τ sig (Elt F) := after ((ops0.drop 2).drop 4) (val1a V0)
/-- What operations 7 … 60 write. -/
abbrev w1b : List (Ref sig .tc) := [main_v3, main_v4, main_cst_1, main_v5, main_v6, main_v7, main_v8, main_v9, main_v10, main_v11, main_v12, main_v13, main_v14, main_v15, main_v16, main_v17, main_v18, main_cst_2, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]
set_option maxRecDepth 8192 in
theorem w1b_writes : (((ops0.drop 2).drop 4) : List (HloOp τ sig (Elt F))).Forall fun op => op.writes ⊆ (w1b.map (Proc.devRef (τ := τ) .tc)).toFinset := by
  simp only [ops0, List.take_succ_cons, List.take_zero, List.drop_succ_cons, List.drop_zero, List.Forall]; exact ⟨wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one⟩
theorem val1b_keep (V0 : Valuation τ sig (Elt F)) (r : Ref sig .tc) (h : r ∉ w1b) :
    val1b V0 (Proc.devRef .tc r) = val1a V0 (Proc.devRef .tc r) :=
  after_of_writes_sub ((ops0.drop 2).drop 4) _ w1b_writes h
theorem val1b_main_arg0 (V0 : Valuation τ sig (Elt F)) : val1b V0 (no_index (Proc.devRef .tc main_arg0)) = (argsV V0).a0 :=
  (val1b_keep V0 main_arg0 (by decide)).trans (val1a_main_arg0 V0)
theorem val1b_main_arg1 (V0 : Valuation τ sig (Elt F)) : val1b V0 (no_index (Proc.devRef .tc main_arg1)) = (argsV V0).a1 :=
  (val1b_keep V0 main_arg1 (by decide)).trans (val1a_main_arg1 V0)
theorem val1b_main_arg2 (V0 : Valuation τ sig (Elt F)) : val1b V0 (no_index (Proc.devRef .tc main_arg2)) = (argsV V0).a2 :=
  (val1b_keep V0 main_arg2 (by decide)).trans (val1a_main_arg2 V0)
theorem val1b_main_arg3 (V0 : Valuation τ sig (Elt F)) : val1b V0 (no_index (Proc.devRef .tc main_arg3)) = (argsV V0).a3 :=
  (val1b_keep V0 main_arg3 (by decide)).trans (val1a_main_arg3 V0)
theorem val1b_main_arg4 (V0 : Valuation τ sig (Elt F)) : val1b V0 (no_index (Proc.devRef .tc main_arg4)) = (argsV V0).a4 :=
  (val1b_keep V0 main_arg4 (by decide)).trans (val1a_main_arg4 V0)
theorem val1b_main_arg5 (V0 : Valuation τ sig (Elt F)) : val1b V0 (no_index (Proc.devRef .tc main_arg5)) = (argsV V0).a5 :=
  (val1b_keep V0 main_arg5 (by decide)).trans (val1a_main_arg5 V0)
theorem val1b_main_c (V0 : Valuation τ sig (Elt F)) : val1b V0 (no_index (Proc.devRef .tc main_c)) = rs_c (argsV V0) :=
  (val1b_keep V0 main_c (by decide)).trans (val1a_main_c V0)
theorem val1b_main_cst (V0 : Valuation τ sig (Elt F)) : val1b V0 (no_index (Proc.devRef .tc main_cst)) = rs_cst (argsV V0) :=
  (val1b_keep V0 main_cst (by decide)).trans (val1a_main_cst V0)
set_option maxRecDepth 8192 in
set_option maxHeartbeats 2000000 in
theorem val1b_main_v27 (V0 : Valuation τ sig (Elt F)) : val1b V0 (no_index (Proc.devRef .tc main_v27)) = rs_v27 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v31 (V0 : Valuation τ sig (Elt F)) : val1b V0 (no_index (Proc.devRef .tc main_v31)) = rs_v31 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v35 (V0 : Valuation τ sig (Elt F)) : val1b V0 (no_index (Proc.devRef .tc main_v35)) = rs_v35 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v38 (V0 : Valuation τ sig (Elt F)) : val1b V0 (no_index (Proc.devRef .tc main_v38)) = rs_v38 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v42 (V0 : Valuation τ sig (Elt F)) : val1b V0 (no_index (Proc.devRef .tc main_v42)) = rs_v42 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v46 (V0 : Valuation τ sig (Elt F)) : val1b V0 (no_index (Proc.devRef .tc main_v46)) = rs_v46 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v50 (V0 : Valuation τ sig (Elt F)) : val1b V0 (no_index (Proc.devRef .tc main_v50)) = rs_v50 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v53 (V0 : Valuation τ sig (Elt F)) : val1b V0 (no_index (Proc.devRef .tc main_v53)) = rs_v53 (argsV V0) := by
  unfold val1b
  simp only [ops0, List.take_succ_cons, List.take_zero, List.drop_succ_cons, List.drop_zero]
  after_results_simp
  rw [val1a_main_cst_0, val1a_main_v2, val1a_main_v1] <;> rfl
set_option maxRecDepth 8192 in
set_option maxHeartbeats 2000000 in
theorem val1b_main_v54 (V0 : Valuation τ sig (Elt F)) : val1b V0 (no_index (Proc.devRef .tc main_v54)) = rs_v54 (argsV V0) := by
  unfold val1b
  simp only [ops0, List.take_succ_cons, List.take_zero, List.drop_succ_cons, List.drop_zero]
  after_results_simp
  rw [val1a_main_cst_0, val1a_main_v2, val1a_main_v1] <;> rfl

/-- The buffers once operations 61 … 68 have run as well. -/
def val2a (V0 : Valuation τ sig (Elt F)) : Valuation τ sig (Elt F) := after (ops1.take 8) (val1b V0)
/-- What operations 61 … 68 write. -/
abbrev w2a : List (Ref sig .tc) := [main_v55, main_v56, main_v57, main_v58, main_v59, main_v60, main_v61, main_v62]
set_option maxRecDepth 8192 in
theorem w2a_writes : ((ops1.take 8) : List (HloOp τ sig (Elt F))).Forall fun op => op.writes ⊆ (w2a.map (Proc.devRef (τ := τ) .tc)).toFinset := by
  simp only [ops1, List.take_succ_cons, List.take_zero, List.drop_succ_cons, List.drop_zero, List.Forall]; exact ⟨wr_one, wr_one, wr_one, wr_one, wr_one, wr_one, wr_one, wr_one⟩
theorem val2a_keep (V0 : Valuation τ sig (Elt F)) (r : Ref sig .tc) (h : r ∉ w2a) :
    val2a V0 (Proc.devRef .tc r) = val1b V0 (Proc.devRef .tc r) :=
  after_of_writes_sub (ops1.take 8) _ w2a_writes h
theorem val2a_main_arg0 (V0 : Valuation τ sig (Elt F)) : val2a V0 (no_index (Proc.devRef .tc main_arg0)) = (argsV V0).a0 :=
  (val2a_keep V0 main_arg0 (by decide)).trans (val1b_main_arg0 V0)
theorem val2a_main_arg1 (V0 : Valuation τ sig (Elt F)) : val2a V0 (no_index (Proc.devRef .tc main_arg1)) = (argsV V0).a1 :=
  (val2a_keep V0 main_arg1 (by decide)).trans (val1b_main_arg1 V0)
theorem val2a_main_arg2 (V0 : Valuation τ sig (Elt F)) : val2a V0 (no_index (Proc.devRef .tc main_arg2)) = (argsV V0).a2 :=
  (val2a_keep V0 main_arg2 (by decide)).trans (val1b_main_arg2 V0)
theorem val2a_main_arg3 (V0 : Valuation τ sig (Elt F)) : val2a V0 (no_index (Proc.devRef .tc main_arg3)) = (argsV V0).a3 :=
  (val2a_keep V0 main_arg3 (by decide)).trans (val1b_main_arg3 V0)
theorem val2a_main_arg4 (V0 : Valuation τ sig (Elt F)) : val2a V0 (no_index (Proc.devRef .tc main_arg4)) = (argsV V0).a4 :=
  (val2a_keep V0 main_arg4 (by decide)).trans (val1b_main_arg4 V0)
theorem val2a_main_arg5 (V0 : Valuation τ sig (Elt F)) : val2a V0 (no_index (Proc.devRef .tc main_arg5)) = (argsV V0).a5 :=
  (val2a_keep V0 main_arg5 (by decide)).trans (val1b_main_arg5 V0)
theorem val2a_main_c (V0 : Valuation τ sig (Elt F)) : val2a V0 (no_index (Proc.devRef .tc main_c)) = rs_c (argsV V0) :=
  (val2a_keep V0 main_c (by decide)).trans (val1b_main_c V0)
theorem val2a_main_cst (V0 : Valuation τ sig (Elt F)) : val2a V0 (no_index (Proc.devRef .tc main_cst)) = rs_cst (argsV V0) :=
  (val2a_keep V0 main_cst (by decide)).trans (val1b_main_cst V0)
theorem val2a_main_v54 (V0 : Valuation τ sig (Elt F)) : val2a V0 (no_index (Proc.devRef .tc main_v54)) = rs_v54 (argsV V0) :=
  (val2a_keep V0 main_v54 (by decide)).trans (val1b_main_v54 V0)
set_option maxRecDepth 8192 in
set_option maxHeartbeats 2000000 in
theorem val2a_main_v55 (V0 : Valuation τ sig (Elt F)) : val2a V0 (no_index (Proc.devRef .tc main_v55)) = rs_v55 (argsV V0) := by
  unfold val2a
  simp only [ops1, List.take_succ_cons, List.take_zero, List.drop_succ_cons, List.drop_zero]
  after_results_simp
  rw [val1b_main_v27] <;> rfl
set_option maxRecDepth 8192 in
set_option maxHeartbeats 2000000 in
theorem val2a_main_v56 (V0 : Valuation τ sig (Elt F)) : val2a V0 (no_index (Proc.devRef .tc main_v56)) = rs_v56 (argsV V0) := by
  unfold val2a
  simp only [ops1, List.take_succ_cons, List.take_zero, List.drop_succ_cons, List.drop_zero]
  after_results_simp
  rw [val1b_main_v31] <;> rfl
set_option maxRecDepth 8192 in
set_option maxHeartbeats 2000000 in
theorem val2a_main_v57 (V0 : Valuation τ sig (Elt F)) : val2a V0 (no_index (Proc.devRef .tc main_v57)) = rs_v57 (argsV V0) := by
  unfold val2a
  simp only [ops1, List.take_succ_cons, List.take_zero, List.drop_succ_cons, List.drop_zero]
  after_results_simp
  rw [val1b_main_v35] <;> rfl
set_option maxRecDepth 8192 in
set_option maxHeartbeats 2000000 in
theorem val2a_main_v58 (V0 : Valuation τ sig (Elt F)) : val2a V0 (no_index (Proc.devRef .tc main_v58)) = rs_v58 (argsV V0) := by
  unfold val2a
  simp only [ops1, List.take_succ_cons, List.take_zero, List.drop_succ_cons, List.drop_zero]
  after_results_simp
  rw [val1b_main_v38] <;> rfl
set_option maxRecDepth 8192 in
set_option maxHeartbeats 2000000 in
theorem val2a_main_v59 (V0 : Valuation τ sig (Elt F)) : val2a V0 (no_index (Proc.devRef .tc main_v59)) = rs_v59 (argsV V0) := by
  unfold val2a
  simp only [ops1, List.take_succ_cons, List.take_zero, List.drop_succ_cons, List.drop_zero]
  after_results_simp
  rw [val1b_main_v42] <;> rfl
set_option maxRecDepth 8192 in
set_option maxHeartbeats 2000000 in
theorem val2a_main_v60 (V0 : Valuation τ sig (Elt F)) : val2a V0 (no_index (Proc.devRef .tc main_v60)) = rs_v60 (argsV V0) := by
  unfold val2a
  simp only [ops1, List.take_succ_cons, List.take_zero, List.drop_succ_cons, List.drop_zero]
  after_results_simp
  rw [val1b_main_v46] <;> rfl
set_option maxRecDepth 8192 in
set_option maxHeartbeats 2000000 in
theorem val2a_main_v61 (V0 : Valuation τ sig (Elt F)) : val2a V0 (no_index (Proc.devRef .tc main_v61)) = rs_v61 (argsV V0) := by
  unfold val2a
  simp only [ops1, List.take_succ_cons, List.take_zero, List.drop_succ_cons, List.drop_zero]
  after_results_simp
  rw [val1b_main_v50] <;> rfl
set_option maxRecDepth 8192 in
set_option maxHeartbeats 2000000 in
theorem val2a_main_v62 (V0 : Valuation τ sig (Elt F)) : val2a V0 (no_index (Proc.devRef .tc main_v62)) = rs_v62 (argsV V0) := by
  unfold val2a
  simp only [ops1, List.take_succ_cons, List.take_zero, List.drop_succ_cons, List.drop_zero]
  after_results_simp
  rw [val1b_main_v53] <;> rfl

/-- The buffers once operations 69 … 69 have run as well. -/
def val2n (V0 : Valuation τ sig (Elt F)) : Valuation τ sig (Elt F) := after ((ops1.drop 8).take 1) (val2a V0)
/-- What operations 69 … 69 write. -/
abbrev w2n : List (Ref sig .tc) := [main_v63]
set_option maxRecDepth 8192 in
theorem w2n_writes : (((ops1.drop 8).take 1) : List (HloOp τ sig (Elt F))).Forall fun op => op.writes ⊆ (w2n.map (Proc.devRef (τ := τ) .tc)).toFinset := by
  simp only [ops1, List.take_succ_cons, List.take_zero, List.drop_succ_cons, List.drop_zero, List.Forall]; exact wr_one
theorem val2n_keep (V0 : Valuation τ sig (Elt F)) (r : Ref sig .tc) (h : r ∉ w2n) :
    val2n V0 (Proc.devRef .tc r) = val2a V0 (Proc.devRef .tc r) :=
  after_of_writes_sub ((ops1.drop 8).take 1) _ w2n_writes h
theorem val2n_main_arg0 (V0 : Valuation τ sig (Elt F)) : val2n V0 (no_index (Proc.devRef .tc main_arg0)) = (argsV V0).a0 :=
  (val2n_keep V0 main_arg0 (by decide)).trans (val2a_main_arg0 V0)
theorem val2n_main_arg1 (V0 : Valuation τ sig (Elt F)) : val2n V0 (no_index (Proc.devRef .tc main_arg1)) = (argsV V0).a1 :=
  (val2n_keep V0 main_arg1 (by decide)).trans (val2a_main_arg1 V0)
theorem val2n_main_arg2 (V0 : Valuation τ sig (Elt F)) : val2n V0 (no_index (Proc.devRef .tc main_arg2)) = (argsV V0).a2 :=
  (val2n_keep V0 main_arg2 (by decide)).trans (val2a_main_arg2 V0)
theorem val2n_main_arg3 (V0 : Valuation τ sig (Elt F)) : val2n V0 (no_index (Proc.devRef .tc main_arg3)) = (argsV V0).a3 :=
  (val2n_keep V0 main_arg3 (by decide)).trans (val2a_main_arg3 V0)
theorem val2n_main_arg4 (V0 : Valuation τ sig (Elt F)) : val2n V0 (no_index (Proc.devRef .tc main_arg4)) = (argsV V0).a4 :=
  (val2n_keep V0 main_arg4 (by decide)).trans (val2a_main_arg4 V0)
theorem val2n_main_arg5 (V0 : Valuation τ sig (Elt F)) : val2n V0 (no_index (Proc.devRef .tc main_arg5)) = (argsV V0).a5 :=
  (val2n_keep V0 main_arg5 (by decide)).trans (val2a_main_arg5 V0)
theorem val2n_main_c (V0 : Valuation τ sig (Elt F)) : val2n V0 (no_index (Proc.devRef .tc main_c)) = rs_c (argsV V0) :=
  (val2n_keep V0 main_c (by decide)).trans (val2a_main_c V0)
theorem val2n_main_cst (V0 : Valuation τ sig (Elt F)) : val2n V0 (no_index (Proc.devRef .tc main_cst)) = rs_cst (argsV V0) :=
  (val2n_keep V0 main_cst (by decide)).trans (val2a_main_cst V0)
theorem val2n_main_v63 (V0 : Valuation τ sig (Elt F)) : val2n V0 (no_index (Proc.devRef .tc main_v63)) = rs_v63 (argsV V0) := by
  unfold val2n
  simp only [ops1, List.take_succ_cons, List.take_zero, List.drop_succ_cons, List.drop_zero]
  after_results
  dsimp only [Matrix.cons_val]
  results_rw
  rw [val2a_main_v62, val2a_main_v61, val2a_main_v60, val2a_main_v59, val2a_main_v58, val2a_main_v57, val2a_main_v56, val2a_main_v55, val2a_main_v54] <;> rfl

/-- The buffers once operations 70 … 91 have run as well. -/
def val2b (V0 : Valuation τ sig (Elt F)) : Valuation τ sig (Elt F) := after (((ops1.drop 8).drop 1).take 22) (val2n V0)
/-- What operations 70 … 91 write. -/
abbrev w2b : List (Ref sig .tc) := [main_v64, main_v65, main_v66, main_v67, main_v68, main_c_3, main_v69, main_v70, main_c_4, main_v71, main_v72, main_v73, main_v74, main_v75, main_v76, main_v77, main_v78, main_v79, main_c_5, main_v80, main_v81, main_v82]
set_option maxRecDepth 8192 in
theorem w2b_writes : ((((ops1.drop 8).drop 1).take 22) : List (HloOp τ sig (Elt F))).Forall fun op => op.writes ⊆ (w2b.map (Proc.devRef (τ := τ) .tc)).toFinset := by
  simp only [ops1, List.take_succ_cons, List.take_zero, List.drop_succ_cons, List.drop_zero, List.Forall]; exact ⟨wr_one, wr_one, wr_one, wr_one, wr_one, wr_one, wr_one, wr_one, wr_one, wr_one, wr_one, wr_one, wr_one, wr_one, wr_one, wr_one, wr_one, wr_one, wr_one, wr_one, wr_one, wr_one⟩
theorem val2b_keep (V0 : Valuation τ sig (Elt F)) (r : Ref sig .tc) (h : r ∉ w2b) :
    val2b V0 (Proc.devRef .tc r) = val2n V0 (Proc.devRef .tc r) :=
  after_of_writes_sub (((ops1.drop 8).drop 1).take 22) _ w2b_writes h
theorem val2b_main_arg0 (V0 : Valuation τ sig (Elt F)) : val2b V0 (no_index (Proc.devRef .tc main_arg0)) = (argsV V0).a0 :=
  (val2b_keep V0 main_arg0 (by decide)).trans (val2n_main_arg0 V0)
theorem val2b_main_arg1 (V0 : Valuation τ sig (Elt F)) : val2b V0 (no_index (Proc.devRef .tc main_arg1)) = (argsV V0).a1 :=
  (val2b_keep V0 main_arg1 (by decide)).trans (val2n_main_arg1 V0)
theorem val2b_main_arg2 (V0 : Valuation τ sig (Elt F)) : val2b V0 (no_index (Proc.devRef .tc main_arg2)) = (argsV V0).a2 :=
  (val2b_keep V0 main_arg2 (by decide)).trans (val2n_main_arg2 V0)
theorem val2b_main_arg3 (V0 : Valuation τ sig (Elt F)) : val2b V0 (no_index (Proc.devRef .tc main_arg3)) = (argsV V0).a3 :=
  (val2b_keep V0 main_arg3 (by decide)).trans (val2n_main_arg3 V0)
theorem val2b_main_arg4 (V0 : Valuation τ sig (Elt F)) : val2b V0 (no_index (Proc.devRef .tc main_arg4)) = (argsV V0).a4 :=
  (val2b_keep V0 main_arg4 (by decide)).trans (val2n_main_arg4 V0)
theorem val2b_main_arg5 (V0 : Valuation τ sig (Elt F)) : val2b V0 (no_index (Proc.devRef .tc main_arg5)) = (argsV V0).a5 :=
  (val2b_keep V0 main_arg5 (by decide)).trans (val2n_main_arg5 V0)
theorem val2b_main_cst (V0 : Valuation τ sig (Elt F)) : val2b V0 (no_index (Proc.devRef .tc main_cst)) = rs_cst (argsV V0) :=
  (val2b_keep V0 main_cst (by decide)).trans (val2n_main_cst V0)
set_option maxRecDepth 8192 in
set_option maxHeartbeats 2000000 in
theorem val2b_main_v64 (V0 : Valuation τ sig (Elt F)) : val2b V0 (no_index (Proc.devRef .tc main_v64)) = rs_v64 (argsV V0) := by
  unfold val2b
  simp only [ops1, List.take_succ_cons, List.take_zero, List.drop_succ_cons, List.drop_zero]
  after_results_simp
  rw [val2n_main_v63] <;> rfl
set_option maxRecDepth 8192 in
set_option maxHeartbeats 2000000 in
theorem val2b_main_v82 (V0 : Valuation τ sig (Elt F)) : val2b V0 (no_index (Proc.devRef .tc main_v82)) = rs_v82 (argsV V0) := by
  unfold val2b
  simp only [ops1, List.take_succ_cons, List.take_zero, List.drop_succ_cons, List.drop_zero]
  after_results_simp
  rw [val2n_main_arg3, val2n_main_arg5, val2n_main_arg1, val2n_main_arg4, val2n_main_c] <;> rfl

/-- The buffers once operations 92 … 93 have run as well. -/
def val2c (V0 : Valuation τ sig (Elt F)) : Valuation τ sig (Elt F) := after ((((ops1.drop 8).drop 1).drop 22).take 2) (val2b V0)
/-- What operations 92 … 93 write. -/
abbrev w2c : List (Ref sig .tc) := [main_v83, main_v84]
set_option maxRecDepth 8192 in
theorem w2c_writes : (((((ops1.drop 8).drop 1).drop 22).take 2) : List (HloOp τ sig (Elt F))).Forall fun op => op.writes ⊆ (w2c.map (Proc.devRef (τ := τ) .tc)).toFinset := by
  simp only [ops1, List.take_succ_cons, List.take_zero, List.drop_succ_cons, List.drop_zero, List.Forall]; exact ⟨wr_one, wr_one⟩
theorem val2c_keep (V0 : Valuation τ sig (Elt F)) (r : Ref sig .tc) (h : r ∉ w2c) :
    val2c V0 (Proc.devRef .tc r) = val2b V0 (Proc.devRef .tc r) :=
  after_of_writes_sub ((((ops1.drop 8).drop 1).drop 22).take 2) _ w2c_writes h
theorem val2c_main_arg0 (V0 : Valuation τ sig (Elt F)) : val2c V0 (no_index (Proc.devRef .tc main_arg0)) = (argsV V0).a0 :=
  (val2c_keep V0 main_arg0 (by decide)).trans (val2b_main_arg0 V0)
theorem val2c_main_arg1 (V0 : Valuation τ sig (Elt F)) : val2c V0 (no_index (Proc.devRef .tc main_arg1)) = (argsV V0).a1 :=
  (val2c_keep V0 main_arg1 (by decide)).trans (val2b_main_arg1 V0)
theorem val2c_main_arg2 (V0 : Valuation τ sig (Elt F)) : val2c V0 (no_index (Proc.devRef .tc main_arg2)) = (argsV V0).a2 :=
  (val2c_keep V0 main_arg2 (by decide)).trans (val2b_main_arg2 V0)
theorem val2c_main_arg3 (V0 : Valuation τ sig (Elt F)) : val2c V0 (no_index (Proc.devRef .tc main_arg3)) = (argsV V0).a3 :=
  (val2c_keep V0 main_arg3 (by decide)).trans (val2b_main_arg3 V0)
theorem val2c_main_arg4 (V0 : Valuation τ sig (Elt F)) : val2c V0 (no_index (Proc.devRef .tc main_arg4)) = (argsV V0).a4 :=
  (val2c_keep V0 main_arg4 (by decide)).trans (val2b_main_arg4 V0)
theorem val2c_main_arg5 (V0 : Valuation τ sig (Elt F)) : val2c V0 (no_index (Proc.devRef .tc main_arg5)) = (argsV V0).a5 :=
  (val2c_keep V0 main_arg5 (by decide)).trans (val2b_main_arg5 V0)
theorem val2c_main_v83 (V0 : Valuation τ sig (Elt F)) : val2c V0 (no_index (Proc.devRef .tc main_v83)) = rs_v83 (argsV V0) := by
  unfold val2c
  simp only [ops1, List.take_succ_cons, List.take_zero, List.drop_succ_cons, List.drop_zero]
  after_results
  rw [val2b_main_v82, val2b_main_v64] <;> rfl
theorem val2c_main_v84 (V0 : Valuation τ sig (Elt F)) : val2c V0 (no_index (Proc.devRef .tc main_v84)) = rs_v84 (argsV V0) := by
  unfold val2c
  simp only [ops1, List.take_succ_cons, List.take_zero, List.drop_succ_cons, List.drop_zero]
  after_results
  rw [val2b_main_cst] <;> rfl

/-- The buffers once operations 94 … 120 have run as well. -/
def val2d (V0 : Valuation τ sig (Elt F)) : Valuation τ sig (Elt F) := after ((((ops1.drop 8).drop 1).drop 22).drop 2) (val2c V0)
/-- What operations 94 … 120 write. -/
abbrev w2d : List (Ref sig .tc) := [main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111]
set_option maxRecDepth 8192 in
theorem w2d_writes : (((((ops1.drop 8).drop 1).drop 22).drop 2) : List (HloOp τ sig (Elt F))).Forall fun op => op.writes ⊆ (w2d.map (Proc.devRef (τ := τ) .tc)).toFinset := by
  simp only [ops1, List.take_succ_cons, List.take_zero, List.drop_succ_cons, List.drop_zero, List.Forall]; exact ⟨wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one⟩
theorem val2d_keep (V0 : Valuation τ sig (Elt F)) (r : Ref sig .tc) (h : r ∉ w2d) :
    val2d V0 (Proc.devRef .tc r) = val2c V0 (Proc.devRef .tc r) :=
  after_of_writes_sub ((((ops1.drop 8).drop 1).drop 22).drop 2) _ w2d_writes h
theorem val2d_main_arg0 (V0 : Valuation τ sig (Elt F)) : val2d V0 (no_index (Proc.devRef .tc main_arg0)) = (argsV V0).a0 :=
  (val2d_keep V0 main_arg0 (by decide)).trans (val2c_main_arg0 V0)
theorem val2d_main_arg1 (V0 : Valuation τ sig (Elt F)) : val2d V0 (no_index (Proc.devRef .tc main_arg1)) = (argsV V0).a1 :=
  (val2d_keep V0 main_arg1 (by decide)).trans (val2c_main_arg1 V0)
theorem val2d_main_arg2 (V0 : Valuation τ sig (Elt F)) : val2d V0 (no_index (Proc.devRef .tc main_arg2)) = (argsV V0).a2 :=
  (val2d_keep V0 main_arg2 (by decide)).trans (val2c_main_arg2 V0)
theorem val2d_main_arg3 (V0 : Valuation τ sig (Elt F)) : val2d V0 (no_index (Proc.devRef .tc main_arg3)) = (argsV V0).a3 :=
  (val2d_keep V0 main_arg3 (by decide)).trans (val2c_main_arg3 V0)
theorem val2d_main_arg4 (V0 : Valuation τ sig (Elt F)) : val2d V0 (no_index (Proc.devRef .tc main_arg4)) = (argsV V0).a4 :=
  (val2d_keep V0 main_arg4 (by decide)).trans (val2c_main_arg4 V0)
theorem val2d_main_arg5 (V0 : Valuation τ sig (Elt F)) : val2d V0 (no_index (Proc.devRef .tc main_arg5)) = (argsV V0).a5 :=
  (val2d_keep V0 main_arg5 (by decide)).trans (val2c_main_arg5 V0)
set_option maxRecDepth 8192 in
set_option maxHeartbeats 2000000 in
theorem val2d_main_v85 (V0 : Valuation τ sig (Elt F)) : val2d V0 (no_index (Proc.devRef .tc main_v85)) = rs_v85 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v87 (V0 : Valuation τ sig (Elt F)) : val2d V0 (no_index (Proc.devRef .tc main_v87)) = rs_v87 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v90 (V0 : Valuation τ sig (Elt F)) : val2d V0 (no_index (Proc.devRef .tc main_v90)) = rs_v90 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v93 (V0 : Valuation τ sig (Elt F)) : val2d V0 (no_index (Proc.devRef .tc main_v93)) = rs_v93 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v96 (V0 : Valuation τ sig (Elt F)) : val2d V0 (no_index (Proc.devRef .tc main_v96)) = rs_v96 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v99 (V0 : Valuation τ sig (Elt F)) : val2d V0 (no_index (Proc.devRef .tc main_v99)) = rs_v99 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v102 (V0 : Valuation τ sig (Elt F)) : val2d V0 (no_index (Proc.devRef .tc main_v102)) = rs_v102 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v105 (V0 : Valuation τ sig (Elt F)) : val2d V0 (no_index (Proc.devRef .tc main_v105)) = rs_v105 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v108 (V0 : Valuation τ sig (Elt F)) : val2d V0 (no_index (Proc.devRef .tc main_v108)) = rs_v108 (argsV V0) := by
  unfold val2d
  simp only [ops1, List.take_succ_cons, List.take_zero, List.drop_succ_cons, List.drop_zero]
  after_results_simp
  rw [val2c_main_v84, val2c_main_v83] <;> rfl
set_option maxRecDepth 8192 in
set_option maxHeartbeats 2000000 in
theorem val2d_main_v111 (V0 : Valuation τ sig (Elt F)) : val2d V0 (no_index (Proc.devRef .tc main_v111)) = rs_v111 (argsV V0) := by
  unfold val2d
  simp only [ops1, List.take_succ_cons, List.take_zero, List.drop_succ_cons, List.drop_zero]
  after_results_simp
  rw [val2c_main_v84, val2c_main_v83] <;> rfl

/-- The buffers once operations 121 … 180 have run as well. -/
def val3 (V0 : Valuation τ sig (Elt F)) : Valuation τ sig (Elt F) := after ops2 (val2d V0)
/-- What operations 121 … 180 write. -/
abbrev w3 : List (Ref sig .tc) := [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171]
set_option maxRecDepth 8192 in
theorem w3_writes : (ops2 : List (HloOp τ sig (Elt F))).Forall fun op => op.writes ⊆ (w3.map (Proc.devRef (τ := τ) .tc)).toFinset := by
  simp only [ops2, List.Forall]; exact ⟨wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one, wr_one⟩
theorem val3_keep (V0 : Valuation τ sig (Elt F)) (r : Ref sig .tc) (h : r ∉ w3) :
    val3 V0 (Proc.devRef .tc r) = val2d V0 (Proc.devRef .tc r) :=
  after_of_writes_sub ops2 _ w3_writes h
theorem val3_main_arg0 (V0 : Valuation τ sig (Elt F)) : val3 V0 (no_index (Proc.devRef .tc main_arg0)) = (argsV V0).a0 :=
  (val3_keep V0 main_arg0 (by decide)).trans (val2d_main_arg0 V0)
theorem val3_main_arg1 (V0 : Valuation τ sig (Elt F)) : val3 V0 (no_index (Proc.devRef .tc main_arg1)) = (argsV V0).a1 :=
  (val3_keep V0 main_arg1 (by decide)).trans (val2d_main_arg1 V0)
theorem val3_main_arg2 (V0 : Valuation τ sig (Elt F)) : val3 V0 (no_index (Proc.devRef .tc main_arg2)) = (argsV V0).a2 :=
  (val3_keep V0 main_arg2 (by decide)).trans (val2d_main_arg2 V0)
theorem val3_main_arg3 (V0 : Valuation τ sig (Elt F)) : val3 V0 (no_index (Proc.devRef .tc main_arg3)) = (argsV V0).a3 :=
  (val3_keep V0 main_arg3 (by decide)).trans (val2d_main_arg3 V0)
theorem val3_main_arg4 (V0 : Valuation τ sig (Elt F)) : val3 V0 (no_index (Proc.devRef .tc main_arg4)) = (argsV V0).a4 :=
  (val3_keep V0 main_arg4 (by decide)).trans (val2d_main_arg4 V0)
theorem val3_main_arg5 (V0 : Valuation τ sig (Elt F)) : val3 V0 (no_index (Proc.devRef .tc main_arg5)) = (argsV V0).a5 :=
  (val3_keep V0 main_arg5 (by decide)).trans (val2d_main_arg5 V0)
set_option maxRecDepth 8192 in
set_option maxHeartbeats 2000000 in
theorem val3_main_v150 (V0 : Valuation τ sig (Elt F)) : val3 V0 (no_index (Proc.devRef .tc main_v150)) = rs_v150 (argsV V0) := by
  unfold val3
  simp only [ops2]
  after_results_simp
  rw [val2d_main_v85, val2d_main_v105] <;> rfl
set_option maxRecDepth 8192 in
set_option maxHeartbeats 2000000 in
theorem val3_main_v151 (V0 : Valuation τ sig (Elt F)) : val3 V0 (no_index (Proc.devRef .tc main_v151)) = rs_v151 (argsV V0) := by
  unfold val3
  simp only [ops2]
  after_results_simp
  rw [val2d_main_v87] <;> rfl
set_option maxRecDepth 8192 in
set_option maxHeartbeats 2000000 in
theorem val3_main_v152 (V0 : Valuation τ sig (Elt F)) : val3 V0 (no_index (Proc.devRef .tc main_v152)) = rs_v152 (argsV V0) := by
  unfold val3
  simp only [ops2]
  after_results_simp
  rw [val2d_main_v90] <;> rfl
set_option maxRecDepth 8192 in
set_option maxHeartbeats 2000000 in
theorem val3_main_v153 (V0 : Valuation τ sig (Elt F)) : val3 V0 (no_index (Proc.devRef .tc main_v153)) = rs_v153 (argsV V0) := by
  unfold val3
  simp only [ops2]
  after_results_simp
  rw [val2d_main_v93] <;> rfl
set_option maxRecDepth 8192 in
set_option maxHeartbeats 2000000 in
theorem val3_main_v154 (V0 : Valuation τ sig (Elt F)) : val3 V0 (no_index (Proc.devRef .tc main_v154)) = rs_v154 (argsV V0) := by
  unfold val3
  simp only [ops2]
  after_results_simp
  rw [val2d_main_v96] <;> rfl
set_option maxRecDepth 8192 in
set_option maxHeartbeats 2000000 in
theorem val3_main_v155 (V0 : Valuation τ sig (Elt F)) : val3 V0 (no_index (Proc.devRef .tc main_v155)) = rs_v155 (argsV V0) := by
  unfold val3
  simp only [ops2]
  after_results_simp
  rw [val2d_main_v99] <;> rfl
set_option maxRecDepth 8192 in
set_option maxHeartbeats 2000000 in
theorem val3_main_v156 (V0 : Valuation τ sig (Elt F)) : val3 V0 (no_index (Proc.devRef .tc main_v156)) = rs_v156 (argsV V0) := by
  unfold val3
  simp only [ops2]
  after_results_simp
  rw [val2d_main_v102] <;> rfl
set_option maxRecDepth 8192 in
set_option maxHeartbeats 2000000 in
theorem val3_main_v157 (V0 : Valuation τ sig (Elt F)) : val3 V0 (no_index (Proc.devRef .tc main_v157)) = rs_v157 (argsV V0) := by
  unfold val3
  simp only [ops2]
  after_results_simp
  rw [val2d_main_v105] <;> rfl
set_option maxRecDepth 8192 in
set_option maxHeartbeats 2000000 in
theorem val3_main_v158 (V0 : Valuation τ sig (Elt F)) : val3 V0 (no_index (Proc.devRef .tc main_v158)) = rs_v158 (argsV V0) := by
  unfold val3
  simp only [ops2]
  after_results_simp
  rw [val2d_main_v108] <;> rfl
set_option maxRecDepth 8192 in
set_option maxHeartbeats 2000000 in
theorem val3_main_v159 (V0 : Valuation τ sig (Elt F)) : val3 V0 (no_index (Proc.devRef .tc main_v159)) = rs_v159 (argsV V0) := by
  unfold val3
  simp only [ops2]
  after_results_simp
  rw [val2d_main_v111] <;> rfl
set_option maxRecDepth 8192 in
set_option maxHeartbeats 2000000 in
theorem val3_main_v160 (V0 : Valuation τ sig (Elt F)) : val3 V0 (no_index (Proc.devRef .tc main_v160)) = rs_v160 (argsV V0) := by
  unfold val3
  simp only [ops2]
  after_results_simp
  rw [val2d_main_v85, val2d_main_v105] <;> rfl
set_option maxRecDepth 8192 in
set_option maxHeartbeats 2000000 in
theorem val3_main_v161 (V0 : Valuation τ sig (Elt F)) : val3 V0 (no_index (Proc.devRef .tc main_v161)) = rs_v161 (argsV V0) := by
  unfold val3
  simp only [ops2]
  after_results_simp
  rw [val2d_main_v85, val2d_main_v108] <;> rfl
set_option maxRecDepth 8192 in
set_option maxHeartbeats 2000000 in
theorem val3_main_v162 (V0 : Valuation τ sig (Elt F)) : val3 V0 (no_index (Proc.devRef .tc main_v162)) = rs_v162 (argsV V0) := by
  unfold val3
  simp only [ops2]
  after_results_simp
  rw [val2d_main_v85, val2d_main_v111] <;> rfl
set_option maxRecDepth 8192 in
set_option maxHeartbeats 2000000 in
theorem val3_main_v163 (V0 : Valuation τ sig (Elt F)) : val3 V0 (no_index (Proc.devRef .tc main_v163)) = rs_v163 (argsV V0) := by
  unfold val3
  simp only [ops2]
  after_results_simp
  rw [val2d_main_v85, val2d_main_v105] <;> rfl
set_option maxRecDepth 8192 in
set_option maxHeartbeats 2000000 in
theorem val3_main_v164 (V0 : Valuation τ sig (Elt F)) : val3 V0 (no_index (Proc.devRef .tc main_v164)) = rs_v164 (argsV V0) := by
  unfold val3
  simp only [ops2]
  after_results_simp
  rw [val2d_main_v85, val2d_main_v105] <;> rfl
set_option maxRecDepth 8192 in
set_option maxHeartbeats 2000000 in
theorem val3_main_v165 (V0 : Valuation τ sig (Elt F)) : val3 V0 (no_index (Proc.devRef .tc main_v165)) = rs_v165 (argsV V0) := by
  unfold val3
  simp only [ops2]
  after_results_simp
  rw [val2d_main_v85, val2d_main_v105] <;> rfl
set_option maxRecDepth 8192 in
set_option maxHeartbeats 2000000 in
theorem val3_main_v166 (V0 : Valuation τ sig (Elt F)) : val3 V0 (no_index (Proc.devRef .tc main_v166)) = rs_v166 (argsV V0) := by
  unfold val3
  simp only [ops2]
  after_results_simp
  rw [val2d_main_v85, val2d_main_v105] <;> rfl
set_option maxRecDepth 8192 in
set_option maxHeartbeats 2000000 in
theorem val3_main_v167 (V0 : Valuation τ sig (Elt F)) : val3 V0 (no_index (Proc.devRef .tc main_v167)) = rs_v167 (argsV V0) := by
  unfold val3
  simp only [ops2]
  after_results_simp
  rw [val2d_main_v85, val2d_main_v105] <;> rfl
set_option maxRecDepth 8192 in
set_option maxHeartbeats 2000000 in
theorem val3_main_v168 (V0 : Valuation τ sig (Elt F)) : val3 V0 (no_index (Proc.devRef .tc main_v168)) = rs_v168 (argsV V0) := by
  unfold val3
  simp only [ops2]
  after_results_simp
  rw [val2d_main_v85, val2d_main_v105] <;> rfl
set_option maxRecDepth 8192 in
set_option maxHeartbeats 2000000 in
theorem val3_main_v169 (V0 : Valuation τ sig (Elt F)) : val3 V0 (no_index (Proc.devRef .tc main_v169)) = rs_v169 (argsV V0) := by
  unfold val3
  simp only [ops2]
  after_results_simp
  rw [val2d_main_v85, val2d_main_v105] <;> rfl
set_option maxRecDepth 8192 in
set_option maxHeartbeats 2000000 in
theorem val3_main_v170 (V0 : Valuation τ sig (Elt F)) : val3 V0 (no_index (Proc.devRef .tc main_v170)) = rs_v170 (argsV V0) := by
  unfold val3
  simp only [ops2]
  after_results_simp
  rw [val2d_main_v85, val2d_main_v105] <;> rfl
set_option maxRecDepth 8192 in
set_option maxHeartbeats 2000000 in
theorem val3_main_v171 (V0 : Valuation τ sig (Elt F)) : val3 V0 (no_index (Proc.devRef .tc main_v171)) = rs_v171 (argsV V0) := by
  unfold val3
  simp only [ops2]
  after_results_simp
  rw [val2d_main_v85, val2d_main_v105] <;> rfl

end Cert.FK.R

end
-- ==== Proof.RRun.lean ====
/-
  The reference's run: every weakly fair execution of its host program ends with the result buffer at the
  last named value of the operations, the arguments unchanged. The buffers after operations 1 … 180 are named in
  Proof/RBase.lean and Proof/RWin.lean; here the last six operations (the joints' transforms stacked along a joint
  axis, and the translation column cut out of the stack), the joining of the stretches into the whole
  line, and the run itself.
-/
import proofs.«127648_j26603027432101_1_alg».proof.Proof.RStages
import proofs.«127648_j26603027432101_1_alg».proof.Proof.ROps
import proofs.«127648_j26603027432101_1_alg».proof.Proof.RWin
import Idealize.ShloMosaic.Lib.StableHlo.Run

noncomputable section

namespace Cert.FK.R

open Cert.ReferenceIdeal Cert.ReferenceIdeal.Gen Idealize.ShloMosaic Idealize.ShloMosaic.TcCoe Idealize.SL.Sem
open Idealize.ShloMosaic.StableHlo

variable {F : FTy → Type} [FloatOps F]

/-- The six argument arrays as core c holds them at launch. -/
def argsOf (m : (ℓ : Loc nD τ sig) → Buf (Elt F) ℓ) (c : Dev nD) : RArgs F where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)

/-! ### Operations 181 … 186

Two of them concatenate many operands: their results are read rewrite by rewrite, the operand families at their
literal indices. -/

/-- The buffers once operations 181 … 186 have run as well. -/
def val4 (V0 : Valuation τ sig (Elt F)) : Valuation τ sig (Elt F) := after ops3 (val3 V0)
/-- What operations 181 … 186 write. -/
abbrev w4 : List (Ref sig .tc) := [main_v172, main_v173, main_v174, main_v175, main_v176, main_v177]
theorem w4_writes : (ops3 : List (HloOp τ sig (Elt F))).Forall fun op => op.writes ⊆ (w4.map (Proc.devRef (τ := τ) .tc)).toFinset := by
  simp only [ops3, List.Forall]; exact ⟨wr_one, wr_one, wr_one, wr_one, wr_one, wr_one⟩
theorem val4_keep (V0 : Valuation τ sig (Elt F)) (r : Ref sig .tc) (h : r ∉ w4) :
    val4 V0 (Proc.devRef .tc r) = val3 V0 (Proc.devRef .tc r) :=
  after_of_writes_sub ops3 _ w4_writes h
theorem val4_main_arg0 (V0 : Valuation τ sig (Elt F)) : val4 V0 (no_index (Proc.devRef .tc main_arg0)) = (argsV V0).a0 :=
  (val4_keep V0 main_arg0 (by decide)).trans (val3_main_arg0 V0)
theorem val4_main_arg1 (V0 : Valuation τ sig (Elt F)) : val4 V0 (no_index (Proc.devRef .tc main_arg1)) = (argsV V0).a1 :=
  (val4_keep V0 main_arg1 (by decide)).trans (val3_main_arg1 V0)
theorem val4_main_arg2 (V0 : Valuation τ sig (Elt F)) : val4 V0 (no_index (Proc.devRef .tc main_arg2)) = (argsV V0).a2 :=
  (val4_keep V0 main_arg2 (by decide)).trans (val3_main_arg2 V0)
theorem val4_main_arg3 (V0 : Valuation τ sig (Elt F)) : val4 V0 (no_index (Proc.devRef .tc main_arg3)) = (argsV V0).a3 :=
  (val4_keep V0 main_arg3 (by decide)).trans (val3_main_arg3 V0)
theorem val4_main_arg4 (V0 : Valuation τ sig (Elt F)) : val4 V0 (no_index (Proc.devRef .tc main_arg4)) = (argsV V0).a4 :=
  (val4_keep V0 main_arg4 (by decide)).trans (val3_main_arg4 V0)
theorem val4_main_arg5 (V0 : Valuation τ sig (Elt F)) : val4 V0 (no_index (Proc.devRef .tc main_arg5)) = (argsV V0).a5 :=
  (val4_keep V0 main_arg5 (by decide)).trans (val3_main_arg5 V0)
/-- The result: the translation columns of the twenty-two stacked transforms. -/
theorem val4_main_v177 (V0 : Valuation τ sig (Elt F)) : val4 V0 (no_index (Proc.devRef .tc main_v177)) = rs_v177 (argsV V0) := by
  unfold val4
  simp only [ops3]
  after_results
  dsimp only [Matrix.cons_val]
  results_rw
  rw [val3_main_v150, val3_main_v171, val3_main_v170, val3_main_v169, val3_main_v168, val3_main_v167, val3_main_v166,
    val3_main_v165, val3_main_v164, val3_main_v163, val3_main_v162, val3_main_v161, val3_main_v160, val3_main_v159,
    val3_main_v158, val3_main_v157, val3_main_v156, val3_main_v155, val3_main_v154, val3_main_v153, val3_main_v152,
    val3_main_v151] <;> rfl

/-! ### The whole line -/

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp ops0_sub op h, List.forall_iff_forall_mem.mp ops1_sub op h,
      List.forall_iff_forall_mem.mp ops2_sub op h, List.forall_iff_forall_mem.mp ops3_sub op h]

/-- The whole line run from any contents is its stretches run in order. -/
theorem after_ops (V0 : Valuation τ sig (Elt F)) : after ops V0 = val4 V0 := by
  simp only [ops, after_app]
  rw [after_split 2 ops0, after_split 4 (ops0.drop 2), after_split 8 ops1, after_split 1 (ops1.drop 8),
    after_split 22 ((ops1.drop 8).drop 1), after_split 2 (((ops1.drop 8).drop 1).drop 22)]
  rfl

theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177) = rs_v177 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v177).trans (by rw [after_ops]; exact val4_main_v177 (launchContents m c)),
       (h c main_arg0).trans (by rw [after_ops]; exact val4_main_arg0 (launchContents m c)),
       (h c main_arg1).trans (by rw [after_ops]; exact val4_main_arg1 (launchContents m c)),
       (h c main_arg2).trans (by rw [after_ops]; exact val4_main_arg2 (launchContents m c)),
       (h c main_arg3).trans (by rw [after_ops]; exact val4_main_arg3 (launchContents m c)),
       (h c main_arg4).trans (by rw [after_ops]; exact val4_main_arg4 (launchContents m c)),
       (h c main_arg5).trans (by rw [after_ops]; exact val4_main_arg5 (launchContents m c))⟩)
    (run_seq scopedRefs_eq scopedSems_eq defs main (fun _ => ops) main_eq (fun _ => ops_sub) m ρ)

end Cert.FK.R

end
-- ==== Proof.Hom.lean ====
/-
  The reference's bookkeeping of the same tree: each joint as ONE homogeneous 4×4 matrix
      [ R  v ]
      [ 0  1 ],
  a child's matrix the product of its parent's with its own local one. The last row is the two words
  `0.0` and `1.0` as the program spells them.
-/
import proofs.«127648_j26603027432101_1_alg».proof.Proof.Spec

noncomputable section

namespace Cert.FK

open Idealize.ShloMosaic

/-- The parent of each joint (the root is listed as its own). -/
def par : Fin 22 → Fin 22 := ![0, 0, 0, 0, 1, 2, 3, 4, 5, 6, 7, 8, 9, 9, 9, 12, 13, 14, 16, 17, 18, 19]

/-- A joint's local offset: the root's is its own position moved by the translation, every other joint's its
    skeleton point minus its parent's. -/
def lofs (T : Tok) (j : Fin 22) : Fin 3 → EReal := if j = 0 then gT0 T else off T j (par j)

/-- The homogeneous matrix of a rotation and a vector. -/
def hom (R : Rot) (v : Fin 3 → EReal) (a k : Fin 4) : EReal :=
  ![![R.e00, R.e01, R.e02, v 0], ![R.e10, R.e11, R.e12, v 1], ![R.e20, R.e21, R.e22, v 2],
    ![wZero, wZero, wZero, wOne]] a k

/-- The 22 rotations along the tree. -/
def rots (T : Tok) : Fin 22 → Rot :=
  ![gR0 T, gR1 T, gR2 T, gR3 T, gR4 T, gR5 T, gR6 T, gR7 T, gR8 T, gR9 T, gR10 T, gR11 T, gR12 T, gR13 T,
    gR14 T, gR15 T, gR16 T, gR17 T, gR18 T, gR19 T, gR20 T, gR21 T]

end Cert.FK

end
-- ==== Proof.RTok.lean ====
/-
  Token (b, l) of the reference's six argument arrays.
-/
import proofs.«127648_j26603027432101_1_alg».proof.Proof.RStages
import proofs.«127648_j26603027432101_1_alg».proof.Proof.Spec
import proofs.«127648_j26603027432101_1_alg».proof.Proof.Hom

noncomputable section

namespace Cert.FK.R

open Cert.ReferenceIdeal Cert.ReferenceIdeal.Gen Idealize.ShloMosaic Idealize.ShloMosaic.TcCoe Idealize.SL.Sem
open Idealize.ShloMosaic.ValueIdx Cert.FK

/-- The token the reference's arrays give at (b, l). -/
def tokR (A : RArgs Ideal) (b : Fin 64) (l : Fin 2048) : Tok := tokOf A.a0 A.a1 A.a2 A.a3 A.a4 A.a5 b l

end Cert.FK.R

end
-- ==== Proof.RRot.lean ====
/-
  The reference's rotations: the array of all 22 Rodrigues matrices, read at an index.

  The reference lays a token's 66 numbers out as 22 triples, takes each triple's squared length, the regularised
  angle, the axis, the cosine and the sine, writes the nine entries of Rodrigues' formula one array each, and lays the
  nine side by side. Each named array is read here at an index as the term of the per-token mathematics it computes.
-/
import proofs.«127648_j26603027432101_1_alg».proof.Proof.RTok
import Idealize.ShloMosaic.Lib.Pipeline.Value
import Idealize.ShloMosaic.Lib.IdealHost

noncomputable section

namespace Cert.FK.R

open Cert.ReferenceIdeal Cert.ReferenceIdeal.Gen Idealize.ShloMosaic Idealize.ShloMosaic.TcCoe Idealize.SL.Sem
open Idealize.ShloMosaic.ValueIdx Cert.FK

/-- The 66 numbers of a token: the root's orientation in front of the body pose. -/
theorem rs_v0_apply (A : RArgs Ideal) (b : Fin 64) (l : Fin 2048) (k : Fin 66) :
    rs_v0 A (ix3 b l k) = cat66 A.a2 A.a0 b l k := by
  unfold rs_v0 cat66
  show concatenate S64x2048x66 2 [⟨S64x2048x3, A.a2⟩, ⟨S64x2048x63, A.a0⟩] _ (ix3 b l k) = _
  by_cases h : k.val < 3
  · rw [dif_pos h]
    exact concatenate_pair_apply_left (2 : Fin 3) A.a2 A.a0 _ (ix3 b l k) rfl (ix3 b l (⟨k.val, h⟩ : Fin 3)) (fun a => by
      match a with
      | ⟨0, _⟩ => rfl
      | ⟨1, _⟩ => rfl
      | ⟨2, _⟩ => rfl)
  · rw [dif_neg h]
    exact concatenate_pair_apply_right (2 : Fin 3) A.a2 A.a0 _ (ix3 b l k) rfl rfl
      (ix3 b l (⟨k.val - 3, by omega⟩ : Fin 63)) (fun a ha => by
      match a with
      | ⟨0, _⟩ => rfl
      | ⟨1, _⟩ => rfl
      | ⟨2, _⟩ => exact absurd rfl ha) (by show (k.val - 3) + 3 = k.val; omega)

/-- Cut into 22 triples: number c of triple j is number 3j + c of the 66. -/
theorem rs_v1_apply (A : RArgs Ideal) (b : Fin 64) (l : Fin 2048) (j : Fin 22) (c : Fin 3) :
    rs_v1 A (ix4 b l j c) = (tokR A b l).aa j c := by
  unfold rs_v1
  rw [shapeCast_apply _ _ _ (ix3 b l (⟨3 * j.val + c.val, by omega⟩ : Fin 66)) (by
    rw [Shape.rowMajor_val_three, Shape.rowMajor_val_four]
    show ((b.val * 2048 + l.val) * 66 + (3 * j.val + c.val)) = ((b.val * 2048 + l.val) * 22 + j.val) * 3 + c.val
    omega)]
  exact rs_v0_apply A b l _

/-- The squares. -/
theorem rs_v2_apply (A : RArgs Ideal) (b : Fin 64) (l : Fin 2048) (j : Fin 22) (c : Fin 3) :
    rs_v2 A (ix4 b l j c) = (tokR A b l).aa j c * (tokR A b l).aa j c := by
  unfold rs_v2
  rw [mulf_apply, rs_v1_apply]

/-- The squared length of each triple. -/
theorem rs_v3_apply (A : RArgs Ideal) (b : Fin 64) (l : Fin 2048) (j : Fin 22) :
    rs_v3 A (ix3 b l j) = sqn ((tokR A b l).aa j) := by
  unfold rs_v3
  have hR : S64x2048x22x3.Reduces [3] S64x2048x22 := by decide
  show Host.reduceAdd (rs_v2 A) (rs_cst_0 A) reducesTo_S64x2048x22x3_S64x2048x22_d3 h_S_ (ix3 b l j) = _
  rw [hostReduceAdd_apply, Ideal.hostReduceAdd_single _ hR]
  unfold rs_cst_0
  rw [constant_apply, Ideal.ofBits_zero_f32, zero_add]
  unfold sqn
  refine Finset.sum_congr rfl fun k _ => ?_
  have e : hR.lift (ix3 b l j) k = ix4 b l j k := by
    funext a
    match a with
    | ⟨0, _⟩ => rfl
    | ⟨1, _⟩ => rfl
    | ⟨2, _⟩ => rfl
    | ⟨3, _⟩ => rfl
  rw [e]
  exact rs_v2_apply A b l j k

theorem rs_v4_apply (A : RArgs Ideal) (b : Fin 64) (l : Fin 2048) (j : Fin 22) (u : Fin 1) :
    rs_v4 A (ix4 b l j u) = sqn ((tokR A b l).aa j) := by
  unfold rs_v4
  rw [broadcastInDim_apply _ _ _ _ (ix3 b l j) (fun a => by
    match a with
    | ⟨0, _⟩ => rfl
    | ⟨1, _⟩ => rfl
    | ⟨2, _⟩ => rfl)]
  exact rs_v3_apply A b l j

theorem rs_v5_apply (A : RArgs Ideal) (b : Fin 64) (l : Fin 2048) (j : Fin 22) (u : Fin 1) :
    rs_v5 A (ix4 b l j u) = wEps := by
  unfold rs_v5
  rw [broadcastInDim_scalar_apply]
  rfl

theorem rs_v6_apply (A : RArgs Ideal) (b : Fin 64) (l : Fin 2048) (j : Fin 22) (u : Fin 1) :
    rs_v6 A (ix4 b l j u) = sqn ((tokR A b l).aa j) + wEps := by
  unfold rs_v6
  rw [addf_apply, rs_v4_apply, rs_v5_apply]

/-- The regularised angle. -/
theorem rs_v7_apply (A : RArgs Ideal) (b : Fin 64) (l : Fin 2048) (j : Fin 22) (u : Fin 1) :
    rs_v7 A (ix4 b l j u) = ang ((tokR A b l).aa j) := by
  unfold rs_v7
  show FloatOps.hostUnary .sqrt (rs_v6 A (ix4 b l j u)) = _
  rw [Ideal.hostUnary_sqrt_def, rs_v6_apply]
  rfl

theorem rs_v8_apply (A : RArgs Ideal) (b : Fin 64) (l : Fin 2048) (j : Fin 22) (c : Fin 3) :
    rs_v8 A (ix4 b l j c) = ang ((tokR A b l).aa j) := by
  unfold rs_v8
  rw [broadcastInDim_apply _ _ _ _ (ix4 b l j (0 : Fin 1)) (fun a => by
    match a with
    | ⟨0, _⟩ => rfl
    | ⟨1, _⟩ => rfl
    | ⟨2, _⟩ => rfl
    | ⟨3, _⟩ => rfl)]
  exact rs_v7_apply A b l j 0

/-- The axis. -/
theorem rs_v9_apply (A : RArgs Ideal) (b : Fin 64) (l : Fin 2048) (j : Fin 22) (c : Fin 3) :
    rs_v9 A (ix4 b l j c) = ax ((tokR A b l).aa j) c := by
  unfold rs_v9
  rw [hostDivf_apply, rs_v1_apply, rs_v8_apply]
  rfl

theorem rs_v10_apply (A : RArgs Ideal) (b : Fin 64) (l : Fin 2048) (j : Fin 22) (u : Fin 1) :
    rs_v10 A (ix4 b l j u) = ax ((tokR A b l).aa j) 0 := by
  unfold rs_v10
  show extractStridedSlice S64x2048x22x1 ![0, 0, 0, 0] (rs_v9 A) _ (ix4 b l j u) = _
  rw [extractStridedSlice_apply _ _ _ _ (ix4 b l j (0 : Fin 3)) (fun a => by
    match a with
    | ⟨0, _⟩ => show b.val = 0 + b.val; omega
    | ⟨1, _⟩ => show l.val = 0 + l.val; omega
    | ⟨2, _⟩ => show j.val = 0 + j.val; omega
    | ⟨3, _⟩ => show 0 = 0 + u.val; omega)]
  exact rs_v9_apply A b l j 0

theorem rs_v11_apply (A : RArgs Ideal) (b : Fin 64) (l : Fin 2048) (j : Fin 22) :
    rs_v11 A (ix3 b l j) = ax ((tokR A b l).aa j) 0 := by
  unfold rs_v11
  rw [shapeCast_apply _ _ _ (ix4 b l j (0 : Fin 1)) (by
    rw [Shape.rowMajor_val_three, Shape.rowMajor_val_four]
    show ((b.val * 2048 + l.val) * 22 + j.val) * 1 + 0 = (b.val * 2048 + l.val) * 22 + j.val
    omega)]
  exact rs_v10_apply A b l j 0

theorem rs_v12_apply (A : RArgs Ideal) (b : Fin 64) (l : Fin 2048) (j : Fin 22) (u : Fin 1) :
    rs_v12 A (ix4 b l j u) = ax ((tokR A b l).aa j) 1 := by
  unfold rs_v12
  show extractStridedSlice S64x2048x22x1 ![0, 0, 0, 1] (rs_v9 A) _ (ix4 b l j u) = _
  rw [extractStridedSlice_apply _ _ _ _ (ix4 b l j (1 : Fin 3)) (fun a => by
    match a with
    | ⟨0, _⟩ => show b.val = 0 + b.val; omega
    | ⟨1, _⟩ => show l.val = 0 + l.val; omega
    | ⟨2, _⟩ => show j.val = 0 + j.val; omega
    | ⟨3, _⟩ => show 1 = 1 + u.val; omega)]
  exact rs_v9_apply A b l j 1

theorem rs_v13_apply (A : RArgs Ideal) (b : Fin 64) (l : Fin 2048) (j : Fin 22) :
    rs_v13 A (ix3 b l j) = ax ((tokR A b l).aa j) 1 := by
  unfold rs_v13
  rw [shapeCast_apply _ _ _ (ix4 b l j (0 : Fin 1)) (by
    rw [Shape.rowMajor_val_three, Shape.rowMajor_val_four]
    show ((b.val * 2048 + l.val) * 22 + j.val) * 1 + 0 = (b.val * 2048 + l.val) * 22 + j.val
    omega)]
  exact rs_v12_apply A b l j 0

theorem rs_v14_apply (A : RArgs Ideal) (b : Fin 64) (l : Fin 2048) (j : Fin 22) (u : Fin 1) :
    rs_v14 A (ix4 b l j u) = ax ((tokR A b l).aa j) 2 := by
  unfold rs_v14
  show extractStridedSlice S64x2048x22x1 ![0, 0, 0, 2] (rs_v9 A) _ (ix4 b l j u) = _
  rw [extractStridedSlice_apply _ _ _ _ (ix4 b l j (2 : Fin 3)) (fun a => by
    match a with
    | ⟨0, _⟩ => show b.val = 0 + b.val; omega
    | ⟨1, _⟩ => show l.val = 0 + l.val; omega
    | ⟨2, _⟩ => show j.val = 0 + j.val; omega
    | ⟨3, _⟩ => show 2 = 2 + u.val; omega)]
  exact rs_v9_apply A b l j 2

theorem rs_v15_apply (A : RArgs Ideal) (b : Fin 64) (l : Fin 2048) (j : Fin 22) :
    rs_v15 A (ix3 b l j) = ax ((tokR A b l).aa j) 2 := by
  unfold rs_v15
  rw [shapeCast_apply _ _ _ (ix4 b l j (0 : Fin 1)) (by
    rw [Shape.rowMajor_val_three, Shape.rowMajor_val_four]
    show ((b.val * 2048 + l.val) * 22 + j.val) * 1 + 0 = (b.val * 2048 + l.val) * 22 + j.val
    omega)]
  exact rs_v14_apply A b l j 0

theorem rs_v16_apply (A : RArgs Ideal) (b : Fin 64) (l : Fin 2048) (j : Fin 22) :
    rs_v16 A (ix3 b l j) = ang ((tokR A b l).aa j) := by
  unfold rs_v16
  rw [shapeCast_apply _ _ _ (ix4 b l j (0 : Fin 1)) (by
    rw [Shape.rowMajor_val_three, Shape.rowMajor_val_four]
    show ((b.val * 2048 + l.val) * 22 + j.val) * 1 + 0 = (b.val * 2048 + l.val) * 22 + j.val
    omega)]
  exact rs_v7_apply A b l j 0

/-- The cosine of the angle. -/
theorem rs_v17_apply (A : RArgs Ideal) (b : Fin 64) (l : Fin 2048) (j : Fin 22) :
    rs_v17 A (ix3 b l j) = Ideal.cos (ang ((tokR A b l).aa j)) := by
  unfold rs_v17
  show FloatOps.hostUnary .cos (rs_v16 A (ix3 b l j)) = _
  rw [Ideal.hostUnary_cos_def, rs_v16_apply]

/-- The sine of the angle. -/
theorem rs_v18_apply (A : RArgs Ideal) (b : Fin 64) (l : Fin 2048) (j : Fin 22) :
    rs_v18 A (ix3 b l j) = Ideal.sin (ang ((tokR A b l).aa j)) := by
  unfold rs_v18
  show FloatOps.hostUnary .sin (rs_v16 A (ix3 b l j)) = _
  rw [Ideal.hostUnary_sin_def, rs_v16_apply]

theorem rs_v19_apply (A : RArgs Ideal) (b : Fin 64) (l : Fin 2048) (j : Fin 22) :
    rs_v19 A (ix3 b l j) = wOne := by
  unfold rs_v19
  rw [broadcastInDim_scalar_apply]
  rfl

/-- One less the cosine. -/
theorem rs_v20_apply (A : RArgs Ideal) (b : Fin 64) (l : Fin 2048) (j : Fin 22) :
    rs_v20 A (ix3 b l j) = wOne - Ideal.cos (ang ((tokR A b l).aa j)) := by
  unfold rs_v20
  rw [subf_apply, rs_v19_apply, rs_v17_apply]

/-! The nine entries, each in the order Rodrigues' formula is written. -/

theorem rs_v23_apply (A : RArgs Ideal) (b : Fin 64) (l : Fin 2048) (j : Fin 22) :
    rs_v23 A (ix3 b l j) = (rod ((tokR A b l).aa j)).e00 := by
  unfold rs_v23 rs_v22 rs_v21
  simp only [addf_apply, mulf_apply, rs_v20_apply, rs_v11_apply, rs_v17_apply]
  rfl

theorem rs_v27_apply (A : RArgs Ideal) (b : Fin 64) (l : Fin 2048) (j : Fin 22) :
    rs_v27 A (ix3 b l j) = (rod ((tokR A b l).aa j)).e01 := by
  unfold rs_v27 rs_v26 rs_v25 rs_v24
  simp only [subf_apply, mulf_apply, rs_v20_apply, rs_v11_apply, rs_v13_apply, rs_v15_apply, rs_v18_apply]
  rfl

theorem rs_v31_apply (A : RArgs Ideal) (b : Fin 64) (l : Fin 2048) (j : Fin 22) :
    rs_v31 A (ix3 b l j) = (rod ((tokR A b l).aa j)).e02 := by
  unfold rs_v31 rs_v30 rs_v29 rs_v28
  simp only [addf_apply, mulf_apply, rs_v20_apply, rs_v11_apply, rs_v13_apply, rs_v15_apply, rs_v18_apply]
  rfl

theorem rs_v35_apply (A : RArgs Ideal) (b : Fin 64) (l : Fin 2048) (j : Fin 22) :
    rs_v35 A (ix3 b l j) = (rod ((tokR A b l).aa j)).e10 := by
  unfold rs_v35 rs_v34 rs_v33 rs_v32
  simp only [addf_apply, mulf_apply, rs_v20_apply, rs_v11_apply, rs_v13_apply, rs_v15_apply, rs_v18_apply]
  rfl

theorem rs_v38_apply (A : RArgs Ideal) (b : Fin 64) (l : Fin 2048) (j : Fin 22) :
    rs_v38 A (ix3 b l j) = (rod ((tokR A b l).aa j)).e11 := by
  unfold rs_v38 rs_v37 rs_v36
  simp only [addf_apply, mulf_apply, rs_v20_apply, rs_v13_apply, rs_v17_apply]
  rfl

theorem rs_v42_apply (A : RArgs Ideal) (b : Fin 64) (l : Fin 2048) (j : Fin 22) :
    rs_v42 A (ix3 b l j) = (rod ((tokR A b l).aa j)).e12 := by
  unfold rs_v42 rs_v41 rs_v40 rs_v39
  simp only [subf_apply, mulf_apply, rs_v20_apply, rs_v11_apply, rs_v13_apply, rs_v15_apply, rs_v18_apply]
  rfl

theorem rs_v46_apply (A : RArgs Ideal) (b : Fin 64) (l : Fin 2048) (j : Fin 22) :
    rs_v46 A (ix3 b l j) = (rod ((tokR A b l).aa j)).e20 := by
  unfold rs_v46 rs_v45 rs_v44 rs_v43
  simp only [subf_apply, mulf_apply, rs_v20_apply, rs_v11_apply, rs_v13_apply, rs_v15_apply, rs_v18_apply]
  rfl

theorem rs_v50_apply (A : RArgs Ideal) (b : Fin 64) (l : Fin 2048) (j : Fin 22) :
    rs_v50 A (ix3 b l j) = (rod ((tokR A b l).aa j)).e21 := by
  unfold rs_v50 rs_v49 rs_v48 rs_v47
  simp only [addf_apply, mulf_apply, rs_v20_apply, rs_v11_apply, rs_v13_apply, rs_v15_apply, rs_v18_apply]
  rfl

theorem rs_v53_apply (A : RArgs Ideal) (b : Fin 64) (l : Fin 2048) (j : Fin 22) :
    rs_v53 A (ix3 b l j) = (rod ((tokR A b l).aa j)).e22 := by
  unfold rs_v53 rs_v52 rs_v51
  simp only [addf_apply, mulf_apply, rs_v20_apply, rs_v15_apply, rs_v17_apply]
  rfl

/-! Each entry with a unit axis behind it. -/

theorem rs_v54_apply (A : RArgs Ideal) (b : Fin 64) (l : Fin 2048) (j : Fin 22) (u : Fin 1) :
    rs_v54 A (ix4 b l j u) = (rod ((tokR A b l).aa j)).e00 := by
  unfold rs_v54
  rw [broadcastInDim_apply _ _ _ _ (ix3 b l j) (fun a => by
    match a with
    | ⟨0, _⟩ => rfl
    | ⟨1, _⟩ => rfl
    | ⟨2, _⟩ => rfl)]
  exact rs_v23_apply A b l j

theorem rs_v55_apply (A : RArgs Ideal) (b : Fin 64) (l : Fin 2048) (j : Fin 22) (u : Fin 1) :
    rs_v55 A (ix4 b l j u) = (rod ((tokR A b l).aa j)).e01 := by
  unfold rs_v55
  rw [broadcastInDim_apply _ _ _ _ (ix3 b l j) (fun a => by
    match a with
    | ⟨0, _⟩ => rfl
    | ⟨1, _⟩ => rfl
    | ⟨2, _⟩ => rfl)]
  exact rs_v27_apply A b l j

theorem rs_v56_apply (A : RArgs Ideal) (b : Fin 64) (l : Fin 2048) (j : Fin 22) (u : Fin 1) :
    rs_v56 A (ix4 b l j u) = (rod ((tokR A b l).aa j)).e02 := by
  unfold rs_v56
  rw [broadcastInDim_apply _ _ _ _ (ix3 b l j) (fun a => by
    match a with
    | ⟨0, _⟩ => rfl
    | ⟨1, _⟩ => rfl
    | ⟨2, _⟩ => rfl)]
  exact rs_v31_apply A b l j

theorem rs_v57_apply (A : RArgs Ideal) (b : Fin 64) (l : Fin 2048) (j : Fin 22) (u : Fin 1) :
    rs_v57 A (ix4 b l j u) = (rod ((tokR A b l).aa j)).e10 := by
  unfold rs_v57
  rw [broadcastInDim_apply _ _ _ _ (ix3 b l j) (fun a => by
    match a with
    | ⟨0, _⟩ => rfl
    | ⟨1, _⟩ => rfl
    | ⟨2, _⟩ => rfl)]
  exact rs_v35_apply A b l j

theorem rs_v58_apply (A : RArgs Ideal) (b : Fin 64) (l : Fin 2048) (j : Fin 22) (u : Fin 1) :
    rs_v58 A (ix4 b l j u) = (rod ((tokR A b l).aa j)).e11 := by
  unfold rs_v58
  rw [broadcastInDim_apply _ _ _ _ (ix3 b l j) (fun a => by
    match a with
    | ⟨0, _⟩ => rfl
    | ⟨1, _⟩ => rfl
    | ⟨2, _⟩ => rfl)]
  exact rs_v38_apply A b l j

theorem rs_v59_apply (A : RArgs Ideal) (b : Fin 64) (l : Fin 2048) (j : Fin 22) (u : Fin 1) :
    rs_v59 A (ix4 b l j u) = (rod ((tokR A b l).aa j)).e12 := by
  unfold rs_v59
  rw [broadcastInDim_apply _ _ _ _ (ix3 b l j) (fun a => by
    match a with
    | ⟨0, _⟩ => rfl
    | ⟨1, _⟩ => rfl
    | ⟨2, _⟩ => rfl)]
  exact rs_v42_apply A b l j

theorem rs_v60_apply (A : RArgs Ideal) (b : Fin 64) (l : Fin 2048) (j : Fin 22) (u : Fin 1) :
    rs_v60 A (ix4 b l j u) = (rod ((tokR A b l).aa j)).e20 := by
  unfold rs_v60
  rw [broadcastInDim_apply _ _ _ _ (ix3 b l j) (fun a => by
    match a with
    | ⟨0, _⟩ => rfl
    | ⟨1, _⟩ => rfl
    | ⟨2, _⟩ => rfl)]
  exact rs_v46_apply A b l j

theorem rs_v61_apply (A : RArgs Ideal) (b : Fin 64) (l : Fin 2048) (j : Fin 22) (u : Fin 1) :
    rs_v61 A (ix4 b l j u) = (rod ((tokR A b l).aa j)).e21 := by
  unfold rs_v61
  rw [broadcastInDim_apply _ _ _ _ (ix3 b l j) (fun a => by
    match a with
    | ⟨0, _⟩ => rfl
    | ⟨1, _⟩ => rfl
    | ⟨2, _⟩ => rfl)]
  exact rs_v50_apply A b l j

theorem rs_v62_apply (A : RArgs Ideal) (b : Fin 64) (l : Fin 2048) (j : Fin 22) (u : Fin 1) :
    rs_v62 A (ix4 b l j u) = (rod ((tokR A b l).aa j)).e22 := by
  unfold rs_v62
  rw [broadcastInDim_apply _ _ _ _ (ix3 b l j) (fun a => by
    match a with
    | ⟨0, _⟩ => rfl
    | ⟨1, _⟩ => rfl
    | ⟨2, _⟩ => rfl)]
  exact rs_v53_apply A b l j

/-- The nine arrays laid side by side along the last axis: position m reads array m. -/
theorem rs_v63_apply (A : RArgs Ideal) (b : Fin 64) (l : Fin 2048) (j : Fin 22) (m : Fin 9) :
    rs_v63 A (ix4 b l j m)
      = (![rs_v54 A, rs_v55 A, rs_v56 A, rs_v57 A, rs_v58 A, rs_v59 A, rs_v60 A, rs_v61 A, rs_v62 A] m)
          (ix4 b l j (0 : Fin 1)) := by
  unfold rs_v63
  exact concatenate_ofFn_unit_apply (t := S64x2048x22x9) (s₁ := S64x2048x22x1) (3 : Fin 4)
    (fun n : Fin 9 => ![rs_v54 A, rs_v55 A, rs_v56 A, rs_v57 A, rs_v58 A, rs_v59 A, rs_v60 A, rs_v61 A, rs_v62 A] n)
    concatenates_S64x2048x22x1_S64x2048x22x1_S64x2048x22x1_S64x2048x22x1_S64x2048x22x1_S64x2048x22x1_S64x2048x22x1_S64x2048x22x1_S64x2048x22x1_S64x2048x22x9_d3
    rfl rfl (ix4 b l j m) m rfl (ix4 b l j (0 : Fin 1)) (fun a ha => by
      match a with
      | ⟨0, _⟩ => rfl
      | ⟨1, _⟩ => rfl
      | ⟨2, _⟩ => rfl
      | ⟨3, _⟩ => exact absurd rfl ha)

/-- Entry (a, c) of joint j's rotation matrix at token (b, l) is Rodrigues' formula of that joint's axis-angle vector. -/
theorem rs_v64_apply (A : RArgs Ideal) (b : Fin 64) (l : Fin 2048) (j : Fin 22) (a c : Fin 3) :
    rs_v64 A (ix5 b l j a c) = (rod ((tokR A b l).aa j)).get a c := by
  unfold rs_v64
  rw [shapeCast_apply _ _ _ (ix4 b l j (⟨3 * a.val + c.val, by omega⟩ : Fin 9)) (by
    rw [Shape.rowMajor_val_four, Shape.rowMajor_val_five]
    show ((b.val * 2048 + l.val) * 22 + j.val) * 9 + (3 * a.val + c.val)
      = (((b.val * 2048 + l.val) * 22 + j.val) * 3 + a.val) * 3 + c.val
    omega)]
  rw [rs_v63_apply]
  match a, c with
  | ⟨0, _⟩, ⟨0, _⟩ => exact rs_v54_apply A b l j 0
  | ⟨0, _⟩, ⟨1, _⟩ => exact rs_v55_apply A b l j 0
  | ⟨0, _⟩, ⟨2, _⟩ => exact rs_v56_apply A b l j 0
  | ⟨1, _⟩, ⟨0, _⟩ => exact rs_v57_apply A b l j 0
  | ⟨1, _⟩, ⟨1, _⟩ => exact rs_v58_apply A b l j 0
  | ⟨1, _⟩, ⟨2, _⟩ => exact rs_v59_apply A b l j 0
  | ⟨2, _⟩, ⟨0, _⟩ => exact rs_v60_apply A b l j 0
  | ⟨2, _⟩, ⟨1, _⟩ => exact rs_v61_apply A b l j 0
  | ⟨2, _⟩, ⟨2, _⟩ => exact rs_v62_apply A b l j 0

end Cert.FK.R

end
-- ==== Proof.LibIndex.lean ====
/-
  StableHLO scatter and gather dimension numbers read at an index.

  A scatter's update index lands at the operand index "start + window coordinate", the start read signed off the
  index array and not clamped; a gather's result index reads the operand at "clamped start + offset coordinate".
  For the dimension numbers of the four indexed updates and reads  x[i] += v,  x[i, :] += v,  x[r, k] += 1  and
  y = x[i, :]  these lemmas say where an update lands and what an element of the result is, coordinate by
  coordinate.
-/
import Idealize.ShloMosaic.PureOps.Ideal
import Idealize.ShloMosaic.PureOps.Ideal.Laws
import Idealize.ShloMosaic.Lib.ValueIdx

noncomputable section

open scoped BigOperators

namespace Cert.LibIndex

open Idealize.ShloMosaic Idealize.ShloMosaic.ValueIdx

/-- An update lands on the operand index t exactly when, on every axis, start plus window coordinate is t's
    coordinate: being inside the operand is then automatic, and nothing is dropped. -/
theorem resultIdx?_eq_some_iff {s si u : Shape} (d : ScatterDims s si u) {w : ℕ} (j : u.Idx) (idx : IVec si w) (t : s.Idx) :
    d.resultIdx? j idx = some t ↔ ∀ a, d.start j idx a + (d.window j a : ℤ) = ((t a).val : ℤ) := by
  unfold ScatterDims.resultIdx?
  split
  next h =>
    constructor
    · intro heq a
      have ht := congrArg (fun f : s.Idx => (f a).val) (Option.some.inj heq)
      simp only at ht
      have := (h a).1
      omega
    · intro heq
      refine congrArg some (funext fun a => Fin.ext ?_)
      have := heq a
      simp only
      omega
  next h =>
    constructor
    · intro heq; exact absurd heq (by simp)
    · intro heq
      exact absurd (fun a => by have := heq a; have := (t a).isLt; constructor <;> omega) h

/-- The operand's kept axes are the ones that are not inserted window axes. -/
theorem mem_sKept {s si u : Shape} (d : ScatterDims s si u) (a : Fin s.rank) : a ∈ d.sKept ↔ a ∉ d.insertedWindowDims := by
  simp [ScatterDims.sKept, Shape.kept, List.mem_filter, List.mem_finRange]

/-- On an inserted window axis an update has no window coordinate. -/
theorem window_of_inserted {s si u : Shape} (d : ScatterDims s si u) (j : u.Idx) (a : Fin s.rank)
    (ha : a ∈ d.insertedWindowDims) : d.window j a = 0 := by
  unfold ScatterDims.window
  rw [dif_neg (fun h => (mem_sKept d a).mp h ha)]

/-- scalar updates scattered along the one axis of a vector: update e lands on i iff its index word, read signed, is i -/
theorem resultIdx_vec {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (i : Fin M) :
    d.resultIdx? (ix1 e) idx = some (ix1 i) ↔ (idx (ix2 e (0 : Fin 1))).toInt = (i.val : ℤ) := by
  obtain ⟨uwd, iwd, sd, ivd, wf⟩ := d
  dsimp only at h1 h2 h3 h4
  subst h1 h2 h3 h4
  rw [resultIdx?_eq_some_iff]
  -- the one operand axis: inserted, so no window coordinate; the start is the index word
  have hs : ScatterDims.start (⟨[], [0], [0], 1, wf⟩ : ScatterDims ⟨1, ![M]⟩ ⟨2, ![E, 1]⟩ ⟨1, ![E]⟩) (ix1 e) idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw : ScatterDims.window (⟨[], [0], [0], 1, wf⟩ : ScatterDims ⟨1, ![M]⟩ ⟨2, ![E, 1]⟩ ⟨1, ![E]⟩) (ix1 e) 0 = 0 :=
    window_of_inserted _ _ _ (List.mem_singleton.mpr rfl)
  constructor
  · intro h
    have := h 0
    rw [hs, hw, Nat.cast_zero, add_zero] at this
    exact this
  · intro h a
    match a with
    | ⟨0, _⟩ =>
      show ScatterDims.start _ (ix1 e) idx 0 + ((ScatterDims.window _ (ix1 e) 0 : ℕ) : ℤ) = (i.val : ℤ)
      rw [hs, hw, h, Nat.cast_zero, add_zero]

/-- rows scattered into a matrix -/
theorem resultIdx_rows {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c' : Fin C) (i : Fin M) (c : Fin C) :
    d.resultIdx? (ix2 e c') idx = some (ix2 i c) ↔ (idx (ix2 e (0 : Fin 1))).toInt = (i.val : ℤ) ∧ c' = c := by
  obtain ⟨uwd, iwd, sd, ivd, wf⟩ := d
  dsimp only at h1 h2 h3 h4
  subst h1 h2 h3 h4
  rw [resultIdx?_eq_some_iff]
  -- the row axis: inserted, so no window coordinate; the start is the index word
  have hs0 : ScatterDims.start (⟨[1], [0], [0], 1, wf⟩ : ScatterDims ⟨2, ![M, C]⟩ ⟨2, ![E, 1]⟩ ⟨2, ![E, C]⟩) (ix2 e c') idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ : ScatterDims ⟨2, ![M, C]⟩ ⟨2, ![E, 1]⟩ ⟨2, ![E, C]⟩) (ix2 e c') 0 = 0 :=
    window_of_inserted _ _ _ (List.mem_singleton.mpr rfl)
  -- the column axis: the scatter index does not name it, so the start is 0; the window coordinate is the update's column
  have hs1 : ScatterDims.start (⟨[1], [0], [0], 1, wf⟩ : ScatterDims ⟨2, ![M, C]⟩ ⟨2, ![E, 1]⟩ ⟨2, ![E, C]⟩) (ix2 e c') idx 1 = 0 := by
    unfold ScatterDims.start
    rw [dif_neg (show (1 : Fin 2) ∉ ([0] : List (Fin 2)) by decide)]
  have hw1 : ScatterDims.window (⟨[1], [0], [0], 1, wf⟩ : ScatterDims ⟨2, ![M, C]⟩ ⟨2, ![E, 1]⟩ ⟨2, ![E, C]⟩) (ix2 e c') 1 = c'.val := by
    unfold ScatterDims.window
    rw [dif_pos ((mem_sKept _ _).mpr (show (1 : Fin 2) ∉ ([0] : List (Fin 2)) by decide))]
    rfl
  constructor
  · intro h
    have e0 := h 0
    have e1 := h 1
    rw [hs0, hw0, Nat.cast_zero, add_zero] at e0
    rw [hs1, hw1, zero_add] at e1
    exact ⟨e0, Fin.ext (Nat.cast_injective (R := ℤ) e1)⟩
  · rintro ⟨h, rfl⟩ a
    match a with
    | ⟨0, _⟩ =>
      show ScatterDims.start _ (ix2 e c') idx 0 + ((ScatterDims.window _ (ix2 e c') 0 : ℕ) : ℤ) = (i.val : ℤ)
      rw [hs0, hw0, h, Nat.cast_zero, add_zero]
    | ⟨1, _⟩ =>
      show ScatterDims.start _ (ix2 e c') idx 1 + ((ScatterDims.window _ (ix2 e c') 1 : ℕ) : ℤ) = (c'.val : ℤ)
      rw [hs1, hw1, zero_add]

/-- scalar updates scattered at (row, column) pairs of a square matrix -/
theorem resultIdx_points {M E w : ℕ} (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ w) (e : Fin E) (r k : Fin M) :
    d.resultIdx? (ix1 e) idx = some (ix2 r k)
      ↔ (idx (ix2 e (0 : Fin 2))).toInt = (r.val : ℤ) ∧ (idx (ix2 e (1 : Fin 2))).toInt = (k.val : ℤ) := by
  obtain ⟨uwd, iwd, sd, ivd, wf⟩ := d
  dsimp only at h1 h2 h3 h4
  subst h1 h2 h3 h4
  rw [resultIdx?_eq_some_iff]
  -- both operand axes are inserted (no window coordinate); axis a starts at component a of the update's index pair
  have hs0 : ScatterDims.start (⟨[], [0, 1], [0, 1], 1, wf⟩ : ScatterDims ⟨2, ![M, M]⟩ ⟨2, ![E, 2]⟩ ⟨1, ![E]⟩) (ix1 e) idx 0
      = (idx (ix2 e (0 : Fin 2))).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : ScatterDims.start (⟨[], [0, 1], [0, 1], 1, wf⟩ : ScatterDims ⟨2, ![M, M]⟩ ⟨2, ![E, 2]⟩ ⟨1, ![E]⟩) (ix1 e) idx 1
      = (idx (ix2 e (1 : Fin 2))).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hw0 : ScatterDims.window (⟨[], [0, 1], [0, 1], 1, wf⟩ : ScatterDims ⟨2, ![M, M]⟩ ⟨2, ![E, 2]⟩ ⟨1, ![E]⟩) (ix1 e) 0 = 0 :=
    window_of_inserted _ _ _ (show (0 : Fin 2) ∈ ([0, 1] : List (Fin 2)) by decide)
  have hw1 : ScatterDims.window (⟨[], [0, 1], [0, 1], 1, wf⟩ : ScatterDims ⟨2, ![M, M]⟩ ⟨2, ![E, 2]⟩ ⟨1, ![E]⟩) (ix1 e) 1 = 0 :=
    window_of_inserted _ _ _ (show (1 : Fin 2) ∈ ([0, 1] : List (Fin 2)) by decide)
  constructor
  · intro h
    have e0 := h 0
    have e1 := h 1
    rw [hs0, hw0, Nat.cast_zero, add_zero] at e0
    rw [hs1, hw1, Nat.cast_zero, add_zero] at e1
    exact ⟨e0, e1⟩
  · rintro ⟨h0, h1⟩ a
    match a with
    | ⟨0, _⟩ =>
      show ScatterDims.start _ (ix1 e) idx 0 + ((ScatterDims.window _ (ix1 e) 0 : ℕ) : ℤ) = (r.val : ℤ)
      rw [hs0, hw0, h0, Nat.cast_zero, add_zero]
    | ⟨1, _⟩ =>
      show ScatterDims.start _ (ix1 e) idx 1 + ((ScatterDims.window _ (ix1 e) 1 : ℕ) : ℤ) = (k.val : ℤ)
      rw [hs1, hw1, h1, Nat.cast_zero, add_zero]

/-- the float accumulating scatter of scalars into a vector, at Ideal, at an index -/
theorem scatterAdd_vec_apply {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![E, 1]⟩ w) (upd : (⟨1, ![E]⟩ : Shape).Idx → EReal) (i : Fin M) :
    Ideal.hostScatterAdd d x idx upd (ix1 i)
      = x (ix1 i) + ∑ e ∈ Finset.univ.filter (fun e : Fin E => (idx (ix2 e (0 : Fin 1))).toInt = (i.val : ℤ)), upd (ix1 e) := by
  unfold Ideal.hostScatterAdd
  refine congrArg (x (ix1 i) + ·) ?_
  -- the update indices that land on i correspond to their one coordinate
  refine Finset.sum_nbij' (fun j => (j 0 : Fin E)) (fun e => ix1 e) ?_ ?_ ?_ ?_ ?_
  · intro j hj
    obtain ⟨a, rfl⟩ : ∃ a : Fin E, j = ix1 a := ⟨j 0, eq_ix1 j⟩
    show a ∈ _
    exact Finset.mem_filter.mpr ⟨Finset.mem_univ _, (resultIdx_vec d h1 h2 h3 h4 idx a i).mp (Finset.mem_filter.mp hj).2⟩
  · intro e he
    exact Finset.mem_filter.mpr ⟨Finset.mem_univ _, (resultIdx_vec d h1 h2 h3 h4 idx e i).mpr (Finset.mem_filter.mp he).2⟩
  · intro j _
    obtain ⟨a, rfl⟩ : ∃ a : Fin E, j = ix1 a := ⟨j 0, eq_ix1 j⟩
    rfl
  · intro e _; rfl
  · intro j _
    obtain ⟨a, rfl⟩ : ∃ a : Fin E, j = ix1 a := ⟨j 0, eq_ix1 j⟩
    rfl

/-- the float accumulating scatter of rows into a matrix, at Ideal, at an index -/
theorem scatterAdd_rows_apply {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![M, C]⟩ : Shape).Idx → EReal) (idx : IVec ⟨2, ![E, 1]⟩ w) (upd : (⟨2, ![E, C]⟩ : Shape).Idx → EReal)
    (i : Fin M) (c : Fin C) :
    Ideal.hostScatterAdd d x idx upd (ix2 i c)
      = x (ix2 i c) + ∑ e ∈ Finset.univ.filter (fun e : Fin E => (idx (ix2 e (0 : Fin 1))).toInt = (i.val : ℤ)), upd (ix2 e c) := by
  unfold Ideal.hostScatterAdd
  refine congrArg (x (ix2 i c) + ·) ?_
  -- an update element lands on (i, c) iff its row's index word is i and its column is c: the elements that do
  -- correspond to their rows, the column being fixed
  refine Finset.sum_nbij' (fun j => (j 0 : Fin E)) (fun e => ix2 e c) ?_ ?_ ?_ ?_ ?_
  · intro j hj
    obtain ⟨a, b, rfl⟩ : ∃ (a : Fin E) (b : Fin C), j = ix2 a b := ⟨j 0, j 1, eq_ix2 j⟩
    show a ∈ _
    exact Finset.mem_filter.mpr
      ⟨Finset.mem_univ _, ((resultIdx_rows d h1 h2 h3 h4 idx a b i c).mp (Finset.mem_filter.mp hj).2).1⟩
  · intro e he
    exact Finset.mem_filter.mpr
      ⟨Finset.mem_univ _, (resultIdx_rows d h1 h2 h3 h4 idx e c i c).mpr ⟨(Finset.mem_filter.mp he).2, rfl⟩⟩
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl
  · intro e _; rfl
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl

/-- a row gather reads the operand at the row its index word names (when that word is in range) -/
theorem gather_rows_apply {α : Type} {M C E w : ℕ} (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, C])
    (x : (⟨2, ![M, C]⟩ : Shape).Idx → α) (idx : IVec ⟨2, ![E, 1]⟩ w) (e : Fin E) (c : Fin C) (i : Fin M)
    (hi : (idx (ix2 e (0 : Fin 1))).toInt = (i.val : ℤ)) :
    Host.gather d x idx (ix2 e c) = x (ix2 i c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    -- the row axis: collapsed, so no offset; the start is the index word, clamped into [0, M - 1]
    show GatherDims.start _ (ix2 e c) idx 0 + GatherDims.batchCoord _ (ix2 e c) 0 + GatherDims.offCoord _ (ix2 e c) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi, hi, Int.toNat_natCast]
    show min i.val (M - 1) = i.val
    exact min_eq_left (by have := i.isLt; omega)
  | ⟨1, _⟩ =>
    -- the column axis: not in the start index map, so the start is 0; the offset coordinate is the result's column
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The accumulating fold over a list of update positions, every update being 1: at each operand index, the start
    value plus one for every position of the list whose update lands there. -/
theorem foldl_addi_one {s si u : Shape} (d : ScatterDims s si u) {w v : ℕ} (idx : IVec si w) (upd : u.Idx → BitVec v)
    (hupd : ∀ j, upd j = 1) (L : List (Fin u.numel)) (r0 : s.Idx → BitVec v) (t : s.Idx) :
    L.foldl (fun r n =>
        match d.resultIdx? (u.rowMajor.symm n) idx with
        | some i => fun i' => if i' = i then IntOp.addi (r i) (upd (u.rowMajor.symm n)) else r i'
        | none => r) r0 t
      = r0 t + BitVec.ofNat v (L.countP (fun n => d.resultIdx? (u.rowMajor.symm n) idx = some t)) := by
  induction L generalizing r0 with
  | nil => simp
  | cons n L ih =>
    rw [List.foldl_cons, ih, List.countP_cons]
    cases hres : d.resultIdx? (u.rowMajor.symm n) idx with
    | none => simp
    | some i =>
      by_cases hi : t = i
      · subst hi
        simp [IntOp.addi, hupd, BitVec.ofNat_add]
        ac_rfl
      · have hi' : ¬ (i = t) := fun h => hi h.symm
        simp [hi, hi']

/-- the integer scatter of ones at (row, column) pairs into a zero matrix counts the pairs -/
theorem scatter_points_count {M E : ℕ} (hE : E < 2 ^ 31) (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ 32) (r k : Fin M) :
    (Host.scatter d IntOp.addi (fun _ => (0 : BitVec 32)) idx (fun _ => (1 : BitVec 32)) (ix2 r k)).toInt
      = ((Finset.univ.filter (fun e : Fin E =>
          (idx (ix2 e (0 : Fin 2))).toInt = (r.val : ℤ) ∧ (idx (ix2 e (1 : Fin 2))).toInt = (k.val : ℤ))).card : ℤ) := by
  unfold Host.scatter
  refine (congrArg BitVec.toInt (foldl_addi_one d idx (fun _ => (1 : BitVec 32)) (fun _ => rfl) _ (fun _ => (0 : BitVec 32)) (ix2 r k))).trans ?_
  have h0 : ∀ y : BitVec 32, (0 : BitVec 32) + y = y := fun y => BitVec.zero_add y
  rw [h0]
  -- the positions whose update lands on (r, k), counted along the list of all positions, are as many as the
  -- updates whose index pair is (r, k): a position corresponds to its update's one coordinate
  have hcount : (List.finRange (⟨1, ![E]⟩ : Shape).numel).countP
        (fun n => d.resultIdx? ((⟨1, ![E]⟩ : Shape).rowMajor.symm n) idx = some (ix2 r k))
      = (Finset.univ.filter (fun e : Fin E =>
          (idx (ix2 e (0 : Fin 2))).toInt = (r.val : ℤ) ∧ (idx (ix2 e (1 : Fin 2))).toInt = (k.val : ℤ))).card := by
    rw [← List.Nodup.card_eq_countP (List.nodup_finRange _), List.toFinset_finRange]
    refine Finset.card_nbij' (fun n => (((⟨1, ![E]⟩ : Shape).rowMajor.symm n) 0 : Fin E))
      (fun e => (⟨1, ![E]⟩ : Shape).rowMajor (ix1 e)) ?_ ?_ ?_ ?_
    · intro n hn
      obtain ⟨a, ha⟩ : ∃ a : Fin E, (⟨1, ![E]⟩ : Shape).rowMajor.symm n = ix1 a := ⟨_, eq_ix1 _⟩
      have hn' := (Finset.mem_filter.mp hn).2
      rw [ha] at hn'
      show (((⟨1, ![E]⟩ : Shape).rowMajor.symm n) 0 : Fin E) ∈ _
      rw [ha]
      exact Finset.mem_filter.mpr ⟨Finset.mem_univ _, (resultIdx_points d h1 h2 h3 h4 idx a r k).mp hn'⟩
    · intro e he
      refine Finset.mem_filter.mpr ⟨Finset.mem_univ _, ?_⟩
      show d.resultIdx? ((⟨1, ![E]⟩ : Shape).rowMajor.symm ((⟨1, ![E]⟩ : Shape).rowMajor (ix1 e))) idx = _
      rw [Equiv.symm_apply_apply]
      exact (resultIdx_points d h1 h2 h3 h4 idx e r k).mpr (Finset.mem_filter.mp he).2
    · intro n _
      obtain ⟨a, ha⟩ : ∃ a : Fin E, (⟨1, ![E]⟩ : Shape).rowMajor.symm n = ix1 a := ⟨_, eq_ix1 _⟩
      show (⟨1, ![E]⟩ : Shape).rowMajor (ix1 (((⟨1, ![E]⟩ : Shape).rowMajor.symm n) 0 : Fin E)) = n
      rw [ha]
      show (⟨1, ![E]⟩ : Shape).rowMajor (ix1 a) = n
      rw [← ha, Equiv.apply_symm_apply]
    · intro e _
      show (((⟨1, ![E]⟩ : Shape).rowMajor.symm ((⟨1, ![E]⟩ : Shape).rowMajor (ix1 e))) 0 : Fin E) = e
      rw [Equiv.symm_apply_apply]
      rfl
  rw [hcount]
  -- at most E < 2 ^ 31 of them, so the 32-bit word of the count, read signed, is the count
  have hle : (Finset.univ.filter (fun e : Fin E =>
      (idx (ix2 e (0 : Fin 2))).toInt = (r.val : ℤ) ∧ (idx (ix2 e (1 : Fin 2))).toInt = (k.val : ℤ))).card ≤ E :=
    (Finset.card_filter_le _ _).trans (by simp)
  generalize (Finset.univ.filter (fun e : Fin E =>
      (idx (ix2 e (0 : Fin 2))).toInt = (r.val : ℤ) ∧ (idx (ix2 e (1 : Fin 2))).toInt = (k.val : ℤ))).card = c at hle ⊢
  have hc : (BitVec.ofNat 32 c).toNat = c := by
    rw [BitVec.toNat_ofNat]; exact Nat.mod_eq_of_lt (by omega)
  rw [BitVec.toInt_eq_toNat_of_lt (by rw [hc]; omega), hc]

end Cert.LibIndex

end
-- ==== Proof.RMat.lean ====
/-
  The reference's local offsets and its 22 local homogeneous matrices, read at an index.

  The skeleton is the template plus the shape directions contracted with the token's coefficients; the parent
  table (no entry negative, so its wrap-around is the identity) gathers each joint's parent point; the difference
  is the offset, and the root's slot is overwritten by its own point moved by the translation. The offset is then
  set as a fourth column beside the rotation and the row 0 0 0 1 below.
-/
import proofs.«127648_j26603027432101_1_alg».proof.Proof.RRot
import proofs.«127648_j26603027432101_1_alg».proof.Proof.LibIndex
import Idealize.ShloMosaic.Lib.Pipeline.Value
import Idealize.ShloMosaic.Lib.IdealHost
import Idealize.ShloMosaic.Lib.ValueLayout
import Idealize.ShloMosaic.PureOps.Ideal.Laws
import Idealize.ShloMosaic.Lib.StableHlo.Predicate

noncomputable section

namespace Cert.FK.R

open Cert.ReferenceIdeal Cert.ReferenceIdeal.Gen Idealize.ShloMosaic Idealize.ShloMosaic.TcCoe Idealize.SL.Sem
open Idealize.ShloMosaic.ValueIdx Cert.FK

/-! ## The skeleton -/

/-- The template under its two leading unit axes. -/
theorem rs_v65_apply (A : RArgs Ideal) (x y : Fin 1) (j : Fin 22) (c : Fin 3) :
    rs_v65 A (ix4 x y j c) = A.a4 (ix2 j c) := by
  unfold rs_v65
  exact broadcastInDim_apply _ _ _ _ _ (fun a => match a with | ⟨0, _⟩ => rfl | ⟨1, _⟩ => rfl)

/-- The template repeated for every token. -/
theorem rs_v67_apply (A : RArgs Ideal) (b : Fin 64) (l : Fin 2048) (j : Fin 22) (c : Fin 3) :
    rs_v67 A (ix4 b l j c) = A.a4 (ix2 j c) := by
  unfold rs_v67
  refine (broadcastInDim_apply _ _ _ _ (ix4 (0 : Fin 1) (0 : Fin 1) j c)
    (fun a => match a with | ⟨0, _⟩ => rfl | ⟨1, _⟩ => rfl | ⟨2, _⟩ => rfl | ⟨3, _⟩ => rfl)).trans ?_
  exact rs_v65_apply A 0 0 j c

/-- The shape directions contracted with a token's ten coefficients: the contraction index is its one coordinate. -/
theorem rs_v66_apply (A : RArgs Ideal) (b : Fin 64) (l : Fin 2048) (j : Fin 22) (c : Fin 3) :
    rs_v66 A (ix4 b l j c) = ∑ k : Fin 10, A.a1 (ix3 b l k) * A.a5 (ix3 j c k) := by
  unfold rs_v66
  show FloatOps.dotGeneral (F := Ideal) dot_S64x2048x10_S22x3x10_S64x2048x22x3_2_2_01_01_n_n none .single
      (A.a1 : FVec Ideal S64x2048x10 .f32) (A.a5 : FVec Ideal S22x3x10 .f32) (ix4 b l j c) = _
  rw [Ideal.dotGeneral_apply,
    ← Equiv.sum_comp (contrEquiv1 dot_S64x2048x10_S22x3x10_S64x2048x22x3_2_2_01_01_n_n 10 rfl rfl).symm]
  refine Finset.sum_congr rfl fun k _ => ?_
  have ck := contrEquiv1_symm_val dot_S64x2048x10_S22x3x10_S64x2048x22x3_2_2_01_01_n_n 10 rfl rfl k
  have hl : dot_S64x2048x10_S22x3x10_S64x2048x22x3_2_2_01_01_n_n.lhsIdx (ix4 b l j c)
      ((contrEquiv1 dot_S64x2048x10_S22x3x10_S64x2048x22x3_2_2_01_01_n_n 10 rfl rfl).symm k) = ix3 b l k := by
    funext ax; apply Fin.ext
    match ax with
    | ⟨0, _⟩ => simp [DotDims.lhsIdx, dot_S64x2048x10_S22x3x10_S64x2048x22x3_2_2_01_01_n_n]; rfl
    | ⟨1, _⟩ => simp [DotDims.lhsIdx, dot_S64x2048x10_S22x3x10_S64x2048x22x3_2_2_01_01_n_n]; rfl
    | ⟨2, _⟩ => simp [DotDims.lhsIdx, dot_S64x2048x10_S22x3x10_S64x2048x22x3_2_2_01_01_n_n]; exact ck
  have hr : dot_S64x2048x10_S22x3x10_S64x2048x22x3_2_2_01_01_n_n.rhsIdx (ix4 b l j c)
      ((contrEquiv1 dot_S64x2048x10_S22x3x10_S64x2048x22x3_2_2_01_01_n_n 10 rfl rfl).symm k) = ix3 j c k := by
    funext ax; apply Fin.ext
    match ax with
    | ⟨0, _⟩ => simp [DotDims.rhsIdx, dot_S64x2048x10_S22x3x10_S64x2048x22x3_2_2_01_01_n_n]; rfl
    | ⟨1, _⟩ => simp [DotDims.rhsIdx, dot_S64x2048x10_S22x3x10_S64x2048x22x3_2_2_01_01_n_n]; rfl
    | ⟨2, _⟩ => simp [DotDims.rhsIdx, dot_S64x2048x10_S22x3x10_S64x2048x22x3_2_2_01_01_n_n]; exact ck
  rw [hl, hr]

/-- The skeleton: joint j's point, coordinate c, of token (b, l). -/
theorem rs_v68_apply (A : RArgs Ideal) (b : Fin 64) (l : Fin 2048) (j : Fin 22) (c : Fin 3) :
    rs_v68 A (ix4 b l j c) = (tokR A b l).sk j c := by
  unfold rs_v68
  rw [addf_apply, rs_v67_apply, rs_v66_apply]
  rfl

/-! ## The parent table -/

/-- The parent table's word at joint j. -/
theorem rs_c_apply (A : RArgs Ideal) (j : Fin 22) : rs_c A (ix1 j) = lit0 j := by
  unfold rs_c
  exact congrArg lit0 (Fin.ext (Shape.rowMajor_val_one _))

/-- No entry of the table is negative, so the wrap-around leaves it as it is: the word at joint j is its parent. -/
theorem rs_v73_apply (A : RArgs Ideal) (j : Fin 22) : rs_v73 A (ix1 j) = BitVec.ofNat 32 (par j).val := by
  unfold rs_v73 rs_v70 rs_v72 rs_v69 rs_v71 rs_c_3 rs_c_4
  show Scalar.select (IntOp.cmpi .slt (rs_c A (ix1 j)) 0#32) (IntOp.addi (rs_c A (ix1 j)) 22#32) (rs_c A (ix1 j)) = _
  rw [rs_c_apply]
  fin_cases j <;> decide

/-- The table as a column. -/
theorem rs_v74_apply (A : RArgs Ideal) (j : Fin 22) : rs_v74 A (ix2 j (0 : Fin 1)) = BitVec.ofNat 32 (par j).val := by
  unfold rs_v74
  refine (broadcastInDim_apply _ _ _ _ (ix1 j) (fun a => match a with | ⟨0, _⟩ => rfl)).trans ?_
  exact rs_v73_apply A j

/-! ## A gather along the third axis, and a slab written at one position of it -/

namespace Index

/-- A gather along the third axis of a rank-4 array by a column of start indices: entry (b, l, j, c) is the operand at
    (b, l, p, c), p the row the j-th index word names (a word in range, so the clamp leaves it). -/
theorem gather_axis2_apply {α : Type} {N0 N1 N2 N3 M w : ℕ}
    (d : GatherDims ⟨4, ![N0, N1, N2, N3]⟩ ⟨2, ![M, 1]⟩ ⟨4, ![N0, N1, M, N3]⟩)
    (h1 : d.offsetDims = [0, 1, 3]) (h2 : d.collapsedSliceDims = [2]) (h3 : d.operandBatchingDims = [])
    (h4 : d.startIndicesBatchingDims = []) (h5 : d.startIndexMap = [2]) (h6 : d.indexVectorDim = 1)
    (h7 : d.sliceSizes = ![N0, N1, 1, N3])
    (x : (⟨4, ![N0, N1, N2, N3]⟩ : Shape).Idx → α) (idx : IVec ⟨2, ![M, 1]⟩ w)
    (b : Fin N0) (l : Fin N1) (j : Fin M) (c : Fin N3) (p : Fin N2)
    (hp : (idx (ix2 j (0 : Fin 1))).toInt = (p.val : ℤ)) :
    Host.gather d x idx (ix4 b l j c) = x (ix4 b l p c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    -- a kept axis the start index does not name: the start is 0, the offset coordinate the result's own
    show GatherDims.start _ (ix4 b l j c) idx 0 + GatherDims.batchCoord _ (ix4 b l j c) 0
      + GatherDims.offCoord _ (ix4 b l j c) 0 = b.val
    rw [GatherDims.batchCoord_eq_zero _ _ _ List.not_mem_nil]
    unfold GatherDims.start
    rw [dif_neg (show (0 : Fin 4) ∉ ([2] : List (Fin 4)) by decide)]
    simp only [Nat.add_zero, Nat.zero_add]
    unfold GatherDims.offCoord
    rw [dif_pos ((GatherDims.mem_sKept _ _).mpr ⟨show (0 : Fin 4) ∉ ([2] : List (Fin 4)) by decide, List.not_mem_nil⟩)]
    rfl
  | ⟨1, _⟩ =>
    show GatherDims.start _ (ix4 b l j c) idx 1 + GatherDims.batchCoord _ (ix4 b l j c) 1
      + GatherDims.offCoord _ (ix4 b l j c) 1 = l.val
    rw [GatherDims.batchCoord_eq_zero _ _ _ List.not_mem_nil]
    unfold GatherDims.start
    rw [dif_neg (show (1 : Fin 4) ∉ ([2] : List (Fin 4)) by decide)]
    simp only [Nat.add_zero, Nat.zero_add]
    unfold GatherDims.offCoord
    rw [dif_pos ((GatherDims.mem_sKept _ _).mpr ⟨show (1 : Fin 4) ∉ ([2] : List (Fin 4)) by decide, List.not_mem_nil⟩)]
    rfl
  | ⟨2, _⟩ =>
    -- the collapsed axis: no offset; the start is the j-th index word, clamped into [0, N2 - 1]
    show GatherDims.start _ (ix4 b l j c) idx 2 + GatherDims.batchCoord _ (ix4 b l j c) 2
      + GatherDims.offCoord _ (ix4 b l j c) 2 = p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[0, 1, 3], [2], [], [], [2], 1, ![N0, N1, 1, N3], wf⟩ :
          GatherDims ⟨4, ![N0, N1, N2, N3]⟩ ⟨2, ![M, 1]⟩ ⟨4, ![N0, N1, M, N3]⟩)
        (ix4 b l j c) ⟨List.idxOf (2 : Fin 4) [2], List.idxOf_lt_length_iff.2 (List.mem_singleton.mpr rfl)⟩
        = ix2 j (0 : Fin 1) := by
      funext e; refine Fin.ext ?_
      match e with
      | ⟨0, _⟩ => rfl
      | ⟨1, _⟩ => rfl
    rw [hsi, hp, Int.toNat_natCast]
    show min p.val (N2 - 1) = p.val
    exact min_eq_left (by have := p.isLt; omega)
  | ⟨3, _⟩ =>
    show GatherDims.start _ (ix4 b l j c) idx 3 + GatherDims.batchCoord _ (ix4 b l j c) 3
      + GatherDims.offCoord _ (ix4 b l j c) 3 = c.val
    rw [GatherDims.batchCoord_eq_zero _ _ _ List.not_mem_nil]
    unfold GatherDims.start
    rw [dif_neg (show (3 : Fin 4) ∉ ([2] : List (Fin 4)) by decide)]
    simp only [Nat.add_zero, Nat.zero_add]
    unfold GatherDims.offCoord
    rw [dif_pos ((GatherDims.mem_sKept _ _).mpr ⟨show (3 : Fin 4) ∉ ([2] : List (Fin 4)) by decide, List.not_mem_nil⟩)]
    rfl

/-- One step of a replacing scatter: the update at row-major position n overwrites the entry it lands on, if it lands. -/
def setStep {s si u : Shape} {α : Type} {w : ℕ} (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

theorem setStep_hit {s si u : Shape} {α : Type} {w : ℕ} (d : ScatterDims s si u) (idx : IVec si w) (upd : u.Idx → α)
    (r : s.Idx → α) (n : Fin u.numel) (t : s.Idx) (hres : d.resultIdx? (u.rowMajor.symm n) idx = some t) :
    setStep d idx upd r n t = upd (u.rowMajor.symm n) := by
  unfold setStep
  rw [hres]
  exact if_pos rfl

theorem setStep_miss {s si u : Shape} {α : Type} {w : ℕ} (d : ScatterDims s si u) (idx : IVec si w) (upd : u.Idx → α)
    (r : s.Idx → α) (n : Fin u.numel) (t : s.Idx) (hres : d.resultIdx? (u.rowMajor.symm n) idx ≠ some t) :
    setStep d idx upd r n t = r t := by
  unfold setStep
  cases h : d.resultIdx? (u.rowMajor.symm n) idx with
  | none => rfl
  | some i =>
    have hne : t ≠ i := fun e => hres (by rw [h, e])
    exact if_neg hne

/-- The replacing scatter folded over a list of update positions, read at t: if every update of the list that lands on t
    carries the value v, and either one of them does land there or the start array already holds v there, the result
    holds v at t. -/
theorem foldl_setStep {s si u : Shape} {α : Type} {w : ℕ} (d : ScatterDims s si u) (idx : IVec si w) (upd : u.Idx → α)
    (t : s.Idx) (v : α) (L : List (Fin u.numel)) :
    ∀ r0 : s.Idx → α,
      (∀ n ∈ L, d.resultIdx? (u.rowMajor.symm n) idx = some t → upd (u.rowMajor.symm n) = v) →
      (r0 t = v ∨ ∃ n ∈ L, d.resultIdx? (u.rowMajor.symm n) idx = some t) →
      L.foldl (setStep d idx upd) r0 t = v := by
  induction L with
  | nil =>
    intro r0 _ h0
    rcases h0 with h | ⟨n, hn, _⟩
    · exact h
    · exact absurd hn (List.not_mem_nil)
  | cons n L ih =>
    intro r0 hv h0
    rw [List.foldl_cons]
    refine ih _ (fun m hm => hv m (List.mem_cons_of_mem _ hm)) ?_
    by_cases hres : d.resultIdx? (u.rowMajor.symm n) idx = some t
    · left
      rw [setStep_hit d idx upd r0 n t hres]
      exact hv n List.mem_cons_self hres
    · rcases h0 with h | ⟨m, hm, hmt⟩
      · left
        rw [setStep_miss d idx upd r0 n t hres]
        exact h
      · right
        rcases List.mem_cons.mp hm with rfl | hm'
        · exact absurd hmt hres
        · exact ⟨m, hm', hmt⟩

/-- A slab written at one position of the third axis of a rank-4 array: the update at (b', l', c') lands on (b, l, j, c)
    exactly when b' = b, l' = l, c' = c and the one index word, read signed, is j. -/
theorem resultIdx_slab {N0 N1 N2 N3 w : ℕ}
    (d : ScatterDims ⟨4, ![N0, N1, N2, N3]⟩ ⟨1, ![1]⟩ ⟨3, ![N0, N1, N3]⟩)
    (h1 : d.updateWindowDims = [0, 1, 2]) (h2 : d.insertedWindowDims = [2]) (h3 : d.scatterDimsToOperandDims = [2])
    (h4 : d.indexVectorDim = 0)
    (idx : IVec ⟨1, ![1]⟩ w) (b' : Fin N0) (l' : Fin N1) (c' : Fin N3) (b : Fin N0) (l : Fin N1) (j : Fin N2) (c : Fin N3) :
    d.resultIdx? (ix3 b' l' c') idx = some (ix4 b l j c)
      ↔ b' = b ∧ l' = l ∧ c' = c ∧ (idx (ix1 (0 : Fin 1))).toInt = (j.val : ℤ) := by
  obtain ⟨uwd, iwd, sd, ivd, wf⟩ := d
  dsimp only at h1 h2 h3 h4
  subst h1 h2 h3 h4
  rw [Cert.LibIndex.resultIdx?_eq_some_iff]
  -- the written axis: inserted, so no window coordinate; the start is the index word
  have hs2 : ScatterDims.start (⟨[0, 1, 2], [2], [2], 0, wf⟩ :
      ScatterDims ⟨4, ![N0, N1, N2, N3]⟩ ⟨1, ![1]⟩ ⟨3, ![N0, N1, N3]⟩) (ix3 b' l' c') idx 2
      = (idx (ix1 (0 : Fin 1))).toInt := by
    unfold ScatterDims.start
    rw [dif_pos (List.mem_singleton.mpr rfl)]
    congr 2
    funext e; refine Fin.ext ?_
    match e with
    | ⟨0, _⟩ => rfl
  have hw2 : ScatterDims.window (⟨[0, 1, 2], [2], [2], 0, wf⟩ :
      ScatterDims ⟨4, ![N0, N1, N2, N3]⟩ ⟨1, ![1]⟩ ⟨3, ![N0, N1, N3]⟩) (ix3 b' l' c') 2 = 0 :=
    Cert.LibIndex.window_of_inserted _ _ _ (List.mem_singleton.mpr rfl)
  -- the other axes: the index does not name them, so the start is 0; the window coordinate is the update's own
  have hs0 : ScatterDims.start (⟨[0, 1, 2], [2], [2], 0, wf⟩ :
      ScatterDims ⟨4, ![N0, N1, N2, N3]⟩ ⟨1, ![1]⟩ ⟨3, ![N0, N1, N3]⟩) (ix3 b' l' c') idx 0 = 0 := by
    unfold ScatterDims.start
    rw [dif_neg (show (0 : Fin 4) ∉ ([2] : List (Fin 4)) by decide)]
  have hs1 : ScatterDims.start (⟨[0, 1, 2], [2], [2], 0, wf⟩ :
      ScatterDims ⟨4, ![N0, N1, N2, N3]⟩ ⟨1, ![1]⟩ ⟨3, ![N0, N1, N3]⟩) (ix3 b' l' c') idx 1 = 0 := by
    unfold ScatterDims.start
    rw [dif_neg (show (1 : Fin 4) ∉ ([2] : List (Fin 4)) by decide)]
  have hs3 : ScatterDims.start (⟨[0, 1, 2], [2], [2], 0, wf⟩ :
      ScatterDims ⟨4, ![N0, N1, N2, N3]⟩ ⟨1, ![1]⟩ ⟨3, ![N0, N1, N3]⟩) (ix3 b' l' c') idx 3 = 0 := by
    unfold ScatterDims.start
    rw [dif_neg (show (3 : Fin 4) ∉ ([2] : List (Fin 4)) by decide)]
  have hw0 : ScatterDims.window (⟨[0, 1, 2], [2], [2], 0, wf⟩ :
      ScatterDims ⟨4, ![N0, N1, N2, N3]⟩ ⟨1, ![1]⟩ ⟨3, ![N0, N1, N3]⟩) (ix3 b' l' c') 0 = b'.val := by
    unfold ScatterDims.window
    rw [dif_pos ((Cert.LibIndex.mem_sKept _ _).mpr (show (0 : Fin 4) ∉ ([2] : List (Fin 4)) by decide))]
    rfl
  have hw1 : ScatterDims.window (⟨[0, 1, 2], [2], [2], 0, wf⟩ :
      ScatterDims ⟨4, ![N0, N1, N2, N3]⟩ ⟨1, ![1]⟩ ⟨3, ![N0, N1, N3]⟩) (ix3 b' l' c') 1 = l'.val := by
    unfold ScatterDims.window
    rw [dif_pos ((Cert.LibIndex.mem_sKept _ _).mpr (show (1 : Fin 4) ∉ ([2] : List (Fin 4)) by decide))]
    rfl
  have hw3 : ScatterDims.window (⟨[0, 1, 2], [2], [2], 0, wf⟩ :
      ScatterDims ⟨4, ![N0, N1, N2, N3]⟩ ⟨1, ![1]⟩ ⟨3, ![N0, N1, N3]⟩) (ix3 b' l' c') 3 = c'.val := by
    unfold ScatterDims.window
    rw [dif_pos ((Cert.LibIndex.mem_sKept _ _).mpr (show (3 : Fin 4) ∉ ([2] : List (Fin 4)) by decide))]
    rfl
  constructor
  · intro h
    have e0 := h 0
    have e1 := h 1
    have e2 := h 2
    have e3 := h 3
    rw [hs0, hw0, zero_add] at e0
    rw [hs1, hw1, zero_add] at e1
    rw [hs2, hw2, Nat.cast_zero, add_zero] at e2
    rw [hs3, hw3, zero_add] at e3
    exact ⟨Fin.ext (Nat.cast_injective (R := ℤ) e0), Fin.ext (Nat.cast_injective (R := ℤ) e1),
      Fin.ext (Nat.cast_injective (R := ℤ) e3), e2⟩
  · rintro ⟨rfl, rfl, rfl, hj⟩ a
    match a with
    | ⟨0, _⟩ =>
      show ScatterDims.start _ (ix3 b' l' c') idx 0 + ((ScatterDims.window _ (ix3 b' l' c') 0 : ℕ) : ℤ) = (b'.val : ℤ)
      rw [hs0, hw0, zero_add]
    | ⟨1, _⟩ =>
      show ScatterDims.start _ (ix3 b' l' c') idx 1 + ((ScatterDims.window _ (ix3 b' l' c') 1 : ℕ) : ℤ) = (l'.val : ℤ)
      rw [hs1, hw1, zero_add]
    | ⟨2, _⟩ =>
      show ScatterDims.start _ (ix3 b' l' c') idx 2 + ((ScatterDims.window _ (ix3 b' l' c') 2 : ℕ) : ℤ) = (j.val : ℤ)
      rw [hs2, hw2, hj, Nat.cast_zero, add_zero]
    | ⟨3, _⟩ =>
      show ScatterDims.start _ (ix3 b' l' c') idx 3 + ((ScatterDims.window _ (ix3 b' l' c') 3 : ℕ) : ℤ) = (c'.val : ℤ)
      rw [hs3, hw3, zero_add]

/-- That scatter read at an index: the slab at the position p the index word names, the operand everywhere else. -/
theorem scatter_slab_apply {α : Type} {N0 N1 N2 N3 w : ℕ}
    (d : ScatterDims ⟨4, ![N0, N1, N2, N3]⟩ ⟨1, ![1]⟩ ⟨3, ![N0, N1, N3]⟩)
    (h1 : d.updateWindowDims = [0, 1, 2]) (h2 : d.insertedWindowDims = [2]) (h3 : d.scatterDimsToOperandDims = [2])
    (h4 : d.indexVectorDim = 0)
    (x : (⟨4, ![N0, N1, N2, N3]⟩ : Shape).Idx → α) (idx : IVec ⟨1, ![1]⟩ w) (upd : (⟨3, ![N0, N1, N3]⟩ : Shape).Idx → α)
    (p : Fin N2) (hp : (idx (ix1 (0 : Fin 1))).toInt = (p.val : ℤ))
    (b : Fin N0) (l : Fin N1) (j : Fin N2) (c : Fin N3) :
    Host.scatter d (fun _ v => v) x idx upd (ix4 b l j c) = if j = p then upd (ix3 b l c) else x (ix4 b l j c) := by
  show (List.finRange (⟨3, ![N0, N1, N3]⟩ : Shape).numel).foldl (setStep d idx upd) x (ix4 b l j c) = _
  by_cases hj : j = p
  · rw [if_pos hj]
    refine foldl_setStep d idx upd _ _ _ x (fun n _ hn => ?_) (Or.inr ⟨(⟨3, ![N0, N1, N3]⟩ : Shape).rowMajor (ix3 b l c),
      List.mem_finRange _, ?_⟩)
    · obtain ⟨b', l', c', e⟩ : ∃ (b' : Fin N0) (l' : Fin N1) (c' : Fin N3),
          (⟨3, ![N0, N1, N3]⟩ : Shape).rowMajor.symm n = ix3 b' l' c' := ⟨_, _, _, eq_ix3 _⟩
      rw [e] at hn ⊢
      obtain ⟨rfl, rfl, rfl, _⟩ := (resultIdx_slab d h1 h2 h3 h4 idx b' l' c' b l j c).mp hn
      rfl
    · rw [Equiv.symm_apply_apply]
      exact (resultIdx_slab d h1 h2 h3 h4 idx b l c b l j c).mpr ⟨rfl, rfl, rfl, by rw [hp, hj]⟩
  · rw [if_neg hj]
    refine foldl_setStep d idx upd _ _ _ x (fun n _ hn => ?_) (Or.inl rfl)
    obtain ⟨b', l', c', e⟩ : ∃ (b' : Fin N0) (l' : Fin N1) (c' : Fin N3),
        (⟨3, ![N0, N1, N3]⟩ : Shape).rowMajor.symm n = ix3 b' l' c' := ⟨_, _, _, eq_ix3 _⟩
    rw [e] at hn
    have hh := ((resultIdx_slab d h1 h2 h3 h4 idx b' l' c' b l j c).mp hn).2.2.2
    rw [hp] at hh
    exact absurd (Fin.ext (Nat.cast_injective (R := ℤ) hh.symm)) hj

end Index

open Index

/-! ## The local offsets -/

/-- The skeleton gathered at the parents: joint j's entry is its parent's point. -/
theorem rs_v75_apply (A : RArgs Ideal) (b : Fin 64) (l : Fin 2048) (j : Fin 22) (c : Fin 3) :
    rs_v75 A (ix4 b l j c) = (tokR A b l).sk (par j) c := by
  unfold rs_v75
  refine (gather_axis2_apply gather_S64x2048x22x3_S22x1_S64x2048x22x3_013_2_n_n_2_1_64204813 rfl rfl rfl rfl rfl rfl rfl
    (rs_v68 A) (rs_v74 A) b l j c (par j) ?_).trans (rs_v68_apply A b l (par j) c)
  rw [rs_v74_apply]
  exact StableHlo.Predicate.toInt_ofNat_small _ (by have := (par j).isLt; omega)

/-- Every joint's point minus its parent's. -/
theorem rs_v76_apply (A : RArgs Ideal) (b : Fin 64) (l : Fin 2048) (j : Fin 22) (c : Fin 3) :
    rs_v76 A (ix4 b l j c) = off (tokR A b l) j (par j) c := by
  unfold rs_v76
  rw [subf_apply, rs_v68_apply, rs_v75_apply]
  rfl

/-- The root's point, cut out of the skeleton. -/
theorem rs_v77_apply (A : RArgs Ideal) (b : Fin 64) (l : Fin 2048) (z : Fin 1) (c : Fin 3) :
    rs_v77 A (ix4 b l z c) = (tokR A b l).sk 0 c := by
  unfold rs_v77
  refine (extractStridedSlice_apply _ _ _ _ (ix4 b l (0 : Fin 22) c) (fun a => match a with
    | ⟨0, _⟩ => by show b.val = 0 + b.val; omega
    | ⟨1, _⟩ => by show l.val = 0 + l.val; omega
    | ⟨2, _⟩ => by have := z.isLt; show 0 = 0 + z.val; omega
    | ⟨3, _⟩ => by show c.val = 0 + c.val; omega)).trans (rs_v68_apply A b l 0 c)

theorem rs_v78_apply (A : RArgs Ideal) (b : Fin 64) (l : Fin 2048) (c : Fin 3) :
    rs_v78 A (ix3 b l c) = (tokR A b l).sk 0 c := by
  unfold rs_v78
  refine (shapeCast_apply _ _ _ (ix4 b l (0 : Fin 1) c) ?_).trans (rs_v77_apply A b l 0 c)
  rw [Shape.rowMajor_val_four, Shape.rowMajor_val_three]
  show ((b.val * 2048 + l.val) * 1 + 0) * 3 + c.val = (b.val * 2048 + l.val) * 3 + c.val
  omega

/-- The root's own local offset: its point moved by the token's translation. -/
theorem rs_v79_apply (A : RArgs Ideal) (b : Fin 64) (l : Fin 2048) (c : Fin 3) :
    rs_v79 A (ix3 b l c) = gT0 (tokR A b l) c := by
  unfold rs_v79
  rw [addf_apply, rs_v78_apply]
  rfl

/-- The one index word of the write: position 0. -/
theorem rs_v80_apply (A : RArgs Ideal) : rs_v80 A (ix1 (0 : Fin 1)) = 0#32 := by
  unfold rs_v80 rs_c_5
  rfl

/-- Coordinate c of joint j's local offset at token (b, l). -/
theorem rs_v81_apply (A : RArgs Ideal) (b : Fin 64) (l : Fin 2048) (j : Fin 22) (c : Fin 3) :
    rs_v81 A (ix4 b l j c) = lofs (tokR A b l) j c := by
  unfold rs_v81
  refine (scatter_slab_apply scatter_S64x2048x22x3_S1_S64x2048x3_012_2_2_0 rfl rfl rfl rfl (rs_v76 A) (rs_v80 A) (rs_v79 A)
    (0 : Fin 22) (by rw [rs_v80_apply]; rfl) b l j c).trans ?_
  unfold lofs
  by_cases hj : j = 0
  · rw [if_pos hj, if_pos hj]; exact rs_v79_apply A b l c
  · rw [if_neg hj, if_neg hj]; exact rs_v76_apply A b l j c

/-! ## The local homogeneous matrices -/
/-- The offset as a one-entry fifth axis. -/
theorem rs_v82_apply (A : RArgs Ideal) (b : Fin 64) (l : Fin 2048) (j : Fin 22) (a : Fin 3) (z : Fin 1) :
    rs_v82 A (ix5 b l j a z) = lofs (tokR A b l) j a := by
  unfold rs_v82
  refine (broadcastInDim_apply _ _ _ _ (ix4 b l j a)
    (fun e => match e with | ⟨0, _⟩ => rfl | ⟨1, _⟩ => rfl | ⟨2, _⟩ => rfl | ⟨3, _⟩ => rfl)).trans ?_
  exact rs_v81_apply A b l j a

/-- The first three columns of the top three rows: the rotation. -/
theorem rs_v83_left (A : RArgs Ideal) (b : Fin 64) (l : Fin 2048) (j : Fin 22) (a k : Fin 3) :
    rs_v83 A (ix5 b l j a (⟨k.val, by omega⟩ : Fin 4)) = (rod ((tokR A b l).aa j)).get a k := by
  unfold rs_v83
  refine (concatenate_pair_apply_left (t := S64x2048x22x3x4) (s₁ := S64x2048x22x3x3) (s₂ := S64x2048x22x3x1) 4
    (rs_v64 A) (rs_v82 A) concatenates_S64x2048x22x3x3_S64x2048x22x3x1_S64x2048x22x3x4_d4
    (ix5 b l j a (⟨k.val, by omega⟩ : Fin 4)) rfl (ix5 b l j a k)
    (fun e => match e with | ⟨0, _⟩ => rfl | ⟨1, _⟩ => rfl | ⟨2, _⟩ => rfl | ⟨3, _⟩ => rfl | ⟨4, _⟩ => rfl)).trans ?_
  exact rs_v64_apply A b l j a k

/-- The fourth column of the top three rows: the offset. -/
theorem rs_v83_right (A : RArgs Ideal) (b : Fin 64) (l : Fin 2048) (j : Fin 22) (a : Fin 3) :
    rs_v83 A (ix5 b l j a (3 : Fin 4)) = lofs (tokR A b l) j a := by
  unfold rs_v83
  refine (concatenate_pair_apply_right (t := S64x2048x22x3x4) (s₁ := S64x2048x22x3x3) (s₂ := S64x2048x22x3x1) 4
    (rs_v64 A) (rs_v82 A) concatenates_S64x2048x22x3x3_S64x2048x22x3x1_S64x2048x22x3x4_d4
    (ix5 b l j a (3 : Fin 4)) rfl rfl (ix5 b l j a (0 : Fin 1))
    (fun e he => match e, he with
      | ⟨0, _⟩, _ => rfl | ⟨1, _⟩, _ => rfl | ⟨2, _⟩, _ => rfl | ⟨3, _⟩, _ => rfl
      | ⟨4, _⟩, he => (he (Fin.ext rfl)).elim) rfl).trans ?_
  exact rs_v82_apply A b l j a 0

/-- The constant row: the words of 0, 0, 0, 1. -/
theorem rs_v84_apply (A : RArgs Ideal) (b : Fin 64) (l : Fin 2048) (j : Fin 22) (z : Fin 1) (k : Fin 4) :
    rs_v84 A (ix5 b l j z k) = Ideal.ofBits .f32 (lit1 k) := by
  unfold rs_v84
  refine (broadcastInDim_apply _ _ _ _ (ix1 k) (fun e => match e with | ⟨0, _⟩ => rfl)).trans ?_
  unfold rs_cst
  exact congrArg (fun q => Ideal.ofBits .f32 (lit1 q)) (Fin.ext (Shape.rowMajor_val_one _))

/-- The top three rows of the 4×4 matrix. -/
theorem rs_v85_top (A : RArgs Ideal) (b : Fin 64) (l : Fin 2048) (j : Fin 22) (a : Fin 3) (k : Fin 4) :
    rs_v85 A (ix5 b l j (⟨a.val, by omega⟩ : Fin 4) k) = rs_v83 A (ix5 b l j a k) := by
  unfold rs_v85
  exact concatenate_pair_apply_left (t := S64x2048x22x4x4) (s₁ := S64x2048x22x3x4) (s₂ := S64x2048x22x1x4) 3
    (rs_v83 A) (rs_v84 A) concatenates_S64x2048x22x3x4_S64x2048x22x1x4_S64x2048x22x4x4_d3
    (ix5 b l j (⟨a.val, by omega⟩ : Fin 4) k) rfl (ix5 b l j a k)
    (fun e => match e with | ⟨0, _⟩ => rfl | ⟨1, _⟩ => rfl | ⟨2, _⟩ => rfl | ⟨3, _⟩ => rfl | ⟨4, _⟩ => rfl)

/-- Its last row. -/
theorem rs_v85_bot (A : RArgs Ideal) (b : Fin 64) (l : Fin 2048) (j : Fin 22) (k : Fin 4) :
    rs_v85 A (ix5 b l j (3 : Fin 4) k) = Ideal.ofBits .f32 (lit1 k) := by
  unfold rs_v85
  refine (concatenate_pair_apply_right (t := S64x2048x22x4x4) (s₁ := S64x2048x22x3x4) (s₂ := S64x2048x22x1x4) 3
    (rs_v83 A) (rs_v84 A) concatenates_S64x2048x22x3x4_S64x2048x22x1x4_S64x2048x22x4x4_d3
    (ix5 b l j (3 : Fin 4) k) rfl rfl (ix5 b l j (0 : Fin 1) k)
    (fun e he => match e, he with
      | ⟨0, _⟩, _ => rfl | ⟨1, _⟩, _ => rfl | ⟨2, _⟩, _ => rfl
      | ⟨3, _⟩, he => (he (Fin.ext rfl)).elim
      | ⟨4, _⟩, _ => rfl) rfl).trans ?_
  exact rs_v84_apply A b l j 0 k

theorem rs_v85_rot (A : RArgs Ideal) (b : Fin 64) (l : Fin 2048) (j : Fin 22) (a k : Fin 3) :
    rs_v85 A (ix5 b l j (⟨a.val, by omega⟩ : Fin 4) (⟨k.val, by omega⟩ : Fin 4)) = (rod ((tokR A b l).aa j)).get a k :=
  (rs_v85_top A b l j a _).trans (rs_v83_left A b l j a k)

theorem rs_v85_col (A : RArgs Ideal) (b : Fin 64) (l : Fin 2048) (j : Fin 22) (a : Fin 3) :
    rs_v85 A (ix5 b l j (⟨a.val, by omega⟩ : Fin 4) (3 : Fin 4)) = lofs (tokR A b l) j a :=
  (rs_v85_top A b l j a _).trans (rs_v83_right A b l j a)

/-- Entry (a, k) of joint j's local homogeneous matrix at token (b, l). -/
theorem rs_v85_apply (A : RArgs Ideal) (b : Fin 64) (l : Fin 2048) (j : Fin 22) (a k : Fin 4) :
    rs_v85 A (ix5 b l j a k) = hom (rod ((tokR A b l).aa j)) (lofs (tokR A b l) j) a k := by
  fin_cases a <;> fin_cases k
  · exact rs_v85_rot A b l j 0 0
  · exact rs_v85_rot A b l j 0 1
  · exact rs_v85_rot A b l j 0 2
  · exact rs_v85_col A b l j 0
  · exact rs_v85_rot A b l j 1 0
  · exact rs_v85_rot A b l j 1 1
  · exact rs_v85_rot A b l j 1 2
  · exact rs_v85_col A b l j 1
  · exact rs_v85_rot A b l j 2 0
  · exact rs_v85_rot A b l j 2 1
  · exact rs_v85_rot A b l j 2 2
  · exact rs_v85_col A b l j 2
  · exact rs_v85_bot A b l j 0
  · exact rs_v85_bot A b l j 1
  · exact rs_v85_bot A b l j 2
  · exact rs_v85_bot A b l j 3

end Cert.FK.R

end
-- ==== Proof.RChain.lean ====
/-
  The reference's chain of 4×4 products along the tree and the positions read out of it.
-/
import proofs.«127648_j26603027432101_1_alg».proof.Proof.RMat
import Idealize.ShloMosaic.PureOps.Ideal.Laws
import Idealize.ShloMosaic.Lib.ValueLayout

noncomputable section

namespace Cert.FK.R

open Cert.ReferenceIdeal Cert.ReferenceIdeal.Gen Idealize.ShloMosaic Idealize.ShloMosaic.TcCoe Idealize.SL.Sem
open Idealize.ShloMosaic.ValueIdx Cert.FK

namespace Chain

/-! ## The product of two homogeneous matrices -/

/-- The word of `0.0` is the extended real zero. -/
theorem wZero_eq : wZero = 0 := Ideal.ofBits_zero_f32

/-- The word of `1.0` is the extended real one. -/
theorem wOne_eq : wOne = 1 := by
  simp [wOne, Ideal.ofBits, Ideal.ieee]
  norm_num
  rw [← EReal.coe_mul]
  norm_num

/-- Two homogeneous matrices multiply to the homogeneous matrix of the composed motion: rotations multiply, and the
    second offset is turned by the first rotation and then moved by the first offset. Only `x * 0 = 0`, `x * 1 = x`
    and `x + 0 = x` are used, all true on the extended reals. -/
theorem hom_mul (P Q : Rot) (u v : Fin 3 → EReal) (a k : Fin 4) :
    ∑ i : Fin 4, hom P u a i * hom Q v i k = hom (mm3 P Q) (fun c => mv3 P v c + u c) a k := by
  rw [Fin.sum_univ_four]
  fin_cases a <;> fin_cases k <;>
    simp [hom, mm3, mv3, wZero_eq, wOne_eq]

/-! ## One product of the chain read at an index

The record of the batched product: both operands are stacks of 4×4 matrices over the token axes `(b, l)`; the left
operand's last axis is contracted against the right operand's row axis. -/

theorem lhs_dot_0 (i : S64x2048x4x4.Idx) (q : dot_S64x2048x4x4_S64x2048x4x4_S64x2048x4x4_3_2_2_3_01_01.contr.Idx) :
    (dot_S64x2048x4x4_S64x2048x4x4_S64x2048x4x4_3_2_2_3_01_01.lhsIdx i q 0).val = (i 0).val := by
  unfold DotDims.lhsIdx
  rw [dif_pos (show (0 : Fin S64x2048x4x4.rank) ∈ dot_S64x2048x4x4_S64x2048x4x4_S64x2048x4x4_3_2_2_3_01_01.lhsBatch by decide)]
  rfl

theorem lhs_dot_1 (i : S64x2048x4x4.Idx) (q : dot_S64x2048x4x4_S64x2048x4x4_S64x2048x4x4_3_2_2_3_01_01.contr.Idx) :
    (dot_S64x2048x4x4_S64x2048x4x4_S64x2048x4x4_3_2_2_3_01_01.lhsIdx i q 1).val = (i 1).val := by
  unfold DotDims.lhsIdx
  rw [dif_pos (show (1 : Fin S64x2048x4x4.rank) ∈ dot_S64x2048x4x4_S64x2048x4x4_S64x2048x4x4_3_2_2_3_01_01.lhsBatch by decide)]
  rfl

theorem lhs_dot_2 (i : S64x2048x4x4.Idx) (q : dot_S64x2048x4x4_S64x2048x4x4_S64x2048x4x4_3_2_2_3_01_01.contr.Idx) :
    (dot_S64x2048x4x4_S64x2048x4x4_S64x2048x4x4_3_2_2_3_01_01.lhsIdx i q 2).val = (i 2).val := by
  unfold DotDims.lhsIdx
  rw [dif_neg (show ¬(2 : Fin S64x2048x4x4.rank) ∈ dot_S64x2048x4x4_S64x2048x4x4_S64x2048x4x4_3_2_2_3_01_01.lhsBatch by decide),
    dif_pos (show (2 : Fin S64x2048x4x4.rank) ∈ dot_S64x2048x4x4_S64x2048x4x4_S64x2048x4x4_3_2_2_3_01_01.lhsNonContracting by decide)]
  rfl

theorem lhs_dot_3 (i : S64x2048x4x4.Idx) (q : dot_S64x2048x4x4_S64x2048x4x4_S64x2048x4x4_3_2_2_3_01_01.contr.Idx) :
    (dot_S64x2048x4x4_S64x2048x4x4_S64x2048x4x4_3_2_2_3_01_01.lhsIdx i q 3).val = (q ⟨0, by decide⟩).val :=
  dot_S64x2048x4x4_S64x2048x4x4_S64x2048x4x4_3_2_2_3_01_01.lhsIdx_val_of_single rfl i q

theorem rhs_dot_0 (i : S64x2048x4x4.Idx) (q : dot_S64x2048x4x4_S64x2048x4x4_S64x2048x4x4_3_2_2_3_01_01.contr.Idx) :
    (dot_S64x2048x4x4_S64x2048x4x4_S64x2048x4x4_3_2_2_3_01_01.rhsIdx i q 0).val = (i 0).val := by
  unfold DotDims.rhsIdx
  rw [dif_pos (show (0 : Fin S64x2048x4x4.rank) ∈ dot_S64x2048x4x4_S64x2048x4x4_S64x2048x4x4_3_2_2_3_01_01.rhsBatch by decide)]
  rfl

theorem rhs_dot_1 (i : S64x2048x4x4.Idx) (q : dot_S64x2048x4x4_S64x2048x4x4_S64x2048x4x4_3_2_2_3_01_01.contr.Idx) :
    (dot_S64x2048x4x4_S64x2048x4x4_S64x2048x4x4_3_2_2_3_01_01.rhsIdx i q 1).val = (i 1).val := by
  unfold DotDims.rhsIdx
  rw [dif_pos (show (1 : Fin S64x2048x4x4.rank) ∈ dot_S64x2048x4x4_S64x2048x4x4_S64x2048x4x4_3_2_2_3_01_01.rhsBatch by decide)]
  rfl

theorem rhs_dot_2 (i : S64x2048x4x4.Idx) (q : dot_S64x2048x4x4_S64x2048x4x4_S64x2048x4x4_3_2_2_3_01_01.contr.Idx) :
    (dot_S64x2048x4x4_S64x2048x4x4_S64x2048x4x4_3_2_2_3_01_01.rhsIdx i q 2).val = (q ⟨0, by decide⟩).val :=
  dot_S64x2048x4x4_S64x2048x4x4_S64x2048x4x4_3_2_2_3_01_01.rhsIdx_val_of_single rfl i q

theorem rhs_dot_3 (i : S64x2048x4x4.Idx) (q : dot_S64x2048x4x4_S64x2048x4x4_S64x2048x4x4_3_2_2_3_01_01.contr.Idx) :
    (dot_S64x2048x4x4_S64x2048x4x4_S64x2048x4x4_3_2_2_3_01_01.rhsIdx i q 3).val = (i 3).val := by
  unfold DotDims.rhsIdx
  rw [dif_neg (show ¬(3 : Fin S64x2048x4x4.rank) ∈ dot_S64x2048x4x4_S64x2048x4x4_S64x2048x4x4_3_2_2_3_01_01.rhsBatch by decide),
    dif_pos (show (3 : Fin S64x2048x4x4.rank) ∈ dot_S64x2048x4x4_S64x2048x4x4_S64x2048x4x4_3_2_2_3_01_01.rhsNonContracting by decide)]
  rfl

/-- The batched product at token `(b, l)`, entry `(a, k)`: row `a` of the left matrix against column `k` of the right. -/
theorem dot_apply (X M : FVec Ideal S64x2048x4x4 .f32) (b : Fin 64) (l : Fin 2048) (a k : Fin 4) :
    Host.dotGeneral (F := Ideal) dot_S64x2048x4x4_S64x2048x4x4_S64x2048x4x4_3_2_2_3_01_01 none X M (ix4 b l a k)
      = ∑ i : Fin 4, X (ix4 b l a i) * M (ix4 b l i k) := by
  simp only [Host.dotGeneral]
  rw [Ideal.dotGeneral_apply,
    ← Equiv.sum_comp (contrEquiv1 dot_S64x2048x4x4_S64x2048x4x4_S64x2048x4x4_3_2_2_3_01_01 4 rfl rfl).symm]
  refine Finset.sum_congr rfl fun i _ => ?_
  have hk := contrEquiv1_symm_val dot_S64x2048x4x4_S64x2048x4x4_S64x2048x4x4_3_2_2_3_01_01 4 rfl rfl i
  have el : dot_S64x2048x4x4_S64x2048x4x4_S64x2048x4x4_3_2_2_3_01_01.lhsIdx (ix4 b l a k)
      ((contrEquiv1 dot_S64x2048x4x4_S64x2048x4x4_S64x2048x4x4_3_2_2_3_01_01 4 rfl rfl).symm i) = ix4 b l a i :=
    funext fun ax => Fin.ext (by
      match ax with
      | ⟨0, _⟩ => exact lhs_dot_0 _ _
      | ⟨1, _⟩ => exact lhs_dot_1 _ _
      | ⟨2, _⟩ => exact lhs_dot_2 _ _
      | ⟨3, _⟩ => exact (lhs_dot_3 _ _).trans hk)
  have er : dot_S64x2048x4x4_S64x2048x4x4_S64x2048x4x4_3_2_2_3_01_01.rhsIdx (ix4 b l a k)
      ((contrEquiv1 dot_S64x2048x4x4_S64x2048x4x4_S64x2048x4x4_3_2_2_3_01_01 4 rfl rfl).symm i) = ix4 b l i k :=
    funext fun ax => Fin.ext (by
      match ax with
      | ⟨0, _⟩ => exact rhs_dot_0 _ _
      | ⟨1, _⟩ => exact rhs_dot_1 _ _
      | ⟨2, _⟩ => exact (rhs_dot_2 _ _).trans hk
      | ⟨3, _⟩ => exact rhs_dot_3 _ _)
  rw [el, er]

/-- One step of the chain: if at token `(b, l)` the parent's product is the homogeneous matrix of `(P, u)` and the
    child's local matrix that of `(Q, v)`, their batched product there is the homogeneous matrix of the composed motion. -/
theorem dot_step (X M : FVec Ideal S64x2048x4x4 .f32) (b : Fin 64) (l : Fin 2048) (P Q : Rot) (u v : Fin 3 → EReal)
    (hX : ∀ a k : Fin 4, X (ix4 b l a k) = hom P u a k) (hM : ∀ a k : Fin 4, M (ix4 b l a k) = hom Q v a k)
    (a k : Fin 4) :
    Host.dotGeneral (F := Ideal) dot_S64x2048x4x4_S64x2048x4x4_S64x2048x4x4_3_2_2_3_01_01 none X M (ix4 b l a k)
      = hom (mm3 P Q) (fun c => mv3 P v c + u c) a k := by
  rw [dot_apply, ← hom_mul]
  exact Finset.sum_congr rfl fun i _ => by rw [hX, hM]

/-! ## The layout operations of the chain read at an index -/

/-- One matrix cut out of the stack of 22 along the joint axis at `o`, its unit axis dropped: entry `(a, k)` at
    token `(b, l)` is the stack's at joint `o`. -/
theorem slice_joint_apply {α : Type} (j : Fin 22) (X : S64x2048x22x4x4.Idx → α)
    (hs : S64x2048x22x4x4.Slices ![0, 0, j.val, 0, 0] S64x2048x1x4x4) (hc : S64x2048x1x4x4.ShapeCasts S64x2048x4x4)
    (b : Fin 64) (l : Fin 2048) (a k : Fin 4) :
    shapeCast S64x2048x4x4 (extractStridedSlice S64x2048x1x4x4 ![0, 0, j.val, 0, 0] X hs) hc (ix4 b l a k)
      = X (ix5 b l j a k) := by
  refine (shapeCast_apply _ hc (ix4 b l a k) (ix5 b l 0 a k) ?_).trans ?_
  · rw [Shape.rowMajor_val_five, Shape.rowMajor_val_four]
    show ((((b.val * 2048 + l.val) * 1 + 0) * 4 + a.val) * 4 + k.val) = ((b.val * 2048 + l.val) * 4 + a.val) * 4 + k.val
    omega
  · exact extractStridedSlice_apply _ _ hs (ix5 b l 0 a k) (ix5 b l j a k) (fun ax => by
      match ax with
      | ⟨0, _⟩ => exact (Nat.zero_add _).symm
      | ⟨1, _⟩ => exact (Nat.zero_add _).symm
      | ⟨2, _⟩ => exact (Nat.add_zero _).symm
      | ⟨3, _⟩ => exact (Nat.zero_add _).symm
      | ⟨4, _⟩ => exact (Nat.zero_add _).symm)

/-- A stack of matrices given a unit joint axis reads, at that axis' one position, the stack itself. -/
theorem bcast_unit_apply {α : Type} (X : S64x2048x4x4.Idx → α)
    (hb : S64x2048x4x4.BroadcastsInDim S64x2048x1x4x4 (![0, 1, 3, 4] : Fin 4 → Fin S64x2048x1x4x4.rank))
    (b : Fin 64) (l : Fin 2048) (z : Fin 1) (a k : Fin 4) :
    broadcastInDim S64x2048x1x4x4 ![0, 1, 3, 4] hb X (ix5 b l z a k) = X (ix4 b l a k) :=
  broadcastInDim_apply _ hb X (ix5 b l z a k) (ix4 b l a k) (fun ax => by
    match ax with
    | ⟨0, _⟩ => exact (if_neg (show ¬(64 : Nat) = 1 by decide)).symm
    | ⟨1, _⟩ => exact (if_neg (show ¬(2048 : Nat) = 1 by decide)).symm
    | ⟨2, _⟩ => exact (if_neg (show ¬(4 : Nat) = 1 by decide)).symm
    | ⟨3, _⟩ => exact (if_neg (show ¬(4 : Nat) = 1 by decide)).symm)

/-! ## The chain, joint by joint -/

/-- Joint `j`'s local matrix as the chain cuts it out of the stack of local matrices. -/
theorem loc_apply (A : RArgs Ideal) (b : Fin 64) (l : Fin 2048) (j : Fin 22)
    (hs : S64x2048x22x4x4.Slices ![0, 0, j.val, 0, 0] S64x2048x1x4x4) (hc : S64x2048x1x4x4.ShapeCasts S64x2048x4x4)
    (a k : Fin 4) :
    shapeCast S64x2048x4x4 (extractStridedSlice S64x2048x1x4x4 ![0, 0, j.val, 0, 0] (rs_v85 A) hs) hc (ix4 b l a k)
      = hom (rod ((tokR A b l).aa j)) (lofs (tokR A b l) j) a k :=
  (slice_joint_apply j (rs_v85 A) hs hc b l a k).trans (rs_v85_apply A b l j a k)

/-- A child's product from its parent's: if the parent's product at token `(b, l)` is the homogeneous matrix of the
    parent's rotation `P` and position `u`, the product with child `j`'s local matrix is that of the child's rotation
    and position, `p` being the parent the child's offset is measured from. -/
theorem chain_step (A : RArgs Ideal) (b : Fin 64) (l : Fin 2048) (X : FVec Ideal S64x2048x4x4 .f32) (P : Rot)
    (u : Fin 3 → EReal) (hX : ∀ a k : Fin 4, X (ix4 b l a k) = hom P u a k) (j p : Fin 22)
    (hp : lofs (tokR A b l) j = off (tokR A b l) j p)
    (hs : S64x2048x22x4x4.Slices ![0, 0, j.val, 0, 0] S64x2048x1x4x4) (hc : S64x2048x1x4x4.ShapeCasts S64x2048x4x4)
    (a k : Fin 4) :
    Host.dotGeneral (F := Ideal) dot_S64x2048x4x4_S64x2048x4x4_S64x2048x4x4_3_2_2_3_01_01 none X
        (shapeCast S64x2048x4x4 (extractStridedSlice S64x2048x1x4x4 ![0, 0, j.val, 0, 0] (rs_v85 A) hs) hc :
          FVec Ideal S64x2048x4x4 .f32) (ix4 b l a k)
      = hom (stepR P (tokR A b l) j) (stepT P u (tokR A b l) j p) a k :=
  dot_step X _ b l P (rod ((tokR A b l).aa j)) u (off (tokR A b l) j p) hX
    (fun a k => by rw [← hp]; exact loc_apply A b l j hs hc a k) a k

/-- The root's product is its local matrix. -/
theorem rs_v87_apply (A : RArgs Ideal) (b : Fin 64) (l : Fin 2048) (a k : Fin 4) :
    rs_v87 A (ix4 b l a k) = hom (gR0 (tokR A b l)) (gT0 (tokR A b l)) a k :=
  loc_apply A b l 0 slices_S64x2048x22x4x4_S64x2048x1x4x4_0_0_0_0_0 shapeCasts_S64x2048x1x4x4_S64x2048x4x4 a k

/-! Joints 1 … 21, each from its parent's product. -/

theorem rs_v90_apply (A : RArgs Ideal) (b : Fin 64) (l : Fin 2048) (a k : Fin 4) :
    rs_v90 A (ix4 b l a k) = hom (gR1 (tokR A b l)) (gT1 (tokR A b l)) a k :=
  chain_step A b l (rs_v87 A) _ _ (rs_v87_apply A b l) 1 0 rfl
    slices_S64x2048x22x4x4_S64x2048x1x4x4_0_0_1_0_0 shapeCasts_S64x2048x1x4x4_S64x2048x4x4 a k

theorem rs_v93_apply (A : RArgs Ideal) (b : Fin 64) (l : Fin 2048) (a k : Fin 4) :
    rs_v93 A (ix4 b l a k) = hom (gR2 (tokR A b l)) (gT2 (tokR A b l)) a k :=
  chain_step A b l (rs_v87 A) _ _ (rs_v87_apply A b l) 2 0 rfl
    slices_S64x2048x22x4x4_S64x2048x1x4x4_0_0_2_0_0 shapeCasts_S64x2048x1x4x4_S64x2048x4x4 a k

theorem rs_v96_apply (A : RArgs Ideal) (b : Fin 64) (l : Fin 2048) (a k : Fin 4) :
    rs_v96 A (ix4 b l a k) = hom (gR3 (tokR A b l)) (gT3 (tokR A b l)) a k :=
  chain_step A b l (rs_v87 A) _ _ (rs_v87_apply A b l) 3 0 rfl
    slices_S64x2048x22x4x4_S64x2048x1x4x4_0_0_3_0_0 shapeCasts_S64x2048x1x4x4_S64x2048x4x4 a k

theorem rs_v99_apply (A : RArgs Ideal) (b : Fin 64) (l : Fin 2048) (a k : Fin 4) :
    rs_v99 A (ix4 b l a k) = hom (gR4 (tokR A b l)) (gT4 (tokR A b l)) a k :=
  chain_step A b l (rs_v90 A) _ _ (rs_v90_apply A b l) 4 1 rfl
    slices_S64x2048x22x4x4_S64x2048x1x4x4_0_0_4_0_0 shapeCasts_S64x2048x1x4x4_S64x2048x4x4 a k

theorem rs_v102_apply (A : RArgs Ideal) (b : Fin 64) (l : Fin 2048) (a k : Fin 4) :
    rs_v102 A (ix4 b l a k) = hom (gR5 (tokR A b l)) (gT5 (tokR A b l)) a k :=
  chain_step A b l (rs_v93 A) _ _ (rs_v93_apply A b l) 5 2 rfl
    slices_S64x2048x22x4x4_S64x2048x1x4x4_0_0_5_0_0 shapeCasts_S64x2048x1x4x4_S64x2048x4x4 a k

theorem rs_v105_apply (A : RArgs Ideal) (b : Fin 64) (l : Fin 2048) (a k : Fin 4) :
    rs_v105 A (ix4 b l a k) = hom (gR6 (tokR A b l)) (gT6 (tokR A b l)) a k :=
  chain_step A b l (rs_v96 A) _ _ (rs_v96_apply A b l) 6 3 rfl
    slices_S64x2048x22x4x4_S64x2048x1x4x4_0_0_6_0_0 shapeCasts_S64x2048x1x4x4_S64x2048x4x4 a k

theorem rs_v108_apply (A : RArgs Ideal) (b : Fin 64) (l : Fin 2048) (a k : Fin 4) :
    rs_v108 A (ix4 b l a k) = hom (gR7 (tokR A b l)) (gT7 (tokR A b l)) a k :=
  chain_step A b l (rs_v99 A) _ _ (rs_v99_apply A b l) 7 4 rfl
    slices_S64x2048x22x4x4_S64x2048x1x4x4_0_0_7_0_0 shapeCasts_S64x2048x1x4x4_S64x2048x4x4 a k

theorem rs_v111_apply (A : RArgs Ideal) (b : Fin 64) (l : Fin 2048) (a k : Fin 4) :
    rs_v111 A (ix4 b l a k) = hom (gR8 (tokR A b l)) (gT8 (tokR A b l)) a k :=
  chain_step A b l (rs_v102 A) _ _ (rs_v102_apply A b l) 8 5 rfl
    slices_S64x2048x22x4x4_S64x2048x1x4x4_0_0_8_0_0 shapeCasts_S64x2048x1x4x4_S64x2048x4x4 a k

theorem rs_v114_apply (A : RArgs Ideal) (b : Fin 64) (l : Fin 2048) (a k : Fin 4) :
    rs_v114 A (ix4 b l a k) = hom (gR9 (tokR A b l)) (gT9 (tokR A b l)) a k :=
  chain_step A b l (rs_v105 A) _ _ (rs_v105_apply A b l) 9 6 rfl
    slices_S64x2048x22x4x4_S64x2048x1x4x4_0_0_9_0_0 shapeCasts_S64x2048x1x4x4_S64x2048x4x4 a k

theorem rs_v117_apply (A : RArgs Ideal) (b : Fin 64) (l : Fin 2048) (a k : Fin 4) :
    rs_v117 A (ix4 b l a k) = hom (gR10 (tokR A b l)) (gT10 (tokR A b l)) a k :=
  chain_step A b l (rs_v108 A) _ _ (rs_v108_apply A b l) 10 7 rfl
    slices_S64x2048x22x4x4_S64x2048x1x4x4_0_0_10_0_0 shapeCasts_S64x2048x1x4x4_S64x2048x4x4 a k

theorem rs_v120_apply (A : RArgs Ideal) (b : Fin 64) (l : Fin 2048) (a k : Fin 4) :
    rs_v120 A (ix4 b l a k) = hom (gR11 (tokR A b l)) (gT11 (tokR A b l)) a k :=
  chain_step A b l (rs_v111 A) _ _ (rs_v111_apply A b l) 11 8 rfl
    slices_S64x2048x22x4x4_S64x2048x1x4x4_0_0_11_0_0 shapeCasts_S64x2048x1x4x4_S64x2048x4x4 a k

theorem rs_v123_apply (A : RArgs Ideal) (b : Fin 64) (l : Fin 2048) (a k : Fin 4) :
    rs_v123 A (ix4 b l a k) = hom (gR12 (tokR A b l)) (gT12 (tokR A b l)) a k :=
  chain_step A b l (rs_v114 A) _ _ (rs_v114_apply A b l) 12 9 rfl
    slices_S64x2048x22x4x4_S64x2048x1x4x4_0_0_12_0_0 shapeCasts_S64x2048x1x4x4_S64x2048x4x4 a k

theorem rs_v126_apply (A : RArgs Ideal) (b : Fin 64) (l : Fin 2048) (a k : Fin 4) :
    rs_v126 A (ix4 b l a k) = hom (gR13 (tokR A b l)) (gT13 (tokR A b l)) a k :=
  chain_step A b l (rs_v114 A) _ _ (rs_v114_apply A b l) 13 9 rfl
    slices_S64x2048x22x4x4_S64x2048x1x4x4_0_0_13_0_0 shapeCasts_S64x2048x1x4x4_S64x2048x4x4 a k

theorem rs_v129_apply (A : RArgs Ideal) (b : Fin 64) (l : Fin 2048) (a k : Fin 4) :
    rs_v129 A (ix4 b l a k) = hom (gR14 (tokR A b l)) (gT14 (tokR A b l)) a k :=
  chain_step A b l (rs_v114 A) _ _ (rs_v114_apply A b l) 14 9 rfl
    slices_S64x2048x22x4x4_S64x2048x1x4x4_0_0_14_0_0 shapeCasts_S64x2048x1x4x4_S64x2048x4x4 a k

theorem rs_v132_apply (A : RArgs Ideal) (b : Fin 64) (l : Fin 2048) (a k : Fin 4) :
    rs_v132 A (ix4 b l a k) = hom (gR15 (tokR A b l)) (gT15 (tokR A b l)) a k :=
  chain_step A b l (rs_v123 A) _ _ (rs_v123_apply A b l) 15 12 rfl
    slices_S64x2048x22x4x4_S64x2048x1x4x4_0_0_15_0_0 shapeCasts_S64x2048x1x4x4_S64x2048x4x4 a k

theorem rs_v135_apply (A : RArgs Ideal) (b : Fin 64) (l : Fin 2048) (a k : Fin 4) :
    rs_v135 A (ix4 b l a k) = hom (gR16 (tokR A b l)) (gT16 (tokR A b l)) a k :=
  chain_step A b l (rs_v126 A) _ _ (rs_v126_apply A b l) 16 13 rfl
    slices_S64x2048x22x4x4_S64x2048x1x4x4_0_0_16_0_0 shapeCasts_S64x2048x1x4x4_S64x2048x4x4 a k

theorem rs_v138_apply (A : RArgs Ideal) (b : Fin 64) (l : Fin 2048) (a k : Fin 4) :
    rs_v138 A (ix4 b l a k) = hom (gR17 (tokR A b l)) (gT17 (tokR A b l)) a k :=
  chain_step A b l (rs_v129 A) _ _ (rs_v129_apply A b l) 17 14 rfl
    slices_S64x2048x22x4x4_S64x2048x1x4x4_0_0_17_0_0 shapeCasts_S64x2048x1x4x4_S64x2048x4x4 a k

theorem rs_v141_apply (A : RArgs Ideal) (b : Fin 64) (l : Fin 2048) (a k : Fin 4) :
    rs_v141 A (ix4 b l a k) = hom (gR18 (tokR A b l)) (gT18 (tokR A b l)) a k :=
  chain_step A b l (rs_v135 A) _ _ (rs_v135_apply A b l) 18 16 rfl
    slices_S64x2048x22x4x4_S64x2048x1x4x4_0_0_18_0_0 shapeCasts_S64x2048x1x4x4_S64x2048x4x4 a k

theorem rs_v144_apply (A : RArgs Ideal) (b : Fin 64) (l : Fin 2048) (a k : Fin 4) :
    rs_v144 A (ix4 b l a k) = hom (gR19 (tokR A b l)) (gT19 (tokR A b l)) a k :=
  chain_step A b l (rs_v138 A) _ _ (rs_v138_apply A b l) 19 17 rfl
    slices_S64x2048x22x4x4_S64x2048x1x4x4_0_0_19_0_0 shapeCasts_S64x2048x1x4x4_S64x2048x4x4 a k

theorem rs_v147_apply (A : RArgs Ideal) (b : Fin 64) (l : Fin 2048) (a k : Fin 4) :
    rs_v147 A (ix4 b l a k) = hom (gR20 (tokR A b l)) (gT20 (tokR A b l)) a k :=
  chain_step A b l (rs_v141 A) _ _ (rs_v141_apply A b l) 20 18 rfl
    slices_S64x2048x22x4x4_S64x2048x1x4x4_0_0_20_0_0 shapeCasts_S64x2048x1x4x4_S64x2048x4x4 a k

theorem rs_v150_apply (A : RArgs Ideal) (b : Fin 64) (l : Fin 2048) (a k : Fin 4) :
    rs_v150 A (ix4 b l a k) = hom (gR21 (tokR A b l)) (gT21 (tokR A b l)) a k :=
  chain_step A b l (rs_v144 A) _ _ (rs_v144_apply A b l) 21 19 rfl
    slices_S64x2048x22x4x4_S64x2048x1x4x4_0_0_21_0_0 shapeCasts_S64x2048x1x4x4_S64x2048x4x4 a k

/-! ## The products stacked back along the joint axis -/

/-- Sixteen stacks of matrices, each given a unit joint axis, laid end to end along that axis: at joint `j` the
    `j`-th stack. -/
theorem concat16_apply {α : Type} (y0 y1 y2 y3 y4 y5 y6 y7 y8 y9 y10 y11 y12 y13 y14 y15 : S64x2048x4x4.Idx → α)
    (hb : S64x2048x4x4.BroadcastsInDim S64x2048x1x4x4 (![0, 1, 3, 4] : Fin 4 → Fin S64x2048x1x4x4.rank))
    (h : Shape.Concatenates [S64x2048x1x4x4, S64x2048x1x4x4, S64x2048x1x4x4, S64x2048x1x4x4, S64x2048x1x4x4,
      S64x2048x1x4x4, S64x2048x1x4x4, S64x2048x1x4x4, S64x2048x1x4x4, S64x2048x1x4x4, S64x2048x1x4x4, S64x2048x1x4x4,
      S64x2048x1x4x4, S64x2048x1x4x4, S64x2048x1x4x4, S64x2048x1x4x4] S64x2048x16x4x4 2)
    (b : Fin 64) (l : Fin 2048) (j : Fin 16) (a k : Fin 4) :
    concatenate S64x2048x16x4x4 2
        [⟨S64x2048x1x4x4, broadcastInDim S64x2048x1x4x4 ![0, 1, 3, 4] hb y0⟩,
         ⟨S64x2048x1x4x4, broadcastInDim S64x2048x1x4x4 ![0, 1, 3, 4] hb y1⟩,
         ⟨S64x2048x1x4x4, broadcastInDim S64x2048x1x4x4 ![0, 1, 3, 4] hb y2⟩,
         ⟨S64x2048x1x4x4, broadcastInDim S64x2048x1x4x4 ![0, 1, 3, 4] hb y3⟩,
         ⟨S64x2048x1x4x4, broadcastInDim S64x2048x1x4x4 ![0, 1, 3, 4] hb y4⟩,
         ⟨S64x2048x1x4x4, broadcastInDim S64x2048x1x4x4 ![0, 1, 3, 4] hb y5⟩,
         ⟨S64x2048x1x4x4, broadcastInDim S64x2048x1x4x4 ![0, 1, 3, 4] hb y6⟩,
         ⟨S64x2048x1x4x4, broadcastInDim S64x2048x1x4x4 ![0, 1, 3, 4] hb y7⟩,
         ⟨S64x2048x1x4x4, broadcastInDim S64x2048x1x4x4 ![0, 1, 3, 4] hb y8⟩,
         ⟨S64x2048x1x4x4, broadcastInDim S64x2048x1x4x4 ![0, 1, 3, 4] hb y9⟩,
         ⟨S64x2048x1x4x4, broadcastInDim S64x2048x1x4x4 ![0, 1, 3, 4] hb y10⟩,
         ⟨S64x2048x1x4x4, broadcastInDim S64x2048x1x4x4 ![0, 1, 3, 4] hb y11⟩,
         ⟨S64x2048x1x4x4, broadcastInDim S64x2048x1x4x4 ![0, 1, 3, 4] hb y12⟩,
         ⟨S64x2048x1x4x4, broadcastInDim S64x2048x1x4x4 ![0, 1, 3, 4] hb y13⟩,
         ⟨S64x2048x1x4x4, broadcastInDim S64x2048x1x4x4 ![0, 1, 3, 4] hb y14⟩,
         ⟨S64x2048x1x4x4, broadcastInDim S64x2048x1x4x4 ![0, 1, 3, 4] hb y15⟩] h (ix5 b l j a k)
      = (![y0, y1, y2, y3, y4, y5, y6, y7, y8, y9, y10, y11, y12, y13, y14, y15] j) (ix4 b l a k) := by
  rw [← bcast_unit_apply (![y0, y1, y2, y3, y4, y5, y6, y7, y8, y9, y10, y11, y12, y13, y14, y15] j) hb b l 0 a k]
  apply concatenate_apply_piece (a := 2) (k := j.val) (s₁ := S64x2048x1x4x4) (pre := j.val) (i := ix5 b l 0 a k)
  case hk => exact j.isLt
  case hr => rfl
  case hxk => fin_cases j <;> rfl
  case hpre =>
    simp only [List.map_take, List.map_cons, List.map_nil]
    show (List.take j.val (List.replicate 16 1)).sum = j.val
    rw [List.take_replicate, List.sum_replicate, smul_eq_mul, mul_one]
    exact Nat.min_eq_left j.isLt.le
  case hi =>
    intro ax hax
    match ax with
    | ⟨0, _⟩ => rfl
    | ⟨1, _⟩ => rfl
    | ⟨2, _⟩ => exact absurd rfl hax
    | ⟨3, _⟩ => rfl
    | ⟨4, _⟩ => rfl
  case ha => exact Nat.add_zero _

/-- The same for six stacks. -/
theorem concat6_apply {α : Type} (y0 y1 y2 y3 y4 y5 : S64x2048x4x4.Idx → α)
    (hb : S64x2048x4x4.BroadcastsInDim S64x2048x1x4x4 (![0, 1, 3, 4] : Fin 4 → Fin S64x2048x1x4x4.rank))
    (h : Shape.Concatenates [S64x2048x1x4x4, S64x2048x1x4x4, S64x2048x1x4x4, S64x2048x1x4x4, S64x2048x1x4x4,
      S64x2048x1x4x4] S64x2048x6x4x4 2)
    (b : Fin 64) (l : Fin 2048) (j : Fin 6) (a k : Fin 4) :
    concatenate S64x2048x6x4x4 2
        [⟨S64x2048x1x4x4, broadcastInDim S64x2048x1x4x4 ![0, 1, 3, 4] hb y0⟩,
         ⟨S64x2048x1x4x4, broadcastInDim S64x2048x1x4x4 ![0, 1, 3, 4] hb y1⟩,
         ⟨S64x2048x1x4x4, broadcastInDim S64x2048x1x4x4 ![0, 1, 3, 4] hb y2⟩,
         ⟨S64x2048x1x4x4, broadcastInDim S64x2048x1x4x4 ![0, 1, 3, 4] hb y3⟩,
         ⟨S64x2048x1x4x4, broadcastInDim S64x2048x1x4x4 ![0, 1, 3, 4] hb y4⟩,
         ⟨S64x2048x1x4x4, broadcastInDim S64x2048x1x4x4 ![0, 1, 3, 4] hb y5⟩] h (ix5 b l j a k)
      = (![y0, y1, y2, y3, y4, y5] j) (ix4 b l a k) := by
  rw [← bcast_unit_apply (![y0, y1, y2, y3, y4, y5] j) hb b l 0 a k]
  apply concatenate_apply_piece (a := 2) (k := j.val) (s₁ := S64x2048x1x4x4) (pre := j.val) (i := ix5 b l 0 a k)
  case hk => exact j.isLt
  case hr => rfl
  case hxk => fin_cases j <;> rfl
  case hpre =>
    simp only [List.map_take, List.map_cons, List.map_nil]
    show (List.take j.val (List.replicate 6 1)).sum = j.val
    rw [List.take_replicate, List.sum_replicate, smul_eq_mul, mul_one]
    exact Nat.min_eq_left j.isLt.le
  case hi =>
    intro ax hax
    match ax with
    | ⟨0, _⟩ => rfl
    | ⟨1, _⟩ => rfl
    | ⟨2, _⟩ => exact absurd rfl hax
    | ⟨3, _⟩ => rfl
    | ⟨4, _⟩ => rfl
  case ha => exact Nat.add_zero _

/-- The first sixteen joints and the last six joined along the joint axis: below sixteen the first piece. -/
theorem concat_pair_left {α : Type} (x : S64x2048x16x4x4.Idx → α) (y : S64x2048x6x4x4.Idx → α)
    (h : Shape.Concatenates [S64x2048x16x4x4, S64x2048x6x4x4] S64x2048x22x4x4 2)
    (b : Fin 64) (l : Fin 2048) (j : Fin 22) (j' : Fin 16) (hj : j'.val = j.val) (a k : Fin 4) :
    concatenate S64x2048x22x4x4 2 [⟨S64x2048x16x4x4, x⟩, ⟨S64x2048x6x4x4, y⟩] h (ix5 b l j a k) = x (ix5 b l j' a k) :=
  concatenate_pair_apply_left 2 x y h (ix5 b l j a k) rfl (ix5 b l j' a k) (fun ax => by
    match ax with
    | ⟨0, _⟩ => rfl
    | ⟨1, _⟩ => rfl
    | ⟨2, _⟩ => exact hj
    | ⟨3, _⟩ => rfl
    | ⟨4, _⟩ => rfl)

/-- From sixteen on the second piece, sixteen less. -/
theorem concat_pair_right {α : Type} (x : S64x2048x16x4x4.Idx → α) (y : S64x2048x6x4x4.Idx → α)
    (h : Shape.Concatenates [S64x2048x16x4x4, S64x2048x6x4x4] S64x2048x22x4x4 2)
    (b : Fin 64) (l : Fin 2048) (j : Fin 22) (j' : Fin 6) (hj : j'.val + 16 = j.val) (a k : Fin 4) :
    concatenate S64x2048x22x4x4 2 [⟨S64x2048x16x4x4, x⟩, ⟨S64x2048x6x4x4, y⟩] h (ix5 b l j a k) = y (ix5 b l j' a k) :=
  concatenate_pair_apply_right 2 x y h (ix5 b l j a k) rfl rfl (ix5 b l j' a k) (fun ax hax => by
    match ax with
    | ⟨0, _⟩ => rfl
    | ⟨1, _⟩ => rfl
    | ⟨2, _⟩ => exact absurd rfl hax
    | ⟨3, _⟩ => rfl
    | ⟨4, _⟩ => rfl) hj

/-- Joints 0 … 15 of the stacked products. -/
theorem rs_v173_apply (A : RArgs Ideal) (b : Fin 64) (l : Fin 2048) (j : Fin 16) (a k : Fin 4) :
    rs_v173 A (ix5 b l j a k)
      = (![rs_v87 A, rs_v90 A, rs_v93 A, rs_v96 A, rs_v99 A, rs_v102 A, rs_v105 A, rs_v108 A, rs_v111 A, rs_v114 A,
          rs_v117 A, rs_v120 A, rs_v123 A, rs_v126 A, rs_v129 A, rs_v132 A] j) (ix4 b l a k) :=
  concat16_apply (rs_v87 A) (rs_v90 A) (rs_v93 A) (rs_v96 A) (rs_v99 A) (rs_v102 A) (rs_v105 A) (rs_v108 A) (rs_v111 A)
    (rs_v114 A) (rs_v117 A) (rs_v120 A) (rs_v123 A) (rs_v126 A) (rs_v129 A) (rs_v132 A)
    bcast_S64x2048x4x4_S64x2048x1x4x4_0_1_3_4
    concatenates_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x1x4x4_S64x2048x16x4x4_d2
    b l j a k

/-- Joints 16 … 21 of the stacked products. -/
theorem rs_v174_apply (A : RArgs Ideal) (b : Fin 64) (l : Fin 2048) (j : Fin 6) (a k : Fin 4) :
    rs_v174 A (ix5 b l j a k)
      = (![rs_v135 A, rs_v138 A, rs_v141 A, rs_v144 A, rs_v147 A, rs_v150 A] j) (ix4 b l a k) :=
  concat6_apply (rs_v135 A) (rs_v138 A) (rs_v141 A) (rs_v144 A) (rs_v147 A) (rs_v150 A)
    bcast_S64x2048x4x4_S64x2048x1x4x4_0_1_3_4
    concatenates_S64x2048x1x4x4_S64x2048x1x4x4_S64x2048x1x4x4_S64x2048x1x4x4_S64x2048x1x4x4_S64x2048x1x4x4_S64x2048x6x4x4_d2
    b l j a k

/-- The whole stack below joint sixteen. -/
theorem rs_v175_lo (A : RArgs Ideal) (b : Fin 64) (l : Fin 2048) (j : Fin 22) (j' : Fin 16) (hj : j'.val = j.val)
    (a k : Fin 4) :
    rs_v175 A (ix5 b l j a k)
      = (![rs_v87 A, rs_v90 A, rs_v93 A, rs_v96 A, rs_v99 A, rs_v102 A, rs_v105 A, rs_v108 A, rs_v111 A, rs_v114 A,
          rs_v117 A, rs_v120 A, rs_v123 A, rs_v126 A, rs_v129 A, rs_v132 A] j') (ix4 b l a k) :=
  (concat_pair_left (rs_v173 A) (rs_v174 A) concatenates_S64x2048x16x4x4_S64x2048x6x4x4_S64x2048x22x4x4_d2 b l j j' hj a k).trans
    (rs_v173_apply A b l j' a k)

/-- The whole stack from joint sixteen on. -/
theorem rs_v175_hi (A : RArgs Ideal) (b : Fin 64) (l : Fin 2048) (j : Fin 22) (j' : Fin 6) (hj : j'.val + 16 = j.val)
    (a k : Fin 4) :
    rs_v175 A (ix5 b l j a k)
      = (![rs_v135 A, rs_v138 A, rs_v141 A, rs_v144 A, rs_v147 A, rs_v150 A] j') (ix4 b l a k) :=
  (concat_pair_right (rs_v173 A) (rs_v174 A) concatenates_S64x2048x16x4x4_S64x2048x6x4x4_S64x2048x22x4x4_d2 b l j j' hj a k).trans
    (rs_v174_apply A b l j' a k)

/-- Every joint's product, stacked: the homogeneous matrix of the joint's rotation and position. -/
theorem rs_v175_apply (A : RArgs Ideal) (b : Fin 64) (l : Fin 2048) (j : Fin 22) (a k : Fin 4) :
    rs_v175 A (ix5 b l j a k) = hom (rots (tokR A b l) j) (joints (tokR A b l) j) a k := by
  fin_cases j
  · exact (rs_v175_lo A b l _ 0 rfl a k).trans (rs_v87_apply A b l a k)
  · exact (rs_v175_lo A b l _ 1 rfl a k).trans (rs_v90_apply A b l a k)
  · exact (rs_v175_lo A b l _ 2 rfl a k).trans (rs_v93_apply A b l a k)
  · exact (rs_v175_lo A b l _ 3 rfl a k).trans (rs_v96_apply A b l a k)
  · exact (rs_v175_lo A b l _ 4 rfl a k).trans (rs_v99_apply A b l a k)
  · exact (rs_v175_lo A b l _ 5 rfl a k).trans (rs_v102_apply A b l a k)
  · exact (rs_v175_lo A b l _ 6 rfl a k).trans (rs_v105_apply A b l a k)
  · exact (rs_v175_lo A b l _ 7 rfl a k).trans (rs_v108_apply A b l a k)
  · exact (rs_v175_lo A b l _ 8 rfl a k).trans (rs_v111_apply A b l a k)
  · exact (rs_v175_lo A b l _ 9 rfl a k).trans (rs_v114_apply A b l a k)
  · exact (rs_v175_lo A b l _ 10 rfl a k).trans (rs_v117_apply A b l a k)
  · exact (rs_v175_lo A b l _ 11 rfl a k).trans (rs_v120_apply A b l a k)
  · exact (rs_v175_lo A b l _ 12 rfl a k).trans (rs_v123_apply A b l a k)
  · exact (rs_v175_lo A b l _ 13 rfl a k).trans (rs_v126_apply A b l a k)
  · exact (rs_v175_lo A b l _ 14 rfl a k).trans (rs_v129_apply A b l a k)
  · exact (rs_v175_lo A b l _ 15 rfl a k).trans (rs_v132_apply A b l a k)
  · exact (rs_v175_hi A b l _ 0 rfl a k).trans (rs_v135_apply A b l a k)
  · exact (rs_v175_hi A b l _ 1 rfl a k).trans (rs_v138_apply A b l a k)
  · exact (rs_v175_hi A b l _ 2 rfl a k).trans (rs_v141_apply A b l a k)
  · exact (rs_v175_hi A b l _ 3 rfl a k).trans (rs_v144_apply A b l a k)
  · exact (rs_v175_hi A b l _ 4 rfl a k).trans (rs_v147_apply A b l a k)
  · exact (rs_v175_hi A b l _ 5 rfl a k).trans (rs_v150_apply A b l a k)

/-! ## The positions read out of the stack -/

/-- The first three rows of the last column, the unit column axis dropped. -/
theorem readout_apply {α : Type} (X : S64x2048x22x4x4.Idx → α)
    (hs : S64x2048x22x4x4.Slices ![0, 0, 0, 0, 3] S64x2048x22x3x1) (hc : S64x2048x22x3x1.ShapeCasts S64x2048x22x3)
    (b : Fin 64) (l : Fin 2048) (j : Fin 22) (c : Fin 3) :
    shapeCast S64x2048x22x3 (extractStridedSlice S64x2048x22x3x1 ![0, 0, 0, 0, 3] X hs) hc (ix4 b l j c)
      = X (ix5 b l j c.castSucc 3) := by
  refine (shapeCast_apply _ hc (ix4 b l j c) (ix5 b l j c 0) ?_).trans ?_
  · rw [Shape.rowMajor_val_five, Shape.rowMajor_val_four]
    show ((((b.val * 2048 + l.val) * 22 + j.val) * 3 + c.val) * 1 + 0) = ((b.val * 2048 + l.val) * 22 + j.val) * 3 + c.val
    omega
  · exact extractStridedSlice_apply _ _ hs (ix5 b l j c 0) (ix5 b l j c.castSucc 3) (fun ax => by
      match ax with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl)

/-- The last column of a homogeneous matrix, above its last row, is the vector. -/
theorem hom_col3 (R : Rot) (v : Fin 3 → EReal) (c : Fin 3) : hom R v c.castSucc 3 = v c := by
  fin_cases c <;> rfl

end Chain

open Chain

/-- Coordinate c of joint j's position at token (b, l). -/
theorem rs_v177_apply (A : RArgs Ideal) (b : Fin 64) (l : Fin 2048) (j : Fin 22) (c : Fin 3) :
    rs_v177 A (ix4 b l j c) = joints (tokR A b l) j c :=
  (readout_apply (rs_v175 A) slices_S64x2048x22x4x4_S64x2048x22x3x1_0_0_0_0_3 shapeCasts_S64x2048x22x3x1_S64x2048x22x3
    b l j c).trans ((rs_v175_apply A b l j c.castSucc 3).trans (hom_col3 _ _ c))

end Cert.FK.R

end
-- ==== Proof.RValue.lean ====
/-
  The reference's run with its result named as the 22 positions of every token.
-/
import proofs.«127648_j26603027432101_1_alg».proof.Proof.RRun
import proofs.«127648_j26603027432101_1_alg».proof.Proof.RChain

noncomputable section

namespace Cert.FK.R

open Cert.ReferenceIdeal Cert.ReferenceIdeal.Gen Idealize.ShloMosaic Idealize.ShloMosaic.TcCoe Idealize.SL.Sem
open Idealize.ShloMosaic.ValueIdx Cert.FK

/-- The reference's last value is the array of positions: index by index it is position j, coordinate c of token (b, l). -/
theorem rs_v177_eq_G (A : RArgs Ideal) : rs_v177 A = G A.a0 A.a1 A.a2 A.a3 A.a4 A.a5 := by
  funext i
  exact (congrArg (rs_v177 A) (eq_ix4 i)).trans (rs_v177_apply A (i 0) (i 1) (i 2) (i 3))

theorem ref_value_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v177)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans (rs_v177_eq_G (argsOf m c)), (h c).2⟩) (ref_run (F := Ideal) m ρ)

end Cert.FK.R

end
-- ==== Proof.lean ====
/-
  Forward kinematics of a 22-joint tree: a kernel that walks the tree with 3×3 rotations and 3-vectors,
  one column of 2048 tokens at a time, against a reference that multiplies 4×4 homogeneous matrices.

  Both compute, for each token, Rodrigues' rotation of every joint's axis-angle vector, the skeleton as the
  template plus the shape directions weighted by the token's coefficients, each joint's offset from its
  parent, and along the tree  R_j = R_p · R(aa_j),  T_j = R_p · (sk_j - sk_p) + T_p  (Proof/Spec.lean).
  The reference's product of homogeneous matrices [R v; 0 1] is the same pair (R, v) because the last
  row contributes  x · 0 = 0  to a rotation entry and  x · 1 = x  to a position entry; the skeleton's
  contraction is the kernel's left-to-right sum of ten products. These laws hold on the extended reals
  without any finiteness, so the precondition is never opened.

  The kernel's body is restated as named array-level definitions (Proof/KBodyV.lean), over which both frames
  run (Proof/KFrameB.lean, Proof/KFrameI.lean); its value is read off the frame run (Proof/KBody.lean: the body
  at an index; Proof/KHost.lean, Proof/KRun.lean: blocks to the array, the reshapes around the region); the reference's run is read back operation by
  operation (Proof/RRun.lean) and its values at an index follow the same tree (Proof/RRot.lean,
  Proof/RMat.lean, Proof/RChain.lean).
-/
import proofs.«127648_j26603027432101_1_alg».proof.Defs
import proofs.«127648_j26603027432101_1_alg».proof.Proof.Gen.Kernel
import proofs.«127648_j26603027432101_1_alg».proof.Proof.KFrameB
import proofs.«127648_j26603027432101_1_alg».proof.Proof.Gen.KernelIdeal
import proofs.«127648_j26603027432101_1_alg».proof.Proof.KFrameI
import proofs.«127648_j26603027432101_1_alg».proof.Proof.Gen.ReferenceIdeal
import proofs.«127648_j26603027432101_1_alg».proof.Proof.Gen.Pre_finite_inputs
import proofs.«127648_j26603027432101_1_alg».proof.Proof.KRun
import proofs.«127648_j26603027432101_1_alg».proof.Proof.RValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.GenP.frame m ρ
/-- So does its idealization. -/
theorem frame_ki : Cert.frame_KernelIdeal := fun m ρ _ => Cert.KernelIdeal.GenP.frame m ρ
/-- The reference's run with the result dropped. -/
theorem frame_ri : Cert.frame_ReferenceIdeal := fun m ρ _ =>
  (θ_run (Cert.ReferenceIdeal.defs (F := Ideal)) _ _).mono (fun _ h c => (h c).2) (Cert.FK.R.ref_run (F := Ideal) m ρ)

/-- Both programs end with the array of positions of every token: the kernel's run and the reference's, from
    memories that agree on the six arguments. -/
theorem algebraic : Cert.algebraic_KernelIdeal_ReferenceIdeal := by
  intro m ρ m' ρ' _ hagree
  refine ⟨fun c => Cert.FK.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.FK.K.kernel_run m ρ, ?_⟩
  refine (θ_run (Cert.ReferenceIdeal.defs (F := Ideal)) _ _).mono (fun _ h c => ⟨(h c).1.trans ?_, (h c).2⟩)
    (Cert.FK.R.ref_value_run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
